-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x323 : Shape := ⟨2, ![4096, 323]⟩
abbrev S4096 : Shape := ⟨1, ![4096]⟩
abbrev S256x8 : Shape := ⟨2, ![256, 8]⟩
abbrev S256 : Shape := ⟨1, ![256]⟩
abbrev S256x256 : Shape := ⟨2, ![256, 256]⟩
abbrev S128x256 : Shape := ⟨2, ![128, 256]⟩
abbrev S128 : Shape := ⟨1, ![128]⟩
abbrev S512x264 : Shape := ⟨2, ![512, 264]⟩
abbrev S512 : Shape := ⟨1, ![512]⟩
abbrev S1x512 : Shape := ⟨2, ![1, 512]⟩
abbrev S1 : Shape := ⟨1, ![1]⟩
abbrev S_ : Shape := ⟨0, ![]⟩

class Facts : Prop where
  bcast_S_S4096x323 : S_.BroadcastsInDim S4096x323 (![] : Fin 0 → Fin S4096x323.rank)
  reducesTo_S4096x323_S_d0_1 : S4096x323.ReducesTo [0, 1] S_
  h_S_ : 0 < S_.numel
  bcast_S_S256x8 : S_.BroadcastsInDim S256x8 (![] : Fin 0 → Fin S256x8.rank)
  reducesTo_S256x8_S_d0_1 : S256x8.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S512x264 : S_.BroadcastsInDim S512x264 (![] : Fin 0 → Fin S512x264.rank)
  reducesTo_S512x264_S_d0_1 : S512x264.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_
  bcast_S_S4096 : S_.BroadcastsInDim S4096 (![] : Fin 0 → Fin S4096.rank)
  reducesTo_S4096_S_d0 : S4096.ReducesTo [0] S_

variable [Facts]

def fn_part5 {F : FTy → Type} [FloatOps F] (main_arg1 : IVec S4096 32) (main_v83 : IVec S_ 1) (main_v84 : IVec S4096 32) : IVec S_ 1 :=
  let main_v85 : IVec S4096 1 := cmpi .sge main_arg1 main_v84
  let main_c_33 : IVec S_ 32 := constantI S_ 32 64#32
  let main_v86 : IVec S4096 32 := broadcastInDim S4096 ![] bcast_S_S4096 main_c_33
  let main_v87 : IVec S4096 1 := cmpi .slt main_arg1 main_v86
  let main_v88 : IVec S4096 1 := andi main_v85 main_v87
  let main_c_34 : IVec S_ 1 := constantI S_ 1 1#1
  let main_v89 : IVec S_ 1 := (fun x v => Host.reduce IntOp.andi x v reducesTo_S4096_S_d0 h_S_) main_v88 main_c_34
  let main_v90 : IVec S_ 1 := andi main_v83 main_v89
  main_v90

def fn_part4 {F : FTy → Type} [FloatOps F] (main_arg1 : IVec S4096 32) (main_arg15 : FVec F S512 .f32) (main_arg16 : FVec F S1x512 .f32) (main_arg17 : FVec F S1 .f32) (main_v63 : IVec S_ 1) (main_v67 : IVec S_ 1) : IVec S_ 1 :=
  let main_v68 : IVec S_ 1 := andi main_v63 main_v67
  let main_v69 : FVec F S512 .f32 := Host.absf main_arg15
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S1x512 .f32 := Host.absf main_arg16
  let main_cst_28 : FVec F S_ .f32 := constant S_ .f32 0x7F800000#32
  let main_v75 : FVec F S1x512 .f32 := broadcastInDim S1x512 ![] bcast_S_S1x512 main_cst_28
  let main_v76 : IVec S1x512 1 := cmpf .olt main_v74 main_v75
  let main_c_29 : IVec S_ 1 := constantI S_ 1 1#1
  let main_v77 : IVec S_ 1 := (fun x v => Host.reduce IntOp.andi x v reducesTo_S1x512_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_c_32 : IVec S_ 32 := constantI S_ 32 0#32
  let main_v84 : IVec S4096 32 := broadcastInDim S4096 ![] bcast_S_S4096 main_c_32
  fn_part5 (F := F) main_arg1 main_v83 main_v84

def fn_part3 {F : FTy → Type} [FloatOps F] (main_arg1 : IVec S4096 32) (main_arg12 : FVec F S512x264 .f32) (main_arg13 : FVec F S512 .f32) (main_arg14 : FVec F S512 .f32) (main_arg15 : FVec F S512 .f32) (main_arg16 : FVec F S1x512 .f32) (main_arg17 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S512x264 .f32 := Host.absf main_arg12
  let main_cst_20 : FVec F S_ .f32 := constant S_ .f32 0x7F800000#32
  let main_v55 : FVec F S512x264 .f32 := broadcastInDim S512x264 ![] bcast_S_S512x264 main_cst_20
  let main_v56 : IVec S512x264 1 := cmpf .olt main_v54 main_v55
  let main_c_21 : IVec S_ 1 := constantI S_ 1 1#1
  let main_v57 : IVec S_ 1 := (fun x v => Host.reduce IntOp.andi x v reducesTo_S512x264_S_d0_1 h_S_) main_v56 main_c_21
  let main_v58 : IVec S_ 1 := andi main_v53 main_v57
  let main_v59 : FVec F S512 .f32 := Host.absf main_arg13
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg14
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg1 main_arg15 main_arg16 main_arg17 main_v63 main_v67

def fn_part2 {F : FTy → Type} [FloatOps F] (main_arg1 : IVec S4096 32) (main_arg8 : FVec F S256 .f32) (main_arg9 : FVec F S256 .f32) (main_arg10 : FVec F S128x256 .f32) (main_arg11 : FVec F S128 .f32) (main_arg12 : FVec F S512x264 .f32) (main_arg13 : FVec F S512 .f32) (main_arg14 : FVec F S512 .f32) (main_arg15 : FVec F S512 .f32) (main_arg16 : FVec F S1x512 .f32) (main_arg17 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S128x256 .f32 := Host.absf main_arg10
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_arg14 main_arg15 main_arg16 main_arg17 main_v48 main_v49 main_v50

def fn_part1 {F : FTy → Type} [FloatOps F] (main_arg1 : IVec S4096 32) (main_arg5 : FVec F S256 .f32) (main_arg6 : FVec F S256x256 .f32) (main_arg7 : FVec F S256 .f32) (main_arg8 : FVec F S256 .f32) (main_arg9 : FVec F S256 .f32) (main_arg10 : FVec F S128x256 .f32) (main_arg11 : FVec F S128 .f32) (main_arg12 : FVec F S512x264 .f32) (main_arg13 : FVec F S512 .f32) (main_arg14 : FVec F S512 .f32) (main_arg15 : FVec F S512 .f32) (main_arg16 : FVec F S1x512 .f32) (main_arg17 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_v33

def fn {F : FTy → Type} [FloatOps F] (main_arg0 : FVec F S4096x323 .f32) (main_arg1 : IVec S4096 32) (main_arg2 : FVec F S256x8 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S128x256 .f32) (main_arg11 : FVec F S128 .f32) (main_arg12 : FVec F S512x264 .f32) (main_arg13 : FVec F S512 .f32) (main_arg14 : FVec F S512 .f32) (main_arg15 : FVec F S512 .f32) (main_arg16 : FVec F S1x512 .f32) (main_arg17 : FVec F S1 .f32) : IVec S_ 1 :=
  let main_v0 : FVec F S4096x323 .f32 := Host.absf main_arg0
  let main_cst : FVec F S_ .f32 := constant S_ .f32 0x7F800000#32
  let main_v1 : FVec F S4096x323 .f32 := broadcastInDim S4096x323 ![] bcast_S_S4096x323 main_cst
  let main_v2 : IVec S4096x323 1 := cmpf .olt main_v0 main_v1
  let main_c : IVec S_ 1 := constantI S_ 1 1#1
  let main_v3 : IVec S_ 1 := (fun x v => Host.reduce IntOp.andi x v reducesTo_S4096x323_S_d0_1 h_S_) main_v2 main_c
  let main_v4 : FVec F S256x8 .f32 := Host.absf main_arg2
  let main_cst_0 : FVec F S_ .f32 := constant S_ .f32 0x7F800000#32
  let main_v5 : FVec F S256x8 .f32 := broadcastInDim S256x8 ![] bcast_S_S256x8 main_cst_0
  let main_v6 : IVec S256x8 1 := cmpf .olt main_v4 main_v5
  let main_c_1 : IVec S_ 1 := constantI S_ 1 1#1
  let main_v7 : IVec S_ 1 := (fun x v => Host.reduce IntOp.andi x v reducesTo_S256x8_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_arg9 main_arg10 main_arg11 main_arg12 main_arg13 main_arg14 main_arg15 main_arg16 main_arg17 main_v13 main_v16
-- ==== Kernel.lean ====
abbrev S4096x323 : Shape := ⟨2, ![4096, 323]⟩
abbrev S4096 : Shape := ⟨1, ![4096]⟩
abbrev S256x8 : Shape := ⟨2, ![256, 8]⟩
abbrev S256 : Shape := ⟨1, ![256]⟩
abbrev S256x256 : Shape := ⟨2, ![256, 256]⟩
abbrev S128x256 : Shape := ⟨2, ![128, 256]⟩
abbrev S128 : Shape := ⟨1, ![128]⟩
abbrev S512x264 : Shape := ⟨2, ![512, 264]⟩
abbrev S512 : Shape := ⟨1, ![512]⟩
abbrev S1x512 : Shape := ⟨2, ![1, 512]⟩
abbrev S1 : Shape := ⟨1, ![1]⟩
abbrev S4096x1 : Shape := ⟨2, ![4096, 1]⟩
abbrev S8x256 : Shape := ⟨2, ![8, 256]⟩
abbrev S256x128 : Shape := ⟨2, ![256, 128]⟩
abbrev S264x512 : Shape := ⟨2, ![264, 512]⟩
abbrev S512x1 : Shape := ⟨2, ![512, 1]⟩
abbrev S512x323 : Shape := ⟨2, ![512, 323]⟩
abbrev S512x3 : Shape := ⟨2, ![512, 3]⟩
abbrev S1x256 : Shape := ⟨2, ![1, 256]⟩
abbrev S512x256 : Shape := ⟨2, ![512, 256]⟩
abbrev S1x128 : Shape := ⟨2, ![1, 128]⟩
abbrev S512x128 : Shape := ⟨2, ![512, 128]⟩
abbrev S3x256 : Shape := ⟨2, ![3, 256]⟩
abbrev S5x256 : Shape := ⟨2, ![5, 256]⟩
abbrev S512x5 : Shape := ⟨2, ![512, 5]⟩
abbrev S512x512 : Shape := ⟨2, ![512, 512]⟩
abbrev S1x1 : Shape := ⟨2, ![1, 1]⟩

abbrev nBuf : Space → Nat
  | .hbm => 30
  | .vmem => 22
  | .smem => 0
  | _ => 0

abbrev bufTy : (tb : Table) → Fin (tcTables nBuf tb) → BufTy
  | .hbm, ⟨0, _⟩ => ⟨S4096x323, .f32⟩
  | .hbm, ⟨1, _⟩ => ⟨S4096, .i32⟩
  | .hbm, ⟨2, _⟩ => ⟨S256x8, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S128x256, .f32⟩
  | .hbm, ⟨11, _⟩ => ⟨S128, .f32⟩
  | .hbm, ⟨12, _⟩ => ⟨S512x264, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S1x512, .f32⟩
  | .hbm, ⟨17, _⟩ => ⟨S1, .f32⟩
  | .hbm, ⟨18, _⟩ => ⟨S4096x1, .i32⟩
  | .hbm, ⟨19, _⟩ => ⟨S8x256, .f32⟩
  | .hbm, ⟨20, _⟩ => ⟨S8x256, .bf16⟩
  | .hbm, ⟨21, _⟩ => ⟨S256x256, .f32⟩
  | .hbm, ⟨22, _⟩ => ⟨S256x256, .bf16⟩
  | .hbm, ⟨23, _⟩ => ⟨S256x128, .f32⟩
  | .hbm, ⟨24, _⟩ => ⟨S256x128, .bf16⟩
  | .hbm, ⟨25, _⟩ => ⟨S264x512, .f32⟩
  | .hbm, ⟨26, _⟩ => ⟨S264x512, .bf16⟩
  | .hbm, ⟨27, _⟩ => ⟨S512x1, .f32⟩
  | .hbm, ⟨28, _⟩ => ⟨S512x1, .bf16⟩
  | .hbm, ⟨29, _⟩ => ⟨S4096x1, .f32⟩
  | .local _ .vmem, ⟨0, _⟩ => ⟨S512x323, .f32⟩
  | .local _ .vmem, ⟨1, _⟩ => ⟨S512x323, .f32⟩
  | .local _ .vmem, ⟨2, _⟩ => ⟨S512x1, .i32⟩
  | .local _ .vmem, ⟨3, _⟩ => ⟨S512x1, .i32⟩
  | .local _ .vmem, ⟨4, _⟩ => ⟨S8x256, .bf16⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S256x256, .bf16⟩
  | .local _ .vmem, ⟨9, _⟩ => ⟨S256, .f32⟩
  | .local _ .vmem, ⟨10, _⟩ => ⟨S256, .f32⟩
  | .local _ .vmem, ⟨11, _⟩ => ⟨S256, .f32⟩
  | .local _ .vmem, ⟨12, _⟩ => ⟨S256x128, .bf16⟩
  | .local _ .vmem, ⟨13, _⟩ => ⟨S128, .f32⟩
  | .local _ .vmem, ⟨14, _⟩ => ⟨S264x512, .bf16⟩
  | .local _ .vmem, ⟨15, _⟩ => ⟨S512, .f32⟩
  | .local _ .vmem, ⟨16, _⟩ => ⟨S512, .f32⟩
  | .local _ .vmem, ⟨17, _⟩ => ⟨S512, .f32⟩
  | .local _ .vmem, ⟨18, _⟩ => ⟨S512x1, .bf16⟩
  | .local _ .vmem, ⟨19, _⟩ => ⟨S1, .f32⟩
  | .local _ .vmem, ⟨20, _⟩ => ⟨S512x1, .f32⟩
  | .local _ .vmem, ⟨21, _⟩ => ⟨S512x1, .f32⟩
  | _, _ => ⟨S4096x323, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x323 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S264x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  shapeCasts_S4096_S4096x1 : S4096.ShapeCasts S4096x1
  transposes_S256x8_S8x256_1_0 : S256x8.Transposes [1, 0] S8x256
  bitsLt_bf16_f32 : FTy.bits .bf16 < FTy.bits .f32
  transposes_S256x256_S256x256_1_0 : S256x256.Transposes [1, 0] S256x256
  transposes_S128x256_S256x128_1_0 : S128x256.Transposes [1, 0] S256x128
  transposes_S512x264_S264x512_1_0 : S512x264.Transposes [1, 0] S264x512
  transposes_S1x512_S512x1_1_0 : S1x512.Transposes [1, 0] S512x1
  inb_S512x323_S512x323_0_0 : ∀ a, (![0, 0] : Fin 2 → Nat) a + S512x323.size a ≤ S512x323.size a
  h_S512x323 : 0 < S512x323.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  slices_S512x323_o0_0_S512x3 : S512x323.Slices ![0, 0] S512x3
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S256_S256_0 : ∀ a, (![0] : Fin 1 → Nat) a + S256.size a ≤ S256.size a
  h_S256 : 0 < S256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  inb_S264x512_S264x512_0_0 : ∀ a, (![0, 0] : Fin 2 → Nat) a + S264x512.size a ≤ S264x512.size a
  h_S264x512 : 0 < S264x512.numel
  shapeCasts_S264x512_S264x512 : S264x512.ShapeCasts S264x512
  inb_S512_S512_0 : ∀ a, (![0] : Fin 1 → Nat) a + S512.size a ≤ S512.size a
  h_S512 : 0 < S512.numel
  inb_S1_S1_0 : ∀ a, (![0] : Fin 1 → Nat) a + S1.size a ≤ S1.size a
  h_S1 : 0 < S1.numel
  shapeCasts_S256_S1x256 : S256.ShapeCasts S1x256
  broadcasts_S1x256_S512x256 : S1x256.Broadcasts S512x256
  shapeCasts_S128_S1x128 : S128.ShapeCasts S1x128
  broadcasts_S1x128_S512x128 : S1x128.Broadcasts S512x128
  slices_S8x256_o0_0_S3x256 : S8x256.Slices ![0, 0] S3x256
  slices_S8x256_o3_0_S5x256 : S8x256.Slices ![3, 0] S5x256
  slices_S512x323_o0_3_S512x5 : S512x323.Slices ![0, 3] S512x5
  reduces_S512x256_S512 : S512x256.Reduces [1] S512
  shapeCasts_S512_S512x1 : S512.ShapeCasts S512x1
  broadcasts_S512x1_S512x256 : S512x1.Broadcasts S512x256
  natLt_1_32 : 1 < 32
  reduces_S512x5_S512 : S512x5.Reduces [1] S512
  broadcasts_S512x1_S512x128 : S512x1.Broadcasts S512x128
  broadcasts_S512x1_S512x5 : S512x1.Broadcasts S512x5
  slices_S512x323_o0_8_S512x5 : S512x323.Slices ![0, 8] S512x5
  slices_S512x323_o0_13_S512x5 : S512x323.Slices ![0, 13] S512x5
  slices_S512x323_o0_18_S512x5 : S512x323.Slices ![0, 18] S512x5
  slices_S512x323_o0_23_S512x5 : S512x323.Slices ![0, 23] S512x5
  slices_S512x323_o0_28_S512x5 : S512x323.Slices ![0, 28] S512x5
  slices_S512x323_o0_33_S512x5 : S512x323.Slices ![0, 33] S512x5
  slices_S512x323_o0_38_S512x5 : S512x323.Slices ![0, 38] S512x5
  slices_S512x323_o0_43_S512x5 : S512x323.Slices ![0, 43] S512x5
  slices_S512x323_o0_48_S512x5 : S512x323.Slices ![0, 48] S512x5
  slices_S512x323_o0_53_S512x5 : S512x323.Slices ![0, 53] S512x5
  slices_S512x323_o0_58_S512x5 : S512x323.Slices ![0, 58] S512x5
  slices_S512x323_o0_63_S512x5 : S512x323.Slices ![0, 63] S512x5
  slices_S512x323_o0_68_S512x5 : S512x323.Slices ![0, 68] S512x5
  slices_S512x323_o0_73_S512x5 : S512x323.Slices ![0, 73] S512x5
  slices_S512x323_o0_78_S512x5 : S512x323.Slices ![0, 78] S512x5
  slices_S512x323_o0_83_S512x5 : S512x323.Slices ![0, 83] S512x5
  slices_S512x323_o0_88_S512x5 : S512x323.Slices ![0, 88] S512x5
  slices_S512x323_o0_93_S512x5 : S512x323.Slices ![0, 93] S512x5
  slices_S512x323_o0_98_S512x5 : S512x323.Slices ![0, 98] S512x5
  slices_S512x323_o0_103_S512x5 : S512x323.Slices ![0, 103] S512x5
  slices_S512x323_o0_108_S512x5 : S512x323.Slices ![0, 108] S512x5
  slices_S512x323_o0_113_S512x5 : S512x323.Slices ![0, 113] S512x5
  slices_S512x323_o0_118_S512x5 : S512x323.Slices ![0, 118] S512x5
  slices_S512x323_o0_123_S512x5 : S512x323.Slices ![0, 123] S512x5
  slices_S512x323_o0_128_S512x5 : S512x323.Slices ![0, 128] S512x5
  slices_S512x323_o0_133_S512x5 : S512x323.Slices ![0, 133] S512x5
  slices_S512x323_o0_138_S512x5 : S512x323.Slices ![0, 138] S512x5
  slices_S512x323_o0_143_S512x5 : S512x323.Slices ![0, 143] S512x5
  slices_S512x323_o0_148_S512x5 : S512x323.Slices ![0, 148] S512x5
  slices_S512x323_o0_153_S512x5 : S512x323.Slices ![0, 153] S512x5
  slices_S512x323_o0_158_S512x5 : S512x323.Slices ![0, 158] S512x5
  slices_S512x323_o0_163_S512x5 : S512x323.Slices ![0, 163] S512x5
  slices_S512x323_o0_168_S512x5 : S512x323.Slices ![0, 168] S512x5
  slices_S512x323_o0_173_S512x5 : S512x323.Slices ![0, 173] S512x5
  slices_S512x323_o0_178_S512x5 : S512x323.Slices ![0, 178] S512x5
  slices_S512x323_o0_183_S512x5 : S512x323.Slices ![0, 183] S512x5
  slices_S512x323_o0_188_S512x5 : S512x323.Slices ![0, 188] S512x5
  slices_S512x323_o0_193_S512x5 : S512x323.Slices ![0, 193] S512x5
  slices_S512x323_o0_198_S512x5 : S512x323.Slices ![0, 198] S512x5
  slices_S512x323_o0_203_S512x5 : S512x323.Slices ![0, 203] S512x5
  slices_S512x323_o0_208_S512x5 : S512x323.Slices ![0, 208] S512x5
  slices_S512x323_o0_213_S512x5 : S512x323.Slices ![0, 213] S512x5
  slices_S512x323_o0_218_S512x5 : S512x323.Slices ![0, 218] S512x5
  slices_S512x323_o0_223_S512x5 : S512x323.Slices ![0, 223] S512x5
  slices_S512x323_o0_228_S512x5 : S512x323.Slices ![0, 228] S512x5
  slices_S512x323_o0_233_S512x5 : S512x323.Slices ![0, 233] S512x5
  slices_S512x323_o0_238_S512x5 : S512x323.Slices ![0, 238] S512x5
  slices_S512x323_o0_243_S512x5 : S512x323.Slices ![0, 243] S512x5
  slices_S512x323_o0_248_S512x5 : S512x323.Slices ![0, 248] S512x5
  slices_S512x323_o0_253_S512x5 : S512x323.Slices ![0, 253] S512x5
  slices_S512x323_o0_258_S512x5 : S512x323.Slices ![0, 258] S512x5
  slices_S512x323_o0_263_S512x5 : S512x323.Slices ![0, 263] S512x5
  slices_S512x323_o0_268_S512x5 : S512x323.Slices ![0, 268] S512x5
  slices_S512x323_o0_273_S512x5 : S512x323.Slices ![0, 273] S512x5
  slices_S512x323_o0_278_S512x5 : S512x323.Slices ![0, 278] S512x5
  slices_S512x323_o0_283_S512x5 : S512x323.Slices ![0, 283] S512x5
  slices_S512x323_o0_288_S512x5 : S512x323.Slices ![0, 288] S512x5
  slices_S512x323_o0_293_S512x5 : S512x323.Slices ![0, 293] S512x5
  slices_S512x323_o0_298_S512x5 : S512x323.Slices ![0, 298] S512x5
  slices_S512x323_o0_303_S512x5 : S512x323.Slices ![0, 303] S512x5
  slices_S512x323_o0_308_S512x5 : S512x323.Slices ![0, 308] S512x5
  slices_S512x323_o0_313_S512x5 : S512x323.Slices ![0, 313] S512x5
  slices_S512x323_o0_318_S512x5 : S512x323.Slices ![0, 318] S512x5
  concatenates_S512x3_S512x128_S512x128_S512x5_S512x264_d1 : Shape.Concatenates [S512x3, S512x128, S512x128, S512x5] S512x264 1
  shapeCasts_S512_S1x512 : S512.ShapeCasts S1x512
  broadcasts_S1x512_S512x512 : S1x512.Broadcasts S512x512
  reduces_S512x512_S512 : S512x512.Reduces [1] S512
  broadcasts_S512x1_S512x512 : S512x1.Broadcasts S512x512
  shapeCasts_S1_S1x1 : S1.ShapeCasts S1x1
  broadcasts_S1x1_S512x1 : S1x1.Broadcasts S512x1
  dot_S512x3_S3x256_S512x256_1_0_0_1_n_n_wf : DotDims.WF S512x3 S3x256 S512x256 [1] [0] [0] [1] [] []
  dot_S512x5_S5x256_S512x256_1_0_0_1_n_n_wf : DotDims.WF S512x5 S5x256 S512x256 [1] [0] [0] [1] [] []
  dot_S512x256_S256x256_S512x256_1_0_0_1_n_n_wf : DotDims.WF S512x256 S256x256 S512x256 [1] [0] [0] [1] [] []
  dot_S512x256_S256x128_S512x128_1_0_0_1_n_n_wf : DotDims.WF S512x256 S256x128 S512x128 [1] [0] [0] [1] [] []
  dot_S512x264_S264x512_S512x512_1_0_0_1_n_n_wf : DotDims.WF S512x264 S264x512 S512x512 [1] [0] [0] [1] [] []
  dot_S512x512_S512x1_S512x1_1_0_0_1_n_n_wf : DotDims.WF S512x512 S512x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x323.size a ≤ S4096x323.size a
  hwx0_0 : ∀ i : grid0.Coords, EltTy.bits .f32 = 32 ∨ (Rect.block (s := S4096x323) S512x323.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .i32 = 32 ∨ (Rect.block (s := S4096x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S8x256.size a
  hwx0_2 : ∀ i : grid0.Coords, EltTy.bits .bf16 = 32 ∨ (Rect.block (s := S8x256) S8x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x128.size a ≤ S256x128.size a
  hwx0_10 : ∀ i : grid0.Coords, EltTy.bits .bf16 = 32 ∨ (Rect.block (s := S256x128) S256x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S264x512.size a ≤ S264x512.size a
  hwx0_12 : ∀ i : grid0.Coords, EltTy.bits .bf16 = 32 ∨ (Rect.block (s := S264x512) S264x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512.size a ≤ S512.size a
  hwx0_13 : ∀ i : grid0.Coords, EltTy.bits .f32 = 32 ∨ (Rect.block (s := S512) S512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512.size a ≤ S512.size a
  hwx0_14 : ∀ i : grid0.Coords, EltTy.bits .f32 = 32 ∨ (Rect.block (s := S512) S512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512.size a ≤ S512.size a
  hwx0_15 : ∀ i : grid0.Coords, EltTy.bits .f32 = 32 ∨ (Rect.block (s := S512) S512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x1.size a ≤ S512x1.size a
  hwx0_16 : ∀ i : grid0.Coords, EltTy.bits .bf16 = 32 ∨ (Rect.block (s := S512x1) S512x1.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1.size a ≤ S1.size a
  hwx0_17 : ∀ i : grid0.Coords, EltTy.bits .f32 = 32 ∨ (Rect.block (s := S1) S1.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S512x1.size a ≤ S4096x1.size a
  hwx0_18 : ∀ i : grid0.Coords, EltTy.bits .f32 = 32 ∨ (Rect.block (s := S4096x1) S512x1.size (cc0_transform_18 i) (hinb0_18 i)).WholeWords (EltTy.packing .f32)

variable [Facts₀]

def dot_S512x3_S3x256_S512x256_1_0_0_1_n_n : DotDims S512x3 S3x256 S512x256 where
  lhsContracting := [1]
  rhsContracting := [0]
  lhsNonContracting := [0]
  rhsNonContracting := [1]
  lhsBatch := []
  rhsBatch := []
  wf := dot_S512x3_S3x256_S512x256_1_0_0_1_n_n_wf
def dot_S512x5_S5x256_S512x256_1_0_0_1_n_n : DotDims S512x5 S5x256 S512x256 where
  lhsContracting := [1]
  rhsContracting := [0]
  lhsNonContracting := [0]
  rhsNonContracting := [1]
  lhsBatch := []
  rhsBatch := []
  wf := dot_S512x5_S5x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x264_S264x512_S512x512_1_0_0_1_n_n : DotDims S512x264 S264x512 S512x512 where
  lhsContracting := [1]
  rhsContracting := [0]
  lhsNonContracting := [0]
  rhsNonContracting := [1]
  lhsBatch := []
  rhsBatch := []
  wf := dot_S512x264_S264x512_S512x512_1_0_0_1_n_n_wf
def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf

abbrev win0_0 : Pipeline.Window sig grid0 :=
  Pipeline.Window.ofSpec (Memref.whole main_arg0) S512x323.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S256x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v8) S264x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v10) S512x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v11) S512x1.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S4096x323 : Shape := ⟨2, ![4096, 323]⟩
abbrev S4096 : Shape := ⟨1, ![4096]⟩
abbrev S256x8 : Shape := ⟨2, ![256, 8]⟩
abbrev S256 : Shape := ⟨1, ![256]⟩
abbrev S256x256 : Shape := ⟨2, ![256, 256]⟩
abbrev S128x256 : Shape := ⟨2, ![128, 256]⟩
abbrev S128 : Shape := ⟨1, ![128]⟩
abbrev S512x264 : Shape := ⟨2, ![512, 264]⟩
abbrev S512 : Shape := ⟨1, ![512]⟩
abbrev S1x512 : Shape := ⟨2, ![1, 512]⟩
abbrev S1 : Shape := ⟨1, ![1]⟩
abbrev S4096x3 : Shape := ⟨2, ![4096, 3]⟩
abbrev S4096x320 : Shape := ⟨2, ![4096, 320]⟩
abbrev S4096x64x5 : Shape := ⟨3, ![4096, 64, 5]⟩
abbrev S4096x1x3 : Shape := ⟨3, ![4096, 1, 3]⟩
abbrev S4096x64x3 : Shape := ⟨3, ![4096, 64, 3]⟩
abbrev S4096x64x8 : Shape := ⟨3, ![4096, 64, 8]⟩
abbrev S4096x64x256 : Shape := ⟨3, ![4096, 64, 256]⟩
abbrev S1x1x256 : Shape := ⟨3, ![1, 1, 256]⟩
abbrev S_ : Shape := ⟨0, ![]⟩
abbrev S4096x64 : Shape := ⟨2, ![4096, 64]⟩
abbrev S4096x64x1 : Shape := ⟨3, ![4096, 64, 1]⟩
abbrev S4096x64x128 : Shape := ⟨3, ![4096, 64, 128]⟩
abbrev S1x1x128 : Shape := ⟨3, ![1, 1, 128]⟩
abbrev S4096x1 : Shape := ⟨2, ![4096, 1]⟩
abbrev S4096x128 : Shape := ⟨2, ![4096, 128]⟩
abbrev S4096x1x1 : Shape := ⟨3, ![4096, 1, 1]⟩
abbrev S1x1x1 : Shape := ⟨3, ![1, 1, 1]⟩
abbrev S4096x1x128 : Shape := ⟨3, ![4096, 1, 128]⟩
abbrev S4096x1x5 : Shape := ⟨3, ![4096, 1, 5]⟩
abbrev S4096x5 : Shape := ⟨2, ![4096, 5]⟩
abbrev S4096x264 : Shape := ⟨2, ![4096, 264]⟩
abbrev S264x512 : Shape := ⟨2, ![264, 512]⟩
abbrev S4096x512 : Shape := ⟨2, ![4096, 512]⟩
abbrev S512x1 : Shape := ⟨2, ![512, 1]⟩
abbrev S1x1 : Shape := ⟨2, ![1, 1]⟩

abbrev nBuf : Space → Nat
  | .hbm => 226
  | .vmem => 0
  | .smem => 0
  | _ => 0

abbrev hbmTy0_0 (i : Nat) : BufTy := match i % 128 with
  | 0 => ⟨S4096x323, .f32⟩
  | 1 => ⟨S4096, .i32⟩
  | 2 => ⟨S256x8, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S128x256, .f32⟩
  | 11 => ⟨S128, .f32⟩
  | 12 => ⟨S512x264, .f32⟩
  | 13 => ⟨S512, .f32⟩
  | 14 => ⟨S512, .f32⟩
  | 15 => ⟨S512, .f32⟩
  | 16 => ⟨S1x512, .f32⟩
  | 17 => ⟨S1, .f32⟩
  | 18 => ⟨S4096x3, .f32⟩
  | 19 => ⟨S4096x320, .f32⟩
  | 20 => ⟨S4096x64x5, .f32⟩
  | 21 => ⟨S4096x1x3, .f32⟩
  | 22 => ⟨S4096x64x3, .f32⟩
  | 23 => ⟨S4096x64x8, .f32⟩
  | 24 => ⟨S4096x64x256, .f32⟩
  | 25 => ⟨S1x1x256, .f32⟩
  | 26 => ⟨S4096x64x256, .f32⟩
  | 27 => ⟨S4096x64x256, .f32⟩
  | 28 => ⟨S_, .f32⟩
  | 29 => ⟨S4096x64, .f32⟩
  | 30 => ⟨S4096x64x1, .f32⟩
  | 31 => ⟨S_, .f32⟩
  | 32 => ⟨S4096x64x1, .f32⟩
  | 33 => ⟨S4096x64x1, .f32⟩
  | 34 => ⟨S4096x64x256, .f32⟩
  | 35 => ⟨S4096x64x256, .f32⟩
  | 36 => ⟨S4096x64x256, .f32⟩
  | 37 => ⟨S_, .f32⟩
  | 38 => ⟨S4096x64, .f32⟩
  | 39 => ⟨S4096x64x1, .f32⟩
  | 40 => ⟨S_, .f32⟩
  | 41 => ⟨S4096x64x1, .f32⟩
  | 42 => ⟨S4096x64x1, .f32⟩
  | 43 => ⟨S4096x64x256, .f32⟩
  | 44 => ⟨S4096x64x256, .f32⟩
  | 45 => ⟨S_, .f32⟩
  | 46 => ⟨S4096x64x1, .f32⟩
  | 47 => ⟨S4096x64x1, .f32⟩
  | 48 => ⟨S4096x64x1, .f32⟩
  | 49 => ⟨S4096x64x256, .f32⟩
  | 50 => ⟨S4096x64x256, .f32⟩
  | 51 => ⟨S1x1x256, .f32⟩
  | 52 => ⟨S4096x64x256, .f32⟩
  | 53 => ⟨S4096x64x256, .f32⟩
  | 54 => ⟨S1x1x256, .f32⟩
  | 55 => ⟨S4096x64x256, .f32⟩
  | 56 => ⟨S4096x64x256, .f32⟩
  | 57 => ⟨S_, .f32⟩
  | 58 => ⟨S4096x64x256, .f32⟩
  | 59 => ⟨S4096x64x256, .i1⟩
  | 60 => ⟨S_, .f32⟩
  | 61 => ⟨S4096x64x256, .f32⟩
  | 62 => ⟨S4096x64x256, .f32⟩
  | 63 => ⟨S4096x64x256, .f32⟩
  | 64 => ⟨S4096x64x256, .f32⟩
  | 65 => ⟨S1x1x256, .f32⟩
  | 66 => ⟨S4096x64x256, .f32⟩
  | 67 => ⟨S4096x64x256, .f32⟩
  | 68 => ⟨S_, .f32⟩
  | 69 => ⟨S4096x64, .f32⟩
  | 70 => ⟨S4096x64x1, .f32⟩
  | 71 => ⟨S_, .f32⟩
  | 72 => ⟨S4096x64x1, .f32⟩
  | 73 => ⟨S4096x64x1, .f32⟩
  | 74 => ⟨S4096x64x256, .f32⟩
  | 75 => ⟨S4096x64x256, .f32⟩
  | 76 => ⟨S4096x64x256, .f32⟩
  | 77 => ⟨S_, .f32⟩
  | 78 => ⟨S4096x64, .f32⟩
  | 79 => ⟨S4096x64x1, .f32⟩
  | 80 => ⟨S_, .f32⟩
  | 81 => ⟨S4096x64x1, .f32⟩
  | 82 => ⟨S4096x64x1, .f32⟩
  | 83 => ⟨S4096x64x256, .f32⟩
  | 84 => ⟨S4096x64x256, .f32⟩
  | 85 => ⟨S_, .f32⟩
  | 86 => ⟨S4096x64x1, .f32⟩
  | 87 => ⟨S4096x64x1, .f32⟩
  | 88 => ⟨S4096x64x1, .f32⟩
  | 89 => ⟨S4096x64x256, .f32⟩
  | 90 => ⟨S4096x64x256, .f32⟩
  | 91 => ⟨S1x1x256, .f32⟩
  | 92 => ⟨S4096x64x256, .f32⟩
  | 93 => ⟨S4096x64x256, .f32⟩
  | 94 => ⟨S1x1x256, .f32⟩
  | 95 => ⟨S4096x64x256, .f32⟩
  | 96 => ⟨S4096x64x256, .f32⟩
  | 97 => ⟨S_, .f32⟩
  | 98 => ⟨S4096x64x256, .f32⟩
  | 99 => ⟨S4096x64x256, .i1⟩
  | 100 => ⟨S_, .f32⟩
  | 101 => ⟨S4096x64x256, .f32⟩
  | 102 => ⟨S4096x64x256, .f32⟩
  | 103 => ⟨S4096x64x256, .f32⟩
  | 104 => ⟨S4096x64x128, .f32⟩
  | 105 => ⟨S1x1x128, .f32⟩
  | 106 => ⟨S4096x64x128, .f32⟩
  | 107 => ⟨S4096x64x128, .f32⟩
  | 108 => ⟨S_, .f32⟩
  | 109 => ⟨S4096x64x5, .f32⟩
  | 110 => ⟨S4096x64x5, .i1⟩
  | 111 => ⟨S_, .i1⟩
  | 112 => ⟨S4096x64, .i1⟩
  | 113 => ⟨S4096x64x1, .i1⟩
  | 114 => ⟨S4096x64x1, .f32⟩
  | 115 => ⟨S4096x64x128, .f32⟩
  | 116 => ⟨S4096x64x128, .f32⟩
  | 117 => ⟨S4096x64, .i32⟩
  | 118 => ⟨S_, .i32⟩
  | 119 => ⟨S4096, .i32⟩
  | 120 => ⟨S4096x1, .i32⟩
  | 121 => ⟨S4096x1, .f32⟩
  | 122 => ⟨S_, .f32⟩
  | 123 => ⟨S4096x128, .f32⟩
  | 124 => ⟨S_, .f32⟩
  | 125 => ⟨S_, .f32⟩
  | 126 => ⟨S4096x1, .f32⟩
  | 127 => ⟨S4096x1, .f32⟩
  | _ => ⟨S4096x323, .f32⟩

abbrev hbmTy0_1 (i : Nat) : BufTy := match i % 128 with
  | 0 => ⟨S4096x128, .f32⟩
  | 1 => ⟨S4096x128, .f32⟩
  | 2 => ⟨S4096x1, .i32⟩
  | 3 => ⟨S4096x1x1, .i32⟩
  | 4 => ⟨S_, .i32⟩
  | 5 => ⟨S4096x1x1, .i32⟩
  | 6 => ⟨S4096x1x1, .i1⟩
  | 7 => ⟨S_, .i32⟩
  | 8 => ⟨S4096x1x1, .i32⟩
  | 9 => ⟨S4096x1x1, .i32⟩
  | 10 => ⟨S4096x1x1, .i32⟩
  | 11 => ⟨S1, .i32⟩
  | 12 => ⟨S_, .i32⟩
  | 13 => ⟨S4096x1x1, .i32⟩
  | 14 => ⟨S4096x1x1, .i1⟩
  | 15 => ⟨S1x1x1, .i32⟩
  | 16 => ⟨S4096x1x1, .i32⟩
  | 17 => ⟨S4096x1x1, .i1⟩
  | 18 => ⟨S4096x1x1, .i1⟩
  | 19 => ⟨S_, .i1⟩
  | 20 => ⟨S4096x1, .i1⟩
  | 21 => ⟨S4096x1x128, .f32⟩
  | 22 => ⟨S4096x1x128, .i1⟩
  | 23 => ⟨S_, .f32⟩
  | 24 => ⟨S4096x1x128, .f32⟩
  | 25 => ⟨S4096x1x128, .f32⟩
  | 26 => ⟨S4096x128, .f32⟩
  | 27 => ⟨S4096x1x1, .i32⟩
  | 28 => ⟨S_, .i32⟩
  | 29 => ⟨S4096x1x1, .i32⟩
  | 30 => ⟨S4096x1x1, .i1⟩
  | 31 => ⟨S_, .i32⟩
  | 32 => ⟨S4096x1x1, .i32⟩
  | 33 => ⟨S4096x1x1, .i32⟩
  | 34 => ⟨S4096x1x1, .i32⟩
  | 35 => ⟨S1, .i32⟩
  | 36 => ⟨S_, .i32⟩
  | 37 => ⟨S4096x1x1, .i32⟩
  | 38 => ⟨S4096x1x1, .i1⟩
  | 39 => ⟨S1x1x1, .i32⟩
  | 40 => ⟨S4096x1x1, .i32⟩
  | 41 => ⟨S4096x1x1, .i1⟩
  | 42 => ⟨S4096x1x1, .i1⟩
  | 43 => ⟨S_, .i1⟩
  | 44 => ⟨S4096x1, .i1⟩
  | 45 => ⟨S4096x1x5, .f32⟩
  | 46 => ⟨S4096x1x5, .i1⟩
  | 47 => ⟨S_, .f32⟩
  | 48 => ⟨S4096x1x5, .f32⟩
  | 49 => ⟨S4096x1x5, .f32⟩
  | 50 => ⟨S4096x5, .f32⟩
  | 51 => ⟨S4096x264, .f32⟩
  | 52 => ⟨S264x512, .f32⟩
  | 53 => ⟨S4096x512, .f32⟩
  | 54 => ⟨S1x512, .f32⟩
  | 55 => ⟨S4096x512, .f32⟩
  | 56 => ⟨S4096x512, .f32⟩
  | 57 => ⟨S_, .f32⟩
  | 58 => ⟨S4096, .f32⟩
  | 59 => ⟨S4096x1, .f32⟩
  | 60 => ⟨S_, .f32⟩
  | 61 => ⟨S4096x1, .f32⟩
  | 62 => ⟨S4096x1, .f32⟩
  | 63 => ⟨S4096x512, .f32⟩
  | 64 => ⟨S4096x512, .f32⟩
  | 65 => ⟨S4096x512, .f32⟩
  | 66 => ⟨S_, .f32⟩
  | 67 => ⟨S4096, .f32⟩
  | 68 => ⟨S4096x1, .f32⟩
  | 69 => ⟨S_, .f32⟩
  | 70 => ⟨S4096x1, .f32⟩
  | 71 => ⟨S4096x1, .f32⟩
  | 72 => ⟨S4096x512, .f32⟩
  | 73 => ⟨S4096x512, .f32⟩
  | 74 => ⟨S_, .f32⟩
  | 75 => ⟨S4096x1, .f32⟩
  | 76 => ⟨S4096x1, .f32⟩
  | 77 => ⟨S4096x1, .f32⟩
  | 78 => ⟨S4096x512, .f32⟩
  | 79 => ⟨S4096x512, .f32⟩
  | 80 => ⟨S1x512, .f32⟩
  | 81 => ⟨S4096x512, .f32⟩
  | 82 => ⟨S4096x512, .f32⟩
  | 83 => ⟨S1x512, .f32⟩
  | 84 => ⟨S4096x512, .f32⟩
  | 85 => ⟨S4096x512, .f32⟩
  | 86 => ⟨S_, .f32⟩
  | 87 => ⟨S4096x512, .f32⟩
  | 88 => ⟨S4096x512, .i1⟩
  | 89 => ⟨S_, .f32⟩
  | 90 => ⟨S4096x512, .f32⟩
  | 91 => ⟨S4096x512, .f32⟩
  | 92 => ⟨S4096x512, .f32⟩
  | 93 => ⟨S512x1, .f32⟩
  | 94 => ⟨S4096x1, .f32⟩
  | 95 => ⟨S1x1, .f32⟩
  | 96 => ⟨S4096x1, .f32⟩
  | 97 => ⟨S4096x1, .f32⟩
  | _ => ⟨S4096x323, .f32⟩

abbrev hbmTy (i : Nat) : BufTy := match i / 128 with
  | 0 => hbmTy0_0 i
  | 1 => hbmTy0_1 i
  | _ => ⟨S4096x323, .f32⟩

abbrev bufTy : (tb : Table) → Fin (tcTables nBuf tb) → BufTy
  | .hbm, ⟨i, _⟩ => hbmTy i
  | _, _ => ⟨S4096x323, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_10 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_11 : Ref sig .tc := ⟨.hbm, 97, rfl⟩
abbrev main_v67 : Ref sig .tc := ⟨.hbm, 98, rfl⟩
abbrev main_v68 : Ref sig .tc := ⟨.hbm, 99, rfl⟩
abbrev main_cst_12 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_13 : Ref sig .tc := ⟨.hbm, 108, rfl⟩
abbrev main_v76 : Ref sig .tc := ⟨.hbm, 109, rfl⟩
abbrev main_v77 : Ref sig .tc := ⟨.hbm, 110, rfl⟩
abbrev main_c : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_14 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_15 : Ref sig .tc := ⟨.hbm, 122, rfl⟩
abbrev main_v87 : Ref sig .tc := ⟨.hbm, 123, rfl⟩
abbrev main_cst_16 : Ref sig .tc := ⟨.hbm, 124, rfl⟩
abbrev main_call2_v0 : Ref sig .tc := ⟨.hbm, 125, rfl⟩
abbrev main_call2_v1 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_call3_c : Ref sig .tc := ⟨.hbm, 132, rfl⟩
abbrev main_call3_v0 : Ref sig .tc := ⟨.hbm, 133, rfl⟩
abbrev main_call3_v1 : Ref sig .tc := ⟨.hbm, 134, rfl⟩
abbrev main_call3_c_0 : Ref sig .tc := ⟨.hbm, 135, rfl⟩
abbrev main_call3_v2 : Ref sig .tc := ⟨.hbm, 136, rfl⟩
abbrev main_call3_v3 : Ref sig .tc := ⟨.hbm, 137, rfl⟩
abbrev main_call3_v4 : Ref sig .tc := ⟨.hbm, 138, rfl⟩
abbrev main_call3_c_1 : Ref sig .tc := ⟨.hbm, 139, rfl⟩
abbrev main_call3_c_2 : Ref sig .tc := ⟨.hbm, 140, rfl⟩
abbrev main_call3_v5 : Ref sig .tc := ⟨.hbm, 141, rfl⟩
abbrev main_call3_v6 : Ref sig .tc := ⟨.hbm, 142, rfl⟩
abbrev main_call3_v7 : Ref sig .tc := ⟨.hbm, 143, rfl⟩
abbrev main_call3_v8 : Ref sig .tc := ⟨.hbm, 144, rfl⟩
abbrev main_call3_v9 : Ref sig .tc := ⟨.hbm, 145, rfl⟩
abbrev main_call3_v10 : Ref sig .tc := ⟨.hbm, 146, rfl⟩
abbrev main_call3_c_3 : Ref sig .tc := ⟨.hbm, 147, rfl⟩
abbrev main_call3_v11 : Ref sig .tc := ⟨.hbm, 148, rfl⟩
abbrev main_call3_v12 : Ref sig .tc := ⟨.hbm, 149, rfl⟩
abbrev main_call3_v13 : Ref sig .tc := ⟨.hbm, 150, rfl⟩
abbrev main_call3_cst : Ref sig .tc := ⟨.hbm, 151, rfl⟩
abbrev main_call3_v14 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_call4_c : Ref sig .tc := ⟨.hbm, 156, rfl⟩
abbrev main_call4_v0 : Ref sig .tc := ⟨.hbm, 157, rfl⟩
abbrev main_call4_v1 : Ref sig .tc := ⟨.hbm, 158, rfl⟩
abbrev main_call4_c_0 : Ref sig .tc := ⟨.hbm, 159, rfl⟩
abbrev main_call4_v2 : Ref sig .tc := ⟨.hbm, 160, rfl⟩
abbrev main_call4_v3 : Ref sig .tc := ⟨.hbm, 161, rfl⟩
abbrev main_call4_v4 : Ref sig .tc := ⟨.hbm, 162, rfl⟩
abbrev main_call4_c_1 : Ref sig .tc := ⟨.hbm, 163, rfl⟩
abbrev main_call4_c_2 : Ref sig .tc := ⟨.hbm, 164, rfl⟩
abbrev main_call4_v5 : Ref sig .tc := ⟨.hbm, 165, rfl⟩
abbrev main_call4_v6 : Ref sig .tc := ⟨.hbm, 166, rfl⟩
abbrev main_call4_v7 : Ref sig .tc := ⟨.hbm, 167, rfl⟩
abbrev main_call4_v8 : Ref sig .tc := ⟨.hbm, 168, rfl⟩
abbrev main_call4_v9 : Ref sig .tc := ⟨.hbm, 169, rfl⟩
abbrev main_call4_v10 : Ref sig .tc := ⟨.hbm, 170, rfl⟩
abbrev main_call4_c_3 : Ref sig .tc := ⟨.hbm, 171, rfl⟩
abbrev main_call4_v11 : Ref sig .tc := ⟨.hbm, 172, rfl⟩
abbrev main_call4_v12 : Ref sig .tc := ⟨.hbm, 173, rfl⟩
abbrev main_call4_v13 : Ref sig .tc := ⟨.hbm, 174, rfl⟩
abbrev main_call4_cst : Ref sig .tc := ⟨.hbm, 175, rfl⟩
abbrev main_call4_v14 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_cst_17 : Ref sig .tc := ⟨.hbm, 185, rfl⟩
abbrev main_v104 : Ref sig .tc := ⟨.hbm, 186, rfl⟩
abbrev main_v105 : Ref sig .tc := ⟨.hbm, 187, rfl⟩
abbrev main_cst_18 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_cst_19 : Ref sig .tc := ⟨.hbm, 194, rfl⟩
abbrev main_v111 : Ref sig .tc := ⟨.hbm, 195, rfl⟩
abbrev main_v112 : Ref sig .tc := ⟨.hbm, 196, rfl⟩
abbrev main_cst_20 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_cst_21 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_cst_22 : Ref sig .tc := ⟨.hbm, 214, rfl⟩
abbrev main_v128 : Ref sig .tc := ⟨.hbm, 215, rfl⟩
abbrev main_v129 : Ref sig .tc := ⟨.hbm, 216, rfl⟩
abbrev main_cst_23 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩

abbrev nD : Nat := 1
abbrev τ : Topo := Topo.v7x

variable {F : FTy → Type} [FloatOps F]

class Facts₀ : Prop where
  slices_S4096x323_S4096x3_0_0 : S4096x323.Slices ![0, 0] S4096x3
  slices_S4096x323_S4096x320_0_3 : S4096x323.Slices ![0, 3] S4096x320
  shapeCasts_S4096x320_S4096x64x5 : S4096x320.ShapeCasts S4096x64x5
  bcast_S4096x3_S4096x1x3_0_2 : S4096x3.BroadcastsInDim S4096x1x3 (![0, 2] : Fin 2 → Fin S4096x1x3.rank)
  bcast_S4096x1x3_S4096x64x3_0_1_2 : S4096x1x3.BroadcastsInDim S4096x64x3 (![0, 1, 2] : Fin 3 → Fin S4096x64x3.rank)
  concatenates_S4096x64x3_S4096x64x5_S4096x64x8_d2 : Shape.Concatenates [S4096x64x3, S4096x64x5] S4096x64x8 2
  bcast_S256_S1x1x256_2 : S256.BroadcastsInDim S1x1x256 (![2] : Fin 1 → Fin S1x1x256.rank)
  bcast_S1x1x256_S4096x64x256_0_1_2 : S1x1x256.BroadcastsInDim S4096x64x256 (![0, 1, 2] : Fin 3 → Fin S4096x64x256.rank)
  reducesTo_S4096x64x256_S4096x64_d2 : S4096x64x256.ReducesTo [2] S4096x64
  h_S_ : 0 < S_.numel
  bcast_S4096x64_S4096x64x1_0_1 : S4096x64.BroadcastsInDim S4096x64x1 (![0, 1] : Fin 2 → Fin S4096x64x1.rank)
  bcast_S_S4096x64x1 : S_.BroadcastsInDim S4096x64x1 (![] : Fin 0 → Fin S4096x64x1.rank)
  bcast_S4096x64x1_S4096x64x256_0_1_2 : S4096x64x1.BroadcastsInDim S4096x64x256 (![0, 1, 2] : Fin 3 → Fin S4096x64x256.rank)
  bcast_S_S4096x64x256 : S_.BroadcastsInDim S4096x64x256 (![] : Fin 0 → Fin S4096x64x256.rank)
  bcast_S128_S1x1x128_2 : S128.BroadcastsInDim S1x1x128 (![2] : Fin 1 → Fin S1x1x128.rank)
  bcast_S1x1x128_S4096x64x128_0_1_2 : S1x1x128.BroadcastsInDim S4096x64x128 (![0, 1, 2] : Fin 3 → Fin S4096x64x128.rank)
  bcast_S_S4096x64x5 : S_.BroadcastsInDim S4096x64x5 (![] : Fin 0 → Fin S4096x64x5.rank)
  reducesTo_S4096x64x5_S4096x64_d2 : S4096x64x5.ReducesTo [2] S4096x64
  bcast_S4096x64x1_S4096x64x128_0_1_2 : S4096x64x1.BroadcastsInDim S4096x64x128 (![0, 1, 2] : Fin 3 → Fin S4096x64x128.rank)
  natLt_1_32 : 1 < 32
  reducesTo_S4096x64_S4096_d1 : S4096x64.ReducesTo [1] S4096
  bcast_S4096_S4096x1_0 : S4096.BroadcastsInDim S4096x1 (![0] : Fin 1 → Fin S4096x1.rank)
  reducesTo_S4096x64x128_S4096x128_d1 : S4096x64x128.ReducesTo [1] S4096x128
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  bcast_S4096x1_S4096x1x1_0_1 : S4096x1.BroadcastsInDim S4096x1x1 (![0, 1] : Fin 2 → Fin S4096x1x1.rank)
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  bcast_S4096x1_S4096x1x128_0_1 : S4096x1.BroadcastsInDim S4096x1x128 (![0, 1] : Fin 2 → Fin S4096x1x128.rank)
  bcast_S_S4096x1x128 : S_.BroadcastsInDim S4096x1x128 (![] : Fin 0 → Fin S4096x1x128.rank)
  shapeCasts_S4096x1x128_S4096x128 : S4096x1x128.ShapeCasts S4096x128
  bcast_S4096x1_S4096x1x5_0_1 : S4096x1.BroadcastsInDim S4096x1x5 (![0, 1] : Fin 2 → Fin S4096x1x5.rank)
  bcast_S_S4096x1x5 : S_.BroadcastsInDim S4096x1x5 (![] : Fin 0 → Fin S4096x1x5.rank)
  shapeCasts_S4096x1x5_S4096x5 : S4096x1x5.ShapeCasts S4096x5
  concatenates_S4096x3_S4096x128_S4096x128_S4096x5_S4096x264_d1 : Shape.Concatenates [S4096x3, S4096x128, S4096x128, S4096x5] S4096x264 1
  transposes_S512x264_S264x512_1_0 : S512x264.Transposes [1, 0] S264x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  reducesTo_S4096x512_S4096_d1 : S4096x512.ReducesTo [1] S4096
  bcast_S4096x1_S4096x512_0_1 : S4096x1.BroadcastsInDim S4096x512 (![0, 1] : Fin 2 → Fin S4096x512.rank)
  bcast_S_S4096x512 : S_.BroadcastsInDim S4096x512 (![] : Fin 0 → Fin S4096x512.rank)
  transposes_S1x512_S512x1_1_0 : S1x512.Transposes [1, 0] S512x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x64x8_S256x8_S4096x64x256_2_1_01_0_n_n_wf : DotDims.WF S4096x64x8 S256x8 S4096x64x256 [2] [1] [0, 1] [0] [] []
  dot_S4096x64x256_S256x256_S4096x64x256_2_1_01_0_n_n_wf : DotDims.WF S4096x64x256 S256x256 S4096x64x256 [2] [1] [0, 1] [0] [] []
  dot_S4096x64x256_S128x256_S4096x64x128_2_1_01_0_n_n_wf : DotDims.WF S4096x64x256 S128x256 S4096x64x128 [2] [1] [0, 1] [0] [] []
  gather_S4096x64x128_S4096x1x1_S4096x1x128_2_1_0_0_1_2_11128_wf : GatherDims.WF S4096x64x128 S4096x1x1 S4096x1x128 [2] [1] [0] [1] [0] 2 ![1, 1, 128]
  gather_S4096x64x5_S4096x1x1_S4096x1x5_2_1_0_0_1_2_115_wf : GatherDims.WF S4096x64x5 S4096x1x1 S4096x1x5 [2] [1] [0] [1] [0] 2 ![1, 1, 5]
  dot_S4096x264_S264x512_S4096x512_1_0_0_1_n_n_wf : DotDims.WF S4096x264 S264x512 S4096x512 [1] [0] [0] [1] [] []
  dot_S4096x512_S512x1_S4096x1_1_0_0_1_n_n_wf : DotDims.WF S4096x512 S512x1 S4096x1 [1] [0] [0] [1] [] []

variable [Facts₀]

def dot_S4096x64x8_S256x8_S4096x64x256_2_1_01_0_n_n : DotDims S4096x64x8 S256x8 S4096x64x256 where
  lhsContracting := [2]
  rhsContracting := [1]
  lhsNonContracting := [0, 1]
  rhsNonContracting := [0]
  lhsBatch := []
  rhsBatch := []
  wf := dot_S4096x64x8_S256x8_S4096x64x256_2_1_01_0_n_n_wf
def dot_S4096x64x256_S256x256_S4096x64x256_2_1_01_0_n_n : DotDims S4096x64x256 S256x256 S4096x64x256 where
  lhsContracting := [2]
  rhsContracting := [1]
  lhsNonContracting := [0, 1]
  rhsNonContracting := [0]
  lhsBatch := []
  rhsBatch := []
  wf := dot_S4096x64x256_S256x256_S4096x64x256_2_1_01_0_n_n_wf
def dot_S4096x64x256_S128x256_S4096x64x128_2_1_01_0_n_n : DotDims S4096x64x256 S128x256 S4096x64x128 where
  lhsContracting := [2]
  rhsContracting := [1]
  lhsNonContracting := [0, 1]
  rhsNonContracting := [0]
  lhsBatch := []
  rhsBatch := []
  wf := dot_S4096x64x256_S128x256_S4096x64x128_2_1_01_0_n_n_wf
def gather_S4096x64x128_S4096x1x1_S4096x1x128_2_1_0_0_1_2_11128 : GatherDims S4096x64x128 S4096x1x1 S4096x1x128 where
  offsetDims := [2]
  collapsedSliceDims := [1]
  operandBatchingDims := [0]
  startIndicesBatchingDims := [0]
  startIndexMap := [1]
  indexVectorDim := 2
  sliceSizes := ![1, 1, 128]
  wf := gather_S4096x64x128_S4096x1x1_S4096x1x128_2_1_0_0_1_2_11128_wf
def gather_S4096x64x5_S4096x1x1_S4096x1x5_2_1_0_0_1_2_115 : GatherDims S4096x64x5 S4096x1x1 S4096x1x5 where
  offsetDims := [2]
  collapsedSliceDims := [1]
  operandBatchingDims := [0]
  startIndicesBatchingDims := [0]
  startIndexMap := [1]
  indexVectorDim := 2
  sliceSizes := ![1, 1, 5]
  wf := gather_S4096x64x5_S4096x1x1_S4096x1x5_2_1_0_0_1_2_115_wf
def dot_S4096x264_S264x512_S4096x512_1_0_0_1_n_n : DotDims S4096x264 S264x512 S4096x512 where
  lhsContracting := [1]
  rhsContracting := [0]
  lhsNonContracting := [0]
  rhsNonContracting := [1]
  lhsBatch := []
  rhsBatch := []
  wf := dot_S4096x264_S264x512_S4096x512_1_0_0_1_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf

class Facts : Prop extends Facts₀ where

variable [Facts]
-- ==== Proof.Body.lean ====
/-
  The kernel body as a recurrence. The body unrolls its loop over the 64 neighbours; every pass applies the
  same three-layer perceptron to one 5-wide slice of the row block and adds the result into four running arrays
  (the masked sum of embeddings, the count of non-empty neighbours, the embedding and the raw state of the
  neighbour the action names). Here one pass is the function `step`, the 64 passes are `run 64`, and the part after
  the loop (mean pooling, the concatenation and the two final layers) is `finish`; `body` composes them.
-/
import proofs.«427821_j19241453486367_3_alg».proof.Proof.Gen.KernelIdeal

noncomputable section

namespace Cert.KernelIdeal.QNet

open Idealize.ShloMosaic Idealize.SL.Sem Cert.KernelIdeal Cert.KernelIdeal.Gen

variable {F : FTy → Type} [FloatOps F]

/-- The slice of neighbour `n` (columns `3 + 5n … 7 + 5n`) lies inside the 323 columns. -/
theorem nbSlices (n : ℕ) (h : n < 64) : S512x323.Slices ![0, 3 + 5 * n] S512x5 :=
  ⟨rfl, fun a => by
    match a with
    | ⟨0, _⟩ => exact Nat.le_refl 512
    | ⟨1, _⟩ => show 3 + 5 * n + 5 ≤ 323; omega⟩

/-- The mean of each row's 256 entries, as a column. -/
def rowMean256 (h : FVec F S512x256 .f32) : FVec F S512x1 .f32 :=
  divf (shapeCast S512x1 (multiReduction .add [1] S512 h 0x00000000#32 reduces_S512x256_S512 (.inl rfl) rfl) shapeCasts_S512_S512x1)
    (broadcast S512x1 (Scalar.ofBits .f32 0x43800000#32))

/-- Layer normalisation of each row of 256 entries, gain `g` and shift `b` already broadcast to the block. -/
def layerNorm256 (g b h : FVec F S512x256 .f32) : FVec F S512x256 .f32 :=
  let d := subf h (broadcastTo S512x256 (rowMean256 h) broadcasts_S512x1_S512x256)
  let r := rsqrt (addf (rowMean256 (mulf d d)) (broadcast S512x1 (Scalar.ofBits .f32 0x3727C5AC#32)))
  addf (mulf (mulf d (broadcastTo S512x256 r broadcasts_S512x1_S512x256)) g) b

/-- Leaky rectifier with slope 0.01 on a block of 256 columns. -/
def leaky256 (y : FVec F S512x256 .f32) : FVec F S512x256 .f32 :=
  select (cmpf .oge y (broadcast S512x256 (Scalar.ofBits .f32 0x00000000#32))) y
    (mulf (broadcast S512x256 (Scalar.ofBits .f32 0x3C23D70A#32)) y)

/-- The mean of each row's 512 entries, as a column. -/
def rowMean512 (h : FVec F S512x512 .f32) : FVec F S512x1 .f32 :=
  divf (shapeCast S512x1 (multiReduction .add [1] S512 h 0x00000000#32 reduces_S512x512_S512 (.inl rfl) rfl) shapeCasts_S512_S512x1)
    (broadcast S512x1 (Scalar.ofBits .f32 0x44000000#32))

/-- Layer normalisation of each row of 512 entries. -/
def layerNorm512 (g b h : FVec F S512x512 .f32) : FVec F S512x512 .f32 :=
  let d := subf h (broadcastTo S512x512 (rowMean512 h) broadcasts_S512x1_S512x512)
  let r := rsqrt (addf (rowMean512 (mulf d d)) (broadcast S512x1 (Scalar.ofBits .f32 0x3727C5AC#32)))
  addf (mulf (mulf d (broadcastTo S512x512 r broadcasts_S512x1_S512x512)) g) b

/-- Leaky rectifier with slope 0.01 on a block of 512 columns. -/
def leaky512 (y : FVec F S512x512 .f32) : FVec F S512x512 .f32 :=
  select (cmpf .oge y (broadcast S512x512 (Scalar.ofBits .f32 0x00000000#32))) y
    (mulf (broadcast S512x512 (Scalar.ofBits .f32 0x3C23D70A#32)) y)

/-- A truth value as the float 0 or 1. -/
def toF {s : Shape} (b : IVec s 1) : FVec F s .f32 := sitofp .f32 (extui 32 b natLt_1_32)

/-- The weights and broadcast parameters one pass of the loop reads (none changes from pass to pass). -/
structure Params (F : FTy → Type) where
  base : FVec F S512x256 .f32
  w1t : FVec F S5x256 .bf16
  g1 : FVec F S512x256 .f32
  b1 : FVec F S512x256 .f32
  w2 : FVec F S256x256 .bf16
  c2 : FVec F S512x256 .f32
  g2 : FVec F S512x256 .f32
  b2 : FVec F S512x256 .f32
  w3 : FVec F S256x128 .bf16
  c3 : FVec F S512x128 .f32

/-- The embedding of one neighbour slice: linear, normalise, rectify, twice, then a last linear map to 128 columns. -/
def embed (p : Params F) (nb : FVec F S512x5 .f32) : FVec F S512x128 .f32 :=
  let h1 := leaky256 (layerNorm256 p.g1 p.b1 (addf p.base
    (matmul dot_S512x5_S5x256_S512x256_1_0_0_1_n_n none (truncf .bf16 nb bitsLt_bf16_f32) p.w1t (constant S512x256 .f32 0x00000000#32))))
  let h2 := leaky256 (layerNorm256 p.g2 p.b2 (addf
    (matmul dot_S512x256_S256x256_S512x256_1_0_0_1_n_n none (truncf .bf16 h1 bitsLt_bf16_f32) p.w2 (constant S512x256 .f32 0x00000000#32)) p.c2))
  addf (matmul dot_S512x256_S256x128_S512x128_1_0_0_1_n_n none (truncf .bf16 h2 bitsLt_bf16_f32) p.w3 (constant S512x128 .f32 0x00000000#32)) p.c3

/-- 1 on the rows whose slice has a nonzero entry, else 0, as a column. -/
def rowMask (nb : FVec F S512x5 .f32) : FVec F S512x1 .f32 :=
  toF (F := F) (cmpf .ogt
    (shapeCast S512x1 (multiReduction .add [1] S512 (toF (F := F) (cmpf .one nb (broadcast S512x5 (Scalar.ofBits .f32 0x00000000#32))))
      0x00000000#32 reduces_S512x5_S512 (.inl rfl) rfl) shapeCasts_S512_S512x1)
    (broadcast S512x1 (Scalar.ofBits .f32 0x00000000#32)))

/-- 1 on the rows whose action is `n`, else 0, as a column. -/
def pick (act : IVec S512x1 32) (n : ℕ) : FVec F S512x1 .f32 :=
  toF (F := F) (cmpi .eq act (broadcast S512x1 (BitVec.ofNat 32 n)))

/-- The four running arrays. -/
structure Acc (F : FTy → Type) where
  pool : FVec F S512x128 .f32
  cnt : FVec F S512x1 .f32
  cemb : FVec F S512x128 .f32
  cstate : FVec F S512x5 .f32

/-- Before the first pass all four are zero. -/
def init : Acc F :=
  ⟨broadcast S512x128 (Scalar.ofBits .f32 0x00000000#32), broadcast S512x1 (Scalar.ofBits .f32 0x00000000#32),
   broadcast S512x128 (Scalar.ofBits .f32 0x00000000#32), broadcast S512x5 (Scalar.ofBits .f32 0x00000000#32)⟩

/-- Neighbour `n`'s five columns of the row block. -/
def nbOf (x : Vec F S512x323 .f32) (n : ℕ) (h : n < 64) : FVec F S512x5 .f32 :=
  extractStridedSlice S512x5 ![0, 3 + 5 * n] x (nbSlices n h)

/-- Pass `n` of the loop. -/
def step (p : Params F) (x : Vec F S512x323 .f32) (act : IVec S512x1 32) (n : ℕ) (h : n < 64) (a : Acc F) : Acc F :=
  let nb := nbOf x n h
  let e := embed p nb
  let mk := rowMask nb
  let oh : FVec F S512x1 .f32 := pick act n
  ⟨addf a.pool (mulf e (broadcastTo S512x128 mk broadcasts_S512x1_S512x128)),
   addf a.cnt mk,
   addf a.cemb (mulf e (broadcastTo S512x128 oh broadcasts_S512x1_S512x128)),
   addf a.cstate (mulf nb (broadcastTo S512x5 oh broadcasts_S512x1_S512x5))⟩

/-- The first `k` passes. -/
def run (p : Params F) (x : Vec F S512x323 .f32) (act : IVec S512x1 32) : (k : ℕ) → k ≤ 64 → Acc F
  | 0, _ => init
  | k + 1, h => step p x act k (by omega) (run p x act k (by omega))

/-- What the body reads: the row block, the actions, and the weights as the windows hold them. -/
structure Loads (F : FTy → Type) where
  x : Vec F S512x323 .f32
  act : Vec F S512x1 .i32
  w1 : Vec F S8x256 .bf16
  c1 : Vec F S256 .f32
  g1 : Vec F S256 .f32
  b1 : Vec F S256 .f32
  w2 : Vec F S256x256 .bf16
  c2 : Vec F S256 .f32
  g2 : Vec F S256 .f32
  b2 : Vec F S256 .f32
  w3 : Vec F S256x128 .bf16
  c3 : Vec F S128 .f32
  wf : Vec F S264x512 .bf16
  cf : Vec F S512 .f32
  gf : Vec F S512 .f32
  bf : Vec F S512 .f32
  wo : Vec F S512x1 .bf16
  co : Vec F S1 .f32

/-- The current position: the first three columns of the row block. -/
def curPos (L : Loads F) : FVec F S512x3 .f32 := extractStridedSlice S512x3 ![0, 0] L.x slices_S512x323_o0_0_S512x3

/-- A vector of 256 parameters repeated down the 512 rows. -/
def rows256 (v : Vec F S256 .f32) : FVec F S512x256 .f32 :=
  broadcastTo S512x256 (shapeCast S1x256 v shapeCasts_S256_S1x256) broadcasts_S1x256_S512x256

/-- A vector of 512 parameters repeated down the 512 rows. -/
def rows512 (v : Vec F S512 .f32) : FVec F S512x512 .f32 :=
  broadcastTo S512x512 (shapeCast S1x512 v shapeCasts_S512_S1x512) broadcasts_S1x512_S512x512

/-- The loop's parameters from the loads: the first layer's weight split into its first three rows (applied once to
    the current position, with the bias: `base`) and its last five (applied to every neighbour slice). -/
def paramsOf (L : Loads F) : Params F :=
  let w1 : FVec F S8x256 .bf16 := shapeCast S8x256 L.w1 shapeCasts_S8x256_S8x256
  { base := addf (matmul dot_S512x3_S3x256_S512x256_1_0_0_1_n_n none (truncf .bf16 (curPos L) bitsLt_bf16_f32)
        (extractStridedSlice S3x256 ![0, 0] w1 slices_S8x256_o0_0_S3x256) (constant S512x256 .f32 0x00000000#32)) (rows256 L.c1)
    w1t := extractStridedSlice S5x256 ![3, 0] w1 slices_S8x256_o3_0_S5x256
    g1 := rows256 L.g1
    b1 := rows256 L.b1
    w2 := shapeCast S256x256 L.w2 shapeCasts_S256x256_S256x256
    c2 := rows256 L.c2
    g2 := rows256 L.g2
    b2 := rows256 L.b2
    w3 := shapeCast S256x128 L.w3 shapeCasts_S256x128_S256x128
    c3 := broadcastTo S512x128 (shapeCast S1x128 L.c3 shapeCasts_S128_S1x128) broadcasts_S1x128_S512x128 }

/-- After the loop: mean pooling over the counted neighbours, the four pieces side by side, and the two last layers. -/
def finish (L : Loads F) (a : Acc F) : FVec F S512x1 .f32 :=
  let pooled := divf a.pool (broadcastTo S512x128 (maximumf a.cnt (broadcast S512x1 (Scalar.ofBits .f32 0x3F800000#32))) broadcasts_S512x1_S512x128)
  let cat : FVec F S512x264 .f32 := concatenate S512x264 1 [⟨S512x3, curPos L⟩, ⟨S512x128, a.cemb⟩, ⟨S512x128, pooled⟩, ⟨S512x5, a.cstate⟩]
    concatenates_S512x3_S512x128_S512x128_S512x5_S512x264_d1
  let g := addf (matmul dot_S512x264_S264x512_S512x512_1_0_0_1_n_n none (truncf .bf16 cat bitsLt_bf16_f32)
    (shapeCast S264x512 L.wf shapeCasts_S264x512_S264x512) (constant S512x512 .f32 0x00000000#32)) (rows512 L.cf)
  let y := leaky512 (layerNorm512 (rows512 L.gf) (rows512 L.bf) g)
  addf (matmul dot_S512x512_S512x1_S512x1_1_0_0_1_n_n none (truncf .bf16 y bitsLt_bf16_f32)
    (shapeCast S512x1 L.wo shapeCasts_S512x1_S512x1) (constant S512x1 .f32 0x00000000#32))
    (broadcastTo S512x1 (shapeCast S1x1 L.co shapeCasts_S1_S1x1) broadcasts_S1x1_S512x1)

/-- The value the body stores into the output block. -/
def body (L : Loads F) : FVec F S512x1 .f32 :=
  finish L (run (paramsOf L) L.x (shapeCast S512x1 L.act shapeCasts_S512x1_S512x1) 64 (Nat.le_refl 64))

end Cert.KernelIdeal.QNet

end
-- ==== Proof.BodyEq.lean ====
/-
  The value the kernel body stores, read as the recurrence of Body.lean: the 64 unrolled passes are `run 64`.
-/
import proofs.«427821_j19241453486367_3_alg».proof.Proof.Body
import proofs.«427821_j19241453486367_3_alg».proof.Proof.Gen.KernelIdeal.Frame

set_option maxRecDepth 65536

noncomputable section

namespace Cert.KernelIdeal.QNet

open Idealize.ShloMosaic Idealize.SL.Sem Cert.KernelIdeal Cert.KernelIdeal.Gen

variable {F : FTy → Type} [FloatOps F]

/-- The loads of one grid point's body, from the eighteen input blocks. -/
def loadsOf (x0 : Vec F S512x323 .f32) (x1 : Vec F S512x1 .i32) (x2 : Vec F S8x256 .bf16) (x3 : Vec F S256 .f32) (x4 : Vec F S256 .f32) (x5 : Vec F S256 .f32) (x6 : Vec F S256x256 .bf16) (x7 : Vec F S256 .f32) (x8 : Vec F S256 .f32) (x9 : Vec F S256 .f32) (x10 : Vec F S256x128 .bf16) (x11 : Vec F S128 .f32) (x12 : Vec F S264x512 .bf16) (x13 : Vec F S512 .f32) (x14 : Vec F S512 .f32) (x15 : Vec F S512 .f32) (x16 : Vec F S512x1 .bf16) (x17 : Vec F S1 .f32) : Loads F :=
  ⟨View.ld x0 r0_0, View.ld x1 r0_1, View.ld x2 r0_2, View.ld x3 r0_3, View.ld x4 r0_3, View.ld x5 r0_3, View.ld x6 r0_4,
   View.ld x7 r0_3, View.ld x8 r0_3, View.ld x9 r0_3, View.ld x10 r0_5, View.ld x11 r0_6, View.ld x12 r0_7, View.ld x13 r0_8,
   View.ld x14 r0_8, View.ld x15 r0_8, View.ld x16 r0_1, View.ld x17 r0_9⟩

/-- What the body leaves in the output block is the recurrence's value on the loaded blocks: the printed body's
    operations are, pass by pass, those of `step`, and after the loop those of `finish`. -/
theorem out_eq (x0 : Vec F S512x323 .f32) (x1 : Vec F S512x1 .i32) (x2 : Vec F S8x256 .bf16) (x3 : Vec F S256 .f32) (x4 : Vec F S256 .f32) (x5 : Vec F S256 .f32) (x6 : Vec F S256x256 .bf16) (x7 : Vec F S256 .f32) (x8 : Vec F S256 .f32) (x9 : Vec F S256 .f32) (x10 : Vec F S256x128 .bf16) (x11 : Vec F S128 .f32) (x12 : Vec F S264x512 .bf16) (x13 : Vec F S512 .f32) (x14 : Vec F S512 .f32) (x15 : Vec F S512 .f32) (x16 : Vec F S512x1 .bf16) (x17 : Vec F S1 .f32) :
    out0_18 x0 x1 x2 x3 x4 x5 x6 x7 x8 x9 x10 x11 x12 x13 x14 x15 x16 x17
      = View.canon [⟨r0_1, body (loadsOf x0 x1 x2 x3 x4 x5 x6 x7 x8 x9 x10 x11 x12 x13 x14 x15 x16 x17)⟩] := rfl

end Cert.KernelIdeal.QNet

end
-- ==== Proof.Spec.lean ====
/-
  The two row functions. Every row of the batch is processed alone: from the row's 323 features (a position of
  three coordinates and 64 neighbours of five), the row's action word and the layer parameters, each program
  computes one number. `rowK` is that number as the kernel forms it (the first layer split into a position part
  and a neighbour part, the normalisation by a reciprocal square root, the neighbour picked by a sum against an
  indicator, the neighbour count summed as floats); `rowR` as the reference forms it (one eight-wide first layer,
  the normalisation by a quotient, the neighbour picked by its index, the count summed as integers).
-/
import Idealize.ShloMosaic.PureOps.Ideal
import Idealize.ShloMosaic.PureOps.Ideal.Laws

noncomputable section

namespace Cert.QSpec

open Idealize.ShloMosaic

/-- The float a 32-bit pattern denotes. -/
abbrev lit (w : BitVec 32) : EReal := Ideal.ofBits .f32 w

abbrev zero : EReal := lit 0x00000000#32
abbrev one : EReal := lit 0x3F800000#32
abbrev eps : EReal := lit 0x3727C5AC#32
abbrev slope : EReal := lit 0x3C23D70A#32
abbrev c256 : EReal := lit 0x43800000#32
abbrev c512 : EReal := lit 0x44000000#32

/-- The layer parameters, in the layout of the program's arguments. -/
structure RowP where
  W1 : Fin 256 → Fin 8 → EReal
  c1 : Fin 256 → EReal
  g1 : Fin 256 → EReal
  b1 : Fin 256 → EReal
  W2 : Fin 256 → Fin 256 → EReal
  c2 : Fin 256 → EReal
  g2 : Fin 256 → EReal
  b2 : Fin 256 → EReal
  W3 : Fin 128 → Fin 256 → EReal
  c3 : Fin 128 → EReal
  Wf : Fin 512 → Fin 264 → EReal
  cf : Fin 512 → EReal
  gf : Fin 512 → EReal
  bf : Fin 512 → EReal
  Wo : Fin 512 → EReal
  co : EReal

/-- Leaky rectifier: `y` where `y ≥ 0`, else `slope · y`. -/
def leaky (y : EReal) : EReal := Scalar.select (Ideal.cmp .oge y zero) y (slope * y)

/-- Feature `j` of neighbour `n` in a row `xr` (a function of the column number). -/
def nbr (xr : ℕ → EReal) (n : ℕ) (j : Fin 5) : EReal := xr (3 + 5 * n + j.val)

/-- A truth bit widened to a word and read as a signed integer (the kernel's conversion). -/
def bitS (b : BitVec 1) : EReal := (((b.setWidth 32).toInt : ℝ) : EReal)

/-- A truth bit read as an unsigned integer (the reference's conversion). -/
def bitU (b : BitVec 1) : EReal := ((b.toNat : ℝ) : EReal)

/-! ## The kernel's form -/

def meanK {D : ℕ} (c : EReal) (h : Fin D → EReal) : EReal := Ideal.div (∑ k, h k) c

def lnK {D : ℕ} (c : EReal) (g b h : Fin D → EReal) (d : Fin D) : EReal :=
  (h d - meanK c h) * Ideal.rsqrt (meanK c (fun k => (h k - meanK c h) * (h k - meanK c h)) + eps) * g d + b d

def baseK (P : RowP) (xr : ℕ → EReal) (d : Fin 256) : EReal :=
  (∑ i : Fin 3, xr i.val * P.W1 d ⟨i.val, by omega⟩) + P.c1 d

def h1K (P : RowP) (xr : ℕ → EReal) (n : ℕ) (d : Fin 256) : EReal :=
  leaky (lnK c256 P.g1 P.b1 (fun d' => baseK P xr d' + ∑ j : Fin 5, nbr xr n j * P.W1 d' ⟨3 + j.val, by omega⟩) d)

def h2K (P : RowP) (xr : ℕ → EReal) (n : ℕ) (d : Fin 256) : EReal :=
  leaky (lnK c256 P.g2 P.b2 (fun d' => (∑ k : Fin 256, h1K P xr n k * P.W2 d' k) + P.c2 d') d)

def embK (P : RowP) (xr : ℕ → EReal) (n : ℕ) (e : Fin 128) : EReal :=
  (∑ k : Fin 256, h2K P xr n k * P.W3 e k) + P.c3 e

/-- 1 when some feature of neighbour `n` is nonzero: the kernel counts the nonzero features as floats and tests the
    count against zero. -/
def maskK (xr : ℕ → EReal) (n : ℕ) : EReal :=
  bitS (Ideal.cmp .ogt (∑ j : Fin 5, bitS (Ideal.cmp .one (nbr xr n j) zero)) zero)

/-- 1 when the action word is `n`. -/
def pickK (a : BitVec 32) (n : ℕ) : EReal := bitS (IntOp.cmpi .eq a (BitVec.ofNat 32 n))

/-- The running sums after the first `k` neighbours, each started at zero and extended on the right. -/
def poolK (P : RowP) (xr : ℕ → EReal) (e : Fin 128) : ℕ → EReal
  | 0 => zero
  | k + 1 => poolK P xr e k + embK P xr k e * maskK xr k
def cntK (xr : ℕ → EReal) : ℕ → EReal
  | 0 => zero
  | k + 1 => cntK xr k + maskK xr k
def cembK (P : RowP) (xr : ℕ → EReal) (a : BitVec 32) (e : Fin 128) : ℕ → EReal
  | 0 => zero
  | k + 1 => cembK P xr a e k + embK P xr k e * pickK a k
def cstateK (xr : ℕ → EReal) (a : BitVec 32) (j : Fin 5) : ℕ → EReal
  | 0 => zero
  | k + 1 => cstateK xr a j k + nbr xr k j * pickK a k

/-- The 264 inputs of the last block: position, chosen embedding, pooled embedding, chosen neighbour. -/
def catK (P : RowP) (xr : ℕ → EReal) (a : BitVec 32) (k : Fin 264) : EReal :=
  if h3 : k.val < 3 then xr k.val
  else if h131 : k.val < 131 then cembK P xr a ⟨k.val - 3, by omega⟩ 64
  else if h259 : k.val < 259 then Ideal.div (poolK P xr ⟨k.val - 131, by omega⟩ 64) (max (cntK xr 64) one)
  else cstateK xr a ⟨k.val - 259, by omega⟩ 64

def rowK (P : RowP) (xr : ℕ → EReal) (a : BitVec 32) : EReal :=
  (∑ k : Fin 512, leaky (lnK c512 P.gf P.bf (fun d => (∑ f : Fin 264, catK P xr a f * P.Wf d f) + P.cf d) k) * P.Wo k) + P.co

/-! ## The reference's form -/

def meanR {D : ℕ} (c : EReal) (h : Fin D → EReal) : EReal := Ideal.div (zero + ∑ k, h k) c

def lnR {D : ℕ} (c : EReal) (g b h : Fin D → EReal) (d : Fin D) : EReal :=
  Ideal.div (h d - meanR c h) (Ideal.sqrt (meanR c (fun k => (h k - meanR c h) * (h k - meanR c h)) + eps)) * g d + b d

/-- The eight inputs of the first layer for neighbour `n`: the position, then the neighbour's features. -/
def dsR (xr : ℕ → EReal) (n : ℕ) (f : Fin 8) : EReal :=
  if h : f.val < 3 then xr f.val else xr (3 + 5 * n + (f.val - 3))

def h1R (P : RowP) (xr : ℕ → EReal) (n : ℕ) (d : Fin 256) : EReal :=
  leaky (lnR c256 P.g1 P.b1 (fun d' => (∑ f : Fin 8, dsR xr n f * P.W1 d' f) + P.c1 d') d)

def h2R (P : RowP) (xr : ℕ → EReal) (n : ℕ) (d : Fin 256) : EReal :=
  leaky (lnR c256 P.g2 P.b2 (fun d' => (∑ k : Fin 256, h1R P xr n k * P.W2 d' k) + P.c2 d') d)

def embR (P : RowP) (xr : ℕ → EReal) (n : ℕ) (e : Fin 128) : EReal :=
  (∑ k : Fin 256, h2R P xr n k * P.W3 e k) + P.c3 e

/-- The truth bit "some feature of neighbour `n` is nonzero". -/
def anyR (xr : ℕ → EReal) (n : ℕ) : BitVec 1 :=
  (Finset.univ : Finset (Fin 5)).fold IntOp.ori 0#1 (fun j => Ideal.cmp .une (nbr xr n j) zero)

/-- The number of neighbours with a nonzero feature, counted as a natural number. -/
def countR (xr : ℕ → EReal) : ℕ := ∑ n : Fin 64, if anyR xr n.val = 1#1 then 1 else 0

def catR (P : RowP) (xr : ℕ → EReal) (ia : ℕ) (k : Fin 264) : EReal :=
  if h3 : k.val < 3 then xr k.val
  else if h131 : k.val < 131 then embR P xr ia ⟨k.val - 3, by omega⟩
  else if h259 : k.val < 259 then
    Ideal.div (zero + ∑ n : Fin 64, embR P xr n.val ⟨k.val - 131, by omega⟩ * bitU (anyR xr n.val)) (max ((countR xr : ℝ) : EReal) one)
  else nbr xr ia ⟨k.val - 259, by omega⟩

/-- The reference's number for a row whose action is the neighbour index `ia`. -/
def rowR (P : RowP) (xr : ℕ → EReal) (ia : ℕ) : EReal :=
  (∑ k : Fin 512, leaky (lnR c512 P.gf P.bf (fun d => (∑ f : Fin 264, catR P xr ia f * P.Wf d f) + P.cf d) k) * P.Wo k) + P.co

end Cert.QSpec

end
-- ==== Proof.Args.lean ====
/-
  From the programs' argument arrays to the row functions' inputs: row `b` of the feature matrix as a function of
  the column number, and the layer parameters bundled.
-/
import proofs.«427821_j19241453486367_3_alg».proof.Proof.Spec
import Idealize.ShloMosaic.Lib.ValueIdx

noncomputable section

namespace Cert.QSpec

open Idealize.ShloMosaic Idealize.ShloMosaic.ValueIdx

/-- Row `b` of a matrix with 323 columns (zero past the last column, which is never read). -/
def xrow {B : ℕ} (x : (⟨2, ![B, 323]⟩ : Shape).Idx → EReal) (b : Fin B) : ℕ → EReal :=
  fun c => if h : c < 323 then x (ix2 b ⟨c, h⟩) else 0

/-- The sixteen parameter arrays, in the layout of the entry point's arguments, as the row functions' parameters. -/
def rowP (w1 : (⟨2, ![256, 8]⟩ : Shape).Idx → EReal) (c1 g1 b1 : (⟨1, ![256]⟩ : Shape).Idx → EReal)
    (w2 : (⟨2, ![256, 256]⟩ : Shape).Idx → EReal) (c2 g2 b2 : (⟨1, ![256]⟩ : Shape).Idx → EReal)
    (w3 : (⟨2, ![128, 256]⟩ : Shape).Idx → EReal) (c3 : (⟨1, ![128]⟩ : Shape).Idx → EReal)
    (wf : (⟨2, ![512, 264]⟩ : Shape).Idx → EReal) (cf gf bf : (⟨1, ![512]⟩ : Shape).Idx → EReal)
    (wo : (⟨2, ![1, 512]⟩ : Shape).Idx → EReal) (co : (⟨1, ![1]⟩ : Shape).Idx → EReal) : RowP where
  W1 := fun d f => w1 (ix2 d f)
  c1 := fun d => c1 (ix1 d)
  g1 := fun d => g1 (ix1 d)
  b1 := fun d => b1 (ix1 d)
  W2 := fun d k => w2 (ix2 d k)
  c2 := fun d => c2 (ix1 d)
  g2 := fun d => g2 (ix1 d)
  b2 := fun d => b2 (ix1 d)
  W3 := fun e k => w3 (ix2 e k)
  c3 := fun e => c3 (ix1 e)
  Wf := fun d f => wf (ix2 d f)
  cf := fun d => cf (ix1 d)
  gf := fun d => gf (ix1 d)
  bf := fun d => bf (ix1 d)
  Wo := fun k => wo (ix2 0 k)
  co := co (ix1 0)

/-- The same parameters as the kernel body finds them in its blocks: the five weight matrices transposed. -/
def rowPT (w1t : (⟨2, ![8, 256]⟩ : Shape).Idx → EReal) (c1 g1 b1 : (⟨1, ![256]⟩ : Shape).Idx → EReal)
    (w2t : (⟨2, ![256, 256]⟩ : Shape).Idx → EReal) (c2 g2 b2 : (⟨1, ![256]⟩ : Shape).Idx → EReal)
    (w3t : (⟨2, ![256, 128]⟩ : Shape).Idx → EReal) (c3 : (⟨1, ![128]⟩ : Shape).Idx → EReal)
    (wft : (⟨2, ![264, 512]⟩ : Shape).Idx → EReal) (cf gf bf : (⟨1, ![512]⟩ : Shape).Idx → EReal)
    (wot : (⟨2, ![512, 1]⟩ : Shape).Idx → EReal) (co : (⟨1, ![1]⟩ : Shape).Idx → EReal) : RowP where
  W1 := fun d f => w1t (ix2 f d)
  c1 := fun d => c1 (ix1 d)
  g1 := fun d => g1 (ix1 d)
  b1 := fun d => b1 (ix1 d)
  W2 := fun d k => w2t (ix2 k d)
  c2 := fun d => c2 (ix1 d)
  g2 := fun d => g2 (ix1 d)
  b2 := fun d => b2 (ix1 d)
  W3 := fun e k => w3t (ix2 k e)
  c3 := fun e => c3 (ix1 e)
  Wf := fun d f => wft (ix2 f d)
  cf := fun d => cf (ix1 d)
  gf := fun d => gf (ix1 d)
  bf := fun d => bf (ix1 d)
  Wo := fun k => wot (ix2 k 0)
  co := co (ix1 0)

end Cert.QSpec

end
-- ==== Proof.KLayers.lean ====
/-
  The normalisation, the rectifier and the parameter broadcasts of the kernel body, read at one entry of a block: entry (r, d) depends on row r only.
-/
import proofs.«427821_j19241453486367_3_alg».proof.Proof.Body
import proofs.«427821_j19241453486367_3_alg».proof.Proof.Args
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.QNet

open Idealize.ShloMosaic Idealize.ShloMosaic.ValueIdx Idealize.SL.Sem Cert.KernelIdeal Cert.KernelIdeal.Gen

/-! ## Two readings of a column, and the pointwise reciprocal root -/

/-- A vector `[a]` cast to the column `[a, 1]` reads, at `(i, u)`, the vector at `i`. -/
theorem klayers_shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem klayers_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reciprocal root at an index is the reciprocal root of the element. -/
theorem klayers_rsqrt_apply {s : Shape} {φ : FTy} (a : FVec Ideal s φ) (i : s.Idx) : rsqrt a i = Ideal.rsqrt (a i) := rfl

/-! ## Parameter rows -/

theorem rows256_apply (v : Vec Ideal S256 .f32) (r : Fin 512) (d : Fin 256) : rows256 v (ix2 r d) = v (ix1 d) :=
  (broadcastTo_1b_ab_apply _ broadcasts_S1x256_S512x256 r d).trans (shapeCast_a_1a_apply v shapeCasts_S256_S1x256 0 d)

theorem rows512_apply (v : Vec Ideal S512 .f32) (r : Fin 512) (d : Fin 512) : rows512 v (ix2 r d) = v (ix1 d) :=
  (broadcastTo_1b_ab_apply _ broadcasts_S1x512_S512x512 r d).trans (shapeCast_a_1a_apply v shapeCasts_S512_S1x512 0 d)

/-! ## Rows of 256 entries -/

/-- The lane sum of a `[512, 256]` block at row `r` is the sum of the row's entries. -/
theorem klayers_rowSum256_apply (h : FVec Ideal S512x256 .f32) (r : Fin 512) :
    multiReduction (F := Ideal) .add [1] S512 h 0x00000000#32 reduces_S512x256_S512 (.inl rfl) rfl (ix1 r)
      = ∑ k : Fin 256, h (ix2 r k) := by
  refine (Ideal.multiReduction_add_single h 0x00000000#32 reduces_S512x256_S512 (.inl rfl) rfl (ix1 r)).trans ?_
  refine Finset.sum_congr rfl fun k _ => congrArg h (funext fun a => ?_)
  match a with
  | ⟨0, _⟩ => rfl
  | ⟨1, _⟩ => rfl

/-- The mean column at row `r` is the row's mean. -/
theorem klayers_rowMean256_apply (h : FVec Ideal S512x256 .f32) (r : Fin 512) :
    rowMean256 h (ix2 r (0 : Fin 1)) = QSpec.meanK QSpec.c256 (fun k => h (ix2 r k)) :=
  congrArg (Ideal.div · QSpec.c256) ((klayers_shapeCast_a_a1_apply (multiReduction (F := Ideal) .add [1] S512 h 0x00000000#32 reduces_S512x256_S512 (.inl rfl) rfl)
      shapeCasts_S512_S512x1 r 0).trans (klayers_rowSum256_apply h r))

/-- The centred block: each entry minus its row's mean. -/
def klayers_centre256 (h : FVec Ideal S512x256 .f32) : FVec Ideal S512x256 .f32 :=
  subf h (broadcastTo S512x256 (rowMean256 h) broadcasts_S512x1_S512x256)

theorem klayers_centre256_apply (h : FVec Ideal S512x256 .f32) (r : Fin 512) (k : Fin 256) :
    klayers_centre256 h (ix2 r k) = h (ix2 r k) - QSpec.meanK QSpec.c256 (fun k => h (ix2 r k)) :=
  congrArg (h (ix2 r k) - ·) ((klayers_broadcastTo_a1_ab_apply (rowMean256 h) broadcasts_S512x1_S512x256 r k).trans (klayers_rowMean256_apply h r))

theorem klayers_layerNorm256_eq (g b h : FVec Ideal S512x256 .f32) :
    layerNorm256 g b h = addf (mulf (mulf (klayers_centre256 h) (broadcastTo S512x256
      (rsqrt (addf (rowMean256 (mulf (klayers_centre256 h) (klayers_centre256 h))) (broadcast S512x1 QSpec.eps))) broadcasts_S512x1_S512x256)) g) b := rfl

theorem layerNorm256_apply (g b h : FVec Ideal S512x256 .f32) (r : Fin 512) (d : Fin 256) :
    layerNorm256 g b h (ix2 r d)
      = QSpec.lnK QSpec.c256 (fun k => g (ix2 r k)) (fun k => b (ix2 r k)) (fun k => h (ix2 r k)) d := by
  rw [klayers_layerNorm256_eq]
  unfold QSpec.lnK
  simp only [addf_apply, mulf_apply, klayers_broadcastTo_a1_ab_apply, klayers_rsqrt_apply, broadcast_apply, klayers_centre256_apply, klayers_rowMean256_apply]

theorem leaky256_apply (y : FVec Ideal S512x256 .f32) (r : Fin 512) (d : Fin 256) :
    leaky256 y (ix2 r d) = QSpec.leaky (y (ix2 r d)) := rfl

/-! ## Rows of 512 entries -/

/-- The lane sum of a `[512, 512]` block at row `r` is the sum of the row's entries. -/
theorem klayers_rowSum512_apply (h : FVec Ideal S512x512 .f32) (r : Fin 512) :
    multiReduction (F := Ideal) .add [1] S512 h 0x00000000#32 reduces_S512x512_S512 (.inl rfl) rfl (ix1 r)
      = ∑ k : Fin 512, h (ix2 r k) := by
  refine (Ideal.multiReduction_add_single h 0x00000000#32 reduces_S512x512_S512 (.inl rfl) rfl (ix1 r)).trans ?_
  refine Finset.sum_congr rfl fun k _ => congrArg h (funext fun a => ?_)
  match a with
  | ⟨0, _⟩ => rfl
  | ⟨1, _⟩ => rfl

/-- The mean column at row `r` is the row's mean. -/
theorem klayers_rowMean512_apply (h : FVec Ideal S512x512 .f32) (r : Fin 512) :
    rowMean512 h (ix2 r (0 : Fin 1)) = QSpec.meanK QSpec.c512 (fun k => h (ix2 r k)) :=
  congrArg (Ideal.div · QSpec.c512) ((klayers_shapeCast_a_a1_apply (multiReduction (F := Ideal) .add [1] S512 h 0x00000000#32 reduces_S512x512_S512 (.inl rfl) rfl)
      shapeCasts_S512_S512x1 r 0).trans (klayers_rowSum512_apply h r))

/-- The centred block: each entry minus its row's mean. -/
def klayers_centre512 (h : FVec Ideal S512x512 .f32) : FVec Ideal S512x512 .f32 :=
  subf h (broadcastTo S512x512 (rowMean512 h) broadcasts_S512x1_S512x512)

theorem klayers_centre512_apply (h : FVec Ideal S512x512 .f32) (r : Fin 512) (k : Fin 512) :
    klayers_centre512 h (ix2 r k) = h (ix2 r k) - QSpec.meanK QSpec.c512 (fun k => h (ix2 r k)) :=
  congrArg (h (ix2 r k) - ·) ((klayers_broadcastTo_a1_ab_apply (rowMean512 h) broadcasts_S512x1_S512x512 r k).trans (klayers_rowMean512_apply h r))

theorem klayers_layerNorm512_eq (g b h : FVec Ideal S512x512 .f32) :
    layerNorm512 g b h = addf (mulf (mulf (klayers_centre512 h) (broadcastTo S512x512
      (rsqrt (addf (rowMean512 (mulf (klayers_centre512 h) (klayers_centre512 h))) (broadcast S512x1 QSpec.eps))) broadcasts_S512x1_S512x512)) g) b := rfl

theorem layerNorm512_apply (g b h : FVec Ideal S512x512 .f32) (r : Fin 512) (d : Fin 512) :
    layerNorm512 g b h (ix2 r d)
      = QSpec.lnK QSpec.c512 (fun k => g (ix2 r k)) (fun k => b (ix2 r k)) (fun k => h (ix2 r k)) d := by
  rw [klayers_layerNorm512_eq]
  unfold QSpec.lnK
  simp only [addf_apply, mulf_apply, klayers_broadcastTo_a1_ab_apply, klayers_rsqrt_apply, broadcast_apply, klayers_centre512_apply, klayers_rowMean512_apply]

theorem leaky512_apply (y : FVec Ideal S512x512 .f32) (r : Fin 512) (d : Fin 512) :
    leaky512 y (ix2 r d) = QSpec.leaky (y (ix2 r d)) := rfl

end Cert.KernelIdeal.QNet

end
-- ==== Proof.KEmbed.lean ====
/-
  One pass of the loop read at one entry: the embedding of neighbour n at (r, e) is the row function's, and so are the mask, the indicator of the action and the slice.
-/
import proofs.«427821_j19241453486367_3_alg».proof.Proof.KLayers

noncomputable section

namespace Cert.KernelIdeal.QNet

open Idealize.ShloMosaic Idealize.ShloMosaic.ValueIdx Idealize.SL.Sem Cert.KernelIdeal Cert.KernelIdeal.Gen

/-- The row functions' parameters as the body's loads hold them (weights transposed). -/
def pOf (L : Loads Ideal) : QSpec.RowP :=
  QSpec.rowPT L.w1 L.c1 L.g1 L.b1 L.w2 L.c2 L.g2 L.b2 L.w3 L.c3 L.wf L.cf L.gf L.bf L.wo L.co

/-! ## A plain matrix product read at an entry

A product of an m × k block with a k × n block (contraction over the left operand's columns and the right operand's
rows, no batch axis) into the zero block is, at (r, c), the sum over t of left (r, t) times right (t, c). -/

section PlainDot
variable {m k n : ℕ} (D : DotDims ⟨2, ![m, k]⟩ ⟨2, ![k, n]⟩ ⟨2, ![m, n]⟩)

/-- A coordinate of an index does not depend on how its axis number is written. -/
theorem kembed_coord_congr {S : Shape} (i : S.Idx) (p q : ℕ) (hp : p < S.rank) (hq : q < S.rank) (h : p = q) :
    (i ⟨p, hp⟩).val = (i ⟨q, hq⟩).val := by subst h; rfl

/-- The left operand's row is the result's row. -/
theorem kembed_lhs_0 (hlb : D.lhsBatch = []) (hln : D.lhsNonContracting = [0])
    (i : (⟨2, ![m, n]⟩ : Shape).Idx) (q : D.contr.Idx) : (D.lhsIdx i q 0).val = (i 0).val := by
  unfold DotDims.lhsIdx
  rw [dif_neg (by rw [hlb]; exact List.not_mem_nil), dif_pos (by rw [hln]; exact List.mem_singleton.mpr rfl)]
  simp only [Fin.val_cast]
  exact kembed_coord_congr i _ _ _ _ (by simp [hlb, hln])

/-- The right operand's column is the result's column. -/
theorem kembed_rhs_1 (hlb : D.lhsBatch = []) (hln : D.lhsNonContracting = [0]) (hrb : D.rhsBatch = []) (hrn : D.rhsNonContracting = [1])
    (i : (⟨2, ![m, n]⟩ : Shape).Idx) (q : D.contr.Idx) : (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact kembed_coord_congr i _ _ _ _ (by simp [hlb, hln, hrn])

/-- The product at (r, c). -/
theorem kembed_mm_apply
    (hlb : D.lhsBatch = []) (hln : D.lhsNonContracting = [0]) (hlc : D.lhsContracting = [1])
    (hrb : D.rhsBatch = []) (hrn : D.rhsNonContracting = [1]) (hrc : D.rhsContracting = [0])
    (hr : D.contr.rank = 1) (hs : D.contr.size ⟨0, by omega⟩ = k)
    {φ₁ φ₂ : FTy} (a : FVec Ideal ⟨2, ![m, k]⟩ φ₁) (w : FVec Ideal ⟨2, ![k, n]⟩ φ₂) (r : Fin m) (c : Fin n) :
    matmul D none a w (constant ⟨2, ![m, n]⟩ .f32 0x00000000#32) (ix2 r c) = ∑ t : Fin k, a (ix2 r t) * w (ix2 t c) := by
  simp only [matmul]
  rw [Ideal.matmul_constant_zero_apply, ← Equiv.sum_comp (contrEquiv1 D k hr hs).symm]
  refine Finset.sum_congr rfl fun t _ => ?_
  have hk := contrEquiv1_symm_val D k hr hs t
  have el : D.lhsIdx (ix2 r c) ((contrEquiv1 D k hr hs).symm t) = ix2 r t := funext fun ax => Fin.ext (by
    match ax with
    | ⟨0, _⟩ => exact kembed_lhs_0 D hlb hln _ _
    | ⟨1, _⟩ => exact (D.lhsIdx_val_of_single hlc _ _).trans hk)
  have er : D.rhsIdx (ix2 r c) ((contrEquiv1 D k hr hs).symm t) = ix2 t c := funext fun ax => Fin.ext (by
    match ax with
    | ⟨0, _⟩ => exact (D.rhsIdx_val_of_single hrc _ _).trans hk
    | ⟨1, _⟩ => exact kembed_rhs_1 D hlb hln hrb hrn _ _)
  rw [el, er]

end PlainDot

/-! ## Layout readings -/

/-- A vector of a entries cast to a column reads, at (i, u), the vector at i. -/
theorem kembed_shapeCast_col {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the five columns of a block, at row r. -/
theorem kembed_rowsum5 (src : FVec Ideal S512x5 .f32) (hφ : FKind.Formats .f32)
    (hacc : (0x00000000#32 : BitVec 32) = 0x00000000#32) (r : Fin 512) :
    multiReduction (F := Ideal) .add [1] S512 src 0x00000000#32 reduces_S512x5_S512 hφ hacc (ix1 r) = ∑ j : Fin 5, src (ix2 r j) := by
  refine (Ideal.multiReduction_add_single src 0x00000000#32 reduces_S512x5_S512 hφ hacc (ix1 r)).trans ?_
  refine Finset.sum_congr rfl fun j _ => congrArg src ?_
  funext ax
  match ax with
  | ⟨0, _⟩ => rfl
  | ⟨1, _⟩ => rfl

/-! ## The slice, the mask and the indicator -/

theorem nbOf_apply (x : Vec Ideal S512x323 .f32) (n : ℕ) (h : n < 64) (r : Fin 512) (j : Fin 5) :
    nbOf x n h (ix2 r j) = QSpec.nbr (QSpec.xrow x r) n j := by
  have hlt : 3 + 5 * n + j.val < 323 := by have := j.isLt; omega
  unfold nbOf QSpec.nbr QSpec.xrow
  show _ = dite _ _ _
  rw [dif_pos hlt]
  exact slice2_axis1_apply (3 + 5 * n) x (nbSlices n h) r j ⟨3 + 5 * n + j.val, hlt⟩ rfl

theorem rowMask_apply (x : Vec Ideal S512x323 .f32) (n : ℕ) (h : n < 64) (r : Fin 512) :
    rowMask (nbOf x n h) (ix2 r 0) = QSpec.maskK (QSpec.xrow x r) n := by
  unfold rowMask QSpec.maskK
  show QSpec.bitS (Ideal.cmp .ogt (shapeCast S512x1 (multiReduction (F := Ideal) .add [1] S512 _ 0x00000000#32 reduces_S512x5_S512 _ _)
    shapeCasts_S512_S512x1 (ix2 r 0)) QSpec.zero) = _
  rw [kembed_shapeCast_col]
  refine congrArg (fun s => QSpec.bitS (Ideal.cmp .ogt s QSpec.zero))
    ((kembed_rowsum5 _ _ _ r).trans (Finset.sum_congr rfl fun j _ => ?_))
  show QSpec.bitS (Ideal.cmp .one (nbOf x n h (ix2 r j)) QSpec.zero) = _
  rw [nbOf_apply]

theorem pick_apply (act : IVec S512x1 32) (n : ℕ) (r : Fin 512) :
    pick (F := Ideal) act n (ix2 r 0) = QSpec.pickK (act (ix2 r 0)) n := rfl

/-! ## The three layers of the embedding -/

/-- The current position at (r, i) is the row's column i. -/
theorem kembed_curPos_apply (L : Loads Ideal) (r : Fin 512) (i : Fin 3) :
    curPos L (ix2 r i) = QSpec.xrow L.x r i.val := by
  have hlt : i.val < 323 := by have := i.isLt; omega
  unfold curPos QSpec.xrow
  show _ = dite _ _ _
  rw [dif_pos hlt]
  exact slice2_axis1_apply 0 L.x slices_S512x323_o0_0_S512x3 r i ⟨i.val, hlt⟩ (Nat.zero_add _).symm

/-- The first three rows of the first layer's weight block. -/
theorem kembed_w1a_apply (L : Loads Ideal) (i : Fin 3) (d : Fin 256) :
    extractStridedSlice S3x256 ![0, 0] (shapeCast S8x256 L.w1 shapeCasts_S8x256_S8x256) slices_S8x256_o0_0_S3x256 (ix2 i d)
      = (pOf L).W1 d ⟨i.val, by omega⟩ := by
  rw [shapeCast_self]
  exact slice2_axis0_apply 0 L.w1 slices_S8x256_o0_0_S3x256 i d ⟨i.val, by omega⟩ (Nat.zero_add _).symm

/-- Its last five rows. -/
theorem kembed_w1b_apply (L : Loads Ideal) (j : Fin 5) (d : Fin 256) :
    extractStridedSlice S5x256 ![3, 0] (shapeCast S8x256 L.w1 shapeCasts_S8x256_S8x256) slices_S8x256_o3_0_S5x256 (ix2 j d)
      = (pOf L).W1 d ⟨3 + j.val, by omega⟩ := by
  rw [shapeCast_self]
  exact slice2_axis0_apply 3 L.w1 slices_S8x256_o3_0_S5x256 j d ⟨3 + j.val, by omega⟩ rfl

/-- The position part of the first layer, with its bias. -/
theorem kembed_base_apply (L : Loads Ideal) (r : Fin 512) (d : Fin 256) :
    (paramsOf L).base (ix2 r d) = QSpec.baseK (pOf L) (QSpec.xrow L.x r) d := by
  show matmul dot_S512x3_S3x256_S512x256_1_0_0_1_n_n none (truncf .bf16 (curPos L) bitsLt_bf16_f32)
      (extractStridedSlice S3x256 ![0, 0] (shapeCast S8x256 L.w1 shapeCasts_S8x256_S8x256) slices_S8x256_o0_0_S3x256)
      (constant S512x256 .f32 0x00000000#32) (ix2 r d) + rows256 L.c1 (ix2 r d) = _
  rw [kembed_mm_apply dot_S512x3_S3x256_S512x256_1_0_0_1_n_n rfl rfl rfl rfl rfl rfl rfl rfl, rows256_apply]
  unfold QSpec.baseK
  refine congrArg₂ (· + ·) (Finset.sum_congr rfl fun i _ => ?_) rfl
  show curPos L (ix2 r i) * _ = _
  rw [kembed_curPos_apply, kembed_w1a_apply]

/-- The first layer before its normalisation. -/
def kembedPre1 (p : Params Ideal) (nb : FVec Ideal S512x5 .f32) : FVec Ideal S512x256 .f32 :=
  addf p.base (matmul dot_S512x5_S5x256_S512x256_1_0_0_1_n_n none (truncf .bf16 nb bitsLt_bf16_f32) p.w1t (constant S512x256 .f32 0x00000000#32))

/-- The first layer's output. -/
def kembedH1 (p : Params Ideal) (nb : FVec Ideal S512x5 .f32) : FVec Ideal S512x256 .f32 :=
  leaky256 (layerNorm256 p.g1 p.b1 (kembedPre1 p nb))

/-- The second layer before its normalisation. -/
def kembedPre2 (p : Params Ideal) (nb : FVec Ideal S512x5 .f32) : FVec Ideal S512x256 .f32 :=
  addf (matmul dot_S512x256_S256x256_S512x256_1_0_0_1_n_n none (truncf .bf16 (kembedH1 p nb) bitsLt_bf16_f32) p.w2 (constant S512x256 .f32 0x00000000#32)) p.c2

/-- The second layer's output. -/
def kembedH2 (p : Params Ideal) (nb : FVec Ideal S512x5 .f32) : FVec Ideal S512x256 .f32 :=
  leaky256 (layerNorm256 p.g2 p.b2 (kembedPre2 p nb))

/-- The embedding is the last linear map applied to the second layer's output. -/
theorem kembed_embed_eq (p : Params Ideal) (nb : FVec Ideal S512x5 .f32) :
    embed p nb = addf (matmul dot_S512x256_S256x128_S512x128_1_0_0_1_n_n none (truncf .bf16 (kembedH2 p nb) bitsLt_bf16_f32) p.w3
      (constant S512x128 .f32 0x00000000#32)) p.c3 := rfl

theorem kembed_pre1_apply (L : Loads Ideal) (n : ℕ) (h : n < 64) (r : Fin 512) (d : Fin 256) :
    kembedPre1 (paramsOf L) (nbOf L.x n h) (ix2 r d)
      = QSpec.baseK (pOf L) (QSpec.xrow L.x r) d
        + ∑ j : Fin 5, QSpec.nbr (QSpec.xrow L.x r) n j * (pOf L).W1 d ⟨3 + j.val, by omega⟩ := by
  show (paramsOf L).base (ix2 r d) + matmul dot_S512x5_S5x256_S512x256_1_0_0_1_n_n none (truncf .bf16 (nbOf L.x n h) bitsLt_bf16_f32)
      (extractStridedSlice S5x256 ![3, 0] (shapeCast S8x256 L.w1 shapeCasts_S8x256_S8x256) slices_S8x256_o3_0_S5x256)
      (constant S512x256 .f32 0x00000000#32) (ix2 r d) = _
  rw [kembed_base_apply, kembed_mm_apply dot_S512x5_S5x256_S512x256_1_0_0_1_n_n rfl rfl rfl rfl rfl rfl rfl rfl]
  refine congrArg (_ + ·) (Finset.sum_congr rfl fun j _ => ?_)
  show nbOf L.x n h (ix2 r j) * _ = _
  rw [nbOf_apply, kembed_w1b_apply]

theorem kembed_h1_apply (L : Loads Ideal) (n : ℕ) (h : n < 64) (r : Fin 512) (d : Fin 256) :
    kembedH1 (paramsOf L) (nbOf L.x n h) (ix2 r d) = QSpec.h1K (pOf L) (QSpec.xrow L.x r) n d := by
  have hg : (fun k => (paramsOf L).g1 (ix2 r k)) = (pOf L).g1 := funext fun k => rows256_apply L.g1 r k
  have hb : (fun k => (paramsOf L).b1 (ix2 r k)) = (pOf L).b1 := funext fun k => rows256_apply L.b1 r k
  have hx : (fun k => kembedPre1 (paramsOf L) (nbOf L.x n h) (ix2 r k))
      = fun d' => QSpec.baseK (pOf L) (QSpec.xrow L.x r) d'
        + ∑ j : Fin 5, QSpec.nbr (QSpec.xrow L.x r) n j * (pOf L).W1 d' ⟨3 + j.val, by omega⟩ :=
    funext fun k => kembed_pre1_apply L n h r k
  unfold kembedH1 QSpec.h1K
  rw [leaky256_apply, layerNorm256_apply, hg, hb, hx]

theorem kembed_pre2_apply (L : Loads Ideal) (n : ℕ) (h : n < 64) (r : Fin 512) (d : Fin 256) :
    kembedPre2 (paramsOf L) (nbOf L.x n h) (ix2 r d)
      = (∑ k : Fin 256, QSpec.h1K (pOf L) (QSpec.xrow L.x r) n k * (pOf L).W2 d k) + (pOf L).c2 d := by
  show matmul dot_S512x256_S256x256_S512x256_1_0_0_1_n_n none (truncf .bf16 (kembedH1 (paramsOf L) (nbOf L.x n h)) bitsLt_bf16_f32)
      (shapeCast S256x256 L.w2 shapeCasts_S256x256_S256x256) (constant S512x256 .f32 0x00000000#32) (ix2 r d) + rows256 L.c2 (ix2 r d) = _
  rw [kembed_mm_apply dot_S512x256_S256x256_S512x256_1_0_0_1_n_n rfl rfl rfl rfl rfl rfl rfl rfl, rows256_apply, shapeCast_self]
  refine congrArg₂ (· + ·) (Finset.sum_congr rfl fun k _ => ?_) rfl
  show kembedH1 (paramsOf L) (nbOf L.x n h) (ix2 r k) * _ = _
  rw [kembed_h1_apply]
  rfl

theorem kembed_h2_apply (L : Loads Ideal) (n : ℕ) (h : n < 64) (r : Fin 512) (d : Fin 256) :
    kembedH2 (paramsOf L) (nbOf L.x n h) (ix2 r d) = QSpec.h2K (pOf L) (QSpec.xrow L.x r) n d := by
  have hg : (fun k => (paramsOf L).g2 (ix2 r k)) = (pOf L).g2 := funext fun k => rows256_apply L.g2 r k
  have hb : (fun k => (paramsOf L).b2 (ix2 r k)) = (pOf L).b2 := funext fun k => rows256_apply L.b2 r k
  have hx : (fun k => kembedPre2 (paramsOf L) (nbOf L.x n h) (ix2 r k))
      = fun d' => (∑ k : Fin 256, QSpec.h1K (pOf L) (QSpec.xrow L.x r) n k * (pOf L).W2 d' k) + (pOf L).c2 d' :=
    funext fun k => kembed_pre2_apply L n h r k
  unfold kembedH2 QSpec.h2K
  rw [leaky256_apply, layerNorm256_apply, hg, hb, hx]

theorem embed_apply (L : Loads Ideal) (n : ℕ) (h : n < 64) (r : Fin 512) (e : Fin 128) :
    embed (paramsOf L) (nbOf L.x n h) (ix2 r e) = QSpec.embK (pOf L) (QSpec.xrow L.x r) n e := by
  rw [kembed_embed_eq]
  show matmul dot_S512x256_S256x128_S512x128_1_0_0_1_n_n none (truncf .bf16 (kembedH2 (paramsOf L) (nbOf L.x n h)) bitsLt_bf16_f32)
      (shapeCast S256x128 L.w3 shapeCasts_S256x128_S256x128) (constant S512x128 .f32 0x00000000#32) (ix2 r e)
    + broadcastTo S512x128 (shapeCast S1x128 L.c3 shapeCasts_S128_S1x128) broadcasts_S1x128_S512x128 (ix2 r e) = _
  rw [kembed_mm_apply dot_S512x256_S256x128_S512x128_1_0_0_1_n_n rfl rfl rfl rfl rfl rfl rfl rfl, shapeCast_self,
    broadcastTo_1b_ab_apply, shapeCast_a_1a_apply]
  unfold QSpec.embK
  refine congrArg₂ (· + ·) (Finset.sum_congr rfl fun k _ => ?_) rfl
  show kembedH2 (paramsOf L) (nbOf L.x n h) (ix2 r k) * _ = _
  rw [kembed_h2_apply]
  rfl

end Cert.KernelIdeal.QNet

end
-- ==== Proof.KRun.lean ====
/-
  The four running arrays after k passes, read at one entry, are the row function's running sums.
-/
import proofs.«427821_j19241453486367_3_alg».proof.Proof.KEmbed

noncomputable section

namespace Cert.KernelIdeal.QNet

open Idealize.ShloMosaic Idealize.ShloMosaic.ValueIdx Idealize.SL.Sem Cert.KernelIdeal Cert.KernelIdeal.Gen

/-- The action words as the loop reads them. -/
abbrev actOf (L : Loads Ideal) : IVec S512x1 32 := shapeCast S512x1 L.act shapeCasts_S512x1_S512x1

theorem actOf_apply (L : Loads Ideal) (r : Fin 512) : actOf L (ix2 r 0) = L.act (ix2 r 0) :=
  congrFun (shapeCast_self L.act shapeCasts_S512x1_S512x1) (ix2 r 0)

/-- A column `[a, 1]` broadcast to `[a, b]` reads, at `(p, c)`, the column's entry of row `p`. -/
theorem krun_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The indicator column of the loop's action words at row `r` is the row function's indicator of that row's word. -/
theorem krun_pick_actOf_apply (L : Loads Ideal) (n : ℕ) (r : Fin 512) :
    pick (F := Ideal) (actOf L) n (ix2 r 0) = QSpec.pickK (L.act (ix2 r 0)) n := by
  rw [pick_apply, actOf_apply]

theorem run_pool (L : Loads Ideal) (k : ℕ) (hk : k ≤ 64) (r : Fin 512) (e : Fin 128) :
    (run (paramsOf L) L.x (actOf L) k hk).pool (ix2 r e) = QSpec.poolK (pOf L) (QSpec.xrow L.x r) e k := by
  induction k with
  | zero => rfl
  | succ k ih =>
    have hk' : k < 64 := by omega
    show (run (paramsOf L) L.x (actOf L) k (by omega)).pool (ix2 r e)
        + embed (paramsOf L) (nbOf L.x k hk') (ix2 r e)
          * broadcastTo S512x128 (rowMask (nbOf L.x k hk')) broadcasts_S512x1_S512x128 (ix2 r e)
      = QSpec.poolK (pOf L) (QSpec.xrow L.x r) e k
        + QSpec.embK (pOf L) (QSpec.xrow L.x r) k e * QSpec.maskK (QSpec.xrow L.x r) k
    rw [ih, krun_broadcastTo_a1_ab_apply, embed_apply, rowMask_apply]

theorem run_cnt (L : Loads Ideal) (k : ℕ) (hk : k ≤ 64) (r : Fin 512) :
    (run (paramsOf L) L.x (actOf L) k hk).cnt (ix2 r 0) = QSpec.cntK (QSpec.xrow L.x r) k := by
  induction k with
  | zero => rfl
  | succ k ih =>
    have hk' : k < 64 := by omega
    show (run (paramsOf L) L.x (actOf L) k (by omega)).cnt (ix2 r 0) + rowMask (nbOf L.x k hk') (ix2 r 0)
      = QSpec.cntK (QSpec.xrow L.x r) k + QSpec.maskK (QSpec.xrow L.x r) k
    rw [ih, rowMask_apply]

theorem run_cemb (L : Loads Ideal) (k : ℕ) (hk : k ≤ 64) (r : Fin 512) (e : Fin 128) :
    (run (paramsOf L) L.x (actOf L) k hk).cemb (ix2 r e) = QSpec.cembK (pOf L) (QSpec.xrow L.x r) (L.act (ix2 r 0)) e k := by
  induction k with
  | zero => rfl
  | succ k ih =>
    have hk' : k < 64 := by omega
    show (run (paramsOf L) L.x (actOf L) k (by omega)).cemb (ix2 r e)
        + embed (paramsOf L) (nbOf L.x k hk') (ix2 r e)
          * broadcastTo S512x128 (pick (F := Ideal) (actOf L) k) broadcasts_S512x1_S512x128 (ix2 r e)
      = QSpec.cembK (pOf L) (QSpec.xrow L.x r) (L.act (ix2 r 0)) e k
        + QSpec.embK (pOf L) (QSpec.xrow L.x r) k e * QSpec.pickK (L.act (ix2 r 0)) k
    rw [ih, krun_broadcastTo_a1_ab_apply, embed_apply, krun_pick_actOf_apply]

theorem run_cstate (L : Loads Ideal) (k : ℕ) (hk : k ≤ 64) (r : Fin 512) (j : Fin 5) :
    (run (paramsOf L) L.x (actOf L) k hk).cstate (ix2 r j) = QSpec.cstateK (QSpec.xrow L.x r) (L.act (ix2 r 0)) j k := by
  induction k with
  | zero => rfl
  | succ k ih =>
    have hk' : k < 64 := by omega
    show (run (paramsOf L) L.x (actOf L) k (by omega)).cstate (ix2 r j)
        + nbOf L.x k hk' (ix2 r j)
          * broadcastTo S512x5 (pick (F := Ideal) (actOf L) k) broadcasts_S512x1_S512x5 (ix2 r j)
      = QSpec.cstateK (QSpec.xrow L.x r) (L.act (ix2 r 0)) j k
        + QSpec.nbr (QSpec.xrow L.x r) k j * QSpec.pickK (L.act (ix2 r 0)) k
    rw [ih, krun_broadcastTo_a1_ab_apply, nbOf_apply, krun_pick_actOf_apply]

end Cert.KernelIdeal.QNet

end
-- ==== Proof.KFinish.lean ====
/-
  The stored value read at row r is the kernel's row function of row r.
-/
import proofs.«427821_j19241453486367_3_alg».proof.Proof.KRun

noncomputable section

namespace Cert.KernelIdeal.QNet

open Idealize.ShloMosaic Idealize.ShloMosaic.ValueIdx Idealize.SL.Sem Cert.KernelIdeal Cert.KernelIdeal.Gen

/-! ## The two last products read at an entry

Each is a plain row-by-column contraction: the left index of output entry (r, d) and contraction position k is
(r, k), the right one (k, d). -/

theorem kfinish_lhsF_0 (i : S512x512.Idx) (q : dot_S512x264_S264x512_S512x512_1_0_0_1_n_n.contr.Idx) :
    (dot_S512x264_S264x512_S512x512_1_0_0_1_n_n.lhsIdx i q 0).val = (i 0).val := by
  unfold DotDims.lhsIdx
  rw [dif_neg (show ¬(0 : Fin S512x264.rank) ∈ dot_S512x264_S264x512_S512x512_1_0_0_1_n_n.lhsBatch by decide),
    dif_pos (show (0 : Fin S512x264.rank) ∈ dot_S512x264_S264x512_S512x512_1_0_0_1_n_n.lhsNonContracting by decide)]
  rfl
theorem kfinish_lhsF_1 (i : S512x512.Idx) (q : dot_S512x264_S264x512_S512x512_1_0_0_1_n_n.contr.Idx) :
    (dot_S512x264_S264x512_S512x512_1_0_0_1_n_n.lhsIdx i q 1).val = (q ⟨0, by decide⟩).val :=
  dot_S512x264_S264x512_S512x512_1_0_0_1_n_n.lhsIdx_val_of_single rfl i q
theorem kfinish_rhsF_0 (i : S512x512.Idx) (q : dot_S512x264_S264x512_S512x512_1_0_0_1_n_n.contr.Idx) :
    (dot_S512x264_S264x512_S512x512_1_0_0_1_n_n.rhsIdx i q 0).val = (q ⟨0, by decide⟩).val :=
  dot_S512x264_S264x512_S512x512_1_0_0_1_n_n.rhsIdx_val_of_single rfl i q
theorem kfinish_rhsF_1 (i : S512x512.Idx) (q : dot_S512x264_S264x512_S512x512_1_0_0_1_n_n.contr.Idx) :
    (dot_S512x264_S264x512_S512x512_1_0_0_1_n_n.rhsIdx i q 1).val = (i 1).val := by
  unfold DotDims.rhsIdx
  rw [dif_neg (show ¬(1 : Fin S264x512.rank) ∈ dot_S512x264_S264x512_S512x512_1_0_0_1_n_n.rhsBatch by decide),
    dif_pos (show (1 : Fin S264x512.rank) ∈ dot_S512x264_S264x512_S512x512_1_0_0_1_n_n.rhsNonContracting by decide)]
  rfl

/-- The product with the 264-row weight, into the zero block, at (r, d). -/
theorem kfinish_matF_apply (x : FVec Ideal S512x264 .bf16) (w : FVec Ideal S264x512 .bf16) (r : Fin 512) (d : Fin 512) :
    matmul dot_S512x264_S264x512_S512x512_1_0_0_1_n_n none x w (constant (F := Ideal) S512x512 .f32 0x00000000#32) (ix2 r d)
      = ∑ f : Fin 264, x (ix2 r f) * w (ix2 f d) := by
  simp only [matmul]
  rw [Ideal.matmul_constant_zero_apply,
    ← Equiv.sum_comp (contrEquiv1 dot_S512x264_S264x512_S512x512_1_0_0_1_n_n 264 rfl rfl).symm]
  refine Finset.sum_congr rfl fun k _ => ?_
  have hk := contrEquiv1_symm_val dot_S512x264_S264x512_S512x512_1_0_0_1_n_n 264 rfl rfl k
  have el : dot_S512x264_S264x512_S512x512_1_0_0_1_n_n.lhsIdx (ix2 r d)
      ((contrEquiv1 dot_S512x264_S264x512_S512x512_1_0_0_1_n_n 264 rfl rfl).symm k) = ix2 r k :=
    funext fun ax => Fin.ext (by
      match ax with
      | ⟨0, _⟩ => exact kfinish_lhsF_0 _ _
      | ⟨1, _⟩ => exact (kfinish_lhsF_1 _ _).trans hk)
  have er : dot_S512x264_S264x512_S512x512_1_0_0_1_n_n.rhsIdx (ix2 r d)
      ((contrEquiv1 dot_S512x264_S264x512_S512x512_1_0_0_1_n_n 264 rfl rfl).symm k) = ix2 k d :=
    funext fun ax => Fin.ext (by
      match ax with
      | ⟨0, _⟩ => exact (kfinish_rhsF_0 _ _).trans hk
      | ⟨1, _⟩ => exact kfinish_rhsF_1 _ _)
  rw [el, er]

theorem kfinish_lhsO_0 (i : S512x1.Idx) (q : dot_S512x512_S512x1_S512x1_1_0_0_1_n_n.contr.Idx) :
    (dot_S512x512_S512x1_S512x1_1_0_0_1_n_n.lhsIdx i q 0).val = (i 0).val := by
  unfold DotDims.lhsIdx
  rw [dif_neg (show ¬(0 : Fin S512x512.rank) ∈ dot_S512x512_S512x1_S512x1_1_0_0_1_n_n.lhsBatch by decide),
    dif_pos (show (0 : Fin S512x512.rank) ∈ dot_S512x512_S512x1_S512x1_1_0_0_1_n_n.lhsNonContracting by decide)]
  rfl
theorem kfinish_lhsO_1 (i : S512x1.Idx) (q : dot_S512x512_S512x1_S512x1_1_0_0_1_n_n.contr.Idx) :
    (dot_S512x512_S512x1_S512x1_1_0_0_1_n_n.lhsIdx i q 1).val = (q ⟨0, by decide⟩).val :=
  dot_S512x512_S512x1_S512x1_1_0_0_1_n_n.lhsIdx_val_of_single rfl i q
theorem kfinish_rhsO_0 (i : S512x1.Idx) (q : dot_S512x512_S512x1_S512x1_1_0_0_1_n_n.contr.Idx) :
    (dot_S512x512_S512x1_S512x1_1_0_0_1_n_n.rhsIdx i q 0).val = (q ⟨0, by decide⟩).val :=
  dot_S512x512_S512x1_S512x1_1_0_0_1_n_n.rhsIdx_val_of_single rfl i q
theorem kfinish_rhsO_1 (i : S512x1.Idx) (q : dot_S512x512_S512x1_S512x1_1_0_0_1_n_n.contr.Idx) :
    (dot_S512x512_S512x1_S512x1_1_0_0_1_n_n.rhsIdx i q 1).val = (i 1).val := by
  unfold DotDims.rhsIdx
  rw [dif_neg (show ¬(1 : Fin S512x1.rank) ∈ dot_S512x512_S512x1_S512x1_1_0_0_1_n_n.rhsBatch by decide),
    dif_pos (show (1 : Fin S512x1.rank) ∈ dot_S512x512_S512x1_S512x1_1_0_0_1_n_n.rhsNonContracting by decide)]
  rfl

/-- The product with the one-column weight, into the zero block, at (r, 0). -/
theorem kfinish_matO_apply (y : FVec Ideal S512x512 .bf16) (w : FVec Ideal S512x1 .bf16) (r : Fin 512) :
    matmul dot_S512x512_S512x1_S512x1_1_0_0_1_n_n none y w (constant (F := Ideal) S512x1 .f32 0x00000000#32) (ix2 r 0)
      = ∑ k : Fin 512, y (ix2 r k) * w (ix2 k 0) := by
  simp only [matmul]
  rw [Ideal.matmul_constant_zero_apply,
    ← Equiv.sum_comp (contrEquiv1 dot_S512x512_S512x1_S512x1_1_0_0_1_n_n 512 rfl rfl).symm]
  refine Finset.sum_congr rfl fun k _ => ?_
  have hk := contrEquiv1_symm_val dot_S512x512_S512x1_S512x1_1_0_0_1_n_n 512 rfl rfl k
  have el : dot_S512x512_S512x1_S512x1_1_0_0_1_n_n.lhsIdx (ix2 r 0)
      ((contrEquiv1 dot_S512x512_S512x1_S512x1_1_0_0_1_n_n 512 rfl rfl).symm k) = ix2 r k :=
    funext fun ax => Fin.ext (by
      match ax with
      | ⟨0, _⟩ => exact kfinish_lhsO_0 _ _
      | ⟨1, _⟩ => exact (kfinish_lhsO_1 _ _).trans hk)
  have er : dot_S512x512_S512x1_S512x1_1_0_0_1_n_n.rhsIdx (ix2 r 0)
      ((contrEquiv1 dot_S512x512_S512x1_S512x1_1_0_0_1_n_n 512 rfl rfl).symm k) = ix2 k 0 :=
    funext fun ax => Fin.ext (by
      match ax with
      | ⟨0, _⟩ => exact (kfinish_rhsO_0 _ _).trans hk
      | ⟨1, _⟩ => exact kfinish_rhsO_1 _ _)
  rw [el, er]

/-! ## The pieces of the concatenation -/

/-- The current position at (r, c) is column c of row r. -/
theorem kfinish_curPos_apply (L : Loads Ideal) (r : Fin 512) (c : Fin 3) : curPos L (ix2 r c) = QSpec.xrow L.x r c.val := by
  have hc : c.val < 323 := by omega
  show extractStridedSlice S512x3 ![0, 0] L.x slices_S512x323_o0_0_S512x3 (ix2 r c)
    = if h : c.val < 323 then L.x (ix2 r ⟨c.val, h⟩) else 0
  rw [dif_pos hc]
  exact extractStridedSlice_apply _ L.x _ (ix2 r c) (ix2 r ⟨c.val, hc⟩) (fun ax => match ax with
    | ⟨0, _⟩ => by show r.val = 0 + r.val; omega
    | ⟨1, _⟩ => by show c.val = 0 + c.val; omega)

/-- The pooled embedding: the masked sum over the count, the count raised to at least one. -/
def kfinish_pooledOf (a : Acc Ideal) : FVec Ideal S512x128 .f32 :=
  divf a.pool (broadcastTo S512x128 (maximumf a.cnt (broadcast S512x1 (Scalar.ofBits .f32 0x3F800000#32))) broadcasts_S512x1_S512x128)

theorem kfinish_pooledOf_apply (a : Acc Ideal) (r : Fin 512) (e : Fin 128) :
    kfinish_pooledOf a (ix2 r e) = Ideal.div (a.pool (ix2 r e)) (max (a.cnt (ix2 r 0)) QSpec.one) := by
  unfold kfinish_pooledOf
  rw [divf_apply]
  congr 1
  refine (broadcastTo_apply _ broadcasts_S512x1_S512x128 (ix2 r e) (ix2 r 0) (fun ax => match ax with
    | ⟨0, _⟩ => by show r.val = if (512 : ℕ) = 1 then 0 else r.val; rw [if_neg (by decide)]
    | ⟨1, _⟩ => by show (0 : ℕ) = if (1 : ℕ) = 1 then 0 else e.val; rw [if_pos rfl])).trans ?_
  rfl

/-- Four blocks of 3, 128, 128 and 5 columns side by side, read at column f: the block whose span holds f. -/
theorem kfinish_concat4_apply (p0 : FVec Ideal S512x3 .f32) (p1 p2 : FVec Ideal S512x128 .f32) (p3 : FVec Ideal S512x5 .f32)
    (r : Fin 512) (f : Fin 264) :
    concatenate S512x264 1 [⟨S512x3, p0⟩, ⟨S512x128, p1⟩, ⟨S512x128, p2⟩, ⟨S512x5, p3⟩] concatenates_S512x3_S512x128_S512x128_S512x5_S512x264_d1 (ix2 r f)
      = if h3 : f.val < 3 then p0 (ix2 r ⟨f.val, h3⟩)
        else if h131 : f.val < 131 then p1 (ix2 r ⟨f.val - 3, by omega⟩)
        else if h259 : f.val < 259 then p2 (ix2 r ⟨f.val - 131, by omega⟩)
        else p3 (ix2 r ⟨f.val - 259, by omega⟩) := by
  have hf : f.val < 264 := f.isLt
  by_cases h3 : f.val < 3
  · rw [dif_pos h3]
    exact concatenate_apply_piece (1 : Fin S512x264.rank) [⟨S512x3, p0⟩, ⟨S512x128, p1⟩, ⟨S512x128, p2⟩, ⟨S512x5, p3⟩] concatenates_S512x3_S512x128_S512x128_S512x5_S512x264_d1
      (ix2 r f) 0 (by show (0 : ℕ) < 4; omega) S512x3 p0 rfl rfl 0 (by first | rfl | decide) (ix2 r ⟨f.val, h3⟩)
      (fun b hb => match b, hb with
        | ⟨0, _⟩, _ => rfl
        | ⟨1, _⟩, hb => absurd (Fin.ext rfl) hb)
      (by show 0 + f.val = f.val; omega)
  · rw [dif_neg h3]
    by_cases h131 : f.val < 131
    · rw [dif_pos h131]
      exact concatenate_apply_piece (1 : Fin S512x264.rank) [⟨S512x3, p0⟩, ⟨S512x128, p1⟩, ⟨S512x128, p2⟩, ⟨S512x5, p3⟩] concatenates_S512x3_S512x128_S512x128_S512x5_S512x264_d1
        (ix2 r f) 1 (by show (1 : ℕ) < 4; omega) S512x128 p1 rfl rfl 3 (by first | rfl | decide) (ix2 r ⟨f.val - 3, by omega⟩)
        (fun b hb => match b, hb with
          | ⟨0, _⟩, _ => rfl
          | ⟨1, _⟩, hb => absurd (Fin.ext rfl) hb)
        (by show 3 + (f.val - 3) = f.val; omega)
    · rw [dif_neg h131]
      by_cases h259 : f.val < 259
      · rw [dif_pos h259]
        exact concatenate_apply_piece (1 : Fin S512x264.rank) [⟨S512x3, p0⟩, ⟨S512x128, p1⟩, ⟨S512x128, p2⟩, ⟨S512x5, p3⟩] concatenates_S512x3_S512x128_S512x128_S512x5_S512x264_d1
          (ix2 r f) 2 (by show (2 : ℕ) < 4; omega) S512x128 p2 rfl rfl 131 (by first | rfl | decide) (ix2 r ⟨f.val - 131, by omega⟩)
          (fun b hb => match b, hb with
            | ⟨0, _⟩, _ => rfl
            | ⟨1, _⟩, hb => absurd (Fin.ext rfl) hb)
          (by show 131 + (f.val - 131) = f.val; omega)
      · rw [dif_neg h259]
        exact concatenate_apply_piece (1 : Fin S512x264.rank) [⟨S512x3, p0⟩, ⟨S512x128, p1⟩, ⟨S512x128, p2⟩, ⟨S512x5, p3⟩] concatenates_S512x3_S512x128_S512x128_S512x5_S512x264_d1
          (ix2 r f) 3 (by show (3 : ℕ) < 4; omega) S512x5 p3 rfl rfl 259 (by first | rfl | decide) (ix2 r ⟨f.val - 259, by omega⟩)
          (fun b hb => match b, hb with
            | ⟨0, _⟩, _ => rfl
            | ⟨1, _⟩, hb => absurd (Fin.ext rfl) hb)
          (by show 259 + (f.val - 259) = f.val; omega)

/-- The 264 inputs of the last block. -/
def kfinish_catOf (L : Loads Ideal) (a : Acc Ideal) : FVec Ideal S512x264 .f32 :=
  concatenate S512x264 1 [⟨S512x3, curPos L⟩, ⟨S512x128, a.cemb⟩, ⟨S512x128, kfinish_pooledOf a⟩, ⟨S512x5, a.cstate⟩]
    concatenates_S512x3_S512x128_S512x128_S512x5_S512x264_d1

/-- After the 64 passes the concatenation at (r, f) is input f of the row function. -/
theorem kfinish_cat_apply (L : Loads Ideal) (r : Fin 512) (f : Fin 264) :
    kfinish_catOf L (run (paramsOf L) L.x (actOf L) 64 (Nat.le_refl 64)) (ix2 r f)
      = QSpec.catK (pOf L) (QSpec.xrow L.x r) (L.act (ix2 r 0)) f := by
  unfold kfinish_catOf
  rw [kfinish_concat4_apply]
  unfold QSpec.catK
  by_cases h3 : f.val < 3
  · simp only [dif_pos h3]
    exact kfinish_curPos_apply L r ⟨f.val, h3⟩
  · by_cases h131 : f.val < 131
    · simp only [dif_neg h3, dif_pos h131]
      exact run_cemb L 64 (Nat.le_refl 64) r ⟨f.val - 3, by omega⟩
    · by_cases h259 : f.val < 259
      · simp only [dif_neg h3, dif_neg h131, dif_pos h259]
        rw [kfinish_pooledOf_apply, run_pool, run_cnt]
      · simp only [dif_neg h3, dif_neg h131, dif_neg h259]
        exact run_cstate L 64 (Nat.le_refl 64) r ⟨f.val - 259, by omega⟩

/-! ## The two last layers -/

/-- The first of the two last layers before its normalisation. -/
def kfinish_gOf (L : Loads Ideal) (a : Acc Ideal) : FVec Ideal S512x512 .f32 :=
  addf (matmul (φ₂ := .bf16) dot_S512x264_S264x512_S512x512_1_0_0_1_n_n none (truncf .bf16 (kfinish_catOf L a) bitsLt_bf16_f32)
    (shapeCast S264x512 L.wf shapeCasts_S264x512_S264x512) (constant S512x512 .f32 0x00000000#32)) (rows512 L.cf)

/-- … and after normalisation and rectifier. -/
def kfinish_yOf (L : Loads Ideal) (a : Acc Ideal) : FVec Ideal S512x512 .f32 :=
  leaky512 (layerNorm512 (rows512 L.gf) (rows512 L.bf) (kfinish_gOf L a))

theorem kfinish_finish_eq (L : Loads Ideal) (a : Acc Ideal) :
    finish L a = addf (matmul (φ₂ := .bf16) dot_S512x512_S512x1_S512x1_1_0_0_1_n_n none (truncf .bf16 (kfinish_yOf L a) bitsLt_bf16_f32)
      (shapeCast S512x1 L.wo shapeCasts_S512x1_S512x1) (constant S512x1 .f32 0x00000000#32))
      (broadcastTo S512x1 (shapeCast S1x1 L.co shapeCasts_S1_S1x1) broadcasts_S1x1_S512x1) := rfl

theorem kfinish_g_apply (L : Loads Ideal) (a : Acc Ideal) (r : Fin 512) (d : Fin 512) :
    kfinish_gOf L a (ix2 r d) = (∑ f : Fin 264, kfinish_catOf L a (ix2 r f) * L.wf (ix2 f d)) + L.cf (ix1 d) := by
  unfold kfinish_gOf
  rw [addf_apply, kfinish_matF_apply, rows512_apply, shapeCast_self]
  rfl

theorem kfinish_y_apply (L : Loads Ideal) (a : Acc Ideal) (r : Fin 512) (k : Fin 512) :
    kfinish_yOf L a (ix2 r k) = QSpec.leaky (QSpec.lnK QSpec.c512 (fun d => L.gf (ix1 d)) (fun d => L.bf (ix1 d))
      (fun d => (∑ f : Fin 264, kfinish_catOf L a (ix2 r f) * L.wf (ix2 f d)) + L.cf (ix1 d)) k) := by
  unfold kfinish_yOf
  rw [leaky512_apply, layerNorm512_apply]
  simp only [rows512_apply, kfinish_g_apply]

/-- The bias of the last layer, one number, at every row. -/
theorem kfinish_coB_apply (co : Vec Ideal S1 .f32) (r : Fin 512) :
    broadcastTo S512x1 (shapeCast S1x1 co shapeCasts_S1_S1x1) broadcasts_S1x1_S512x1 (ix2 r 0) = co (ix1 0) :=
  (broadcastTo_1b_ab_apply _ broadcasts_S1x1_S512x1 r 0).trans (shapeCast_a_1a_apply co shapeCasts_S1_S1x1 0 0)

theorem body_apply (L : Loads Ideal) (r : Fin 512) :
    body L (ix2 r 0) = QSpec.rowK (pOf L) (QSpec.xrow L.x r) (L.act (ix2 r 0)) := by
  show finish L (run (paramsOf L) L.x (actOf L) 64 (Nat.le_refl 64)) (ix2 r 0) = _
  rw [kfinish_finish_eq, addf_apply, kfinish_matO_apply, kfinish_coB_apply, shapeCast_self]
  unfold QSpec.rowK
  refine congrArg₂ (· + ·) (Finset.sum_congr rfl fun k _ => ?_) rfl
  show kfinish_yOf L (run (paramsOf L) L.x (actOf L) 64 (Nat.le_refl 64)) (ix2 r k) * L.wo (ix2 k 0) = _
  rw [kfinish_y_apply]
  simp only [kfinish_cat_apply]
  rfl

end Cert.KernelIdeal.QNet

end
-- ==== Proof.Blocks.lean ====
/-
  From the blocks to the whole result array: grid point t handles rows 512 t … 512 t + 511, every weight window is
  the whole (transposed) weight, so entry b of the kernel's result is the kernel's row function of row b of the arguments.

  The steps: where each window's block sits at a point t (the two row windows and the result's window at block t, the
  sixteen parameter windows at block 0); each block read as entries of the argument arrays (the action words through
  their reshaping to a column, the five weight matrices through their transposition; the change of float format is the
  identity on extended reals); one row of what point t stores as the row function of row 512 t + y; the eight blocks
  cover the 4096 rows.
-/
import proofs.«427821_j19241453486367_3_alg».proof.Proof.Gen.KernelIdeal.Value
import proofs.«427821_j19241453486367_3_alg».proof.Proof.BodyEq
import proofs.«427821_j19241453486367_3_alg».proof.Proof.KFinish

noncomputable section

namespace Cert.KernelIdeal.QNet

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- The kernel's result array as a function of the argument arrays: row by row the kernel's row function. -/
def GK (c : Dev nD) : S4096x1.Idx → EReal := fun i =>
  QSpec.rowK (QSpec.rowP (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)))
    (QSpec.xrow (m ((c : Thread nD τ).loc main_arg0)) (i 0)) ((m ((c : Thread nD τ).loc main_arg1)) (ix1 (i 0)) : BitVec 32)

theorem blocks_hz2 : (![0, 0] : Fin 2 → Nat) = fun _ => 0 := funext fun a => by fin_cases a <;> rfl
theorem blocks_hz1 : (![0] : Fin 1 → Nat) = fun _ => 0 := funext fun a => by fin_cases a <;> rfl

/-! ## Facts over variables -/

/-- A transposed matrix read at (p, q) is the matrix at (q, p). -/
theorem blocks_transpose_apply {a b : ℕ} (x : (⟨2, ![a, b]⟩ : Shape).Idx → EReal)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) (fun c => match c with | ⟨0, _⟩ => rfl | ⟨1, _⟩ => rfl)

/-- The parameters the body finds in its blocks, the five weight matrices being the transposes of the arguments, are the
    parameters of the arguments. -/
theorem blocks_rowPT_eq (w1 : S256x8.Idx → EReal) (c1 g1 b1 : S256.Idx → EReal) (w2 : S256x256.Idx → EReal) (c2 g2 b2 : S256.Idx → EReal)
    (w3 : S128x256.Idx → EReal) (c3 : S128.Idx → EReal) (wf : S512x264.Idx → EReal) (cf gf bf : S512.Idx → EReal)
    (wo : S1x512.Idx → EReal) (co : S1.Idx → EReal) :
    QSpec.rowPT (transpose S8x256 [1, 0] w1 transposes_S256x8_S8x256_1_0) c1 g1 b1
        (transpose S256x256 [1, 0] w2 transposes_S256x256_S256x256_1_0) c2 g2 b2
        (transpose S256x128 [1, 0] w3 transposes_S128x256_S256x128_1_0) c3
        (transpose S264x512 [1, 0] wf transposes_S512x264_S264x512_1_0) cf gf bf
        (transpose S512x1 [1, 0] wo transposes_S1x512_S512x1_1_0) co
      = QSpec.rowP w1 c1 g1 b1 w2 c2 g2 b2 w3 c3 wf cf gf bf wo co := by
  have h1 : (fun (d : Fin 256) (f : Fin 8) => transpose S8x256 [1, 0] w1 transposes_S256x8_S8x256_1_0 (ix2 f d)) = fun d f => w1 (ix2 d f) :=
    funext fun d => funext fun f => blocks_transpose_apply w1 _ f d
  have h2 : (fun (d : Fin 256) (k : Fin 256) => transpose S256x256 [1, 0] w2 transposes_S256x256_S256x256_1_0 (ix2 k d)) = fun d k => w2 (ix2 d k) :=
    funext fun d => funext fun k => blocks_transpose_apply w2 _ k d
  have h3 : (fun (e : Fin 128) (k : Fin 256) => transpose S256x128 [1, 0] w3 transposes_S128x256_S256x128_1_0 (ix2 k e)) = fun e k => w3 (ix2 e k) :=
    funext fun e => funext fun k => blocks_transpose_apply w3 _ k e
  have h4 : (fun (d : Fin 512) (f : Fin 264) => transpose S264x512 [1, 0] wf transposes_S512x264_S264x512_1_0 (ix2 f d)) = fun d f => wf (ix2 d f) :=
    funext fun d => funext fun f => blocks_transpose_apply wf _ f d
  have h5 : (fun (k : Fin 512) => transpose S512x1 [1, 0] wo transposes_S1x512_S512x1_1_0 (ix2 k (0 : Fin 1))) = fun k => wo (ix2 (0 : Fin 1) k) :=
    funext fun k => blocks_transpose_apply wo _ k 0
  unfold QSpec.rowPT QSpec.rowP
  rw [h1, h2, h3, h4, h5]

/-- Two feature matrices that agree on a row give the same row function input. -/
theorem blocks_xrow_eq {B B' : ℕ} (x : (⟨2, ![B, 323]⟩ : Shape).Idx → EReal) (A : (⟨2, ![B', 323]⟩ : Shape).Idx → EReal) (r : Fin B) (i : Fin B')
    (h : ∀ k : Fin 323, x (ix2 r k) = A (ix2 i k)) : QSpec.xrow x r = QSpec.xrow A i := by
  funext col
  unfold QSpec.xrow
  by_cases hc : col < 323
  · rw [dif_pos hc, dif_pos hc]; exact h ⟨col, hc⟩
  · rw [dif_neg hc, dif_neg hc]

/-- The action words as a column: entry (b, 0) of the column is word b. -/
theorem blocks_col_apply (A : S4096.Idx → BitVec 32) (j : S4096x1.Idx) (k : S4096.Idx) (hk : (k 0).val = (j 0).val) :
    shapeCast S4096x1 A shapeCasts_S4096_S4096x1 j = A k := by
  refine shapeCast_apply A shapeCasts_S4096_S4096x1 j k ?_
  rw [Shape.rowMajor_val_one, Shape.rowMajor_val_two]
  have h1 : (j 1).val < 1 := idx2_lt1 j
  show (k 0).val = (j 0).val * 1 + (j 1).val
  omega

/-- The body's loads are its blocks: every load is through the whole block. -/
theorem blocks_loadsOf (x0 : Vec Ideal S512x323 .f32) (x1 : Vec Ideal S512x1 .i32) (x2 : Vec Ideal S8x256 .bf16) (x3 : Vec Ideal S256 .f32) (x4 : Vec Ideal S256 .f32) (x5 : Vec Ideal S256 .f32) (x6 : Vec Ideal S256x256 .bf16) (x7 : Vec Ideal S256 .f32) (x8 : Vec Ideal S256 .f32) (x9 : Vec Ideal S256 .f32) (x10 : Vec Ideal S256x128 .bf16) (x11 : Vec Ideal S128 .f32) (x12 : Vec Ideal S264x512 .bf16) (x13 : Vec Ideal S512 .f32) (x14 : Vec Ideal S512 .f32) (x15 : Vec Ideal S512 .f32) (x16 : Vec Ideal S512x1 .bf16) (x17 : Vec Ideal S1 .f32) :
    loadsOf x0 x1 x2 x3 x4 x5 x6 x7 x8 x9 x10 x11 x12 x13 x14 x15 x16 x17 = ⟨x0, x1, x2, x3, x4, x5, x6, x7, x8, x9, x10, x11, x12, x13, x14, x15, x16, x17⟩ := by
  unfold loadsOf
  simp only [View.ld_unit_zero (S := S512x323) blocks_hz2, View.ld_unit_zero (S := S512x1) blocks_hz2, View.ld_unit_zero (S := S8x256) blocks_hz2, View.ld_unit_zero (S := S256x256) blocks_hz2, View.ld_unit_zero (S := S256x128) blocks_hz2, View.ld_unit_zero (S := S264x512) blocks_hz2, View.ld_unit_zero (S := S256) blocks_hz1, View.ld_unit_zero (S := S128) blocks_hz1, View.ld_unit_zero (S := S512) blocks_hz1, View.ld_unit_zero (S := S1) blocks_hz1]

/-- One row of one block: when the blocks hold what the windows say of the arrays A0 … A17, entry y of the stored block is
    the kernel's row function of row i of the arrays. -/
theorem blocks_point (x0 : Vec Ideal S512x323 .f32) (x1 : Vec Ideal S512x1 .i32) (x2 : Vec Ideal S8x256 .bf16) (x3 : Vec Ideal S256 .f32) (x4 : Vec Ideal S256 .f32) (x5 : Vec Ideal S256 .f32) (x6 : Vec Ideal S256x256 .bf16) (x7 : Vec Ideal S256 .f32) (x8 : Vec Ideal S256 .f32) (x9 : Vec Ideal S256 .f32) (x10 : Vec Ideal S256x128 .bf16) (x11 : Vec Ideal S128 .f32) (x12 : Vec Ideal S264x512 .bf16) (x13 : Vec Ideal S512 .f32) (x14 : Vec Ideal S512 .f32) (x15 : Vec Ideal S512 .f32) (x16 : Vec Ideal S512x1 .bf16) (x17 : Vec Ideal S1 .f32)
    (A0 : S4096x323.Idx → EReal) (A1 : S4096.Idx → BitVec 32) (A2 : S256x8.Idx → EReal) (A3 : S256.Idx → EReal) (A4 : S256.Idx → EReal) (A5 : S256.Idx → EReal) (A6 : S256x256.Idx → EReal) (A7 : S256.Idx → EReal) (A8 : S256.Idx → EReal) (A9 : S256.Idx → EReal) (A10 : S128x256.Idx → EReal) (A11 : S128.Idx → EReal) (A12 : S512x264.Idx → EReal) (A13 : S512.Idx → EReal) (A14 : S512.Idx → EReal) (A15 : S512.Idx → EReal) (A16 : S1x512.Idx → EReal) (A17 : S1.Idx → EReal)
    (y : S512x1.Idx) (i : S4096x1.Idx)
    (h0 : ∀ k : Fin 323, x0 (ix2 (y 0) k) = A0 (ix2 (i 0) k))
    (h1 : x1 y = A1 (ix1 (i 0)))
    (h2 : x2 = transpose S8x256 [1, 0] A2 transposes_S256x8_S8x256_1_0) (h3 : x3 = A3) (h4 : x4 = A4) (h5 : x5 = A5) (h6 : x6 = transpose S256x256 [1, 0] A6 transposes_S256x256_S256x256_1_0) (h7 : x7 = A7) (h8 : x8 = A8) (h9 : x9 = A9) (h10 : x10 = transpose S256x128 [1, 0] A10 transposes_S128x256_S256x128_1_0) (h11 : x11 = A11) (h12 : x12 = transpose S264x512 [1, 0] A12 transposes_S512x264_S264x512_1_0) (h13 : x13 = A13) (h14 : x14 = A14) (h15 : x15 = A15) (h16 : x16 = transpose S512x1 [1, 0] A16 transposes_S1x512_S512x1_1_0) (h17 : x17 = A17) :
    body (loadsOf x0 x1 x2 x3 x4 x5 x6 x7 x8 x9 x10 x11 x12 x13 x14 x15 x16 x17) y
      = QSpec.rowK (QSpec.rowP A2 A3 A4 A5 A6 A7 A8 A9 A10 A11 A12 A13 A14 A15 A16 A17) (QSpec.xrow A0 (i 0)) (A1 (ix1 (i 0))) := by
  obtain ⟨r, rfl⟩ : ∃ r : Fin 512, y = ix2 r 0 :=
    ⟨y 0, funext fun d => match d with
      | ⟨0, _⟩ => rfl
      | ⟨1, _⟩ => Fin.ext (by have := idx2_lt1 y; show (y 1).val = 0; omega)⟩
  subst h2 h3 h4 h5 h6 h7 h8 h9 h10 h11 h12 h13 h14 h15 h16 h17
  rw [body_apply, blocks_loadsOf, ← blocks_rowPT_eq, ← h1, ← blocks_xrow_eq x0 A0 r (i 0) h0]
  rfl

/-! ## Where each window's block sits -/

/-- The windows of the rows move with the grid point, and the result's window moves with them. -/
theorem blocks_idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_18.index t (0 : Fin 2) = t.val ∧ win0_18.index t (1 : Fin 2) = 0 :=
  (by decide +kernel : ∀ t : Fin grid0.N, _)

/-- The five weight windows never move. -/
theorem blocks_idx_mats : ∀ t : Fin cfg0.N,
    win0_2.index t (0 : Fin 2) = 0 ∧ win0_2.index t (1 : Fin 2) = 0
    ∧ win0_6.index t (0 : Fin 2) = 0 ∧ win0_6.index t (1 : Fin 2) = 0
    ∧ win0_10.index t (0 : Fin 2) = 0 ∧ win0_10.index t (1 : Fin 2) = 0
    ∧ win0_12.index t (0 : Fin 2) = 0 ∧ win0_12.index t (1 : Fin 2) = 0
    ∧ win0_16.index t (0 : Fin 2) = 0 ∧ win0_16.index t (1 : Fin 2) = 0 :=
  (by decide +kernel : ∀ t : Fin grid0.N, _)

/-- Nor do the eleven windows of the bias, gain and shift vectors. -/
theorem blocks_idx_vecs : ∀ t : Fin cfg0.N,
    win0_3.index t (0 : Fin 1) = 0 ∧ win0_4.index t (0 : Fin 1) = 0 ∧ win0_5.index t (0 : Fin 1) = 0
    ∧ win0_7.index t (0 : Fin 1) = 0 ∧ win0_8.index t (0 : Fin 1) = 0 ∧ win0_9.index t (0 : Fin 1) = 0
    ∧ win0_11.index t (0 : Fin 1) = 0
    ∧ win0_13.index t (0 : Fin 1) = 0 ∧ win0_14.index t (0 : Fin 1) = 0 ∧ win0_15.index t (0 : Fin 1) = 0
    ∧ win0_17.index t (0 : Fin 1) = 0 :=
  (by decide +kernel : ∀ t : Fin grid0.N, _)

/-! ## The two windows of the rows -/

/-- Window 0's block at point t is rows 512 t … 512 t + 511 of the feature matrix. -/
theorem blocks_blk0 (c : Dev nD) (t : Fin cfg0.N) (x : S512x323.Idx) (k : S4096x323.Idx)
    (hk0 : (k 0).val = 512 * t.val + (x 0).val) (hk1 : (k 1).val = (x 1).val) :
    (iblk m c 0 t : Vec Ideal S512x323 .f32) x = m ((c : Thread nD τ).loc main_arg0) k := by
  unfold iblk
  rw [View.read_apply]
  show V m c main_arg0 _ = m ((c : Thread nD τ).loc main_arg0) k
  refine (congrFun (V_main_arg0 m c) _).trans (congrArg (m ((c : Thread nD τ).loc main_arg0)) (funext fun a => Fin.ext ?_))
  obtain ⟨e0, e1, -⟩ := blocks_idx_rows t
  match a with
  | ⟨0, _⟩ => show win0_0.index t (0 : Fin 2) * 512 + 1 * (x 0).val = (k 0).val; rw [e0, hk0]; omega
  | ⟨1, _⟩ => show win0_0.index t (1 : Fin 2) * 323 + 1 * (x 1).val = (k 1).val; rw [e1, hk1]; omega

/-- The array window 1 stages is the action words as a column. -/
theorem blocks_V1 (c : Dev nD) : (V m c main_v0 : S4096x1.Idx → BitVec 32)
    = (shapeCast S4096x1 (m ((c : Thread nD τ).loc main_arg1)) shapeCasts_S4096_S4096x1 : S4096x1.Idx → BitVec 32) := by
  dsimp only [Gen.V, Gen.hostOps0]; after_results; rfl

/-- Window 1's block at point t is the action words of rows 512 t … 512 t + 511. -/
theorem blocks_blk1 (c : Dev nD) (t : Fin cfg0.N) (y : S512x1.Idx) (i : S4096x1.Idx)
    (hi : (i 0).val = 512 * t.val + (y 0).val) :
    (iblk m c 1 t : Vec Ideal S512x1 .i32) y = m ((c : Thread nD τ).loc main_arg1) (ix1 (i 0)) := by
  unfold iblk
  rw [View.read_apply]
  show V m c main_v0 _ = m ((c : Thread nD τ).loc main_arg1) (ix1 (i 0))
  refine (congrFun (blocks_V1 m c) _).trans (blocks_col_apply _ _ _ ?_)
  obtain ⟨-, -, e0, -⟩ := blocks_idx_rows t
  show (i 0).val = win0_1.index t (0 : Fin 2) * 512 + 1 * (y 0).val
  rw [e0, hi]; omega

/-! ## The windows that are whole arrays -/

theorem blocks_blk3 (c : Dev nD) (t : Fin cfg0.N) :
    (iblk m c 3 t : Vec Ideal S256 .f32) = m ((c : Thread nD τ).loc main_arg3) := by
  funext x
  unfold iblk
  rw [View.read_apply]
  show V m c main_arg3 _ = m ((c : Thread nD τ).loc main_arg3) x
  refine (congrFun (V_main_arg3 m c) _).trans (congrArg (m ((c : Thread nD τ).loc main_arg3)) (funext fun a => Fin.ext ?_))
  have e := (blocks_idx_vecs t).1
  match a with
  | ⟨0, _⟩ => show win0_3.index t (0 : Fin 1) * 256 + 1 * (x 0).val = (x 0).val; rw [e]; omega

theorem blocks_blk4 (c : Dev nD) (t : Fin cfg0.N) :
    (iblk m c 4 t : Vec Ideal S256 .f32) = m ((c : Thread nD τ).loc main_arg4) := by
  funext x
  unfold iblk
  rw [View.read_apply]
  show V m c main_arg4 _ = m ((c : Thread nD τ).loc main_arg4) x
  refine (congrFun (V_main_arg4 m c) _).trans (congrArg (m ((c : Thread nD τ).loc main_arg4)) (funext fun a => Fin.ext ?_))
  have e := (blocks_idx_vecs t).2.1
  match a with
  | ⟨0, _⟩ => show win0_4.index t (0 : Fin 1) * 256 + 1 * (x 0).val = (x 0).val; rw [e]; omega

theorem blocks_blk5 (c : Dev nD) (t : Fin cfg0.N) :
    (iblk m c 5 t : Vec Ideal S256 .f32) = m ((c : Thread nD τ).loc main_arg5) := by
  funext x
  unfold iblk
  rw [View.read_apply]
  show V m c main_arg5 _ = m ((c : Thread nD τ).loc main_arg5) x
  refine (congrFun (V_main_arg5 m c) _).trans (congrArg (m ((c : Thread nD τ).loc main_arg5)) (funext fun a => Fin.ext ?_))
  have e := (blocks_idx_vecs t).2.2.1
  match a with
  | ⟨0, _⟩ => show win0_5.index t (0 : Fin 1) * 256 + 1 * (x 0).val = (x 0).val; rw [e]; omega

theorem blocks_blk7 (c : Dev nD) (t : Fin cfg0.N) :
    (iblk m c 7 t : Vec Ideal S256 .f32) = m ((c : Thread nD τ).loc main_arg7) := by
  funext x
  unfold iblk
  rw [View.read_apply]
  show V m c main_arg7 _ = m ((c : Thread nD τ).loc main_arg7) x
  refine (congrFun (V_main_arg7 m c) _).trans (congrArg (m ((c : Thread nD τ).loc main_arg7)) (funext fun a => Fin.ext ?_))
  have e := (blocks_idx_vecs t).2.2.2.1
  match a with
  | ⟨0, _⟩ => show win0_7.index t (0 : Fin 1) * 256 + 1 * (x 0).val = (x 0).val; rw [e]; omega

theorem blocks_blk8 (c : Dev nD) (t : Fin cfg0.N) :
    (iblk m c 8 t : Vec Ideal S256 .f32) = m ((c : Thread nD τ).loc main_arg8) := by
  funext x
  unfold iblk
  rw [View.read_apply]
  show V m c main_arg8 _ = m ((c : Thread nD τ).loc main_arg8) x
  refine (congrFun (V_main_arg8 m c) _).trans (congrArg (m ((c : Thread nD τ).loc main_arg8)) (funext fun a => Fin.ext ?_))
  have e := (blocks_idx_vecs t).2.2.2.2.1
  match a with
  | ⟨0, _⟩ => show win0_8.index t (0 : Fin 1) * 256 + 1 * (x 0).val = (x 0).val; rw [e]; omega

theorem blocks_blk9 (c : Dev nD) (t : Fin cfg0.N) :
    (iblk m c 9 t : Vec Ideal S256 .f32) = m ((c : Thread nD τ).loc main_arg9) := by
  funext x
  unfold iblk
  rw [View.read_apply]
  show V m c main_arg9 _ = m ((c : Thread nD τ).loc main_arg9) x
  refine (congrFun (V_main_arg9 m c) _).trans (congrArg (m ((c : Thread nD τ).loc main_arg9)) (funext fun a => Fin.ext ?_))
  have e := (blocks_idx_vecs t).2.2.2.2.2.1
  match a with
  | ⟨0, _⟩ => show win0_9.index t (0 : Fin 1) * 256 + 1 * (x 0).val = (x 0).val; rw [e]; omega

theorem blocks_blk11 (c : Dev nD) (t : Fin cfg0.N) :
    (iblk m c 11 t : Vec Ideal S128 .f32) = m ((c : Thread nD τ).loc main_arg11) := by
  funext x
  unfold iblk
  rw [View.read_apply]
  show V m c main_arg11 _ = m ((c : Thread nD τ).loc main_arg11) x
  refine (congrFun (V_main_arg11 m c) _).trans (congrArg (m ((c : Thread nD τ).loc main_arg11)) (funext fun a => Fin.ext ?_))
  have e := (blocks_idx_vecs t).2.2.2.2.2.2.1
  match a with
  | ⟨0, _⟩ => show win0_11.index t (0 : Fin 1) * 128 + 1 * (x 0).val = (x 0).val; rw [e]; omega

theorem blocks_blk13 (c : Dev nD) (t : Fin cfg0.N) :
    (iblk m c 13 t : Vec Ideal S512 .f32) = m ((c : Thread nD τ).loc main_arg13) := by
  funext x
  unfold iblk
  rw [View.read_apply]
  show V m c main_arg13 _ = m ((c : Thread nD τ).loc main_arg13) x
  refine (congrFun (V_main_arg13 m c) _).trans (congrArg (m ((c : Thread nD τ).loc main_arg13)) (funext fun a => Fin.ext ?_))
  have e := (blocks_idx_vecs t).2.2.2.2.2.2.2.1
  match a with
  | ⟨0, _⟩ => show win0_13.index t (0 : Fin 1) * 512 + 1 * (x 0).val = (x 0).val; rw [e]; omega

theorem blocks_blk14 (c : Dev nD) (t : Fin cfg0.N) :
    (iblk m c 14 t : Vec Ideal S512 .f32) = m ((c : Thread nD τ).loc main_arg14) := by
  funext x
  unfold iblk
  rw [View.read_apply]
  show V m c main_arg14 _ = m ((c : Thread nD τ).loc main_arg14) x
  refine (congrFun (V_main_arg14 m c) _).trans (congrArg (m ((c : Thread nD τ).loc main_arg14)) (funext fun a => Fin.ext ?_))
  have e := (blocks_idx_vecs t).2.2.2.2.2.2.2.2.1
  match a with
  | ⟨0, _⟩ => show win0_14.index t (0 : Fin 1) * 512 + 1 * (x 0).val = (x 0).val; rw [e]; omega

theorem blocks_blk15 (c : Dev nD) (t : Fin cfg0.N) :
    (iblk m c 15 t : Vec Ideal S512 .f32) = m ((c : Thread nD τ).loc main_arg15) := by
  funext x
  unfold iblk
  rw [View.read_apply]
  show V m c main_arg15 _ = m ((c : Thread nD τ).loc main_arg15) x
  refine (congrFun (V_main_arg15 m c) _).trans (congrArg (m ((c : Thread nD τ).loc main_arg15)) (funext fun a => Fin.ext ?_))
  have e := (blocks_idx_vecs t).2.2.2.2.2.2.2.2.2.1
  match a with
  | ⟨0, _⟩ => show win0_15.index t (0 : Fin 1) * 512 + 1 * (x 0).val = (x 0).val; rw [e]; omega

theorem blocks_blk17 (c : Dev nD) (t : Fin cfg0.N) :
    (iblk m c 17 t : Vec Ideal S1 .f32) = m ((c : Thread nD τ).loc main_arg17) := by
  funext x
  unfold iblk
  rw [View.read_apply]
  show V m c main_arg17 _ = m ((c : Thread nD τ).loc main_arg17) x
  refine (congrFun (V_main_arg17 m c) _).trans (congrArg (m ((c : Thread nD τ).loc main_arg17)) (funext fun a => Fin.ext ?_))
  have e := (blocks_idx_vecs t).2.2.2.2.2.2.2.2.2.2
  match a with
  | ⟨0, _⟩ => show win0_17.index t (0 : Fin 1) * 1 + 1 * (x 0).val = (x 0).val; rw [e]; omega

/-- The array window 2 stages is the transpose of its argument (the change of float format is the identity here). -/
theorem blocks_V2 (c : Dev nD) : (V m c main_v2 : S8x256.Idx → EReal)
    = (transpose S8x256 [1, 0] (m ((c : Thread nD τ).loc main_arg2)) transposes_S256x8_S8x256_1_0 : S8x256.Idx → EReal) := by
  dsimp only [Gen.V, Gen.hostOps0]; after_results; rfl

theorem blocks_blk2 (c : Dev nD) (t : Fin cfg0.N) :
    (iblk m c 2 t : Vec Ideal S8x256 .bf16) = V m c main_v2 := by
  funext x
  unfold iblk
  rw [View.read_apply]
  show V m c main_v2 _ = V m c main_v2 x
  refine congrArg (V m c main_v2) (funext fun a => Fin.ext ?_)
  have e0 := (blocks_idx_mats t).1
  have e1 := (blocks_idx_mats t).2.1
  match a with
  | ⟨0, _⟩ => show win0_2.index t (0 : Fin 2) * 8 + 1 * (x 0).val = (x 0).val; rw [e0]; omega
  | ⟨1, _⟩ => show win0_2.index t (1 : Fin 2) * 256 + 1 * (x 1).val = (x 1).val; rw [e1]; omega

/-- The array window 6 stages is the transpose of its argument (the change of float format is the identity here). -/
theorem blocks_V6 (c : Dev nD) : (V m c main_v4 : S256x256.Idx → EReal)
    = (transpose S256x256 [1, 0] (m ((c : Thread nD τ).loc main_arg6)) transposes_S256x256_S256x256_1_0 : S256x256.Idx → EReal) := by
  dsimp only [Gen.V, Gen.hostOps0]; after_results; rfl

theorem blocks_blk6 (c : Dev nD) (t : Fin cfg0.N) :
    (iblk m c 6 t : Vec Ideal S256x256 .bf16) = V m c main_v4 := by
  funext x
  unfold iblk
  rw [View.read_apply]
  show V m c main_v4 _ = V m c main_v4 x
  refine congrArg (V m c main_v4) (funext fun a => Fin.ext ?_)
  have e0 := (blocks_idx_mats t).2.2.1
  have e1 := (blocks_idx_mats t).2.2.2.1
  match a with
  | ⟨0, _⟩ => show win0_6.index t (0 : Fin 2) * 256 + 1 * (x 0).val = (x 0).val; rw [e0]; omega
  | ⟨1, _⟩ => show win0_6.index t (1 : Fin 2) * 256 + 1 * (x 1).val = (x 1).val; rw [e1]; omega

/-- The array window 10 stages is the transpose of its argument (the change of float format is the identity here). -/
theorem blocks_V10 (c : Dev nD) : (V m c main_v6 : S256x128.Idx → EReal)
    = (transpose S256x128 [1, 0] (m ((c : Thread nD τ).loc main_arg10)) transposes_S128x256_S256x128_1_0 : S256x128.Idx → EReal) := by
  dsimp only [Gen.V, Gen.hostOps0]; after_results; rfl

theorem blocks_blk10 (c : Dev nD) (t : Fin cfg0.N) :
    (iblk m c 10 t : Vec Ideal S256x128 .bf16) = V m c main_v6 := by
  funext x
  unfold iblk
  rw [View.read_apply]
  show V m c main_v6 _ = V m c main_v6 x
  refine congrArg (V m c main_v6) (funext fun a => Fin.ext ?_)
  have e0 := (blocks_idx_mats t).2.2.2.2.1
  have e1 := (blocks_idx_mats t).2.2.2.2.2.1
  match a with
  | ⟨0, _⟩ => show win0_10.index t (0 : Fin 2) * 256 + 1 * (x 0).val = (x 0).val; rw [e0]; omega
  | ⟨1, _⟩ => show win0_10.index t (1 : Fin 2) * 128 + 1 * (x 1).val = (x 1).val; rw [e1]; omega

/-- The array window 12 stages is the transpose of its argument (the change of float format is the identity here). -/
theorem blocks_V12 (c : Dev nD) : (V m c main_v8 : S264x512.Idx → EReal)
    = (transpose S264x512 [1, 0] (m ((c : Thread nD τ).loc main_arg12)) transposes_S512x264_S264x512_1_0 : S264x512.Idx → EReal) := by
  dsimp only [Gen.V, Gen.hostOps0]; after_results; rfl

theorem blocks_blk12 (c : Dev nD) (t : Fin cfg0.N) :
    (iblk m c 12 t : Vec Ideal S264x512 .bf16) = V m c main_v8 := by
  funext x
  unfold iblk
  rw [View.read_apply]
  show V m c main_v8 _ = V m c main_v8 x
  refine congrArg (V m c main_v8) (funext fun a => Fin.ext ?_)
  have e0 := (blocks_idx_mats t).2.2.2.2.2.2.1
  have e1 := (blocks_idx_mats t).2.2.2.2.2.2.2.1
  match a with
  | ⟨0, _⟩ => show win0_12.index t (0 : Fin 2) * 264 + 1 * (x 0).val = (x 0).val; rw [e0]; omega
  | ⟨1, _⟩ => show win0_12.index t (1 : Fin 2) * 512 + 1 * (x 1).val = (x 1).val; rw [e1]; omega

/-- The array window 16 stages is the transpose of its argument (the change of float format is the identity here). -/
theorem blocks_V16 (c : Dev nD) : (V m c main_v10 : S512x1.Idx → EReal)
    = (transpose S512x1 [1, 0] (m ((c : Thread nD τ).loc main_arg16)) transposes_S1x512_S512x1_1_0 : S512x1.Idx → EReal) := by
  dsimp only [Gen.V, Gen.hostOps0]; after_results; rfl

theorem blocks_blk16 (c : Dev nD) (t : Fin cfg0.N) :
    (iblk m c 16 t : Vec Ideal S512x1 .bf16) = V m c main_v10 := by
  funext x
  unfold iblk
  rw [View.read_apply]
  show V m c main_v10 _ = V m c main_v10 x
  refine congrArg (V m c main_v10) (funext fun a => Fin.ext ?_)
  have e0 := (blocks_idx_mats t).2.2.2.2.2.2.2.2.1
  have e1 := (blocks_idx_mats t).2.2.2.2.2.2.2.2.2
  match a with
  | ⟨0, _⟩ => show win0_16.index t (0 : Fin 2) * 512 + 1 * (x 0).val = (x 0).val; rw [e0]; omega
  | ⟨1, _⟩ => show win0_16.index t (1 : Fin 2) * 1 + 1 * (x 1).val = (x 1).val; rw [e1]; omega

/-! ## One row of the result -/

/-- Entry y of what point t stores is the kernel's row function of row 512 t + y of the arguments. -/
theorem blocks_at (c : Dev nD) (t : Fin cfg0.N) (y : S512x1.Idx) (i : S4096x1.Idx)
    (hi : (i 0).val = 512 * t.val + (y 0).val) :
    body (loadsOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) y = GK m c i :=
  blocks_point (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
    y i
    (fun k => blocks_blk0 m c t (ix2 (y 0) k) (ix2 (i 0) k) hi rfl)
    (blocks_blk1 m c t y i hi)
    ((blocks_blk2 m c t).trans (blocks_V2 m c))
    (blocks_blk3 m c t)
    (blocks_blk4 m c t)
    (blocks_blk5 m c t)
    ((blocks_blk6 m c t).trans (blocks_V6 m c))
    (blocks_blk7 m c t)
    (blocks_blk8 m c t)
    (blocks_blk9 m c t)
    ((blocks_blk10 m c t).trans (blocks_V10 m c))
    (blocks_blk11 m c t)
    ((blocks_blk12 m c t).trans (blocks_V12 m c))
    (blocks_blk13 m c t)
    (blocks_blk14 m c t)
    (blocks_blk15 m c t)
    ((blocks_blk16 m c t).trans (blocks_V16 m c))
    (blocks_blk17 m c t)

/-- What point t writes back is block t of the row-by-row function of the arguments. -/
theorem blocks_flushed_eq (c : Dev nD) (t : Fin cfg0.N) :
    (dats m 0 c).flushed 18 t = ((cfg0.win 18).blk t).view.read (Elt Ideal) (GK m c) := by
  rw [Cert.KernelIdeal.Value.flushed18, out_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), View.canon_unit_zero blocks_hz2]
  funext y
  rw [View.read_apply]
  refine blocks_at m c t y (((cfg0.win 18).blk t).view.emb y) ?_
  obtain ⟨-, -, -, -, e0, -⟩ := blocks_idx_rows t
  show win0_18.index t (0 : Fin 2) * 512 + 1 * (y 0).val = 512 * t.val + (y 0).val
  rw [e0]; omega

/-! ## The blocks cover the result -/

/-- An index of the result is in point t's block when each coordinate is in the block's range on its axis. -/
theorem blocks_mem_blk (t : Fin cfg0.N) (i : S4096x1.Idx) :
    i ∈ ((cfg0.win 18).blk t).view.set ↔ ∀ a : Fin 2, win0_18.index t a * S512x1.size a ≤ (i a).val ∧ (i a).val < win0_18.index t a * S512x1.size a + S512x1.size a := by
  show i ∈ ((View.whole main_v11).slice (win0_18.rect t)).set ↔ _
  rw [View.set_slice_whole, Rect.mem_set_unit]
  exact Iff.rfl

/-- Row b of the result lies in the block of point b / 512. -/
theorem blocks_cover (i : S4096x1.Idx) :
    ∃ t : Fin cfg0.N, (cfg0.win 18).flush t = true ∧ i ∈ ((cfg0.win 18).blk t).view.set := by
  have hi0 : (i 0).val < 4096 := idx2_lt0 i
  have hi1 : (i 1).val < 1 := idx2_lt1 i
  have hN : cfg0.N = 8 := N_0
  obtain ⟨t, ht⟩ : ∃ t : Fin cfg0.N, t.val = (i 0).val / 512 := ⟨⟨(i 0).val / 512, by rw [hN]; omega⟩, rfl⟩
  refine ⟨t, flush0_18 t, ?_⟩
  rw [blocks_mem_blk]
  obtain ⟨-, -, -, -, e0, e1⟩ := blocks_idx_rows t
  intro a
  match a with
  | ⟨0, _⟩ =>
    show win0_18.index t (0 : Fin 2) * 512 ≤ (i 0).val ∧ (i 0).val < win0_18.index t (0 : Fin 2) * 512 + 512
    rw [e0, ht]; omega
  | ⟨1, _⟩ =>
    show win0_18.index t (1 : Fin 2) * 1 ≤ (i 1).val ∧ (i 1).val < win0_18.index t (1 : Fin 2) * 1 + 1
    rw [e1]; omega

/-- The result array after the run is that function. -/
theorem final18 (c : Dev nD) : (dats m 0 c).arrAt 18 cfg0.N = GK m c :=
  (dats m 0 c).arrAt_eq_of_cover 18 (GK m c) (fun t _ => blocks_flushed_eq m c t) blocks_cover

/-- The kernel's run with its result named as a function of the arguments. -/
theorem kernel_run : θ_run defs (onTc (τ := τ) (main (F := Ideal))) ⟨m, fun _ => 0, ρ⟩ fun r => ∀ c : Dev nD,
      r.2.mem ((c : Thread nD τ).loc main_v11) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final18 m c), (h c).2⟩) (Cert.KernelIdeal.Value.run_blocks m ρ)

end Cert.KernelIdeal.QNet

end
-- ==== Proof.RefBase.lean ====
/-
  The reference's inputs read at an index: the position slice and the neighbours array are entries of the row.
-/
import proofs.«427821_j19241453486367_3_alg».proof.Proof.RefRead
import proofs.«427821_j19241453486367_3_alg».proof.Proof.Args
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Idealize.SL.Sem Cert.ReferenceIdeal Cert.ReferenceIdeal.Gen Cert.ReferenceIdeal.Read

/-- The row functions' parameters from the reference's argument arrays. -/
abbrev pR (x2 : (⟨S256x8, .f32⟩ : BufTy).Contents (Elt Ideal)) (x3 x4 x5 : (⟨S256, .f32⟩ : BufTy).Contents (Elt Ideal)) (x6 : (⟨S256x256, .f32⟩ : BufTy).Contents (Elt Ideal)) (x7 x8 x9 : (⟨S256, .f32⟩ : BufTy).Contents (Elt Ideal)) (x10 : (⟨S128x256, .f32⟩ : BufTy).Contents (Elt Ideal)) (x11 : (⟨S128, .f32⟩ : BufTy).Contents (Elt Ideal)) (x12 : (⟨S512x264, .f32⟩ : BufTy).Contents (Elt Ideal)) (x13 x14 x15 : (⟨S512, .f32⟩ : BufTy).Contents (Elt Ideal)) (x16 : (⟨S1x512, .f32⟩ : BufTy).Contents (Elt Ideal)) (x17 : (⟨S1, .f32⟩ : BufTy).Contents (Elt Ideal)) : QSpec.RowP :=
  QSpec.rowP x2 x3 x4 x5 x6 x7 x8 x9 x10 x11 x12 x13 x14 x15 x16 x17

/-- The position slice's index map at (b, k) is entry (b, k) of the feature matrix. -/
theorem RefBase_idx0 (b : Fin 4096) (k : Fin 3) (hk : k.val < 323) :
    idx_main_v0 (ix2 b k) = ix2 b ⟨k.val, hk⟩ :=
  funext fun a => Fin.ext (by match a with | ⟨0, _⟩ => rfl | ⟨1, _⟩ => rfl)

/-- The reshape's index map followed by the slice's: (b, n, j) has row-major position 320 b + 5 n + j among the
    [4096, 64, 5] entries, which is row b, column 5 n + j of [4096, 320]; the slice starts at column 3. -/
theorem RefBase_idx12 (b : Fin 4096) (n : Fin 64) (j : Fin 5) (hc : 3 + 5 * n.val + j.val < 323) :
    idx_main_v1 (idx_main_v2 (ix3 b n j)) = ix2 b ⟨3 + 5 * n.val + j.val, hc⟩ := by
  have hb := b.isLt
  have hn := n.isLt
  have hj := j.isLt
  funext a
  apply Fin.ext
  match a with
  | ⟨0, _⟩ => show ((b.val * 64 + n.val) * 5 + j.val) / 320 = b.val; omega
  | ⟨1, _⟩ => show 3 + ((b.val * 64 + n.val) * 5 + j.val) % 320 = 3 + 5 * n.val + j.val; omega

/-- The neighbours array (the reshape [4096, 320] -> [4096, 64, 5] of the columns past the position) at (b, n, j). -/
theorem neighbours_apply (x0 : (⟨S4096x323, .f32⟩ : BufTy).Contents (Elt Ideal)) (b : Fin 4096) (n : Fin 64) (j : Fin 5) :
    val_main_v2 (F := Ideal) x0 (ix3 b n j) = QSpec.nbr (QSpec.xrow x0 b) n.val j := by
  have hc : 3 + 5 * n.val + j.val < 323 := by have := n.isLt; have := j.isLt; omega
  rw [val_main_v2_apply, val_main_v1_apply, RefBase_idx12 b n j hc]
  simp only [QSpec.nbr, QSpec.xrow]
  rw [dif_pos hc]

/-- The position slice at (b, k). -/
theorem curpos_apply (x0 : (⟨S4096x323, .f32⟩ : BufTy).Contents (Elt Ideal)) (b : Fin 4096) (k : Fin 3) :
    val_main_v0 (F := Ideal) x0 (ix2 b k) = QSpec.xrow x0 b k.val := by
  have hk : k.val < 323 := by have := k.isLt; omega
  rw [val_main_v0_apply, RefBase_idx0 b k hk]
  simp only [QSpec.xrow]
  rw [dif_pos hk]

end Cert.ReferenceIdeal.RefValue

end
-- ==== Proof.RefL1.lean ====
/-
  The reference's first layer read at (b, n, d): the eight inputs (position, then the neighbour's features), the linear map, the normalisation and the rectifier are the row function's.
-/
import proofs.«427821_j19241453486367_3_alg».proof.Proof.RefBase

noncomputable section

namespace Cert.ReferenceIdeal.RefValue

open Idealize.ShloMosaic Idealize.ShloMosaic.ValueIdx Idealize.SL.Sem Cert.ReferenceIdeal Cert.ReferenceIdeal.Gen Cert.ReferenceIdeal.Read

/-- The eight inputs at (b, n, f): the position's entry f for f < 3, else the neighbour's feature f - 3. -/
theorem ds_apply (x0 : (⟨S4096x323, .f32⟩ : BufTy).Contents (Elt Ideal)) (b : Fin 4096) (n : Fin 64) (f : Fin 8) :
    val_main_v5 (F := Ideal) x0 (ix3 b n f) = QSpec.dsR (QSpec.xrow x0 b) n.val f := by
  have hf : f.val < 8 := f.isLt
  unfold val_main_v5 QSpec.dsR
  by_cases h3 : f.val < 3
  · rw [dif_pos h3]
    refine (concatenate_pair_apply_left (t := S4096x64x8) (s₁ := S4096x64x3) (s₂ := S4096x64x5) 2
      (val_main_v4 (F := Ideal) x0) (val_main_v2 (F := Ideal) x0) concatenates_S4096x64x3_S4096x64x5_S4096x64x8_d2
      (ix3 b n f) rfl (ix3 b n (⟨f.val, h3⟩ : Fin 3)) (fun a => match a with
        | ⟨0, _⟩ => rfl
        | ⟨1, _⟩ => rfl
        | ⟨2, _⟩ => rfl)).trans ?_
    have e : idx_main_v3 (idx_main_v4 (ix3 b n (⟨f.val, h3⟩ : Fin 3))) = ix2 b (⟨f.val, h3⟩ : Fin 3) :=
      funext fun a => Fin.ext (by match a with | ⟨0, _⟩ => rfl | ⟨1, _⟩ => rfl)
    rw [val_main_v4_apply, val_main_v3_apply, e]
    exact curpos_apply x0 b ⟨f.val, h3⟩
  · rw [dif_neg h3]
    refine (concatenate_pair_apply_right (t := S4096x64x8) (s₁ := S4096x64x3) (s₂ := S4096x64x5) 2
      (val_main_v4 (F := Ideal) x0) (val_main_v2 (F := Ideal) x0) concatenates_S4096x64x3_S4096x64x5_S4096x64x8_d2
      (ix3 b n f) rfl rfl (ix3 b n (⟨f.val - 3, by omega⟩ : Fin 5)) (fun a ha => match a, ha with
        | ⟨0, _⟩, _ => rfl
        | ⟨1, _⟩, _ => rfl
        | ⟨2, _⟩, ha => absurd (Fin.ext rfl) ha)
      (by show (f.val - 3) + 3 = f.val; omega)).trans ?_
    exact neighbours_apply x0 b n ⟨f.val - 3, by omega⟩

/-- The first layer's linear map of neighbour n of row b: the eight inputs against row d of the weight, plus the bias. -/
def refl1_H (x0 : (⟨S4096x323, .f32⟩ : BufTy).Contents (Elt Ideal)) (x2 : (⟨S256x8, .f32⟩ : BufTy).Contents (Elt Ideal)) (x3 : (⟨S256, .f32⟩ : BufTy).Contents (Elt Ideal)) (b : Fin 4096) (n : Fin 64) : Fin 256 → EReal :=
  fun d => (∑ f : Fin 8, QSpec.dsR (QSpec.xrow x0 b) n.val f * x2 (ix2 d f)) + x3 (ix1 d)

theorem refl1_lin_apply (x0 : (⟨S4096x323, .f32⟩ : BufTy).Contents (Elt Ideal)) (x2 : (⟨S256x8, .f32⟩ : BufTy).Contents (Elt Ideal)) (x3 : (⟨S256, .f32⟩ : BufTy).Contents (Elt Ideal)) (b : Fin 4096) (n : Fin 64) (d : Fin 256) :
    val_main_v9 (F := Ideal) x0 x2 x3 (ix3 b n d) = refl1_H x0 x2 x3 b n d := by
  have e3 : idx_main_v7 (idx_main_v8 (ix3 b n d)) = ix1 d := funext fun a => Fin.ext (by match a with | ⟨0, _⟩ => rfl)
  rw [val_main_v9_apply, val_main_v6_apply, val_main_v8_apply, val_main_v7_apply, e3]
  show (∑ k : Fin 8, val_main_v5 (F := Ideal) x0 (lidx_main_v6 (ix3 b n d) k) * x2 (ridx_main_v6 (ix3 b n d) k)) + x3 (ix1 d)
    = (∑ f : Fin 8, QSpec.dsR (QSpec.xrow x0 b) n.val f * x2 (ix2 d f)) + x3 (ix1 d)
  refine congrArg₂ (· + ·) (Finset.sum_congr rfl fun k _ => ?_) rfl
  have el : lidx_main_v6 (ix3 b n d) k = ix3 b n k := funext fun a => Fin.ext (by match a with | ⟨0, _⟩ => rfl | ⟨1, _⟩ => rfl | ⟨2, _⟩ => rfl)
  have er : ridx_main_v6 (ix3 b n d) k = ix2 d k := funext fun a => Fin.ext (by match a with | ⟨0, _⟩ => rfl | ⟨1, _⟩ => rfl)
  rw [el, er, ds_apply]

/-- The mean over the 256 columns (the sum started at zero, over 256). -/
theorem refl1_mean_apply (x0 : (⟨S4096x323, .f32⟩ : BufTy).Contents (Elt Ideal)) (x2 : (⟨S256x8, .f32⟩ : BufTy).Contents (Elt Ideal)) (x3 : (⟨S256, .f32⟩ : BufTy).Contents (Elt Ideal)) (b : Fin 4096) (n : Fin 64) (u : Fin 1) :
    val_main_v13 (F := Ideal) x0 x2 x3 (ix3 b n u) = QSpec.meanR QSpec.c256 (refl1_H x0 x2 x3 b n) := by
  have e : ∀ k : Fin 256, idx_main_v10 (idx_main_v11 (ix3 b n u)) k = ix3 b n k := fun k => funext fun a => Fin.ext (by match a with | ⟨0, _⟩ => rfl | ⟨1, _⟩ => rfl | ⟨2, _⟩ => rfl)
  rewrite [val_main_v13_apply, val_main_v11_apply, val_main_v10_apply, val_main_v12_apply, val_main_cst_0_apply, val_main_cst_apply]
  simp only [e, refl1_lin_apply]
  rfl

/-- The centred value, as the variance's operand … -/
theorem refl1_c15_apply (x0 : (⟨S4096x323, .f32⟩ : BufTy).Contents (Elt Ideal)) (x2 : (⟨S256x8, .f32⟩ : BufTy).Contents (Elt Ideal)) (x3 : (⟨S256, .f32⟩ : BufTy).Contents (Elt Ideal)) (b : Fin 4096) (n : Fin 64) (d : Fin 256) :
    val_main_v15 (F := Ideal) x0 x2 x3 (ix3 b n d)
      = refl1_H x0 x2 x3 b n d - QSpec.meanR QSpec.c256 (refl1_H x0 x2 x3 b n) := by
  have e : idx_main_v14 (ix3 b n d) = ix3 b n (⟨0, Nat.one_pos⟩ : Fin 1) := funext fun a => Fin.ext (by match a with | ⟨0, _⟩ => rfl | ⟨1, _⟩ => rfl | ⟨2, _⟩ => rfl)
  rewrite [val_main_v15_apply, val_main_v14_apply, e, refl1_lin_apply, refl1_mean_apply]
  rfl

/-- … and as the quotient's numerator. -/
theorem refl1_c22_apply (x0 : (⟨S4096x323, .f32⟩ : BufTy).Contents (Elt Ideal)) (x2 : (⟨S256x8, .f32⟩ : BufTy).Contents (Elt Ideal)) (x3 : (⟨S256, .f32⟩ : BufTy).Contents (Elt Ideal)) (b : Fin 4096) (n : Fin 64) (d : Fin 256) :
    val_main_v22 (F := Ideal) x0 x2 x3 (ix3 b n d)
      = refl1_H x0 x2 x3 b n d - QSpec.meanR QSpec.c256 (refl1_H x0 x2 x3 b n) := by
  have e : idx_main_v21 (ix3 b n d) = ix3 b n (⟨0, Nat.one_pos⟩ : Fin 1) := funext fun a => Fin.ext (by match a with | ⟨0, _⟩ => rfl | ⟨1, _⟩ => rfl | ⟨2, _⟩ => rfl)
  rewrite [val_main_v22_apply, val_main_v21_apply, e, refl1_lin_apply, refl1_mean_apply]
  rfl

/-- The variance: the mean of the squared centred values. -/
theorem refl1_var_apply (x0 : (⟨S4096x323, .f32⟩ : BufTy).Contents (Elt Ideal)) (x2 : (⟨S256x8, .f32⟩ : BufTy).Contents (Elt Ideal)) (x3 : (⟨S256, .f32⟩ : BufTy).Contents (Elt Ideal)) (b : Fin 4096) (n : Fin 64) (u : Fin 1) :
    val_main_v20 (F := Ideal) x0 x2 x3 (ix3 b n u)
      = QSpec.meanR QSpec.c256 (fun k => (refl1_H x0 x2 x3 b n k - QSpec.meanR QSpec.c256 (refl1_H x0 x2 x3 b n))
          * (refl1_H x0 x2 x3 b n k - QSpec.meanR QSpec.c256 (refl1_H x0 x2 x3 b n))) := by
  have e : ∀ k : Fin 256, idx_main_v17 (idx_main_v18 (ix3 b n u)) k = ix3 b n k := fun k => funext fun a => Fin.ext (by match a with | ⟨0, _⟩ => rfl | ⟨1, _⟩ => rfl | ⟨2, _⟩ => rfl)
  rewrite [val_main_v20_apply, val_main_v18_apply, val_main_v17_apply, val_main_v19_apply, val_main_cst_2_apply, val_main_cst_1_apply]
  simp only [e, val_main_v16_apply, refl1_c15_apply]
  rfl

/-- The normalised value: the centred value over the root of the variance plus epsilon. -/
theorem refl1_norm_apply (x0 : (⟨S4096x323, .f32⟩ : BufTy).Contents (Elt Ideal)) (x2 : (⟨S256x8, .f32⟩ : BufTy).Contents (Elt Ideal)) (x3 : (⟨S256, .f32⟩ : BufTy).Contents (Elt Ideal)) (b : Fin 4096) (n : Fin 64) (d : Fin 256) :
    val_main_v27 (F := Ideal) x0 x2 x3 (ix3 b n d)
      = Ideal.div (refl1_H x0 x2 x3 b n d - QSpec.meanR QSpec.c256 (refl1_H x0 x2 x3 b n))
          (Ideal.sqrt (QSpec.meanR QSpec.c256 (fun k => (refl1_H x0 x2 x3 b n k - QSpec.meanR QSpec.c256 (refl1_H x0 x2 x3 b n))
            * (refl1_H x0 x2 x3 b n k - QSpec.meanR QSpec.c256 (refl1_H x0 x2 x3 b n))) + QSpec.eps)) := by
  have e : idx_main_v26 (ix3 b n d) = ix3 b n (⟨0, Nat.one_pos⟩ : Fin 1) := funext fun a => Fin.ext (by match a with | ⟨0, _⟩ => rfl | ⟨1, _⟩ => rfl | ⟨2, _⟩ => rfl)
  rewrite [val_main_v27_apply, val_main_v26_apply, val_main_v25_apply, val_main_v24_apply, val_main_v23_apply,
    val_main_cst_3_apply, e, refl1_c22_apply, refl1_var_apply]
  rfl

/-- The layer normalisation with gain and shift. -/
theorem refl1_ln_apply (x0 : (⟨S4096x323, .f32⟩ : BufTy).Contents (Elt Ideal)) (x2 : (⟨S256x8, .f32⟩ : BufTy).Contents (Elt Ideal)) (x3 x4 x5 : (⟨S256, .f32⟩ : BufTy).Contents (Elt Ideal)) (b : Fin 4096) (n : Fin 64) (d : Fin 256) :
    val_main_v33 (F := Ideal) x0 x2 x3 x4 x5 (ix3 b n d)
      = QSpec.lnR QSpec.c256 (fun k => x4 (ix1 k)) (fun k => x5 (ix1 k)) (refl1_H x0 x2 x3 b n) d := by
  have e4 : idx_main_v28 (idx_main_v29 (ix3 b n d)) = ix1 d := funext fun a => Fin.ext (by match a with | ⟨0, _⟩ => rfl)
  have e5 : idx_main_v31 (idx_main_v32 (ix3 b n d)) = ix1 d := funext fun a => Fin.ext (by match a with | ⟨0, _⟩ => rfl)
  rewrite [val_main_v33_apply, val_main_v30_apply, val_main_v29_apply, val_main_v28_apply, val_main_v32_apply,
    val_main_v31_apply, e4, e5, refl1_norm_apply]
  rfl

theorem h1_apply (x0 : (⟨S4096x323, .f32⟩ : BufTy).Contents (Elt Ideal)) (x1 : (⟨S4096, .i32⟩ : BufTy).Contents (Elt Ideal)) (x2 : (⟨S256x8, .f32⟩ : BufTy).Contents (Elt Ideal)) (x3 x4 x5 : (⟨S256, .f32⟩ : BufTy).Contents (Elt Ideal)) (x6 : (⟨S256x256, .f32⟩ : BufTy).Contents (Elt Ideal)) (x7 x8 x9 : (⟨S256, .f32⟩ : BufTy).Contents (Elt Ideal)) (x10 : (⟨S128x256, .f32⟩ : BufTy).Contents (Elt Ideal)) (x11 : (⟨S128, .f32⟩ : BufTy).Contents (Elt Ideal)) (x12 : (⟨S512x264, .f32⟩ : BufTy).Contents (Elt Ideal)) (x13 x14 x15 : (⟨S512, .f32⟩ : BufTy).Contents (Elt Ideal)) (x16 : (⟨S1x512, .f32⟩ : BufTy).Contents (Elt Ideal)) (x17 : (⟨S1, .f32⟩ : BufTy).Contents (Elt Ideal)) (b : Fin 4096) (n : Fin 64) (d : Fin 256) :
    val_main_v38 (F := Ideal) x0 x2 x3 x4 x5 (ix3 b n d) = QSpec.h1R (pR x2 x3 x4 x5 x6 x7 x8 x9 x10 x11 x12 x13 x14 x15 x16 x17) (QSpec.xrow x0 b) n.val d := by
  rewrite [val_main_v38_apply, val_main_v35_apply, val_main_v37_apply, val_main_v34_apply, val_main_v36_apply,
    val_main_cst_4_apply, val_main_cst_5_apply, refl1_ln_apply]
  rfl

end Cert.ReferenceIdeal.RefValue

end
-- ==== Proof.RefL2.lean ====
/-
  The reference's second layer read at (b, n, d).
-/
import proofs.«427821_j19241453486367_3_alg».proof.Proof.RefL1

noncomputable section

namespace Cert.ReferenceIdeal.RefValue

open Idealize.ShloMosaic Idealize.ShloMosaic.ValueIdx Idealize.SL.Sem Cert.ReferenceIdeal Cert.ReferenceIdeal.Gen Cert.ReferenceIdeal.Read

section Aux

variable (x0 : (⟨S4096x323, .f32⟩ : BufTy).Contents (Elt Ideal)) (x2 : (⟨S256x8, .f32⟩ : BufTy).Contents (Elt Ideal)) (x3 x4 x5 : (⟨S256, .f32⟩ : BufTy).Contents (Elt Ideal)) (x6 : (⟨S256x256, .f32⟩ : BufTy).Contents (Elt Ideal)) (x7 x8 x9 : (⟨S256, .f32⟩ : BufTy).Contents (Elt Ideal)) (x10 : (⟨S128x256, .f32⟩ : BufTy).Contents (Elt Ideal)) (x11 : (⟨S128, .f32⟩ : BufTy).Contents (Elt Ideal)) (x12 : (⟨S512x264, .f32⟩ : BufTy).Contents (Elt Ideal)) (x13 x14 x15 : (⟨S512, .f32⟩ : BufTy).Contents (Elt Ideal)) (x16 : (⟨S1x512, .f32⟩ : BufTy).Contents (Elt Ideal)) (x17 : (⟨S1, .f32⟩ : BufTy).Contents (Elt Ideal))

/-! ### The second layer's pre-activation -/

theorem refl2_lidx_v39 (b : Fin 4096) (n : Fin 64) (d : Fin 256) (k : Fin 256) : lidx_main_v39 (ix3 b n d) k = ix3 b n k := funext fun a => Fin.ext (by match a with | ⟨0, _⟩ => rfl | ⟨1, _⟩ => rfl | ⟨2, _⟩ => rfl)
theorem refl2_ridx_v39 (b : Fin 4096) (n : Fin 64) (d : Fin 256) (k : Fin 256) : ridx_main_v39 (ix3 b n d) k = ix2 d k := funext fun a => Fin.ext (by match a with | ⟨0, _⟩ => rfl | ⟨1, _⟩ => rfl)
theorem refl2_idx_v40_v41 (b : Fin 4096) (n : Fin 64) (d : Fin 256) : idx_main_v40 (idx_main_v41 (ix3 b n d)) = ix1 d := funext fun a => Fin.ext (by match a with | ⟨0, _⟩ => rfl)

/-- The linear map of the second layer over the first layer's values, plus its bias. -/
theorem refl2_pre2_apply (x1 : (⟨S4096, .i32⟩ : BufTy).Contents (Elt Ideal)) (b : Fin 4096) (n : Fin 64) (d : Fin 256) :
    val_main_v42 (F := Ideal) x0 x2 x3 x4 x5 x6 x7 (ix3 b n d)
      = (∑ k : Fin 256, QSpec.h1R (pR x2 x3 x4 x5 x6 x7 x8 x9 x10 x11 x12 x13 x14 x15 x16 x17) (QSpec.xrow x0 b) n.val k * (x6 (ix2 d k) : EReal)) + (x7 (ix1 d) : EReal) := by
  rw [val_main_v42_apply, val_main_v39_apply, val_main_v41_apply, val_main_v40_apply, refl2_idx_v40_v41 b n d, Ideal.addf_def]
  refine congrArg₂ (fun (u v : EReal) => u + v) (Finset.sum_congr rfl fun k _ => ?_) rfl
  rw [refl2_lidx_v39 b n d k, refl2_ridx_v39 b n d k, h1_apply x0 x1 x2 x3 x4 x5 x6 x7 x8 x9 x10 x11 x12 x13 x14 x15 x16 x17 b n k]

/-! ### Layer 2: the normalisation and the rectifier over the pre-activation `v42` -/

theorem refl2_idx_v43 (b : Fin 4096) (n : Fin 64) (k : Fin 256) : idx_main_v43 (ix2 b n) k = ix3 b n k := funext fun a => Fin.ext (by match a with | ⟨0, _⟩ => rfl | ⟨1, _⟩ => rfl | ⟨2, _⟩ => rfl)
theorem refl2_idx_v44 (b : Fin 4096) (n : Fin 64) (z : Fin 1) : idx_main_v44 (ix3 b n z) = ix2 b n := funext fun a => Fin.ext (by match a with | ⟨0, _⟩ => rfl | ⟨1, _⟩ => rfl)
theorem refl2_idx_v47 (b : Fin 4096) (n : Fin 64) (d : Fin 256) : idx_main_v47 (ix3 b n d) = ix3 b n (⟨0, Nat.one_pos⟩ : Fin 1) := funext fun a => Fin.ext (by match a with | ⟨0, _⟩ => rfl | ⟨1, _⟩ => rfl | ⟨2, _⟩ => rfl)
theorem refl2_idx_v50 (b : Fin 4096) (n : Fin 64) (k : Fin 256) : idx_main_v50 (ix2 b n) k = ix3 b n k := funext fun a => Fin.ext (by match a with | ⟨0, _⟩ => rfl | ⟨1, _⟩ => rfl | ⟨2, _⟩ => rfl)
theorem refl2_idx_v51 (b : Fin 4096) (n : Fin 64) (z : Fin 1) : idx_main_v51 (ix3 b n z) = ix2 b n := funext fun a => Fin.ext (by match a with | ⟨0, _⟩ => rfl | ⟨1, _⟩ => rfl)
theorem refl2_idx_v54 (b : Fin 4096) (n : Fin 64) (d : Fin 256) : idx_main_v54 (ix3 b n d) = ix3 b n (⟨0, Nat.one_pos⟩ : Fin 1) := funext fun a => Fin.ext (by match a with | ⟨0, _⟩ => rfl | ⟨1, _⟩ => rfl | ⟨2, _⟩ => rfl)
theorem refl2_idx_v59 (b : Fin 4096) (n : Fin 64) (d : Fin 256) : idx_main_v59 (ix3 b n d) = ix3 b n (⟨0, Nat.one_pos⟩ : Fin 1) := funext fun a => Fin.ext (by match a with | ⟨0, _⟩ => rfl | ⟨1, _⟩ => rfl | ⟨2, _⟩ => rfl)
theorem refl2_idx_v61_v62 (b : Fin 4096) (n : Fin 64) (d : Fin 256) : idx_main_v61 (idx_main_v62 (ix3 b n d)) = ix1 d := funext fun a => Fin.ext (by match a with | ⟨0, _⟩ => rfl)
theorem refl2_idx_v64_v65 (b : Fin 4096) (n : Fin 64) (d : Fin 256) : idx_main_v64 (idx_main_v65 (ix3 b n d)) = ix1 d := funext fun a => Fin.ext (by match a with | ⟨0, _⟩ => rfl)

/-- The sum of a row of the pre-activation, from the zero constant. -/
theorem refl2_sum2_apply (b : Fin 4096) (n : Fin 64) :
    val_main_v43 (F := Ideal) x0 x2 x3 x4 x5 x6 x7 (ix2 b n) = QSpec.zero + ∑ k : Fin 256, val_main_v42 (F := Ideal) x0 x2 x3 x4 x5 x6 x7 (ix3 b n k) := by
  rw [val_main_v43_apply, val_main_cst_6_apply]
  refine congrArg₂ (fun (u v : EReal) => u + v) rfl (Finset.sum_congr rfl fun k _ => ?_)
  rw [refl2_idx_v43 b n k]

/-- The row's mean. -/
theorem refl2_mean2_apply (b : Fin 4096) (n : Fin 64) (z : Fin 1) :
    val_main_v46 (F := Ideal) x0 x2 x3 x4 x5 x6 x7 (ix3 b n z) = QSpec.meanR QSpec.c256 (fun k : Fin 256 => val_main_v42 (F := Ideal) x0 x2 x3 x4 x5 x6 x7 (ix3 b n k)) := by
  rw [val_main_v46_apply, val_main_v44_apply, refl2_idx_v44 b n z, refl2_sum2_apply, val_main_v45_apply, val_main_cst_7_apply]
  generalize val_main_v42 (F := Ideal) x0 x2 x3 x4 x5 x6 x7 = H
  rfl

/-- The centred pre-activation (the copy the variance is taken of). -/
theorem refl2_cen2_apply (b : Fin 4096) (n : Fin 64) (d : Fin 256) :
    val_main_v48 (F := Ideal) x0 x2 x3 x4 x5 x6 x7 (ix3 b n d) = val_main_v42 (F := Ideal) x0 x2 x3 x4 x5 x6 x7 (ix3 b n d) - QSpec.meanR QSpec.c256 (fun k : Fin 256 => val_main_v42 (F := Ideal) x0 x2 x3 x4 x5 x6 x7 (ix3 b n k)) := by
  rw [val_main_v48_apply, val_main_v47_apply, refl2_idx_v47 b n d, refl2_mean2_apply, Ideal.subf_def]

/-- The centred pre-activation (the copy that is normalised). -/
theorem refl2_cenb2_apply (b : Fin 4096) (n : Fin 64) (d : Fin 256) :
    val_main_v55 (F := Ideal) x0 x2 x3 x4 x5 x6 x7 (ix3 b n d) = val_main_v42 (F := Ideal) x0 x2 x3 x4 x5 x6 x7 (ix3 b n d) - QSpec.meanR QSpec.c256 (fun k : Fin 256 => val_main_v42 (F := Ideal) x0 x2 x3 x4 x5 x6 x7 (ix3 b n k)) := by
  rw [val_main_v55_apply, val_main_v54_apply, refl2_idx_v54 b n d, refl2_mean2_apply, Ideal.subf_def]

/-- The sum of the squared deviations of a row. -/
theorem refl2_sqsum2_apply (b : Fin 4096) (n : Fin 64) :
    val_main_v50 (F := Ideal) x0 x2 x3 x4 x5 x6 x7 (ix2 b n) = QSpec.zero + ∑ k : Fin 256, (val_main_v42 (F := Ideal) x0 x2 x3 x4 x5 x6 x7 (ix3 b n k) - QSpec.meanR QSpec.c256 (fun k : Fin 256 => val_main_v42 (F := Ideal) x0 x2 x3 x4 x5 x6 x7 (ix3 b n k))) * (val_main_v42 (F := Ideal) x0 x2 x3 x4 x5 x6 x7 (ix3 b n k) - QSpec.meanR QSpec.c256 (fun k : Fin 256 => val_main_v42 (F := Ideal) x0 x2 x3 x4 x5 x6 x7 (ix3 b n k))) := by
  rw [val_main_v50_apply, val_main_cst_8_apply]
  refine congrArg₂ (fun (u v : EReal) => u + v) rfl (Finset.sum_congr rfl fun k _ => ?_)
  rw [refl2_idx_v50 b n k, val_main_v49_apply, refl2_cen2_apply, Ideal.mulf_def]

/-- The row's variance. -/
theorem refl2_var2_apply (b : Fin 4096) (n : Fin 64) (z : Fin 1) :
    val_main_v53 (F := Ideal) x0 x2 x3 x4 x5 x6 x7 (ix3 b n z) = QSpec.meanR QSpec.c256 (fun k : Fin 256 => (val_main_v42 (F := Ideal) x0 x2 x3 x4 x5 x6 x7 (ix3 b n k) - QSpec.meanR QSpec.c256 (fun k : Fin 256 => val_main_v42 (F := Ideal) x0 x2 x3 x4 x5 x6 x7 (ix3 b n k))) * (val_main_v42 (F := Ideal) x0 x2 x3 x4 x5 x6 x7 (ix3 b n k) - QSpec.meanR QSpec.c256 (fun k : Fin 256 => val_main_v42 (F := Ideal) x0 x2 x3 x4 x5 x6 x7 (ix3 b n k)))) := by
  rw [val_main_v53_apply, val_main_v51_apply, refl2_idx_v51 b n z, refl2_sqsum2_apply, val_main_v52_apply, val_main_cst_9_apply]
  generalize val_main_v42 (F := Ideal) x0 x2 x3 x4 x5 x6 x7 = H
  rfl

/-- The normalised, scaled and shifted pre-activation. -/
theorem refl2_ln2_apply (b : Fin 4096) (n : Fin 64) (d : Fin 256) :
    val_main_v66 (F := Ideal) x0 x2 x3 x4 x5 x6 x7 x8 x9 (ix3 b n d)
      = QSpec.lnR QSpec.c256 (fun d' : Fin 256 => (x8 (ix1 d') : EReal)) (fun d' : Fin 256 => (x9 (ix1 d') : EReal)) (fun d' : Fin 256 => val_main_v42 (F := Ideal) x0 x2 x3 x4 x5 x6 x7 (ix3 b n d')) d := by
  rw [val_main_v66_apply, val_main_v63_apply, val_main_v60_apply, refl2_cenb2_apply, val_main_v59_apply, refl2_idx_v59 b n d,
    val_main_v58_apply, val_main_v57_apply, refl2_var2_apply, val_main_v56_apply, val_main_cst_10_apply,
    val_main_v62_apply, val_main_v61_apply, refl2_idx_v61_v62 b n d, val_main_v65_apply, val_main_v64_apply, refl2_idx_v64_v65 b n d]
  generalize val_main_v42 (F := Ideal) x0 x2 x3 x4 x5 x6 x7 = H
  rfl

/-- The rectifier: the select on "at least zero" between the value and the slope times it. -/
theorem refl2_act2_apply (i : S4096x64x256.Idx) :
    val_main_v71 (F := Ideal) x0 x2 x3 x4 x5 x6 x7 x8 x9 i = QSpec.leaky (val_main_v66 (F := Ideal) x0 x2 x3 x4 x5 x6 x7 x8 x9 i) := by
  rw [val_main_v71_apply, val_main_v68_apply, val_main_v70_apply, val_main_v67_apply, val_main_v69_apply, val_main_cst_11_apply, val_main_cst_12_apply]
  generalize val_main_v66 (F := Ideal) x0 x2 x3 x4 x5 x6 x7 x8 x9 i = y
  rfl

end Aux

theorem h2_apply (x0 : (⟨S4096x323, .f32⟩ : BufTy).Contents (Elt Ideal)) (x1 : (⟨S4096, .i32⟩ : BufTy).Contents (Elt Ideal)) (x2 : (⟨S256x8, .f32⟩ : BufTy).Contents (Elt Ideal)) (x3 x4 x5 : (⟨S256, .f32⟩ : BufTy).Contents (Elt Ideal)) (x6 : (⟨S256x256, .f32⟩ : BufTy).Contents (Elt Ideal)) (x7 x8 x9 : (⟨S256, .f32⟩ : BufTy).Contents (Elt Ideal)) (x10 : (⟨S128x256, .f32⟩ : BufTy).Contents (Elt Ideal)) (x11 : (⟨S128, .f32⟩ : BufTy).Contents (Elt Ideal)) (x12 : (⟨S512x264, .f32⟩ : BufTy).Contents (Elt Ideal)) (x13 x14 x15 : (⟨S512, .f32⟩ : BufTy).Contents (Elt Ideal)) (x16 : (⟨S1x512, .f32⟩ : BufTy).Contents (Elt Ideal)) (x17 : (⟨S1, .f32⟩ : BufTy).Contents (Elt Ideal)) (b : Fin 4096) (n : Fin 64) (d : Fin 256) :
    val_main_v71 (F := Ideal) x0 x2 x3 x4 x5 x6 x7 x8 x9 (ix3 b n d) = QSpec.h2R (pR x2 x3 x4 x5 x6 x7 x8 x9 x10 x11 x12 x13 x14 x15 x16 x17) (QSpec.xrow x0 b) n.val d := by
  rw [refl2_act2_apply, refl2_ln2_apply,
    show (fun d' : Fin 256 => val_main_v42 (F := Ideal) x0 x2 x3 x4 x5 x6 x7 (ix3 b n d'))
        = (fun d' : Fin 256 => (∑ k : Fin 256, QSpec.h1R (pR x2 x3 x4 x5 x6 x7 x8 x9 x10 x11 x12 x13 x14 x15 x16 x17) (QSpec.xrow x0 b) n.val k * (x6 (ix2 d' k) : EReal)) + (x7 (ix1 d') : EReal))
      from funext fun d' => refl2_pre2_apply x0 x2 x3 x4 x5 x6 x7 x8 x9 x10 x11 x12 x13 x14 x15 x16 x17 x1 b n d']
  unfold QSpec.h2R
  generalize QSpec.h1R (pR x2 x3 x4 x5 x6 x7 x8 x9 x10 x11 x12 x13 x14 x15 x16 x17) (QSpec.xrow x0 b) n.val = h1
  rfl

end Cert.ReferenceIdeal.RefValue

end
-- ==== Proof.RefEmbed.lean ====
/-
  The reference's embeddings (the value of the three per-neighbour layers, [4096, 64, 128]) read at (b, n, e): the row function's embedding of neighbour n of row b.
-/
import proofs.«427821_j19241453486367_3_alg».proof.Proof.RefL2

noncomputable section

namespace Cert.ReferenceIdeal.RefValue

open Idealize.ShloMosaic Idealize.ShloMosaic.ValueIdx Idealize.SL.Sem Cert.ReferenceIdeal Cert.ReferenceIdeal.Gen Cert.ReferenceIdeal.Read

theorem refembed_lidx_v72 (b : Fin 4096) (n : Fin 64) (e : Fin 128) (k : Fin 256) : lidx_main_v72 (ix3 b n e) k = ix3 b n k := funext fun a => Fin.ext (by match a with | ⟨0, _⟩ => rfl | ⟨1, _⟩ => rfl | ⟨2, _⟩ => rfl)
theorem refembed_ridx_v72 (b : Fin 4096) (n : Fin 64) (e : Fin 128) (k : Fin 256) : ridx_main_v72 (ix3 b n e) k = ix2 e k := funext fun a => Fin.ext (by match a with | ⟨0, _⟩ => rfl | ⟨1, _⟩ => rfl)
theorem refembed_idx_v73_v74 (b : Fin 4096) (n : Fin 64) (e : Fin 128) : idx_main_v73 (idx_main_v74 (ix3 b n e)) = ix1 e := funext fun a => Fin.ext (by match a with | ⟨0, _⟩ => rfl)

theorem embeds_apply (x0 : (⟨S4096x323, .f32⟩ : BufTy).Contents (Elt Ideal)) (x1 : (⟨S4096, .i32⟩ : BufTy).Contents (Elt Ideal)) (x2 : (⟨S256x8, .f32⟩ : BufTy).Contents (Elt Ideal)) (x3 x4 x5 : (⟨S256, .f32⟩ : BufTy).Contents (Elt Ideal)) (x6 : (⟨S256x256, .f32⟩ : BufTy).Contents (Elt Ideal)) (x7 x8 x9 : (⟨S256, .f32⟩ : BufTy).Contents (Elt Ideal)) (x10 : (⟨S128x256, .f32⟩ : BufTy).Contents (Elt Ideal)) (x11 : (⟨S128, .f32⟩ : BufTy).Contents (Elt Ideal)) (x12 : (⟨S512x264, .f32⟩ : BufTy).Contents (Elt Ideal)) (x13 x14 x15 : (⟨S512, .f32⟩ : BufTy).Contents (Elt Ideal)) (x16 : (⟨S1x512, .f32⟩ : BufTy).Contents (Elt Ideal)) (x17 : (⟨S1, .f32⟩ : BufTy).Contents (Elt Ideal)) (b : Fin 4096) (n : Fin 64) (e : Fin 128) :
    val_main_v75 (F := Ideal) x0 x2 x3 x4 x5 x6 x7 x8 x9 x10 x11 (ix3 b n e)
      = QSpec.embR (pR x2 x3 x4 x5 x6 x7 x8 x9 x10 x11 x12 x13 x14 x15 x16 x17) (QSpec.xrow x0 b) n.val e := by
  rw [val_main_v75_apply, val_main_v72_apply, val_main_v74_apply, val_main_v73_apply, refembed_idx_v73_v74 b n e, Ideal.addf_def]
  unfold QSpec.embR
  refine congrArg₂ (fun (u v : EReal) => u + v) (Finset.sum_congr rfl fun k _ => ?_) rfl
  rw [refembed_lidx_v72 b n e k, refembed_ridx_v72 b n e k, h2_apply x0 x1 x2 x3 x4 x5 x6 x7 x8 x9 x10 x11 x12 x13 x14 x15 x16 x17 b n k]
  rfl

end Cert.ReferenceIdeal.RefValue

end
-- ==== Proof.RefMask.lean ====
/-
  The reference's neighbour mask and neighbour count read at a row: the truth bit of neighbour n is the or of its five features' tests against zero, and the clipped count is the larger of the number of set bits and one.
-/
import proofs.«427821_j19241453486367_3_alg».proof.Proof.RefEmbed
import Idealize.ShloMosaic.Lib.StableHlo.Predicate

noncomputable section

namespace Cert.ReferenceIdeal.RefValue

open Idealize.ShloMosaic Idealize.ShloMosaic.ValueIdx Idealize.SL.Sem Cert.ReferenceIdeal Cert.ReferenceIdeal.Gen Cert.ReferenceIdeal.Read

/-! ## The truth bit of a neighbour -/

/-- The last axis of the tests is the one the or runs over. -/
theorem refmask_reduces : S4096x64x5.Reduces [2] S4096x64 := by decide

/-- Row `b`, neighbour `n` with the feature number `j` put back on the last axis is `(b, n, j)`. -/
theorem refmask_lift (b : Fin 4096) (n : Fin 64) (j : Fin 5) :
    refmask_reduces.lift (ix2 b n) j = ix3 b n j :=
  funext fun a => Fin.ext (by match a with | ⟨0, _⟩ => rfl | ⟨1, _⟩ => rfl | ⟨2, _⟩ => rfl)

/-- The test of feature `j` of neighbour `n` of row `b` against zero. -/
theorem refmask_test_apply (x0 : (⟨S4096x323, .f32⟩ : BufTy).Contents (Elt Ideal)) (b : Fin 4096) (n : Fin 64) (j : Fin 5) :
    val_main_v77 (F := Ideal) x0 (ix3 b n j) = Ideal.cmp .une (QSpec.nbr (QSpec.xrow x0 b) n.val j) QSpec.zero := by
  rw [val_main_v77_apply, neighbours_apply, val_main_v76_apply, val_main_cst_13_apply]
  rfl

theorem any_apply (x0 : (⟨S4096x323, .f32⟩ : BufTy).Contents (Elt Ideal)) (b : Fin 4096) (n : Fin 64) :
    val_main_v78 (F := Ideal) x0 (ix2 b n) = QSpec.anyR (QSpec.xrow x0 b) n.val := by
  refine (Host.reduce_eq_fold_single IntOp.ori (val_main_v77 (F := Ideal) x0) (val_main_c (F := Ideal))
    reducesTo_S4096x64x5_S4096x64_d2 refmask_reduces h_S_ (ix2 b n)).trans ?_
  unfold QSpec.anyR
  have key : ∀ j : Fin 5, (val_main_v77 (F := Ideal) x0 ∘ refmask_reduces.lift (ix2 b n)) j
      = Ideal.cmp .une (QSpec.nbr (QSpec.xrow x0 b) n.val j) QSpec.zero := fun j =>
    (congrArg (val_main_v77 (F := Ideal) x0) (refmask_lift b n j)).trans (refmask_test_apply x0 b n j)
  exact congrArg (fun f : Fin 5 → BitVec 1 => Finset.fold IntOp.ori 0#1 f Finset.univ) (funext key)

/-! ## The count of neighbours with a nonzero feature -/

/-- The integer count at row `b` is the number of neighbours whose truth bit is set. -/
theorem refmask_count_card (x0 : (⟨S4096x323, .f32⟩ : BufTy).Contents (Elt Ideal)) (b : Fin 4096) :
    (val_main_v84 (F := Ideal) x0 (ix1 b)).toNat
      = (Finset.univ.filter (fun q : Fin 64 => val_main_v78 (F := Ideal) x0 (ix2 b q) = 1#1)).card := by
  refine (StableHlo.Predicate.toNat_reduce_count_cols (by norm_num) (val_main_v78 (F := Ideal) x0) natLt_1_32
    reducesTo_S4096x64_S4096_d1 h_S_ (ix1 b)).trans ?_
  refine congrArg Finset.card (Finset.filter_congr fun q _ => ?_)
  have hq : StableHlo.Predicate.ij (ix1 b 0) q = ix2 b q :=
    funext fun a => by match a with | ⟨0, _⟩ => rfl | ⟨1, _⟩ => rfl
  exact Iff.of_eq (congrArg (fun i => val_main_v78 (F := Ideal) x0 i = 1#1) hq)

/-- That number is the row function's count. -/
theorem refmask_count_toNat (x0 : (⟨S4096x323, .f32⟩ : BufTy).Contents (Elt Ideal)) (b : Fin 4096) :
    (val_main_v84 (F := Ideal) x0 (ix1 b)).toNat = QSpec.countR (QSpec.xrow x0 b) := by
  rw [refmask_count_card, Finset.card_filter]
  unfold QSpec.countR
  exact Finset.sum_congr rfl fun n _ => by rw [any_apply]

/-- It is at most 64, so the word reads the same signed and unsigned. -/
theorem refmask_count_le (x0 : (⟨S4096x323, .f32⟩ : BufTy).Contents (Elt Ideal)) (b : Fin 4096) :
    (val_main_v84 (F := Ideal) x0 (ix1 b)).toNat ≤ 64 := by
  rw [refmask_count_card]
  exact (Finset.card_le_univ _).trans (by simp)

theorem clipcount_apply (x0 : (⟨S4096x323, .f32⟩ : BufTy).Contents (Elt Ideal)) (b : Fin 4096) :
    val_main_v88 (F := Ideal) x0 (ix2 b 0) = max ((QSpec.countR (QSpec.xrow x0 b) : ℝ) : EReal) QSpec.one := by
  have hlt : (val_main_v84 (F := Ideal) x0 (ix1 b)).toNat < 2 ^ 31 :=
    lt_of_le_of_lt (refmask_count_le x0 b) (by norm_num)
  rw [val_main_v88_apply, val_main_call2_v1_apply, val_main_call2_v0_apply, val_main_cst_16_apply, val_main_v86_apply,
    val_main_v85_apply,
    show idx_main_v85 (ix2 b (0 : Fin 1)) = ix1 b from funext fun a => by match a with | ⟨0, _⟩ => rfl]
  show max QSpec.one ((((val_main_v84 (F := Ideal) x0 (ix1 b)).toInt : ℤ) : ℝ) : EReal) = _
  rw [StableHlo.Predicate.toInt_eq_toNat_of_lt hlt, refmask_count_toNat, Int.cast_natCast, max_comm]

end Cert.ReferenceIdeal.RefValue

end
-- ==== Proof.RefTake.lean ====
/-
  The reference's two indexed reads along the neighbour axis, for a row whose action is in range: the chosen neighbour's embedding and the chosen neighbour's features.
-/
import proofs.«427821_j19241453486367_3_alg».proof.Proof.RefEmbed
import Idealize.ShloMosaic.Lib.StableHlo.Predicate

noncomputable section

namespace Cert.ReferenceIdeal.RefValue

open Idealize.ShloMosaic Idealize.ShloMosaic.ValueIdx Idealize.SL.Sem Cert.ReferenceIdeal Cert.ReferenceIdeal.Gen Cert.ReferenceIdeal.Read

/-! ## The index logic of a read along an axis of 64 entries -/

/-- A word in [0, 64) is not negative, so the wrap-around by 64 leaves it alone. -/
private theorem reftake_sel_eq (a : BitVec 32) (h0 : 0 ≤ a.toInt) (h1 : a.toInt < 64) :
    Scalar.select (IntOp.cmpi .slt a 0#32) (IntOp.addi a 64#32) a = a := by
  have hc : IntOp.cmpi .slt a 0#32 = 0#1 := by
    have : a.slt 0#32 = false := by
      simp only [BitVec.slt]
      exact decide_eq_false (by simpa using h0)
    simp only [IntOp.cmpi, this]; rfl
  rw [hc]; exact select_zero _ _

private theorem reftake_toNat_lt (a : BitVec 32) (h0 : 0 ≤ a.toInt) (h1 : a.toInt < 64) : a.toNat < 64 := by
  rw [BitVec.toInt_eq_toNat_cond] at h0 h1
  have := a.isLt
  split at h0 <;> omega

/-- A word in [0, 64) passes the range test 0 ≤ · ≤ 63. -/
private theorem reftake_valid_eq (a : BitVec 32) (h0 : 0 ≤ a.toInt) (h1 : a.toInt < 64) :
    IntOp.andi (IntOp.cmpi .sge a 0#32) (IntOp.cmpi .sle a 63#32) = 1#1 := by
  have hn : a.toNat < 64 := reftake_toNat_lt a h0 h1
  have hlt : a.toNat < 2 ^ 31 := by omega
  have h6 : IntOp.cmpi .sge a 0#32 = 1#1 :=
    (StableHlo.Predicate.sge_iff_toNat hlt (by decide)).mpr (by simp)
  have h9 : IntOp.cmpi .sle a 63#32 = 1#1 :=
    (StableHlo.Predicate.sle_iff_toNat hlt (by decide)).mpr (by simp; omega)
  rw [h6, h9]; decide

/-- The clamp of a word in [0, 64) to [0, 63], read as a natural number, is the word. -/
private theorem reftake_clamp_eq (a : BitVec 32) (h0 : 0 ≤ a.toInt) (h1 : a.toInt < 64) :
    min a.toInt.toNat (64 - 1) = a.toNat := by
  have hn : a.toNat < 64 := reftake_toNat_lt a h0 h1
  rw [StableHlo.Predicate.toInt_eq_toNat_of_lt (by omega), Int.toNat_natCast]
  omega

/-- A fold of "and" from the set bit over set bits is the set bit. -/
private theorem reftake_fold_andi_one {ι : Type} (S : Finset ι) (f : ι → BitVec 1) (init : BitVec 1) (hinit : init = 1#1)
    (hf : ∀ i ∈ S, f i = 1#1) : S.fold IntOp.andi init f = 1#1 := by
  subst hinit
  induction S using Finset.cons_induction with
  | empty => rfl
  | cons a S ha ih =>
    rw [Finset.fold_cons, hf a (Finset.mem_cons_self a S), ih (fun i hi => hf i (Finset.mem_cons.mpr (Or.inr hi)))]
    decide

/-- The value of a coordinate depends on the axis only through its number. -/
private theorem reftake_val_congr {n : Fin 3 → ℕ} (j : (a : Fin 3) → Fin (n a)) {X Y : Fin 3} (h : X = Y) :
    (j X).val = (j Y).val := by subst h; rfl

section Gather
variable {B N E w : ℕ} (d : GatherDims ⟨3, ![B, N, E]⟩ ⟨3, ![B, 1, 1]⟩ ⟨3, ![B, 1, E]⟩)
  (hoff : d.offsetDims = [2]) (hcoll : d.collapsedSliceDims = [1]) (hob : d.operandBatchingDims = [0])
  (hsb : d.startIndicesBatchingDims = [0]) (hsim : d.startIndexMap = [1]) (hivd : d.indexVectorDim = 2)
  (hsl : d.sliceSizes = ![1, 1, E])
include hoff hcoll hob hsb hsim hivd hsl

/-- The batch coordinate on the first operand axis is the result's first coordinate. -/
private theorem reftake_batchCoord (b : Fin B) (e : Fin E) : d.batchCoord (ix3 b (0 : Fin 1) e) (0 : Fin 3) = b.val := by
  obtain ⟨off, coll, ob, sb, sim, ivd, sl, wf⟩ := d
  dsimp only at hoff hcoll hob hsb hsim hivd hsl
  subst hoff hcoll hob hsb hsim hivd hsl
  unfold GatherDims.batchCoord
  split
  · unfold GatherDims.siCoord
    simp only [Fin.val_cast]
    exact reftake_val_congr (ix3 b (0 : Fin 1) e) (Y := 0) rfl
  · rename_i h; exact absurd (List.mem_singleton.mpr rfl) h

/-- The offset coordinate on the last operand axis is the result's last coordinate. -/
private theorem reftake_offCoord (b : Fin B) (e : Fin E) : d.offCoord (ix3 b (0 : Fin 1) e) (2 : Fin 3) = e.val := by
  obtain ⟨off, coll, ob, sb, sim, ivd, sl, wf⟩ := d
  dsimp only at hoff hcoll hob hsb hsim hivd hsl
  subst hoff hcoll hob hsb hsim hivd hsl
  unfold GatherDims.offCoord
  split
  · exact reftake_val_congr (ix3 b (0 : Fin 1) e) (Y := 2) rfl
  · rename_i h; exact absurd (by rw [GatherDims.mem_sKept]; simp) h

/-- The start index of result entry (b, 0, e) is read at (b, 0, 0). -/
private theorem reftake_siIdx (b : Fin B) (e : Fin E) (c : Fin d.startIndexMap.length) :
    d.siIdx (ix3 b (0 : Fin 1) e) c = ix3 b (0 : Fin 1) (0 : Fin 1) := by
  have hl : d.startIndexMap.length = 1 := by rw [hsim]; rfl
  have hc : c.val = 0 := by have := c.isLt; omega
  obtain ⟨off, coll, ob, sb, sim, ivd, sl, wf⟩ := d
  dsimp only at hoff hcoll hob hsb hsim hivd hsl
  subst hoff hcoll hob hsb hsim hivd hsl
  funext b'
  refine Fin.ext ?_
  unfold GatherDims.siIdx
  match b' with
  | ⟨0, _⟩ =>
    rw [dif_neg (by simp)]
    unfold GatherDims.siCoord
    simp only [Fin.val_cast]
    exact reftake_val_congr (ix3 b (0 : Fin 1) e) (Y := 0) rfl
  | ⟨1, _⟩ =>
    rw [dif_neg (by simp)]
    unfold GatherDims.siCoord
    simp only [Fin.val_cast]
    exact reftake_val_congr (ix3 b (0 : Fin 1) e) (Y := 1) rfl
  | ⟨2, _⟩ =>
    rw [dif_pos rfl]
    exact hc

/-- A gather along the middle axis of a [B, N, E] array, batched over the first axis and whole on the last, with one
    start index per batch entry: result entry (b, 0, e) is the operand at (b, n, e), n the start index of b read signed and
    clamped into [0, N − 1]. -/
private theorem reftake_gather_along {α : Type} (x : (⟨3, ![B, N, E]⟩ : Shape).Idx → α) (idx : IVec ⟨3, ![B, 1, 1]⟩ w)
    (b : Fin B) (e : Fin E) (n : Fin N)
    (hn : min (idx (ix3 b (0 : Fin 1) (0 : Fin 1))).toInt.toNat (N - 1) = n.val) :
    Host.gather d x idx (ix3 b (0 : Fin 1) e) = x (ix3 b n e) := by
  have m00 : (0 : Fin 3) ∈ d.operandBatchingDims := by rw [hob]; exact List.mem_singleton.mpr rfl
  have m10 : (1 : Fin 3) ∉ d.operandBatchingDims := by rw [hob]; simp
  have m20 : (2 : Fin 3) ∉ d.operandBatchingDims := by rw [hob]; simp
  have k0 : (0 : Fin 3) ∉ d.sKept := by rw [GatherDims.mem_sKept, hcoll, hob]; simp
  have k1 : (1 : Fin 3) ∉ d.sKept := by rw [GatherDims.mem_sKept, hcoll, hob]; simp
  have s1 : (1 : Fin 3) ∈ d.startIndexMap := by rw [hsim]; exact List.mem_singleton.mpr rfl
  have s2 : (2 : Fin 3) ∉ d.startIndexMap := by rw [hsim]; simp
  have h0 : d.start (ix3 b (0 : Fin 1) e) idx (0 : Fin 3) + d.batchCoord (ix3 b (0 : Fin 1) e) (0 : Fin 3)
      + d.offCoord (ix3 b (0 : Fin 1) e) (0 : Fin 3) = b.val := by
    rw [d.start_batching _ _ _ m00, d.offCoord_eq_zero _ _ k0, reftake_batchCoord d hoff hcoll hob hsb hsim hivd hsl b e]
    omega
  have h1 : d.start (ix3 b (0 : Fin 1) e) idx (1 : Fin 3) + d.batchCoord (ix3 b (0 : Fin 1) e) (1 : Fin 3)
      + d.offCoord (ix3 b (0 : Fin 1) e) (1 : Fin 3) = n.val := by
    rw [d.batchCoord_eq_zero _ _ m10, d.offCoord_eq_zero _ _ k1, ← hn]
    unfold GatherDims.start
    rw [dif_pos s1, reftake_siIdx d hoff hcoll hob hsb hsim hivd hsl b e, hsl]
    rfl
  have h2 : d.start (ix3 b (0 : Fin 1) e) idx (2 : Fin 3) + d.batchCoord (ix3 b (0 : Fin 1) e) (2 : Fin 3)
      + d.offCoord (ix3 b (0 : Fin 1) e) (2 : Fin 3) = e.val := by
    rw [d.batchCoord_eq_zero _ _ m20, reftake_offCoord d hoff hcoll hob hsb hsim hivd hsl b e]
    unfold GatherDims.start
    rw [dif_neg s2]
    omega
  unfold Host.gather
  refine congrArg x (funext fun a => Fin.ext ?_)
  match a with
  | ⟨0, _⟩ => exact h0
  | ⟨1, _⟩ => exact h1
  | ⟨2, _⟩ => exact h2

end Gather

/-! ## The two reads, operation by operation -/

/-- The reshape [4096, 1, 128] → [4096, 128] reads (b, e) at (b, 0, e). -/
private theorem reftake_idx94 (b : Fin 4096) (e : Fin 128) : idx_main_v94 (ix2 b e) = ix3 b (0 : Fin 1) e := by
  have hb := b.isLt
  have he := e.isLt
  funext a
  apply Fin.ext
  match a with
  | ⟨0, _⟩ => show (b.val * 128 + e.val) / 128 = b.val; omega
  | ⟨1, _⟩ => rfl
  | ⟨2, _⟩ => show (b.val * 128 + e.val) % 128 = e.val; omega

/-- The reshape [4096, 1, 5] → [4096, 5] reads (b, j) at (b, 0, j). -/
private theorem reftake_idx97 (b : Fin 4096) (j : Fin 5) : idx_main_v97 (ix2 b j) = ix3 b (0 : Fin 1) j := by
  have hb := b.isLt
  have hj := j.isLt
  funext a
  apply Fin.ext
  match a with
  | ⟨0, _⟩ => show (b.val * 5 + j.val) / 5 = b.val; omega
  | ⟨1, _⟩ => rfl
  | ⟨2, _⟩ => show (b.val * 5 + j.val) % 5 = j.val; omega

/-- The action word of row b, at any index of the [4096, 1, 1] array whose first coordinate is b. -/
private theorem reftake_act92 (x1 : (⟨S4096, .i32⟩ : BufTy).Contents (Elt Ideal)) (i : S4096x1x1.Idx) (b : Fin 4096) (hi : (i 0).val = b.val) :
    val_main_v92 (F := Ideal) x1 i = x1 (ix1 b) := by
  rw [val_main_v92_apply, val_main_v91_apply]
  exact congrArg x1 (funext fun a => Fin.ext (by match a with | ⟨0, _⟩ => exact hi))

/-- For an action in range the index the read uses is the action itself. -/
private theorem reftake_c3_v4 (x1 : (⟨S4096, .i32⟩ : BufTy).Contents (Elt Ideal)) (i : S4096x1x1.Idx) (b : Fin 4096) (hi : (i 0).val = b.val)
    (h0 : 0 ≤ (x1 (ix1 b) : BitVec 32).toInt) (h1 : (x1 (ix1 b) : BitVec 32).toInt < 64) :
    val_main_call3_v4 (F := Ideal) x1 i = x1 (ix1 b) := by
  rw [val_main_call3_v4_apply, val_main_call3_v1_apply, val_main_call3_v3_apply, val_main_call3_v0_apply,
    val_main_call3_v2_apply, val_main_call3_c_apply, val_main_call3_c_0_apply, reftake_act92 x1 i b hi]
  exact reftake_sel_eq _ h0 h1

/-- For an action in range the range test of the read is passed. -/
private theorem reftake_c3_v10 (x1 : (⟨S4096, .i32⟩ : BufTy).Contents (Elt Ideal)) (i : S4096x1x1.Idx) (b : Fin 4096) (hi : (i 0).val = b.val)
    (h0 : 0 ≤ (x1 (ix1 b) : BitVec 32).toInt) (h1 : (x1 (ix1 b) : BitVec 32).toInt < 64) :
    val_main_call3_v10 (F := Ideal) x1 i = 1#1 := by
  rw [val_main_call3_v10_apply, val_main_call3_v6_apply, val_main_call3_v9_apply, reftake_c3_v4 x1 i b hi h0 h1,
    val_main_call3_v5_apply, val_main_call3_c_2_apply, val_main_call3_v8_apply, val_main_call3_v7_apply,
    val_main_call3_c_1_apply]
  exact reftake_valid_eq _ h0 h1

/-- The "and" over the one-entry last axis of the range test, at row b. -/
private theorem reftake_c3_v11 (x1 : (⟨S4096, .i32⟩ : BufTy).Contents (Elt Ideal)) (b : Fin 4096)
    (h0 : 0 ≤ (x1 (ix1 b) : BitVec 32).toInt) (h1 : (x1 (ix1 b) : BitVec 32).toInt < 64) :
    val_main_call3_v11 (F := Ideal) x1 (ix2 b (0 : Fin 1)) = 1#1 := by
  unfold val_main_call3_v11
  rw [Host.reduce_eq_fold]
  refine reftake_fold_andi_one _ _ _ rfl fun i hi => ?_
  have hd := (Finset.mem_filter.mp hi).2
  exact reftake_c3_v10 x1 i b (congrArg Fin.val (congrFun hd ⟨0, by decide⟩)) h0 h1

/-- The gather of the read at (b, 0, e): the operand at (b, action of b, e). -/
private theorem reftake_c3_v12 (x0 : (⟨S4096x323, .f32⟩ : BufTy).Contents (Elt Ideal)) (x1 : (⟨S4096, .i32⟩ : BufTy).Contents (Elt Ideal)) (x2 : (⟨S256x8, .f32⟩ : BufTy).Contents (Elt Ideal)) (x3 x4 x5 : (⟨S256, .f32⟩ : BufTy).Contents (Elt Ideal)) (x6 : (⟨S256x256, .f32⟩ : BufTy).Contents (Elt Ideal)) (x7 x8 x9 : (⟨S256, .f32⟩ : BufTy).Contents (Elt Ideal)) (x10 : (⟨S128x256, .f32⟩ : BufTy).Contents (Elt Ideal)) (x11 : (⟨S128, .f32⟩ : BufTy).Contents (Elt Ideal)) (b : Fin 4096) (e : Fin 128)
    (h0 : 0 ≤ (x1 (ix1 b) : BitVec 32).toInt) (h1 : (x1 (ix1 b) : BitVec 32).toInt < 64) :
    val_main_call3_v12 (F := Ideal) x0 x1 x2 x3 x4 x5 x6 x7 x8 x9 x10 x11 (ix3 b (0 : Fin 1) e)
      = val_main_v75 (F := Ideal) x0 x2 x3 x4 x5 x6 x7 x8 x9 x10 x11 (ix3 b ⟨(x1 (ix1 b) : BitVec 32).toNat, reftake_toNat_lt _ h0 h1⟩ e) := by
  unfold val_main_call3_v12
  generalize val_main_v75 (F := Ideal) x0 x2 x3 x4 x5 x6 x7 x8 x9 x10 x11 = y
  refine reftake_gather_along (B := 4096) (N := 64) (E := 128) (w := 32) gather_S4096x64x128_S4096x1x1_S4096x1x128_2_1_0_0_1_2_11128
    rfl rfl rfl rfl rfl rfl rfl y (val_main_call3_v4 (F := Ideal) x1) b e _ ?_
  show min ((val_main_call3_v4 (F := Ideal) x1 (ix3 b (0 : Fin 1) (0 : Fin 1)) : BitVec 32)).toInt.toNat (64 - 1) = _
  rw [reftake_c3_v4 x1 _ b rfl h0 h1]
  exact reftake_clamp_eq _ h0 h1

private theorem reftake_idx13_3 (b : Fin 4096) (e : Fin 128) :
    idx_main_call3_v13 (ix3 b (0 : Fin 1) e) = ix2 b (0 : Fin 1) :=
  funext fun a => Fin.ext (by match a with | ⟨0, _⟩ => rfl | ⟨1, _⟩ => rfl)

/-- The action word of row b, at any index of the [4096, 1, 1] array whose first coordinate is b. -/
private theorem reftake_act95 (x1 : (⟨S4096, .i32⟩ : BufTy).Contents (Elt Ideal)) (i : S4096x1x1.Idx) (b : Fin 4096) (hi : (i 0).val = b.val) :
    val_main_v95 (F := Ideal) x1 i = x1 (ix1 b) := by
  rw [val_main_v95_apply, val_main_v91_apply]
  exact congrArg x1 (funext fun a => Fin.ext (by match a with | ⟨0, _⟩ => exact hi))

/-- For an action in range the index the read uses is the action itself. -/
private theorem reftake_c4_v4 (x1 : (⟨S4096, .i32⟩ : BufTy).Contents (Elt Ideal)) (i : S4096x1x1.Idx) (b : Fin 4096) (hi : (i 0).val = b.val)
    (h0 : 0 ≤ (x1 (ix1 b) : BitVec 32).toInt) (h1 : (x1 (ix1 b) : BitVec 32).toInt < 64) :
    val_main_call4_v4 (F := Ideal) x1 i = x1 (ix1 b) := by
  rw [val_main_call4_v4_apply, val_main_call4_v1_apply, val_main_call4_v3_apply, val_main_call4_v0_apply,
    val_main_call4_v2_apply, val_main_call4_c_apply, val_main_call4_c_0_apply, reftake_act95 x1 i b hi]
  exact reftake_sel_eq _ h0 h1

/-- For an action in range the range test of the read is passed. -/
private theorem reftake_c4_v10 (x1 : (⟨S4096, .i32⟩ : BufTy).Contents (Elt Ideal)) (i : S4096x1x1.Idx) (b : Fin 4096) (hi : (i 0).val = b.val)
    (h0 : 0 ≤ (x1 (ix1 b) : BitVec 32).toInt) (h1 : (x1 (ix1 b) : BitVec 32).toInt < 64) :
    val_main_call4_v10 (F := Ideal) x1 i = 1#1 := by
  rw [val_main_call4_v10_apply, val_main_call4_v6_apply, val_main_call4_v9_apply, reftake_c4_v4 x1 i b hi h0 h1,
    val_main_call4_v5_apply, val_main_call4_c_2_apply, val_main_call4_v8_apply, val_main_call4_v7_apply,
    val_main_call4_c_1_apply]
  exact reftake_valid_eq _ h0 h1

/-- The "and" over the one-entry last axis of the range test, at row b. -/
private theorem reftake_c4_v11 (x1 : (⟨S4096, .i32⟩ : BufTy).Contents (Elt Ideal)) (b : Fin 4096)
    (h0 : 0 ≤ (x1 (ix1 b) : BitVec 32).toInt) (h1 : (x1 (ix1 b) : BitVec 32).toInt < 64) :
    val_main_call4_v11 (F := Ideal) x1 (ix2 b (0 : Fin 1)) = 1#1 := by
  unfold val_main_call4_v11
  rw [Host.reduce_eq_fold]
  refine reftake_fold_andi_one _ _ _ rfl fun i hi => ?_
  have hd := (Finset.mem_filter.mp hi).2
  exact reftake_c4_v10 x1 i b (congrArg Fin.val (congrFun hd ⟨0, by decide⟩)) h0 h1

/-- The gather of the read at (b, 0, e): the operand at (b, action of b, e). -/
private theorem reftake_c4_v12 (x0 : (⟨S4096x323, .f32⟩ : BufTy).Contents (Elt Ideal)) (x1 : (⟨S4096, .i32⟩ : BufTy).Contents (Elt Ideal)) (b : Fin 4096) (e : Fin 5)
    (h0 : 0 ≤ (x1 (ix1 b) : BitVec 32).toInt) (h1 : (x1 (ix1 b) : BitVec 32).toInt < 64) :
    val_main_call4_v12 (F := Ideal) x0 x1 (ix3 b (0 : Fin 1) e)
      = val_main_v2 (F := Ideal) x0 (ix3 b ⟨(x1 (ix1 b) : BitVec 32).toNat, reftake_toNat_lt _ h0 h1⟩ e) := by
  unfold val_main_call4_v12
  generalize val_main_v2 (F := Ideal) x0 = y
  refine reftake_gather_along (B := 4096) (N := 64) (E := 5) (w := 32) gather_S4096x64x5_S4096x1x1_S4096x1x5_2_1_0_0_1_2_115
    rfl rfl rfl rfl rfl rfl rfl y (val_main_call4_v4 (F := Ideal) x1) b e _ ?_
  show min ((val_main_call4_v4 (F := Ideal) x1 (ix3 b (0 : Fin 1) (0 : Fin 1)) : BitVec 32)).toInt.toNat (64 - 1) = _
  rw [reftake_c4_v4 x1 _ b rfl h0 h1]
  exact reftake_clamp_eq _ h0 h1

private theorem reftake_idx13_4 (b : Fin 4096) (e : Fin 5) :
    idx_main_call4_v13 (ix3 b (0 : Fin 1) e) = ix2 b (0 : Fin 1) :=
  funext fun a => Fin.ext (by match a with | ⟨0, _⟩ => rfl | ⟨1, _⟩ => rfl)

theorem take_embeds_apply (x0 : (⟨S4096x323, .f32⟩ : BufTy).Contents (Elt Ideal)) (x1 : (⟨S4096, .i32⟩ : BufTy).Contents (Elt Ideal)) (x2 : (⟨S256x8, .f32⟩ : BufTy).Contents (Elt Ideal)) (x3 x4 x5 : (⟨S256, .f32⟩ : BufTy).Contents (Elt Ideal)) (x6 : (⟨S256x256, .f32⟩ : BufTy).Contents (Elt Ideal)) (x7 x8 x9 : (⟨S256, .f32⟩ : BufTy).Contents (Elt Ideal)) (x10 : (⟨S128x256, .f32⟩ : BufTy).Contents (Elt Ideal)) (x11 : (⟨S128, .f32⟩ : BufTy).Contents (Elt Ideal)) (x12 : (⟨S512x264, .f32⟩ : BufTy).Contents (Elt Ideal)) (x13 x14 x15 : (⟨S512, .f32⟩ : BufTy).Contents (Elt Ideal)) (x16 : (⟨S1x512, .f32⟩ : BufTy).Contents (Elt Ideal)) (x17 : (⟨S1, .f32⟩ : BufTy).Contents (Elt Ideal)) (b : Fin 4096) (e : Fin 128)
    (h0 : 0 ≤ (x1 (ix1 b) : BitVec 32).toInt) (h1 : (x1 (ix1 b) : BitVec 32).toInt < 64) :
    val_main_v94 (F := Ideal) x0 x1 x2 x3 x4 x5 x6 x7 x8 x9 x10 x11 (ix2 b e)
      = QSpec.embR (pR x2 x3 x4 x5 x6 x7 x8 x9 x10 x11 x12 x13 x14 x15 x16 x17) (QSpec.xrow x0 b) (x1 (ix1 b) : BitVec 32).toNat e := by
  rw [val_main_v94_apply, reftake_idx94, val_main_v93_apply, val_main_call3_v13_apply, reftake_idx13_3,
    reftake_c3_v11 x1 b h0 h1, select_one, reftake_c3_v12 x0 x1 x2 x3 x4 x5 x6 x7 x8 x9 x10 x11 b e h0 h1]
  exact embeds_apply x0 x1 x2 x3 x4 x5 x6 x7 x8 x9 x10 x11 x12 x13 x14 x15 x16 x17 b ⟨_, reftake_toNat_lt _ h0 h1⟩ e

theorem take_nb_apply (x0 : (⟨S4096x323, .f32⟩ : BufTy).Contents (Elt Ideal)) (x1 : (⟨S4096, .i32⟩ : BufTy).Contents (Elt Ideal)) (b : Fin 4096) (j : Fin 5)
    (h0 : 0 ≤ (x1 (ix1 b) : BitVec 32).toInt) (h1 : (x1 (ix1 b) : BitVec 32).toInt < 64) :
    val_main_v97 (F := Ideal) x0 x1 (ix2 b j) = QSpec.nbr (QSpec.xrow x0 b) (x1 (ix1 b) : BitVec 32).toNat j := by
  rw [val_main_v97_apply, reftake_idx97, val_main_v96_apply, val_main_call4_v13_apply, reftake_idx13_4,
    reftake_c4_v11 x1 b h0 h1, select_one, reftake_c4_v12 x0 x1 b j h0 h1]
  exact neighbours_apply x0 b ⟨_, reftake_toNat_lt _ h0 h1⟩ j

end Cert.ReferenceIdeal.RefValue

end
-- ==== Proof.RefCat.lean ====
/-
  The 264 inputs of the reference's last block (position, chosen embedding, pooled embedding, chosen neighbour side by side, [4096, 264]) read at (b, k), for a row whose action is in range.
-/
import proofs.«427821_j19241453486367_3_alg».proof.Proof.RefEmbed
import proofs.«427821_j19241453486367_3_alg».proof.Proof.RefMask
import proofs.«427821_j19241453486367_3_alg».proof.Proof.RefTake
import Idealize.ShloMosaic.Lib.StableHlo.Predicate

noncomputable section

namespace Cert.ReferenceIdeal.RefValue

open Idealize.ShloMosaic Idealize.ShloMosaic.ValueIdx Idealize.SL.Sem Cert.ReferenceIdeal Cert.ReferenceIdeal.Gen Cert.ReferenceIdeal.Read

/-- The pooled embedding at (b, e): the sum over the 64 neighbours of the embedding times the neighbour's truth bit read as
    a number, divided by the clipped count. -/
theorem refcat_pooled_apply (x0 : (⟨S4096x323, .f32⟩ : BufTy).Contents (Elt Ideal)) (x1 : (⟨S4096, .i32⟩ : BufTy).Contents (Elt Ideal)) (x2 : (⟨S256x8, .f32⟩ : BufTy).Contents (Elt Ideal)) (x3 x4 x5 : (⟨S256, .f32⟩ : BufTy).Contents (Elt Ideal)) (x6 : (⟨S256x256, .f32⟩ : BufTy).Contents (Elt Ideal)) (x7 x8 x9 : (⟨S256, .f32⟩ : BufTy).Contents (Elt Ideal)) (x10 : (⟨S128x256, .f32⟩ : BufTy).Contents (Elt Ideal)) (x11 : (⟨S128, .f32⟩ : BufTy).Contents (Elt Ideal)) (x12 : (⟨S512x264, .f32⟩ : BufTy).Contents (Elt Ideal)) (x13 x14 x15 : (⟨S512, .f32⟩ : BufTy).Contents (Elt Ideal)) (x16 : (⟨S1x512, .f32⟩ : BufTy).Contents (Elt Ideal)) (x17 : (⟨S1, .f32⟩ : BufTy).Contents (Elt Ideal)) (b : Fin 4096) (e : Fin 128) :
    val_main_v90 (F := Ideal) x0 x2 x3 x4 x5 x6 x7 x8 x9 x10 x11 (ix2 b e)
      = Ideal.div (QSpec.zero + ∑ n : Fin 64, QSpec.embR (pR x2 x3 x4 x5 x6 x7 x8 x9 x10 x11 x12 x13 x14 x15 x16 x17) (QSpec.xrow x0 b) n.val e
            * QSpec.bitU (QSpec.anyR (QSpec.xrow x0 b) n.val))
          (max ((QSpec.countR (QSpec.xrow x0 b) : ℝ) : EReal) QSpec.one) := by
  have hs : ∀ k : Fin 64, val_main_v82 (F := Ideal) x0 x2 x3 x4 x5 x6 x7 x8 x9 x10 x11 (idx_main_v87 (ix2 b e) k)
      = QSpec.embR (pR x2 x3 x4 x5 x6 x7 x8 x9 x10 x11 x12 x13 x14 x15 x16 x17) (QSpec.xrow x0 b) k.val e
          * QSpec.bitU (QSpec.anyR (QSpec.xrow x0 b) k.val) := by
    intro k
    have i1 : idx_main_v87 (ix2 b e) k = ix3 b k e :=
      funext fun a => Fin.ext (by match a with | ⟨0, _⟩ => rfl | ⟨1, _⟩ => rfl | ⟨2, _⟩ => rfl)
    have i2 : idx_main_v79 (idx_main_v81 (ix3 b k e)) = ix2 b k :=
      funext fun a => Fin.ext (by match a with | ⟨0, _⟩ => rfl | ⟨1, _⟩ => rfl)
    rw [i1, val_main_v82_apply, embeds_apply x0 x1 x2 x3 x4 x5 x6 x7 x8 x9 x10 x11 x12 x13 x14 x15 x16 x17 b k e,
      val_main_v81_apply, val_main_v80_apply, val_main_v79_apply, i2, any_apply]
    rfl
  have i3 : idx_main_v89 (ix2 b e) = ix2 b 0 :=
    funext fun a => Fin.ext (by match a with | ⟨0, _⟩ => rfl | ⟨1, _⟩ => rfl)
  rw [val_main_v90_apply, val_main_v87_apply, val_main_v89_apply, i3, clipcount_apply, val_main_cst_15_apply,
    Finset.sum_congr rfl (fun k _ => hs k)]
  rfl

/-- Four pieces of 3, 128, 128 and 5 columns side by side, read at (b, k): the piece whose columns hold k. -/
theorem refcat_cat4_apply {α : Type} (y0 : S4096x3.Idx → α) (y1 y2 : S4096x128.Idx → α) (y3 : S4096x5.Idx → α)
    (h : Shape.Concatenates [S4096x3, S4096x128, S4096x128, S4096x5] S4096x264 1) (b : Fin 4096) (k : Fin 264) :
    concatenate S4096x264 1 [⟨S4096x3, y0⟩, ⟨S4096x128, y1⟩, ⟨S4096x128, y2⟩, ⟨S4096x5, y3⟩] h (ix2 b k)
      = if h3 : k.val < 3 then y0 (ix2 b ⟨k.val, h3⟩)
        else if h131 : k.val < 131 then y1 (ix2 b ⟨k.val - 3, by omega⟩)
        else if h259 : k.val < 259 then y2 (ix2 b ⟨k.val - 131, by omega⟩)
        else y3 (ix2 b ⟨k.val - 259, by have := k.isLt; omega⟩) := by
  have hk : k.val < 264 := k.isLt
  have key := concatenate_apply_piece (t := S4096x264) (α := α) 1
    [⟨S4096x3, y0⟩, ⟨S4096x128, y1⟩, ⟨S4096x128, y2⟩, ⟨S4096x5, y3⟩] h (ix2 b k)
  by_cases h3 : k.val < 3
  · rw [dif_pos h3]
    exact key 0 (by show 0 < 4; omega) S4096x3 y0 rfl rfl 0 rfl (ix2 b ⟨k.val, h3⟩)
      (fun c hc => by
        match c, hc with
        | ⟨0, _⟩, _ => rfl
        | ⟨1, _⟩, hc => exact absurd rfl hc)
      (by show 0 + k.val = k.val; omega)
  · rw [dif_neg h3]
    by_cases h131 : k.val < 131
    · rw [dif_pos h131]
      exact key 1 (by show 1 < 4; omega) S4096x128 y1 rfl rfl 3 rfl (ix2 b ⟨k.val - 3, by omega⟩)
        (fun c hc => by
          match c, hc with
          | ⟨0, _⟩, _ => rfl
          | ⟨1, _⟩, hc => exact absurd rfl hc)
        (by show 3 + (k.val - 3) = k.val; omega)
    · rw [dif_neg h131]
      by_cases h259 : k.val < 259
      · rw [dif_pos h259]
        exact key 2 (by show 2 < 4; omega) S4096x128 y2 rfl rfl 131 rfl (ix2 b ⟨k.val - 131, by omega⟩)
          (fun c hc => by
            match c, hc with
            | ⟨0, _⟩, _ => rfl
            | ⟨1, _⟩, hc => exact absurd rfl hc)
          (by show 131 + (k.val - 131) = k.val; omega)
      · rw [dif_neg h259]
        exact key 3 (by show 3 < 4; omega) S4096x5 y3 rfl rfl 259 rfl (ix2 b ⟨k.val - 259, by omega⟩)
          (fun c hc => by
            match c, hc with
            | ⟨0, _⟩, _ => rfl
            | ⟨1, _⟩, hc => exact absurd rfl hc)
          (by show 259 + (k.val - 259) = k.val; omega)

theorem cat_apply (x0 : (⟨S4096x323, .f32⟩ : BufTy).Contents (Elt Ideal)) (x1 : (⟨S4096, .i32⟩ : BufTy).Contents (Elt Ideal)) (x2 : (⟨S256x8, .f32⟩ : BufTy).Contents (Elt Ideal)) (x3 x4 x5 : (⟨S256, .f32⟩ : BufTy).Contents (Elt Ideal)) (x6 : (⟨S256x256, .f32⟩ : BufTy).Contents (Elt Ideal)) (x7 x8 x9 : (⟨S256, .f32⟩ : BufTy).Contents (Elt Ideal)) (x10 : (⟨S128x256, .f32⟩ : BufTy).Contents (Elt Ideal)) (x11 : (⟨S128, .f32⟩ : BufTy).Contents (Elt Ideal)) (x12 : (⟨S512x264, .f32⟩ : BufTy).Contents (Elt Ideal)) (x13 x14 x15 : (⟨S512, .f32⟩ : BufTy).Contents (Elt Ideal)) (x16 : (⟨S1x512, .f32⟩ : BufTy).Contents (Elt Ideal)) (x17 : (⟨S1, .f32⟩ : BufTy).Contents (Elt Ideal)) (b : Fin 4096) (k : Fin 264)
    (h0 : 0 ≤ (x1 (ix1 b) : BitVec 32).toInt) (h1 : (x1 (ix1 b) : BitVec 32).toInt < 64) :
    val_main_v98 (F := Ideal) x0 x1 x2 x3 x4 x5 x6 x7 x8 x9 x10 x11 (ix2 b k)
      = QSpec.catR (pR x2 x3 x4 x5 x6 x7 x8 x9 x10 x11 x12 x13 x14 x15 x16 x17) (QSpec.xrow x0 b) (x1 (ix1 b) : BitVec 32).toNat k := by
  unfold val_main_v98
  rw [refcat_cat4_apply]
  unfold QSpec.catR
  by_cases h3 : k.val < 3
  · rw [dif_pos h3, dif_pos h3]
    exact curpos_apply x0 b ⟨k.val, h3⟩
  · rw [dif_neg h3, dif_neg h3]
    by_cases h131 : k.val < 131
    · rw [dif_pos h131, dif_pos h131]
      exact take_embeds_apply x0 x1 x2 x3 x4 x5 x6 x7 x8 x9 x10 x11 x12 x13 x14 x15 x16 x17 b ⟨k.val - 3, by omega⟩ h0 h1
    · rw [dif_neg h131, dif_neg h131]
      by_cases h259 : k.val < 259
      · rw [dif_pos h259, dif_pos h259]
        exact refcat_pooled_apply x0 x1 x2 x3 x4 x5 x6 x7 x8 x9 x10 x11 x12 x13 x14 x15 x16 x17 b ⟨k.val - 131, by omega⟩
      · rw [dif_neg h259, dif_neg h259]
        exact take_nb_apply x0 x1 b ⟨k.val - 259, by have := k.isLt; omega⟩ h0 h1

end Cert.ReferenceIdeal.RefValue

end
-- ==== Proof.RefOut.lean ====
/-
  The reference's result read at row b is the reference's row function of row b, for a row whose action is in range.
-/
import proofs.«427821_j19241453486367_3_alg».proof.Proof.RefCat

noncomputable section

namespace Cert.ReferenceIdeal.RefValue

open Idealize.ShloMosaic Idealize.ShloMosaic.ValueIdx Idealize.SL.Sem Cert.ReferenceIdeal Cert.ReferenceIdeal.Gen Cert.ReferenceIdeal.Read

/-! ## The composed index maps at an index given by its coordinates -/

theorem refout_lidx_v100 (b : Fin 4096) (d : Fin 512) (f : Fin 264) : lidx_main_v100 (ix2 b d) f = ix2 b f :=
  funext fun a => Fin.ext (by match a with | ⟨0, _⟩ => rfl | ⟨1, _⟩ => rfl)

theorem refout_ridx_v100 (b : Fin 4096) (d : Fin 512) (f : Fin 264) : idx_main_v99 (ridx_main_v100 (ix2 b d) f) = ix2 d f :=
  funext fun a => Fin.ext (by match a with | ⟨0, _⟩ => rfl | ⟨1, _⟩ => rfl)

theorem refout_idx_v101 (b : Fin 4096) (d : Fin 512) : idx_main_v101 (idx_main_v102 (ix2 b d)) = ix1 d :=
  funext fun a => Fin.ext (by match a with | ⟨0, _⟩ => rfl)

theorem refout_idx_v104 (b : Fin 4096) (k : Fin 512) : idx_main_v104 (idx_main_v105 (ix2 b (0 : Fin 1))) k = ix2 b k :=
  funext fun a => Fin.ext (by match a with | ⟨0, _⟩ => rfl | ⟨1, _⟩ => rfl)

theorem refout_idx_v108 (b : Fin 4096) (k : Fin 512) : idx_main_v108 (ix2 b k) = ix2 b (0 : Fin 1) :=
  funext fun a => Fin.ext (by match a with | ⟨0, _⟩ => rfl | ⟨1, _⟩ => rfl)

theorem refout_idx_v111 (b : Fin 4096) (k : Fin 512) : idx_main_v111 (idx_main_v112 (ix2 b (0 : Fin 1))) k = ix2 b k :=
  funext fun a => Fin.ext (by match a with | ⟨0, _⟩ => rfl | ⟨1, _⟩ => rfl)

theorem refout_idx_v115 (b : Fin 4096) (k : Fin 512) : idx_main_v115 (ix2 b k) = ix2 b (0 : Fin 1) :=
  funext fun a => Fin.ext (by match a with | ⟨0, _⟩ => rfl | ⟨1, _⟩ => rfl)

theorem refout_idx_v120 (b : Fin 4096) (k : Fin 512) : idx_main_v120 (ix2 b k) = ix2 b (0 : Fin 1) :=
  funext fun a => Fin.ext (by match a with | ⟨0, _⟩ => rfl | ⟨1, _⟩ => rfl)

theorem refout_idx_v122 (b : Fin 4096) (k : Fin 512) : idx_main_v122 (idx_main_v123 (ix2 b k)) = ix1 k :=
  funext fun a => Fin.ext (by match a with | ⟨0, _⟩ => rfl)

theorem refout_idx_v125 (b : Fin 4096) (k : Fin 512) : idx_main_v125 (idx_main_v126 (ix2 b k)) = ix1 k :=
  funext fun a => Fin.ext (by match a with | ⟨0, _⟩ => rfl)

theorem refout_lidx_v134 (b : Fin 4096) (k : Fin 512) : lidx_main_v134 (ix2 b (0 : Fin 1)) k = ix2 b k :=
  funext fun a => Fin.ext (by match a with | ⟨0, _⟩ => rfl | ⟨1, _⟩ => rfl)

theorem refout_ridx_v134 (b : Fin 4096) (k : Fin 512) : idx_main_v133 (ridx_main_v134 (ix2 b (0 : Fin 1)) k) = ix2 (0 : Fin 1) k :=
  funext fun a => Fin.ext (by match a with | ⟨0, _⟩ => rfl | ⟨1, _⟩ => rfl)

theorem refout_idx_v135 (b : Fin 4096) : idx_main_v135 (idx_main_v136 (ix2 b (0 : Fin 1))) = ix1 (0 : Fin 1) :=
  funext fun a => Fin.ext (by match a with | ⟨0, _⟩ => rfl)

section Stages

variable (x0 : (⟨S4096x323, .f32⟩ : BufTy).Contents (Elt Ideal)) (x1 : (⟨S4096, .i32⟩ : BufTy).Contents (Elt Ideal)) (x2 : (⟨S256x8, .f32⟩ : BufTy).Contents (Elt Ideal)) (x3 x4 x5 : (⟨S256, .f32⟩ : BufTy).Contents (Elt Ideal)) (x6 : (⟨S256x256, .f32⟩ : BufTy).Contents (Elt Ideal)) (x7 x8 x9 : (⟨S256, .f32⟩ : BufTy).Contents (Elt Ideal)) (x10 : (⟨S128x256, .f32⟩ : BufTy).Contents (Elt Ideal)) (x11 : (⟨S128, .f32⟩ : BufTy).Contents (Elt Ideal)) (x12 : (⟨S512x264, .f32⟩ : BufTy).Contents (Elt Ideal)) (x13 x14 x15 : (⟨S512, .f32⟩ : BufTy).Contents (Elt Ideal)) (x16 : (⟨S1x512, .f32⟩ : BufTy).Contents (Elt Ideal)) (x17 : (⟨S1, .f32⟩ : BufTy).Contents (Elt Ideal)) (b : Fin 4096)

/-- The last block's pre-activation at (b, d): the 264 inputs of row b against row d of the weights, plus the bias. -/
theorem refout_gpre_apply (d : Fin 512) (h0 : 0 ≤ (x1 (ix1 b) : BitVec 32).toInt) (h1 : (x1 (ix1 b) : BitVec 32).toInt < 64) :
    val_main_v103 (F := Ideal) x0 x1 x2 x3 x4 x5 x6 x7 x8 x9 x10 x11 x12 x13 (ix2 b d)
      = (∑ f : Fin 264, QSpec.catR (pR x2 x3 x4 x5 x6 x7 x8 x9 x10 x11 x12 x13 x14 x15 x16 x17) (QSpec.xrow x0 b) (x1 (ix1 b) : BitVec 32).toNat f * (pR x2 x3 x4 x5 x6 x7 x8 x9 x10 x11 x12 x13 x14 x15 x16 x17).Wf d f) + (pR x2 x3 x4 x5 x6 x7 x8 x9 x10 x11 x12 x13 x14 x15 x16 x17).cf d := by
  rw [val_main_v103_apply, val_main_v100_apply, val_main_v102_apply, val_main_v101_apply, refout_idx_v101, Ideal.addf_def]
  have hs : ∀ f : Fin 264, val_main_v98 (F := Ideal) x0 x1 x2 x3 x4 x5 x6 x7 x8 x9 x10 x11 (lidx_main_v100 (ix2 b d) f) * val_main_v99 (F := Ideal) x12 (ridx_main_v100 (ix2 b d) f)
      = QSpec.catR (pR x2 x3 x4 x5 x6 x7 x8 x9 x10 x11 x12 x13 x14 x15 x16 x17) (QSpec.xrow x0 b) (x1 (ix1 b) : BitVec 32).toNat f * (pR x2 x3 x4 x5 x6 x7 x8 x9 x10 x11 x12 x13 x14 x15 x16 x17).Wf d f := fun f => by
    rw [refout_lidx_v100, val_main_v99_apply, refout_ridx_v100, cat_apply x0 x1 x2 x3 x4 x5 x6 x7 x8 x9 x10 x11 x12 x13 x14 x15 x16 x17 b f h0 h1]
    rfl
  rw [Finset.sum_congr rfl fun f _ => hs f]
  rfl

/-- The mean of row b of the pre-activation. -/
theorem refout_mean_apply :
    val_main_v107 (F := Ideal) x0 x1 x2 x3 x4 x5 x6 x7 x8 x9 x10 x11 x12 x13 (ix2 b (0 : Fin 1))
      = QSpec.meanR QSpec.c512 (fun d : Fin 512 => val_main_v103 (F := Ideal) x0 x1 x2 x3 x4 x5 x6 x7 x8 x9 x10 x11 x12 x13 (ix2 b d)) := by
  rw [val_main_v107_apply, val_main_v105_apply, val_main_v104_apply, val_main_v106_apply, val_main_cst_17_apply, val_main_cst_18_apply]
  generalize val_main_v103 (F := Ideal) x0 x1 x2 x3 x4 x5 x6 x7 x8 x9 x10 x11 x12 x13 = g
  simp only [Ideal.hostDivf_def, Ideal.ofBits_def, refout_idx_v104]
  rfl

/-- The variance of row b of the pre-activation. -/
theorem refout_var_apply :
    val_main_v114 (F := Ideal) x0 x1 x2 x3 x4 x5 x6 x7 x8 x9 x10 x11 x12 x13 (ix2 b (0 : Fin 1))
      = QSpec.meanR QSpec.c512 (fun k : Fin 512 =>
          (val_main_v103 (F := Ideal) x0 x1 x2 x3 x4 x5 x6 x7 x8 x9 x10 x11 x12 x13 (ix2 b k) - QSpec.meanR QSpec.c512 (fun d : Fin 512 => val_main_v103 (F := Ideal) x0 x1 x2 x3 x4 x5 x6 x7 x8 x9 x10 x11 x12 x13 (ix2 b d)))
            * (val_main_v103 (F := Ideal) x0 x1 x2 x3 x4 x5 x6 x7 x8 x9 x10 x11 x12 x13 (ix2 b k) - QSpec.meanR QSpec.c512 (fun d : Fin 512 => val_main_v103 (F := Ideal) x0 x1 x2 x3 x4 x5 x6 x7 x8 x9 x10 x11 x12 x13 (ix2 b d)))) := by
  rw [val_main_v114_apply, val_main_v112_apply, val_main_v111_apply, val_main_v113_apply, val_main_cst_19_apply, val_main_cst_20_apply]
  have hk : ∀ k : Fin 512, val_main_v110 (F := Ideal) x0 x1 x2 x3 x4 x5 x6 x7 x8 x9 x10 x11 x12 x13 (idx_main_v111 (idx_main_v112 (ix2 b (0 : Fin 1))) k)
      = (val_main_v103 (F := Ideal) x0 x1 x2 x3 x4 x5 x6 x7 x8 x9 x10 x11 x12 x13 (ix2 b k) - QSpec.meanR QSpec.c512 (fun d : Fin 512 => val_main_v103 (F := Ideal) x0 x1 x2 x3 x4 x5 x6 x7 x8 x9 x10 x11 x12 x13 (ix2 b d)))
            * (val_main_v103 (F := Ideal) x0 x1 x2 x3 x4 x5 x6 x7 x8 x9 x10 x11 x12 x13 (ix2 b k) - QSpec.meanR QSpec.c512 (fun d : Fin 512 => val_main_v103 (F := Ideal) x0 x1 x2 x3 x4 x5 x6 x7 x8 x9 x10 x11 x12 x13 (ix2 b d))) := fun k => by
    rw [refout_idx_v111, val_main_v110_apply, val_main_v109_apply, val_main_v108_apply, refout_idx_v108, refout_mean_apply, Ideal.mulf_def, Ideal.subf_def]
  rw [Finset.sum_congr rfl fun k _ => hk k]
  generalize val_main_v103 (F := Ideal) x0 x1 x2 x3 x4 x5 x6 x7 x8 x9 x10 x11 x12 x13 = g
  simp only [Ideal.hostDivf_def, Ideal.ofBits_def]
  rfl

/-- The normalised, scaled and shifted row b at column k. -/
theorem refout_ln_apply (k : Fin 512) :
    val_main_v127 (F := Ideal) x0 x1 x2 x3 x4 x5 x6 x7 x8 x9 x10 x11 x12 x13 x14 x15 (ix2 b k)
      = QSpec.lnR QSpec.c512 (pR x2 x3 x4 x5 x6 x7 x8 x9 x10 x11 x12 x13 x14 x15 x16 x17).gf (pR x2 x3 x4 x5 x6 x7 x8 x9 x10 x11 x12 x13 x14 x15 x16 x17).bf (fun d : Fin 512 => val_main_v103 (F := Ideal) x0 x1 x2 x3 x4 x5 x6 x7 x8 x9 x10 x11 x12 x13 (ix2 b d)) k := by
  rw [val_main_v127_apply, val_main_v124_apply, val_main_v121_apply, val_main_v116_apply, val_main_v115_apply, refout_idx_v115, refout_mean_apply,
    val_main_v120_apply, refout_idx_v120, val_main_v119_apply, val_main_v118_apply, refout_var_apply, val_main_v117_apply, val_main_cst_21_apply,
    val_main_v123_apply, val_main_v122_apply, refout_idx_v122, val_main_v126_apply, val_main_v125_apply, refout_idx_v125]
  generalize val_main_v103 (F := Ideal) x0 x1 x2 x3 x4 x5 x6 x7 x8 x9 x10 x11 x12 x13 = g
  simp only [Ideal.addf_def, Ideal.mulf_def, Ideal.subf_def, Ideal.hostDivf_def, Ideal.hostUnary_sqrt_def, Ideal.ofBits_def]
  rfl

/-- The leaky rectifier applied to it. -/
theorem refout_y_apply (k : Fin 512) :
    val_main_v132 (F := Ideal) x0 x1 x2 x3 x4 x5 x6 x7 x8 x9 x10 x11 x12 x13 x14 x15 (ix2 b k) = QSpec.leaky (val_main_v127 (F := Ideal) x0 x1 x2 x3 x4 x5 x6 x7 x8 x9 x10 x11 x12 x13 x14 x15 (ix2 b k)) := by
  rw [val_main_v132_apply, val_main_v129_apply, val_main_v131_apply, val_main_v128_apply, val_main_v130_apply, val_main_cst_22_apply, val_main_cst_23_apply]
  generalize val_main_v127 (F := Ideal) x0 x1 x2 x3 x4 x5 x6 x7 x8 x9 x10 x11 x12 x13 x14 x15 (ix2 b k) = y
  simp only [Ideal.cmpf_def, Ideal.mulf_def, Ideal.ofBits_def]
  rfl

end Stages

theorem ref_apply (x0 : (⟨S4096x323, .f32⟩ : BufTy).Contents (Elt Ideal)) (x1 : (⟨S4096, .i32⟩ : BufTy).Contents (Elt Ideal)) (x2 : (⟨S256x8, .f32⟩ : BufTy).Contents (Elt Ideal)) (x3 x4 x5 : (⟨S256, .f32⟩ : BufTy).Contents (Elt Ideal)) (x6 : (⟨S256x256, .f32⟩ : BufTy).Contents (Elt Ideal)) (x7 x8 x9 : (⟨S256, .f32⟩ : BufTy).Contents (Elt Ideal)) (x10 : (⟨S128x256, .f32⟩ : BufTy).Contents (Elt Ideal)) (x11 : (⟨S128, .f32⟩ : BufTy).Contents (Elt Ideal)) (x12 : (⟨S512x264, .f32⟩ : BufTy).Contents (Elt Ideal)) (x13 x14 x15 : (⟨S512, .f32⟩ : BufTy).Contents (Elt Ideal)) (x16 : (⟨S1x512, .f32⟩ : BufTy).Contents (Elt Ideal)) (x17 : (⟨S1, .f32⟩ : BufTy).Contents (Elt Ideal)) (b : Fin 4096)
    (h0 : 0 ≤ (x1 (ix1 b) : BitVec 32).toInt) (h1 : (x1 (ix1 b) : BitVec 32).toInt < 64) :
    val_main_v137 (F := Ideal) x0 x1 x2 x3 x4 x5 x6 x7 x8 x9 x10 x11 x12 x13 x14 x15 x16 x17 (ix2 b 0)
      = QSpec.rowR (pR x2 x3 x4 x5 x6 x7 x8 x9 x10 x11 x12 x13 x14 x15 x16 x17) (QSpec.xrow x0 b) (x1 (ix1 b) : BitVec 32).toNat := by
  rw [val_main_v137_apply, val_main_v134_apply, val_main_v136_apply, val_main_v135_apply, refout_idx_v135, Ideal.addf_def]
  have hpre : (fun d : Fin 512 => val_main_v103 (F := Ideal) x0 x1 x2 x3 x4 x5 x6 x7 x8 x9 x10 x11 x12 x13 (ix2 b d))
      = fun d : Fin 512 => (∑ f : Fin 264, QSpec.catR (pR x2 x3 x4 x5 x6 x7 x8 x9 x10 x11 x12 x13 x14 x15 x16 x17) (QSpec.xrow x0 b) (x1 (ix1 b) : BitVec 32).toNat f * (pR x2 x3 x4 x5 x6 x7 x8 x9 x10 x11 x12 x13 x14 x15 x16 x17).Wf d f) + (pR x2 x3 x4 x5 x6 x7 x8 x9 x10 x11 x12 x13 x14 x15 x16 x17).cf d :=
    funext fun d => refout_gpre_apply x0 x1 x2 x3 x4 x5 x6 x7 x8 x9 x10 x11 x12 x13 x14 x15 x16 x17 b d h0 h1
  have hs : ∀ k : Fin 512, val_main_v132 (F := Ideal) x0 x1 x2 x3 x4 x5 x6 x7 x8 x9 x10 x11 x12 x13 x14 x15 (lidx_main_v134 (ix2 b (0 : Fin 1)) k) * val_main_v133 (F := Ideal) x16 (ridx_main_v134 (ix2 b (0 : Fin 1)) k)
      = QSpec.leaky (QSpec.lnR QSpec.c512 (pR x2 x3 x4 x5 x6 x7 x8 x9 x10 x11 x12 x13 x14 x15 x16 x17).gf (pR x2 x3 x4 x5 x6 x7 x8 x9 x10 x11 x12 x13 x14 x15 x16 x17).bf (fun d : Fin 512 => (∑ f : Fin 264, QSpec.catR (pR x2 x3 x4 x5 x6 x7 x8 x9 x10 x11 x12 x13 x14 x15 x16 x17) (QSpec.xrow x0 b) (x1 (ix1 b) : BitVec 32).toNat f * (pR x2 x3 x4 x5 x6 x7 x8 x9 x10 x11 x12 x13 x14 x15 x16 x17).Wf d f) + (pR x2 x3 x4 x5 x6 x7 x8 x9 x10 x11 x12 x13 x14 x15 x16 x17).cf d) k) * (pR x2 x3 x4 x5 x6 x7 x8 x9 x10 x11 x12 x13 x14 x15 x16 x17).Wo k := fun k => by
    rw [refout_lidx_v134, refout_y_apply, refout_ln_apply x0 x1 x2 x3 x4 x5 x6 x7 x8 x9 x10 x11 x12 x13 x14 x15 x16 x17 b k, hpre, val_main_v133_apply, refout_ridx_v134]
    rfl
  rw [Finset.sum_congr rfl fun k _ => hs k]
  rfl

end Cert.ReferenceIdeal.RefValue

end
-- ==== Proof.RefRunHandOps.lean ====
/-
  The reference's entry function as twelve short lists of host operations, in program order: the lists are cut at the
  two places where the entry function's text is cut into windows, and where few values are still to be read (after each
  layer's bias, normalisation and rectifier, after the pooled and the chosen rows, before and after the last block).
  A called function's operations stand in its call's place. The operation terms are the program's own.
  Also the eighteen argument arrays of a buffer valuation, and the list of their references.
-/
import proofs.«427821_j19241453486367_3_alg».proof.Proof.RefRead
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 1 to 10 of 208. -/
abbrev ops_1 : List (HloOp τ sig (Elt F)) :=
  [ unary main_arg0 main_v0 ((extractStridedSlice S4096x3 ![0, 0] · slices_S4096x323_S4096x3_0_0) : (⟨S4096x323, .f32⟩ : BufTy).Contents (Elt F) → (⟨S4096x3, .f32⟩ : BufTy).Contents (Elt F)),
    unary main_arg0 main_v1 ((extractStridedSlice S4096x320 ![0, 3] · slices_S4096x323_S4096x320_0_3) : (⟨S4096x323, .f32⟩ : BufTy).Contents (Elt F) → (⟨S4096x320, .f32⟩ : BufTy).Contents (Elt F)),
    reshape main_v1 main_v2 rfl shapeCasts_S4096x320_S4096x64x5,
    unary main_v0 main_v3 (broadcastInDim S4096x1x3 ![0, 2] bcast_S4096x3_S4096x1x3_0_2 : (⟨S4096x3, .f32⟩ : BufTy).Contents (Elt F) → (⟨S4096x1x3, .f32⟩ : BufTy).Contents (Elt F)),
    unary main_v3 main_v4 (broadcastInDim S4096x64x3 ![0, 1, 2] bcast_S4096x1x3_S4096x64x3_0_1_2 : (⟨S4096x1x3, .f32⟩ : BufTy).Contents (Elt F) → (⟨S4096x64x3, .f32⟩ : BufTy).Contents (Elt F)),
    binary main_v4 main_v2 main_v5 ((fun a b => concatenate S4096x64x8 2 [⟨S4096x64x3, a⟩, ⟨S4096x64x5, b⟩] concatenates_S4096x64x3_S4096x64x5_S4096x64x8_d2) : (⟨S4096x64x3, .f32⟩ : BufTy).Contents (Elt F) → (⟨S4096x64x5, .f32⟩ : BufTy).Contents (Elt F) → (⟨S4096x64x8, .f32⟩ : BufTy).Contents (Elt F)),
    binary main_v5 main_arg2 main_v6 ((fun l r => Host.dotGeneral dot_S4096x64x8_S256x8_S4096x64x256_2_1_01_0_n_n none l r) : (⟨S4096x64x8, .f32⟩ : BufTy).Contents (Elt F) → (⟨S256x8, .f32⟩ : BufTy).Contents (Elt F) → (⟨S4096x64x256, .f32⟩ : BufTy).Contents (Elt F)),
    unary main_arg3 main_v7 (broadcastInDim S1x1x256 ![2] bcast_S256_S1x1x256_2 : (⟨S256, .f32⟩ : BufTy).Contents (Elt F) → (⟨S1x1x256, .f32⟩ : BufTy).Contents (Elt F)),
    unary main_v7 main_v8 (broadcastInDim S4096x64x256 ![0, 1, 2] bcast_S1x1x256_S4096x64x256_0_1_2 : (⟨S1x1x256, .f32⟩ : BufTy).Contents (Elt F) → (⟨S4096x64x256, .f32⟩ : BufTy).Contents (Elt F)),
    binary main_v6 main_v8 main_v9 (addf : (⟨S4096x64x256, .f32⟩ : BufTy).Contents (Elt F) → (⟨S4096x64x256, .f32⟩ : BufTy).Contents (Elt F) → (⟨S4096x64x256, .f32⟩ : BufTy).Contents (Elt F)) ]

/-- Operations 11 to 39 of 208. -/
abbrev ops_2 : List (HloOp τ sig (Elt F)) :=
  [ nullary main_cst (constant S_ .f32 0x00000000#32),
    binary main_v9 main_cst main_v10 ((fun x v => Host.reduceAdd x v reducesTo_S4096x64x256_S4096x64_d2 h_S_) : (⟨S4096x64x256, .f32⟩ : BufTy).Contents (Elt F) → (⟨S_, .f32⟩ : BufTy).Contents (Elt F) → (⟨S4096x64, .f32⟩ : BufTy).Contents (Elt F)),
    unary main_v10 main_v11 (broadcastInDim S4096x64x1 ![0, 1] bcast_S4096x64_S4096x64x1_0_1 : (⟨S4096x64, .f32⟩ : BufTy).Contents (Elt F) → (⟨S4096x64x1, .f32⟩ : BufTy).Contents (Elt F)),
    nullary main_cst_0 (constant S_ .f32 0x43800000#32),
    unary main_cst_0 main_v12 (broadcastInDim S4096x64x1 ![] bcast_S_S4096x64x1 : (⟨S_, .f32⟩ : BufTy).Contents (Elt F) → (⟨S4096x64x1, .f32⟩ : BufTy).Contents (Elt F)),
    binary main_v11 main_v12 main_v13 (Host.divf : (⟨S4096x64x1, .f32⟩ : BufTy).Contents (Elt F) → (⟨S4096x64x1, .f32⟩ : BufTy).Contents (Elt F) → (⟨S4096x64x1, .f32⟩ : BufTy).Contents (Elt F)),
    unary main_v13 main_v14 (broadcastInDim S4096x64x256 ![0, 1, 2] bcast_S4096x64x1_S4096x64x256_0_1_2 : (⟨S4096x64x1, .f32⟩ : BufTy).Contents (Elt F) → (⟨S4096x64x256, .f32⟩ : BufTy).Contents (Elt F)),
    binary main_v9 main_v14 main_v15 (subf : (⟨S4096x64x256, .f32⟩ : BufTy).Contents (Elt F) → (⟨S4096x64x256, .f32⟩ : BufTy).Contents (Elt F) → (⟨S4096x64x256, .f32⟩ : BufTy).Contents (Elt F)),
    binary main_v15 main_v15 main_v16 (mulf : (⟨S4096x64x256, .f32⟩ : BufTy).Contents (Elt F) → (⟨S4096x64x256, .f32⟩ : BufTy).Contents (Elt F) → (⟨S4096x64x256, .f32⟩ : BufTy).Contents (Elt F)),
    nullary main_cst_1 (constant S_ .f32 0x00000000#32),
    binary main_v16 main_cst_1 main_v17 ((fun x v => Host.reduceAdd x v reducesTo_S4096x64x256_S4096x64_d2 h_S_) : (⟨S4096x64x256, .f32⟩ : BufTy).Contents (Elt F) → (⟨S_, .f32⟩ : BufTy).Contents (Elt F) → (⟨S4096x64, .f32⟩ : BufTy).Contents (Elt F)),
    unary main_v17 main_v18 (broadcastInDim S4096x64x1 ![0, 1] bcast_S4096x64_S4096x64x1_0_1 : (⟨S4096x64, .f32⟩ : BufTy).Contents (Elt F) → (⟨S4096x64x1, .f32⟩ : BufTy).Contents (Elt F)),
    nullary main_cst_2 (constant S_ .f32 0x43800000#32),
    unary main_cst_2 main_v19 (broadcastInDim S4096x64x1 ![] bcast_S_S4096x64x1 : (⟨S_, .f32⟩ : BufTy).Contents (Elt F) → (⟨S4096x64x1, .f32⟩ : BufTy).Contents (Elt F)),
    binary main_v18 main_v19 main_v20 (Host.divf : (⟨S4096x64x1, .f32⟩ : BufTy).Contents (Elt F) → (⟨S4096x64x1, .f32⟩ : BufTy).Contents (Elt F) → (⟨S4096x64x1, .f32⟩ : BufTy).Contents (Elt F)),
    unary main_v13 main_v21 (broadcastInDim S4096x64x256 ![0, 1, 2] bcast_S4096x64x1_S4096x64x256_0_1_2 : (⟨S4096x64x1, .f32⟩ : BufTy).Contents (Elt F) → (⟨S4096x64x256, .f32⟩ : BufTy).Contents (Elt F)),
    binary main_v9 main_v21 main_v22 (subf : (⟨S4096x64x256, .f32⟩ : BufTy).Contents (Elt F) → (⟨S4096x64x256, .f32⟩ : BufTy).Contents (Elt F) → (⟨S4096x64x256, .f32⟩ : BufTy).Contents (Elt F)),
    nullary main_cst_3 (constant S_ .f32 0x3727C5AC#32),
    unary main_cst_3 main_v23 (broadcastInDim S4096x64x1 ![] bcast_S_S4096x64x1 : (⟨S_, .f32⟩ : BufTy).Contents (Elt F) → (⟨S4096x64x1, .f32⟩ : BufTy).Contents (Elt F)),
    binary main_v20 main_v23 main_v24 (addf : (⟨S4096x64x1, .f32⟩ : BufTy).Contents (Elt F) → (⟨S4096x64x1, .f32⟩ : BufTy).Contents (Elt F) → (⟨S4096x64x1, .f32⟩ : BufTy).Contents (Elt F)),
    unary main_v24 main_v25 (Host.sqrt : (⟨S4096x64x1, .f32⟩ : BufTy).Contents (Elt F) → (⟨S4096x64x1, .f32⟩ : BufTy).Contents (Elt F)),
    unary main_v25 main_v26 (broadcastInDim S4096x64x256 ![0, 1, 2] bcast_S4096x64x1_S4096x64x256_0_1_2 : (⟨S4096x64x1, .f32⟩ : BufTy).Contents (Elt F) → (⟨S4096x64x256, .f32⟩ : BufTy).Contents (Elt F)),
    binary main_v22 main_v26 main_v27 (Host.divf : (⟨S4096x64x256, .f32⟩ : BufTy).Contents (Elt F) → (⟨S4096x64x256, .f32⟩ : BufTy).Contents (Elt F) → (⟨S4096x64x256, .f32⟩ : BufTy).Contents (Elt F)),
    unary main_arg4 main_v28 (broadcastInDim S1x1x256 ![2] bcast_S256_S1x1x256_2 : (⟨S256, .f32⟩ : BufTy).Contents (Elt F) → (⟨S1x1x256, .f32⟩ : BufTy).Contents (Elt F)),
    unary main_v28 main_v29 (broadcastInDim S4096x64x256 ![0, 1, 2] bcast_S1x1x256_S4096x64x256_0_1_2 : (⟨S1x1x256, .f32⟩ : BufTy).Contents (Elt F) → (⟨S4096x64x256, .f32⟩ : BufTy).Contents (Elt F)),
    binary main_v27 main_v29 main_v30 (mulf : (⟨S4096x64x256, .f32⟩ : BufTy).Contents (Elt F) → (⟨S4096x64x256, .f32⟩ : BufTy).Contents (Elt F) → (⟨S4096x64x256, .f32⟩ : BufTy).Contents (Elt F)),
    unary main_arg5 main_v31 (broadcastInDim S1x1x256 ![2] bcast_S256_S1x1x256_2 : (⟨S256, .f32⟩ : BufTy).Contents (Elt F) → (⟨S1x1x256, .f32⟩ : BufTy).Contents (Elt F)),
    unary main_v31 main_v32 (broadcastInDim S4096x64x256 ![0, 1, 2] bcast_S1x1x256_S4096x64x256_0_1_2 : (⟨S1x1x256, .f32⟩ : BufTy).Contents (Elt F) → (⟨S4096x64x256, .f32⟩ : BufTy).Contents (Elt F)),
    binary main_v30 main_v32 main_v33 (addf : (⟨S4096x64x256, .f32⟩ : BufTy).Contents (Elt F) → (⟨S4096x64x256, .f32⟩ : BufTy).Contents (Elt F) → (⟨S4096x64x256, .f32⟩ : BufTy).Contents (Elt F)) ]

/-- Operations 40 to 50 of 208. -/
abbrev ops_3 : List (HloOp τ sig (Elt F)) :=
  [ nullary main_cst_4 (constant S_ .f32 0x00000000#32),
    unary main_cst_4 main_v34 (broadcastInDim S4096x64x256 ![] bcast_S_S4096x64x256 : (⟨S_, .f32⟩ : BufTy).Contents (Elt F) → (⟨S4096x64x256, .f32⟩ : BufTy).Contents (Elt F)),
    binary main_v33 main_v34 main_v35 (cmpf .oge : (⟨S4096x64x256, .f32⟩ : BufTy).Contents (Elt F) → (⟨S4096x64x256, .f32⟩ : BufTy).Contents (Elt F) → (⟨S4096x64x256, .i1⟩ : BufTy).Contents (Elt F)),
    nullary main_cst_5 (constant S_ .f32 0x3C23D70A#32),
    unary main_cst_5 main_v36 (broadcastInDim S4096x64x256 ![] bcast_S_S4096x64x256 : (⟨S_, .f32⟩ : BufTy).Contents (Elt F) → (⟨S4096x64x256, .f32⟩ : BufTy).Contents (Elt F)),
    binary main_v36 main_v33 main_v37 (mulf : (⟨S4096x64x256, .f32⟩ : BufTy).Contents (Elt F) → (⟨S4096x64x256, .f32⟩ : BufTy).Contents (Elt F) → (⟨S4096x64x256, .f32⟩ : BufTy).Contents (Elt F)),
    TRef.ternary (TRef.of (T := ⟨S4096x64x256, .i1⟩) main_v35) (TRef.of (T := ⟨S4096x64x256, .f32⟩) main_v33) (TRef.of (T := ⟨S4096x64x256, .f32⟩) main_v37) (TRef.of (T := ⟨S4096x64x256, .f32⟩) main_v38) select,
    binary main_v38 main_arg6 main_v39 ((fun l r => Host.dotGeneral dot_S4096x64x256_S256x256_S4096x64x256_2_1_01_0_n_n none l r) : (⟨S4096x64x256, .f32⟩ : BufTy).Contents (Elt F) → (⟨S256x256, .f32⟩ : BufTy).Contents (Elt F) → (⟨S4096x64x256, .f32⟩ : BufTy).Contents (Elt F)),
    unary main_arg7 main_v40 (broadcastInDim S1x1x256 ![2] bcast_S256_S1x1x256_2 : (⟨S256, .f32⟩ : BufTy).Contents (Elt F) → (⟨S1x1x256, .f32⟩ : BufTy).Contents (Elt F)),
    unary main_v40 main_v41 (broadcastInDim S4096x64x256 ![0, 1, 2] bcast_S1x1x256_S4096x64x256_0_1_2 : (⟨S1x1x256, .f32⟩ : BufTy).Contents (Elt F) → (⟨S4096x64x256, .f32⟩ : BufTy).Contents (Elt F)),
    binary main_v39 main_v41 main_v42 (addf : (⟨S4096x64x256, .f32⟩ : BufTy).Contents (Elt F) → (⟨S4096x64x256, .f32⟩ : BufTy).Contents (Elt F) → (⟨S4096x64x256, .f32⟩ : BufTy).Contents (Elt F)) ]

/-- Operations 51 to 60 of 208. -/
abbrev ops_4a : List (HloOp τ sig (Elt F)) :=
  [ nullary main_cst_6 (constant S_ .f32 0x00000000#32),
    binary main_v42 main_cst_6 main_v43 ((fun x v => Host.reduceAdd x v reducesTo_S4096x64x256_S4096x64_d2 h_S_) : (⟨S4096x64x256, .f32⟩ : BufTy).Contents (Elt F) → (⟨S_, .f32⟩ : BufTy).Contents (Elt F) → (⟨S4096x64, .f32⟩ : BufTy).Contents (Elt F)),
    unary main_v43 main_v44 (broadcastInDim S4096x64x1 ![0, 1] bcast_S4096x64_S4096x64x1_0_1 : (⟨S4096x64, .f32⟩ : BufTy).Contents (Elt F) → (⟨S4096x64x1, .f32⟩ : BufTy).Contents (Elt F)),
    nullary main_cst_7 (constant S_ .f32 0x43800000#32),
    unary main_cst_7 main_v45 (broadcastInDim S4096x64x1 ![] bcast_S_S4096x64x1 : (⟨S_, .f32⟩ : BufTy).Contents (Elt F) → (⟨S4096x64x1, .f32⟩ : BufTy).Contents (Elt F)),
    binary main_v44 main_v45 main_v46 (Host.divf : (⟨S4096x64x1, .f32⟩ : BufTy).Contents (Elt F) → (⟨S4096x64x1, .f32⟩ : BufTy).Contents (Elt F) → (⟨S4096x64x1, .f32⟩ : BufTy).Contents (Elt F)),
    unary main_v46 main_v47 (broadcastInDim S4096x64x256 ![0, 1, 2] bcast_S4096x64x1_S4096x64x256_0_1_2 : (⟨S4096x64x1, .f32⟩ : BufTy).Contents (Elt F) → (⟨S4096x64x256, .f32⟩ : BufTy).Contents (Elt F)),
    binary main_v42 main_v47 main_v48 (subf : (⟨S4096x64x256, .f32⟩ : BufTy).Contents (Elt F) → (⟨S4096x64x256, .f32⟩ : BufTy).Contents (Elt F) → (⟨S4096x64x256, .f32⟩ : BufTy).Contents (Elt F)),
    binary main_v48 main_v48 main_v49 (mulf : (⟨S4096x64x256, .f32⟩ : BufTy).Contents (Elt F) → (⟨S4096x64x256, .f32⟩ : BufTy).Contents (Elt F) → (⟨S4096x64x256, .f32⟩ : BufTy).Contents (Elt F)),
    nullary main_cst_8 (constant S_ .f32 0x00000000#32) ]

/-- Operations 61 to 79 of 208. -/
abbrev ops_4b : List (HloOp τ sig (Elt F)) :=
  [ binary main_v49 main_cst_8 main_v50 ((fun x v => Host.reduceAdd x v reducesTo_S4096x64x256_S4096x64_d2 h_S_) : (⟨S4096x64x256, .f32⟩ : BufTy).Contents (Elt F) → (⟨S_, .f32⟩ : BufTy).Contents (Elt F) → (⟨S4096x64, .f32⟩ : BufTy).Contents (Elt F)),
    unary main_v50 main_v51 (broadcastInDim S4096x64x1 ![0, 1] bcast_S4096x64_S4096x64x1_0_1 : (⟨S4096x64, .f32⟩ : BufTy).Contents (Elt F) → (⟨S4096x64x1, .f32⟩ : BufTy).Contents (Elt F)),
    nullary main_cst_9 (constant S_ .f32 0x43800000#32),
    unary main_cst_9 main_v52 (broadcastInDim S4096x64x1 ![] bcast_S_S4096x64x1 : (⟨S_, .f32⟩ : BufTy).Contents (Elt F) → (⟨S4096x64x1, .f32⟩ : BufTy).Contents (Elt F)),
    binary main_v51 main_v52 main_v53 (Host.divf : (⟨S4096x64x1, .f32⟩ : BufTy).Contents (Elt F) → (⟨S4096x64x1, .f32⟩ : BufTy).Contents (Elt F) → (⟨S4096x64x1, .f32⟩ : BufTy).Contents (Elt F)),
    unary main_v46 main_v54 (broadcastInDim S4096x64x256 ![0, 1, 2] bcast_S4096x64x1_S4096x64x256_0_1_2 : (⟨S4096x64x1, .f32⟩ : BufTy).Contents (Elt F) → (⟨S4096x64x256, .f32⟩ : BufTy).Contents (Elt F)),
    binary main_v42 main_v54 main_v55 (subf : (⟨S4096x64x256, .f32⟩ : BufTy).Contents (Elt F) → (⟨S4096x64x256, .f32⟩ : BufTy).Contents (Elt F) → (⟨S4096x64x256, .f32⟩ : BufTy).Contents (Elt F)),
    nullary main_cst_10 (constant S_ .f32 0x3727C5AC#32),
    unary main_cst_10 main_v56 (broadcastInDim S4096x64x1 ![] bcast_S_S4096x64x1 : (⟨S_, .f32⟩ : BufTy).Contents (Elt F) → (⟨S4096x64x1, .f32⟩ : BufTy).Contents (Elt F)),
    binary main_v53 main_v56 main_v57 (addf : (⟨S4096x64x1, .f32⟩ : BufTy).Contents (Elt F) → (⟨S4096x64x1, .f32⟩ : BufTy).Contents (Elt F) → (⟨S4096x64x1, .f32⟩ : BufTy).Contents (Elt F)),
    unary main_v57 main_v58 (Host.sqrt : (⟨S4096x64x1, .f32⟩ : BufTy).Contents (Elt F) → (⟨S4096x64x1, .f32⟩ : BufTy).Contents (Elt F)),
    unary main_v58 main_v59 (broadcastInDim S4096x64x256 ![0, 1, 2] bcast_S4096x64x1_S4096x64x256_0_1_2 : (⟨S4096x64x1, .f32⟩ : BufTy).Contents (Elt F) → (⟨S4096x64x256, .f32⟩ : BufTy).Contents (Elt F)),
    binary main_v55 main_v59 main_v60 (Host.divf : (⟨S4096x64x256, .f32⟩ : BufTy).Contents (Elt F) → (⟨S4096x64x256, .f32⟩ : BufTy).Contents (Elt F) → (⟨S4096x64x256, .f32⟩ : BufTy).Contents (Elt F)),
    unary main_arg8 main_v61 (broadcastInDim S1x1x256 ![2] bcast_S256_S1x1x256_2 : (⟨S256, .f32⟩ : BufTy).Contents (Elt F) → (⟨S1x1x256, .f32⟩ : BufTy).Contents (Elt F)),
    unary main_v61 main_v62 (broadcastInDim S4096x64x256 ![0, 1, 2] bcast_S1x1x256_S4096x64x256_0_1_2 : (⟨S1x1x256, .f32⟩ : BufTy).Contents (Elt F) → (⟨S4096x64x256, .f32⟩ : BufTy).Contents (Elt F)),
    binary main_v60 main_v62 main_v63 (mulf : (⟨S4096x64x256, .f32⟩ : BufTy).Contents (Elt F) → (⟨S4096x64x256, .f32⟩ : BufTy).Contents (Elt F) → (⟨S4096x64x256, .f32⟩ : BufTy).Contents (Elt F)),
    unary main_arg9 main_v64 (broadcastInDim S1x1x256 ![2] bcast_S256_S1x1x256_2 : (⟨S256, .f32⟩ : BufTy).Contents (Elt F) → (⟨S1x1x256, .f32⟩ : BufTy).Contents (Elt F)),
    unary main_v64 main_v65 (broadcastInDim S4096x64x256 ![0, 1, 2] bcast_S1x1x256_S4096x64x256_0_1_2 : (⟨S1x1x256, .f32⟩ : BufTy).Contents (Elt F) → (⟨S4096x64x256, .f32⟩ : BufTy).Contents (Elt F)),
    binary main_v63 main_v65 main_v66 (addf : (⟨S4096x64x256, .f32⟩ : BufTy).Contents (Elt F) → (⟨S4096x64x256, .f32⟩ : BufTy).Contents (Elt F) → (⟨S4096x64x256, .f32⟩ : BufTy).Contents (Elt F)) ]

/-- Operations 80 to 90 of 208. -/
abbrev ops_5 : List (HloOp τ sig (Elt F)) :=
  [ nullary main_cst_11 (constant S_ .f32 0x00000000#32),
    unary main_cst_11 main_v67 (broadcastInDim S4096x64x256 ![] bcast_S_S4096x64x256 : (⟨S_, .f32⟩ : BufTy).Contents (Elt F) → (⟨S4096x64x256, .f32⟩ : BufTy).Contents (Elt F)),
    binary main_v66 main_v67 main_v68 (cmpf .oge : (⟨S4096x64x256, .f32⟩ : BufTy).Contents (Elt F) → (⟨S4096x64x256, .f32⟩ : BufTy).Contents (Elt F) → (⟨S4096x64x256, .i1⟩ : BufTy).Contents (Elt F)),
    nullary main_cst_12 (constant S_ .f32 0x3C23D70A#32),
    unary main_cst_12 main_v69 (broadcastInDim S4096x64x256 ![] bcast_S_S4096x64x256 : (⟨S_, .f32⟩ : BufTy).Contents (Elt F) → (⟨S4096x64x256, .f32⟩ : BufTy).Contents (Elt F)),
    binary main_v69 main_v66 main_v70 (mulf : (⟨S4096x64x256, .f32⟩ : BufTy).Contents (Elt F) → (⟨S4096x64x256, .f32⟩ : BufTy).Contents (Elt F) → (⟨S4096x64x256, .f32⟩ : BufTy).Contents (Elt F)),
    TRef.ternary (TRef.of (T := ⟨S4096x64x256, .i1⟩) main_v68) (TRef.of (T := ⟨S4096x64x256, .f32⟩) main_v66) (TRef.of (T := ⟨S4096x64x256, .f32⟩) main_v70) (TRef.of (T := ⟨S4096x64x256, .f32⟩) main_v71) select,
    binary main_v71 main_arg10 main_v72 ((fun l r => Host.dotGeneral dot_S4096x64x256_S128x256_S4096x64x128_2_1_01_0_n_n none l r) : (⟨S4096x64x256, .f32⟩ : BufTy).Contents (Elt F) → (⟨S128x256, .f32⟩ : BufTy).Contents (Elt F) → (⟨S4096x64x128, .f32⟩ : BufTy).Contents (Elt F)),
    unary main_arg11 main_v73 (broadcastInDim S1x1x128 ![2] bcast_S128_S1x1x128_2 : (⟨S128, .f32⟩ : BufTy).Contents (Elt F) → (⟨S1x1x128, .f32⟩ : BufTy).Contents (Elt F)),
    unary main_v73 main_v74 (broadcastInDim S4096x64x128 ![0, 1, 2] bcast_S1x1x128_S4096x64x128_0_1_2 : (⟨S1x1x128, .f32⟩ : BufTy).Contents (Elt F) → (⟨S4096x64x128, .f32⟩ : BufTy).Contents (Elt F)),
    binary main_v72 main_v74 main_v75 (addf : (⟨S4096x64x128, .f32⟩ : BufTy).Contents (Elt F) → (⟨S4096x64x128, .f32⟩ : BufTy).Contents (Elt F) → (⟨S4096x64x128, .f32⟩ : BufTy).Contents (Elt F)) ]

/-- Operations 91 to 112 of 208. -/
abbrev ops_6 : List (HloOp τ sig (Elt F)) :=
  [ nullary main_cst_13 (constant S_ .f32 0x00000000#32),
    unary main_cst_13 main_v76 (broadcastInDim S4096x64x5 ![] bcast_S_S4096x64x5 : (⟨S_, .f32⟩ : BufTy).Contents (Elt F) → (⟨S4096x64x5, .f32⟩ : BufTy).Contents (Elt F)),
    binary main_v2 main_v76 main_v77 (cmpf .une : (⟨S4096x64x5, .f32⟩ : BufTy).Contents (Elt F) → (⟨S4096x64x5, .f32⟩ : BufTy).Contents (Elt F) → (⟨S4096x64x5, .i1⟩ : BufTy).Contents (Elt F)),
    nullary main_c (constantI S_ 1 0#1),
    binary main_v77 main_c main_v78 ((fun x v => Host.reduce IntOp.ori x v reducesTo_S4096x64x5_S4096x64_d2 h_S_) : (⟨S4096x64x5, .i1⟩ : BufTy).Contents (Elt F) → (⟨S_, .i1⟩ : BufTy).Contents (Elt F) → (⟨S4096x64, .i1⟩ : BufTy).Contents (Elt F)),
    unary main_v78 main_v79 (broadcastInDim S4096x64x1 ![0, 1] bcast_S4096x64_S4096x64x1_0_1 : (⟨S4096x64, .i1⟩ : BufTy).Contents (Elt F) → (⟨S4096x64x1, .i1⟩ : BufTy).Contents (Elt F)),
    unary main_v79 main_v80 (uitofp .f32 : (⟨S4096x64x1, .i1⟩ : BufTy).Contents (Elt F) → (⟨S4096x64x1, .f32⟩ : BufTy).Contents (Elt F)),
    unary main_v80 main_v81 (broadcastInDim S4096x64x128 ![0, 1, 2] bcast_S4096x64x1_S4096x64x128_0_1_2 : (⟨S4096x64x1, .f32⟩ : BufTy).Contents (Elt F) → (⟨S4096x64x128, .f32⟩ : BufTy).Contents (Elt F)),
    binary main_v75 main_v81 main_v82 (mulf : (⟨S4096x64x128, .f32⟩ : BufTy).Contents (Elt F) → (⟨S4096x64x128, .f32⟩ : BufTy).Contents (Elt F) → (⟨S4096x64x128, .f32⟩ : BufTy).Contents (Elt F)),
    unary main_v78 main_v83 ((extui 32 · natLt_1_32) : (⟨S4096x64, .i1⟩ : BufTy).Contents (Elt F) → (⟨S4096x64, .i32⟩ : BufTy).Contents (Elt F)),
    nullary main_c_14 (constantI S_ 32 0#32),
    binary main_v83 main_c_14 main_v84 ((fun x v => Host.reduce IntOp.addi x v reducesTo_S4096x64_S4096_d1 h_S_) : (⟨S4096x64, .i32⟩ : BufTy).Contents (Elt F) → (⟨S_, .i32⟩ : BufTy).Contents (Elt F) → (⟨S4096, .i32⟩ : BufTy).Contents (Elt F)),
    unary main_v84 main_v85 (broadcastInDim S4096x1 ![0] bcast_S4096_S4096x1_0 : (⟨S4096, .i32⟩ : BufTy).Contents (Elt F) → (⟨S4096x1, .i32⟩ : BufTy).Contents (Elt F)),
    unary main_v85 main_v86 (sitofp .f32 : (⟨S4096x1, .i32⟩ : BufTy).Contents (Elt F) → (⟨S4096x1, .f32⟩ : BufTy).Contents (Elt F)),
    nullary main_cst_15 (constant S_ .f32 0x00000000#32),
    binary main_v82 main_cst_15 main_v87 ((fun x v => Host.reduceAdd x v reducesTo_S4096x64x128_S4096x128_d1 h_S_) : (⟨S4096x64x128, .f32⟩ : BufTy).Contents (Elt F) → (⟨S_, .f32⟩ : BufTy).Contents (Elt F) → (⟨S4096x128, .f32⟩ : BufTy).Contents (Elt F)),
    nullary main_cst_16 (constant S_ .f32 0x3F800000#32),
    TRef.unary (TRef.of (T := ⟨S_, .f32⟩) main_cst_16) (TRef.of (T := ⟨S_, .f32⟩) main_call2_v0) id,
    TRef.unary (TRef.of (T := ⟨S_, .f32⟩) main_call2_v0) (TRef.of (T := ⟨S4096x1, .f32⟩) main_call2_v1) (broadcastInDim S4096x1 ![] bcast_S_S4096x1),
    TRef.binary (TRef.of (T := ⟨S4096x1, .f32⟩) main_call2_v1) (TRef.of (T := ⟨S4096x1, .f32⟩) main_v86) (TRef.of (T := ⟨S4096x1, .f32⟩) main_v88) maximumf,
    unary main_v88 main_v89 (broadcastInDim S4096x128 ![0, 1] bcast_S4096x1_S4096x128_0_1 : (⟨S4096x1, .f32⟩ : BufTy).Contents (Elt F) → (⟨S4096x128, .f32⟩ : BufTy).Contents (Elt F)),
    binary main_v87 main_v89 main_v90 (Host.divf : (⟨S4096x128, .f32⟩ : BufTy).Contents (Elt F) → (⟨S4096x128, .f32⟩ : BufTy).Contents (Elt F) → (⟨S4096x128, .f32⟩ : BufTy).Contents (Elt F)) ]

/-- Operations 113 to 137 of 208. -/
abbrev ops_7 : List (HloOp τ sig (Elt F)) :=
  [ unary main_arg1 main_v91 (broadcastInDim S4096x1 ![0] bcast_S4096_S4096x1_0 : (⟨S4096, .i32⟩ : BufTy).Contents (Elt F) → (⟨S4096x1, .i32⟩ : BufTy).Contents (Elt F)),
    unary main_v91 main_v92 (broadcastInDim S4096x1x1 ![0, 1] bcast_S4096x1_S4096x1x1_0_1 : (⟨S4096x1, .i32⟩ : BufTy).Contents (Elt F) → (⟨S4096x1x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S4096x1x1, .i32⟩) main_call3_v0) (broadcastInDim S4096x1x1 ![] bcast_S_S4096x1x1),
    TRef.binary (TRef.of (T := ⟨S4096x1x1, .i32⟩) main_v92) (TRef.of (T := ⟨S4096x1x1, .i32⟩) main_call3_v0) (TRef.of (T := ⟨S4096x1x1, .i1⟩) main_call3_v1) (cmpi .slt),
    TRef.nullary (TRef.of (T := ⟨S_, .i32⟩) main_call3_c_0) (constantI S_ 32 64#32),
    TRef.unary (TRef.of (T := ⟨S_, .i32⟩) main_call3_c_0) (TRef.of (T := ⟨S4096x1x1, .i32⟩) main_call3_v2) (broadcastInDim S4096x1x1 ![] bcast_S_S4096x1x1),
    TRef.binary (TRef.of (T := ⟨S4096x1x1, .i32⟩) main_v92) (TRef.of (T := ⟨S4096x1x1, .i32⟩) main_call3_v2) (TRef.of (T := ⟨S4096x1x1, .i32⟩) main_call3_v3) addi,
    TRef.ternary (TRef.of (T := ⟨S4096x1x1, .i1⟩) main_call3_v1) (TRef.of (T := ⟨S4096x1x1, .i32⟩) main_call3_v3) (TRef.of (T := ⟨S4096x1x1, .i32⟩) main_v92) (TRef.of (T := ⟨S4096x1x1, .i32⟩) main_call3_v4) select,
    TRef.nullary (TRef.of (T := ⟨S1, .i32⟩) main_call3_c_1) (constantI S1 32 63#32),
    TRef.nullary (TRef.of (T := ⟨S_, .i32⟩) main_call3_c_2) (constantI S_ 32 0#32),
    TRef.unary (TRef.of (T := ⟨S_, .i32⟩) main_call3_c_2) (TRef.of (T := ⟨S4096x1x1, .i32⟩) main_call3_v5) (broadcastInDim S4096x1x1 ![] bcast_S_S4096x1x1),
    TRef.binary (TRef.of (T := ⟨S4096x1x1, .i32⟩) main_call3_v4) (TRef.of (T := ⟨S4096x1x1, .i32⟩) main_call3_v5) (TRef.of (T := ⟨S4096x1x1, .i1⟩) main_call3_v6) (cmpi .sge),
    TRef.unary (TRef.of (T := ⟨S1, .i32⟩) main_call3_c_1) (TRef.of (T := ⟨S1x1x1, .i32⟩) main_call3_v7) (broadcastInDim S1x1x1 ![2] bcast_S1_S1x1x1_2),
    TRef.unary (TRef.of (T := ⟨S1x1x1, .i32⟩) main_call3_v7) (TRef.of (T := ⟨S4096x1x1, .i32⟩) main_call3_v8) (broadcastInDim S4096x1x1 ![0, 1, 2] bcast_S1x1x1_S4096x1x1_0_1_2),
    TRef.binary (TRef.of (T := ⟨S4096x1x1, .i32⟩) main_call3_v4) (TRef.of (T := ⟨S4096x1x1, .i32⟩) main_call3_v8) (TRef.of (T := ⟨S4096x1x1, .i1⟩) main_call3_v9) (cmpi .sle),
    TRef.binary (TRef.of (T := ⟨S4096x1x1, .i1⟩) main_call3_v6) (TRef.of (T := ⟨S4096x1x1, .i1⟩) main_call3_v9) (TRef.of (T := ⟨S4096x1x1, .i1⟩) main_call3_v10) andi,
    TRef.nullary (TRef.of (T := ⟨S_, .i1⟩) main_call3_c_3) (constantI S_ 1 1#1),
    TRef.binary (TRef.of (T := ⟨S4096x1x1, .i1⟩) main_call3_v10) (TRef.of (T := ⟨S_, .i1⟩) main_call3_c_3) (TRef.of (T := ⟨S4096x1, .i1⟩) main_call3_v11) (fun x v => Host.reduce IntOp.andi x v reducesTo_S4096x1x1_S4096x1_d2 h_S_),
    TRef.binary (TRef.of (T := ⟨S4096x64x128, .f32⟩) main_v75) (TRef.of (T := ⟨S4096x1x1, .i32⟩) main_call3_v4) (TRef.of (T := ⟨S4096x1x128, .f32⟩) main_call3_v12) (fun x i => Host.gather gather_S4096x64x128_S4096x1x1_S4096x1x128_2_1_0_0_1_2_11128 x i),
    TRef.unary (TRef.of (T := ⟨S4096x1, .i1⟩) main_call3_v11) (TRef.of (T := ⟨S4096x1x128, .i1⟩) main_call3_v13) (broadcastInDim S4096x1x128 ![0, 1] bcast_S4096x1_S4096x1x128_0_1),
    TRef.nullary (TRef.of (T := ⟨S_, .f32⟩) main_call3_cst) (constant S_ .f32 0x7FC00000#32),
    TRef.unary (TRef.of (T := ⟨S_, .f32⟩) main_call3_cst) (TRef.of (T := ⟨S4096x1x128, .f32⟩) main_call3_v14) (broadcastInDim S4096x1x128 ![] bcast_S_S4096x1x128),
    TRef.ternary (TRef.of (T := ⟨S4096x1x128, .i1⟩) main_call3_v13) (TRef.of (T := ⟨S4096x1x128, .f32⟩) main_call3_v12) (TRef.of (T := ⟨S4096x1x128, .f32⟩) main_call3_v14) (TRef.of (T := ⟨S4096x1x128, .f32⟩) main_v93) select,
    reshape main_v93 main_v94 rfl shapeCasts_S4096x1x128_S4096x128 ]

/-- Operations 138 to 161 of 208. -/
abbrev ops_8 : List (HloOp τ sig (Elt F)) :=
  [ unary main_v91 main_v95 (broadcastInDim S4096x1x1 ![0, 1] bcast_S4096x1_S4096x1x1_0_1 : (⟨S4096x1, .i32⟩ : BufTy).Contents (Elt F) → (⟨S4096x1x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S4096x1x1, .i32⟩) main_call4_v0) (broadcastInDim S4096x1x1 ![] bcast_S_S4096x1x1),
    TRef.binary (TRef.of (T := ⟨S4096x1x1, .i32⟩) main_v95) (TRef.of (T := ⟨S4096x1x1, .i32⟩) main_call4_v0) (TRef.of (T := ⟨S4096x1x1, .i1⟩) main_call4_v1) (cmpi .slt),
    TRef.nullary (TRef.of (T := ⟨S_, .i32⟩) main_call4_c_0) (constantI S_ 32 64#32),
    TRef.unary (TRef.of (T := ⟨S_, .i32⟩) main_call4_c_0) (TRef.of (T := ⟨S4096x1x1, .i32⟩) main_call4_v2) (broadcastInDim S4096x1x1 ![] bcast_S_S4096x1x1),
    TRef.binary (TRef.of (T := ⟨S4096x1x1, .i32⟩) main_v95) (TRef.of (T := ⟨S4096x1x1, .i32⟩) main_call4_v2) (TRef.of (T := ⟨S4096x1x1, .i32⟩) main_call4_v3) addi,
    TRef.ternary (TRef.of (T := ⟨S4096x1x1, .i1⟩) main_call4_v1) (TRef.of (T := ⟨S4096x1x1, .i32⟩) main_call4_v3) (TRef.of (T := ⟨S4096x1x1, .i32⟩) main_v95) (TRef.of (T := ⟨S4096x1x1, .i32⟩) main_call4_v4) select,
    TRef.nullary (TRef.of (T := ⟨S1, .i32⟩) main_call4_c_1) (constantI S1 32 63#32),
    TRef.nullary (TRef.of (T := ⟨S_, .i32⟩) main_call4_c_2) (constantI S_ 32 0#32),
    TRef.unary (TRef.of (T := ⟨S_, .i32⟩) main_call4_c_2) (TRef.of (T := ⟨S4096x1x1, .i32⟩) main_call4_v5) (broadcastInDim S4096x1x1 ![] bcast_S_S4096x1x1),
    TRef.binary (TRef.of (T := ⟨S4096x1x1, .i32⟩) main_call4_v4) (TRef.of (T := ⟨S4096x1x1, .i32⟩) main_call4_v5) (TRef.of (T := ⟨S4096x1x1, .i1⟩) main_call4_v6) (cmpi .sge),
    TRef.unary (TRef.of (T := ⟨S1, .i32⟩) main_call4_c_1) (TRef.of (T := ⟨S1x1x1, .i32⟩) main_call4_v7) (broadcastInDim S1x1x1 ![2] bcast_S1_S1x1x1_2),
    TRef.unary (TRef.of (T := ⟨S1x1x1, .i32⟩) main_call4_v7) (TRef.of (T := ⟨S4096x1x1, .i32⟩) main_call4_v8) (broadcastInDim S4096x1x1 ![0, 1, 2] bcast_S1x1x1_S4096x1x1_0_1_2),
    TRef.binary (TRef.of (T := ⟨S4096x1x1, .i32⟩) main_call4_v4) (TRef.of (T := ⟨S4096x1x1, .i32⟩) main_call4_v8) (TRef.of (T := ⟨S4096x1x1, .i1⟩) main_call4_v9) (cmpi .sle),
    TRef.binary (TRef.of (T := ⟨S4096x1x1, .i1⟩) main_call4_v6) (TRef.of (T := ⟨S4096x1x1, .i1⟩) main_call4_v9) (TRef.of (T := ⟨S4096x1x1, .i1⟩) main_call4_v10) andi,
    TRef.nullary (TRef.of (T := ⟨S_, .i1⟩) main_call4_c_3) (constantI S_ 1 1#1),
    TRef.binary (TRef.of (T := ⟨S4096x1x1, .i1⟩) main_call4_v10) (TRef.of (T := ⟨S_, .i1⟩) main_call4_c_3) (TRef.of (T := ⟨S4096x1, .i1⟩) main_call4_v11) (fun x v => Host.reduce IntOp.andi x v reducesTo_S4096x1x1_S4096x1_d2 h_S_),
    TRef.binary (TRef.of (T := ⟨S4096x64x5, .f32⟩) main_v2) (TRef.of (T := ⟨S4096x1x1, .i32⟩) main_call4_v4) (TRef.of (T := ⟨S4096x1x5, .f32⟩) main_call4_v12) (fun x i => Host.gather gather_S4096x64x5_S4096x1x1_S4096x1x5_2_1_0_0_1_2_115 x i),
    TRef.unary (TRef.of (T := ⟨S4096x1, .i1⟩) main_call4_v11) (TRef.of (T := ⟨S4096x1x5, .i1⟩) main_call4_v13) (broadcastInDim S4096x1x5 ![0, 1] bcast_S4096x1_S4096x1x5_0_1),
    TRef.nullary (TRef.of (T := ⟨S_, .f32⟩) main_call4_cst) (constant S_ .f32 0x7FC00000#32),
    TRef.unary (TRef.of (T := ⟨S_, .f32⟩) main_call4_cst) (TRef.of (T := ⟨S4096x1x5, .f32⟩) main_call4_v14) (broadcastInDim S4096x1x5 ![] bcast_S_S4096x1x5),
    TRef.ternary (TRef.of (T := ⟨S4096x1x5, .i1⟩) main_call4_v13) (TRef.of (T := ⟨S4096x1x5, .f32⟩) main_call4_v12) (TRef.of (T := ⟨S4096x1x5, .f32⟩) main_call4_v14) (TRef.of (T := ⟨S4096x1x5, .f32⟩) main_v96) select,
    reshape main_v96 main_v97 rfl shapeCasts_S4096x1x5_S4096x5 ]

/-- Operations 162 to 164 of 208. -/
abbrev ops_9 : List (HloOp τ sig (Elt F)) :=
  [ nary ![main_v0, main_v94, main_v90, main_v97] main_v98 (fun u => concatenate S4096x264 1 [⟨S4096x3, u 0⟩, ⟨S4096x128, u 1⟩, ⟨S4096x128, u 2⟩, ⟨S4096x5, u 3⟩] concatenates_S4096x3_S4096x128_S4096x128_S4096x5_S4096x264_d1),
    unary main_arg12 main_v99 ((transpose S264x512 [1, 0] · transposes_S512x264_S264x512_1_0) : (⟨S512x264, .f32⟩ : BufTy).Contents (Elt F) → (⟨S264x512, .f32⟩ : BufTy).Contents (Elt F)),
    binary main_v98 main_v99 main_v100 ((fun l r => Host.dotGeneral dot_S4096x264_S264x512_S4096x512_1_0_0_1_n_n none l r) : (⟨S4096x264, .f32⟩ : BufTy).Contents (Elt F) → (⟨S264x512, .f32⟩ : BufTy).Contents (Elt F) → (⟨S4096x512, .f32⟩ : BufTy).Contents (Elt F)) ]

/-- Operations 165 to 196 of 208. -/
abbrev ops_10 : List (HloOp τ sig (Elt F)) :=
  [ unary main_arg13 main_v101 (broadcastInDim S1x512 ![1] bcast_S512_S1x512_1 : (⟨S512, .f32⟩ : BufTy).Contents (Elt F) → (⟨S1x512, .f32⟩ : BufTy).Contents (Elt F)),
    unary main_v101 main_v102 (broadcastInDim S4096x512 ![0, 1] bcast_S1x512_S4096x512_0_1 : (⟨S1x512, .f32⟩ : BufTy).Contents (Elt F) → (⟨S4096x512, .f32⟩ : BufTy).Contents (Elt F)),
    binary main_v100 main_v102 main_v103 (addf : (⟨S4096x512, .f32⟩ : BufTy).Contents (Elt F) → (⟨S4096x512, .f32⟩ : BufTy).Contents (Elt F) → (⟨S4096x512, .f32⟩ : BufTy).Contents (Elt F)),
    nullary main_cst_17 (constant S_ .f32 0x00000000#32),
    binary main_v103 main_cst_17 main_v104 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_v104 main_v105 (broadcastInDim S4096x1 ![0] bcast_S4096_S4096x1_0 : (⟨S4096, .f32⟩ : BufTy).Contents (Elt F) → (⟨S4096x1, .f32⟩ : BufTy).Contents (Elt F)),
    nullary main_cst_18 (constant S_ .f32 0x44000000#32),
    unary main_cst_18 main_v106 (broadcastInDim S4096x1 ![] bcast_S_S4096x1 : (⟨S_, .f32⟩ : BufTy).Contents (Elt F) → (⟨S4096x1, .f32⟩ : BufTy).Contents (Elt F)),
    binary main_v105 main_v106 main_v107 (Host.divf : (⟨S4096x1, .f32⟩ : BufTy).Contents (Elt F) → (⟨S4096x1, .f32⟩ : BufTy).Contents (Elt F) → (⟨S4096x1, .f32⟩ : BufTy).Contents (Elt F)),
    unary main_v107 main_v108 (broadcastInDim S4096x512 ![0, 1] bcast_S4096x1_S4096x512_0_1 : (⟨S4096x1, .f32⟩ : BufTy).Contents (Elt F) → (⟨S4096x512, .f32⟩ : BufTy).Contents (Elt F)),
    binary main_v103 main_v108 main_v109 (subf : (⟨S4096x512, .f32⟩ : BufTy).Contents (Elt F) → (⟨S4096x512, .f32⟩ : BufTy).Contents (Elt F) → (⟨S4096x512, .f32⟩ : BufTy).Contents (Elt F)),
    binary main_v109 main_v109 main_v110 (mulf : (⟨S4096x512, .f32⟩ : BufTy).Contents (Elt F) → (⟨S4096x512, .f32⟩ : BufTy).Contents (Elt F) → (⟨S4096x512, .f32⟩ : BufTy).Contents (Elt F)),
    nullary main_cst_19 (constant S_ .f32 0x00000000#32),
    binary main_v110 main_cst_19 main_v111 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_v111 main_v112 (broadcastInDim S4096x1 ![0] bcast_S4096_S4096x1_0 : (⟨S4096, .f32⟩ : BufTy).Contents (Elt F) → (⟨S4096x1, .f32⟩ : BufTy).Contents (Elt F)),
    nullary main_cst_20 (constant S_ .f32 0x44000000#32),
    unary main_cst_20 main_v113 (broadcastInDim S4096x1 ![] bcast_S_S4096x1 : (⟨S_, .f32⟩ : BufTy).Contents (Elt F) → (⟨S4096x1, .f32⟩ : BufTy).Contents (Elt F)),
    binary main_v112 main_v113 main_v114 (Host.divf : (⟨S4096x1, .f32⟩ : BufTy).Contents (Elt F) → (⟨S4096x1, .f32⟩ : BufTy).Contents (Elt F) → (⟨S4096x1, .f32⟩ : BufTy).Contents (Elt F)),
    unary main_v107 main_v115 (broadcastInDim S4096x512 ![0, 1] bcast_S4096x1_S4096x512_0_1 : (⟨S4096x1, .f32⟩ : BufTy).Contents (Elt F) → (⟨S4096x512, .f32⟩ : BufTy).Contents (Elt F)),
    binary main_v103 main_v115 main_v116 (subf : (⟨S4096x512, .f32⟩ : BufTy).Contents (Elt F) → (⟨S4096x512, .f32⟩ : BufTy).Contents (Elt F) → (⟨S4096x512, .f32⟩ : BufTy).Contents (Elt F)),
    nullary main_cst_21 (constant S_ .f32 0x3727C5AC#32),
    unary main_cst_21 main_v117 (broadcastInDim S4096x1 ![] bcast_S_S4096x1 : (⟨S_, .f32⟩ : BufTy).Contents (Elt F) → (⟨S4096x1, .f32⟩ : BufTy).Contents (Elt F)),
    binary main_v114 main_v117 main_v118 (addf : (⟨S4096x1, .f32⟩ : BufTy).Contents (Elt F) → (⟨S4096x1, .f32⟩ : BufTy).Contents (Elt F) → (⟨S4096x1, .f32⟩ : BufTy).Contents (Elt F)),
    unary main_v118 main_v119 (Host.sqrt : (⟨S4096x1, .f32⟩ : BufTy).Contents (Elt F) → (⟨S4096x1, .f32⟩ : BufTy).Contents (Elt F)),
    unary main_v119 main_v120 (broadcastInDim S4096x512 ![0, 1] bcast_S4096x1_S4096x512_0_1 : (⟨S4096x1, .f32⟩ : BufTy).Contents (Elt F) → (⟨S4096x512, .f32⟩ : BufTy).Contents (Elt F)),
    binary main_v116 main_v120 main_v121 (Host.divf : (⟨S4096x512, .f32⟩ : BufTy).Contents (Elt F) → (⟨S4096x512, .f32⟩ : BufTy).Contents (Elt F) → (⟨S4096x512, .f32⟩ : BufTy).Contents (Elt F)),
    unary main_arg14 main_v122 (broadcastInDim S1x512 ![1] bcast_S512_S1x512_1 : (⟨S512, .f32⟩ : BufTy).Contents (Elt F) → (⟨S1x512, .f32⟩ : BufTy).Contents (Elt F)),
    unary main_v122 main_v123 (broadcastInDim S4096x512 ![0, 1] bcast_S1x512_S4096x512_0_1 : (⟨S1x512, .f32⟩ : BufTy).Contents (Elt F) → (⟨S4096x512, .f32⟩ : BufTy).Contents (Elt F)),
    binary main_v121 main_v123 main_v124 (mulf : (⟨S4096x512, .f32⟩ : BufTy).Contents (Elt F) → (⟨S4096x512, .f32⟩ : BufTy).Contents (Elt F) → (⟨S4096x512, .f32⟩ : BufTy).Contents (Elt F)),
    unary main_arg15 main_v125 (broadcastInDim S1x512 ![1] bcast_S512_S1x512_1 : (⟨S512, .f32⟩ : BufTy).Contents (Elt F) → (⟨S1x512, .f32⟩ : BufTy).Contents (Elt F)),
    unary main_v125 main_v126 (broadcastInDim S4096x512 ![0, 1] bcast_S1x512_S4096x512_0_1 : (⟨S1x512, .f32⟩ : BufTy).Contents (Elt F) → (⟨S4096x512, .f32⟩ : BufTy).Contents (Elt F)),
    binary main_v124 main_v126 main_v127 (addf : (⟨S4096x512, .f32⟩ : BufTy).Contents (Elt F) → (⟨S4096x512, .f32⟩ : BufTy).Contents (Elt F) → (⟨S4096x512, .f32⟩ : BufTy).Contents (Elt F)) ]

/-- Operations 197 to 208 of 208. -/
abbrev ops_11 : List (HloOp τ sig (Elt F)) :=
  [ nullary main_cst_22 (constant S_ .f32 0x00000000#32),
    unary main_cst_22 main_v128 (broadcastInDim S4096x512 ![] bcast_S_S4096x512 : (⟨S_, .f32⟩ : BufTy).Contents (Elt F) → (⟨S4096x512, .f32⟩ : BufTy).Contents (Elt F)),
    binary main_v127 main_v128 main_v129 (cmpf .oge : (⟨S4096x512, .f32⟩ : BufTy).Contents (Elt F) → (⟨S4096x512, .f32⟩ : BufTy).Contents (Elt F) → (⟨S4096x512, .i1⟩ : BufTy).Contents (Elt F)),
    nullary main_cst_23 (constant S_ .f32 0x3C23D70A#32),
    unary main_cst_23 main_v130 (broadcastInDim S4096x512 ![] bcast_S_S4096x512 : (⟨S_, .f32⟩ : BufTy).Contents (Elt F) → (⟨S4096x512, .f32⟩ : BufTy).Contents (Elt F)),
    binary main_v130 main_v127 main_v131 (mulf : (⟨S4096x512, .f32⟩ : BufTy).Contents (Elt F) → (⟨S4096x512, .f32⟩ : BufTy).Contents (Elt F) → (⟨S4096x512, .f32⟩ : BufTy).Contents (Elt F)),
    TRef.ternary (TRef.of (T := ⟨S4096x512, .i1⟩) main_v129) (TRef.of (T := ⟨S4096x512, .f32⟩) main_v127) (TRef.of (T := ⟨S4096x512, .f32⟩) main_v131) (TRef.of (T := ⟨S4096x512, .f32⟩) main_v132) select,
    unary main_arg16 main_v133 ((transpose S512x1 [1, 0] · transposes_S1x512_S512x1_1_0) : (⟨S1x512, .f32⟩ : BufTy).Contents (Elt F) → (⟨S512x1, .f32⟩ : BufTy).Contents (Elt F)),
    binary main_v132 main_v133 main_v134 ((fun l r => Host.dotGeneral dot_S4096x512_S512x1_S4096x1_1_0_0_1_n_n none l r) : (⟨S4096x512, .f32⟩ : BufTy).Contents (Elt F) → (⟨S512x1, .f32⟩ : BufTy).Contents (Elt F) → (⟨S4096x1, .f32⟩ : BufTy).Contents (Elt F)),
    unary main_arg17 main_v135 (broadcastInDim S1x1 ![1] bcast_S1_S1x1_1 : (⟨S1, .f32⟩ : BufTy).Contents (Elt F) → (⟨S1x1, .f32⟩ : BufTy).Contents (Elt F)),
    unary main_v135 main_v136 (broadcastInDim S4096x1 ![0, 1] bcast_S1x1_S4096x1_0_1 : (⟨S1x1, .f32⟩ : BufTy).Contents (Elt F) → (⟨S4096x1, .f32⟩ : BufTy).Contents (Elt F)),
    binary main_v134 main_v136 main_v137 (addf : (⟨S4096x1, .f32⟩ : BufTy).Contents (Elt F) → (⟨S4096x1, .f32⟩ : BufTy).Contents (Elt F) → (⟨S4096x1, .f32⟩ : BufTy).Contents (Elt F)) ]

/-! ## The argument arrays of a valuation -/

abbrev a0 (V : Valuation τ sig (Elt F)) : (⟨S4096x323, .f32⟩ : BufTy).Contents (Elt F) := V (Proc.devRef .tc main_arg0)
abbrev a1 (V : Valuation τ sig (Elt F)) : (⟨S4096, .i32⟩ : BufTy).Contents (Elt F) := V (Proc.devRef .tc main_arg1)
abbrev a2 (V : Valuation τ sig (Elt F)) : (⟨S256x8, .f32⟩ : BufTy).Contents (Elt F) := V (Proc.devRef .tc main_arg2)
abbrev a3 (V : Valuation τ sig (Elt F)) : (⟨S256, .f32⟩ : BufTy).Contents (Elt F) := V (Proc.devRef .tc main_arg3)
abbrev a4 (V : Valuation τ sig (Elt F)) : (⟨S256, .f32⟩ : BufTy).Contents (Elt F) := V (Proc.devRef .tc main_arg4)
abbrev a5 (V : Valuation τ sig (Elt F)) : (⟨S256, .f32⟩ : BufTy).Contents (Elt F) := V (Proc.devRef .tc main_arg5)
abbrev a6 (V : Valuation τ sig (Elt F)) : (⟨S256x256, .f32⟩ : BufTy).Contents (Elt F) := V (Proc.devRef .tc main_arg6)
abbrev a7 (V : Valuation τ sig (Elt F)) : (⟨S256, .f32⟩ : BufTy).Contents (Elt F) := V (Proc.devRef .tc main_arg7)
abbrev a8 (V : Valuation τ sig (Elt F)) : (⟨S256, .f32⟩ : BufTy).Contents (Elt F) := V (Proc.devRef .tc main_arg8)
abbrev a9 (V : Valuation τ sig (Elt F)) : (⟨S256, .f32⟩ : BufTy).Contents (Elt F) := V (Proc.devRef .tc main_arg9)
abbrev a10 (V : Valuation τ sig (Elt F)) : (⟨S128x256, .f32⟩ : BufTy).Contents (Elt F) := V (Proc.devRef .tc main_arg10)
abbrev a11 (V : Valuation τ sig (Elt F)) : (⟨S128, .f32⟩ : BufTy).Contents (Elt F) := V (Proc.devRef .tc main_arg11)
abbrev a12 (V : Valuation τ sig (Elt F)) : (⟨S512x264, .f32⟩ : BufTy).Contents (Elt F) := V (Proc.devRef .tc main_arg12)
abbrev a13 (V : Valuation τ sig (Elt F)) : (⟨S512, .f32⟩ : BufTy).Contents (Elt F) := V (Proc.devRef .tc main_arg13)
abbrev a14 (V : Valuation τ sig (Elt F)) : (⟨S512, .f32⟩ : BufTy).Contents (Elt F) := V (Proc.devRef .tc main_arg14)
abbrev a15 (V : Valuation τ sig (Elt F)) : (⟨S512, .f32⟩ : BufTy).Contents (Elt F) := V (Proc.devRef .tc main_arg15)
abbrev a16 (V : Valuation τ sig (Elt F)) : (⟨S1x512, .f32⟩ : BufTy).Contents (Elt F) := V (Proc.devRef .tc main_arg16)
abbrev a17 (V : Valuation τ sig (Elt F)) : (⟨S1, .f32⟩ : BufTy).Contents (Elt F) := V (Proc.devRef .tc main_arg17)

/-- The references of the eighteen argument arrays: no operation writes one. -/
abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17]

end Cert.ReferenceIdeal.HandRun

end
-- ==== Proof.RefRunHandS01.lean ====
/-
  Stage 1 of the reference's run: what the stage's operations leave in the buffers, read as the reference's named values.
-/
import proofs.«427821_j19241453486367_3_alg».proof.Proof.RefRunHandOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Every operation of the list touches device buffers only. -/
theorem ops_1_sub : (ops_1 : List (HloOp τ sig (Elt F))).Forall fun op => op.bufs ⊆ tcRefs τ sig :=
  ⟨unary_bufs_sub .., unary_bufs_sub .., reshape_bufs_sub .., unary_bufs_sub .., unary_bufs_sub .., binary_bufs_sub .., binary_bufs_sub .., unary_bufs_sub .., unary_bufs_sub .., binary_bufs_sub ..⟩

/-- Every operation of the list determines its results. -/
theorem ops_1_fresh : ∀ op ∈ (ops_1 : List (HloOp τ sig (Elt F))), op.fresh = ∅ := by intro _ h; (repeat (cases h with | head => rfl | tail _ h => ?_)); exact nomatch h

/-- The stage writes none of these buffers: the argument arrays. -/
theorem keep_1 (V : Valuation τ sig (Elt F)) {r : Ref sig .tc} (hr : r ∈ argRefs) :
    after ops_1 V (Proc.devRef .tc r) = V (Proc.devRef .tc r) := by
  simp only [argRefs, List.mem_append, List.mem_cons, List.not_mem_nil, or_false] at hr
  rcases hr with rfl | rfl | rfl | rfl | rfl | rfl | rfl | rfl | rfl | rfl | rfl | rfl | rfl | rfl | rfl | rfl | rfl | rfl <;> after_results_simp

/-- After the stage, from any contents that hold the stage's inputs, the buffer of %0 holds the reference's value of that name. -/
theorem stage1_v0 (V : Valuation τ sig (Elt F)) (x0 : (⟨S4096x323, .f32⟩ : BufTy).Contents (Elt F)) (x2 : (⟨S256x8, .f32⟩ : BufTy).Contents (Elt F)) (x3 : (⟨S256, .f32⟩ : BufTy).Contents (Elt F))
    (ha0 : V (Proc.devRef .tc main_arg0) = x0)
    (ha2 : V (Proc.devRef .tc main_arg2) = x2)
    (ha3 : V (Proc.devRef .tc main_arg3) = x3) :
    after ops_1 V (Proc.devRef .tc main_v0) = Read.val_main_v0 (F := F) x0 := by
  subst ha0 ha2 ha3
  after_results_simp
  rfl

/-- After the stage, from any contents that hold the stage's inputs, the buffer of %2 holds the reference's value of that name. -/
theorem stage1_v2 (V : Valuation τ sig (Elt F)) (x0 : (⟨S4096x323, .f32⟩ : BufTy).Contents (Elt F)) (x2 : (⟨S256x8, .f32⟩ : BufTy).Contents (Elt F)) (x3 : (⟨S256, .f32⟩ : BufTy).Contents (Elt F))
    (ha0 : V (Proc.devRef .tc main_arg0) = x0)
    (ha2 : V (Proc.devRef .tc main_arg2) = x2)
    (ha3 : V (Proc.devRef .tc main_arg3) = x3) :
    after ops_1 V (Proc.devRef .tc main_v2) = Read.val_main_v2 (F := F) x0 := by
  subst ha0 ha2 ha3
  after_results_simp
  rfl

/-- After the stage, from any contents that hold the stage's inputs, the buffer of %9 holds the reference's value of that name. -/
theorem stage1_v9 (V : Valuation τ sig (Elt F)) (x0 : (⟨S4096x323, .f32⟩ : BufTy).Contents (Elt F)) (x2 : (⟨S256x8, .f32⟩ : BufTy).Contents (Elt F)) (x3 : (⟨S256, .f32⟩ : BufTy).Contents (Elt F))
    (ha0 : V (Proc.devRef .tc main_arg0) = x0)
    (ha2 : V (Proc.devRef .tc main_arg2) = x2)
    (ha3 : V (Proc.devRef .tc main_arg3) = x3) :
    after ops_1 V (Proc.devRef .tc main_v9) = Read.val_main_v9 (F := F) x0 x2 x3 := by
  subst ha0 ha2 ha3
  after_results_simp
  rfl

end Cert.ReferenceIdeal.HandRun

end
-- ==== Proof.RefRunHandS02.lean ====
/-
  Stage 2 of the reference's run: what the stage's operations leave in the buffers, read as the reference's named values.
-/
import proofs.«427821_j19241453486367_3_alg».proof.Proof.RefRunHandOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Every operation of the list touches device buffers only. -/
theorem ops_2_sub : (ops_2 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- Every operation of the list determines its results. -/
theorem ops_2_fresh : ∀ op ∈ (ops_2 : List (HloOp τ sig (Elt F))), op.fresh = ∅ := by intro _ h; (repeat (cases h with | head => rfl | tail _ h => ?_)); exact nomatch h

set_option maxHeartbeats 2000000 in
/-- The stage writes none of these buffers: the argument arrays and the earlier values that later stages still read. -/
theorem keep_2 (V : Valuation τ sig (Elt F)) {r : Ref sig .tc} (hr : r ∈ argRefs ++ [main_v0, main_v2]) :
    after ops_2 V (Proc.devRef .tc r) = V (Proc.devRef .tc r) := by
  simp only [argRefs, List.mem_append, List.mem_cons, List.not_mem_nil, or_false] at hr
  rcases hr with (rfl | rfl | rfl | rfl | rfl | rfl | rfl | rfl | rfl | rfl | rfl | rfl | rfl | rfl | rfl | rfl | rfl | rfl) | (rfl | rfl) <;> after_results_simp

/-- After the stage, from any contents that hold the stage's inputs, the buffer of %33 holds the reference's value of that name. -/
theorem stage2_v33 (V : Valuation τ sig (Elt F)) (x0 : (⟨S4096x323, .f32⟩ : BufTy).Contents (Elt F)) (x2 : (⟨S256x8, .f32⟩ : BufTy).Contents (Elt F)) (x3 : (⟨S256, .f32⟩ : BufTy).Contents (Elt F)) (x4 : (⟨S256, .f32⟩ : BufTy).Contents (Elt F)) (x5 : (⟨S256, .f32⟩ : BufTy).Contents (Elt F))
    (hv9 : V (Proc.devRef .tc main_v9) = Read.val_main_v9 (F := F) x0 x2 x3)
    (ha4 : V (Proc.devRef .tc main_arg4) = x4)
    (ha5 : V (Proc.devRef .tc main_arg5) = x5) :
    after ops_2 V (Proc.devRef .tc main_v33) = Read.val_main_v33 (F := F) x0 x2 x3 x4 x5 := by
  subst ha4 ha5
  after_results_simp
  rw [hv9]
  rfl

end Cert.ReferenceIdeal.HandRun

end
-- ==== Proof.RefRunHandS03.lean ====
/-
  Stage 3 of the reference's run: what the stage's operations leave in the buffers, read as the reference's named values.
-/
import proofs.«427821_j19241453486367_3_alg».proof.Proof.RefRunHandOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Every operation of the list touches device buffers only. -/
theorem ops_3_sub : (ops_3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., binary_bufs_sub .., unary_bufs_sub .., unary_bufs_sub .., binary_bufs_sub ..⟩

/-- Every operation of the list determines its results. -/
theorem ops_3_fresh : ∀ op ∈ (ops_3 : List (HloOp τ sig (Elt F))), op.fresh = ∅ := by intro _ h; (repeat (cases h with | head => rfl | tail _ h => ?_)); exact nomatch h

/-- The stage writes none of these buffers: the argument arrays and the earlier values that later stages still read. -/
theorem keep_3 (V : Valuation τ sig (Elt F)) {r : Ref sig .tc} (hr : r ∈ argRefs ++ [main_v0, main_v2]) :
    after ops_3 V (Proc.devRef .tc r) = V (Proc.devRef .tc r) := by
  simp only [argRefs, List.mem_append, List.mem_cons, List.not_mem_nil, or_false] at hr
  rcases hr with (rfl | rfl | rfl | rfl | rfl | rfl | rfl | rfl | rfl | rfl | rfl | rfl | rfl | rfl | rfl | rfl | rfl | rfl) | rfl | rfl <;>
    after_results_simp

/-- After the stage, from any contents that hold the stage's inputs, the buffer of %42 holds the reference's value of that name. -/
theorem stage3_v42 (V : Valuation τ sig (Elt F)) (x0 : (⟨S4096x323, .f32⟩ : BufTy).Contents (Elt F)) (x2 : (⟨S256x8, .f32⟩ : BufTy).Contents (Elt F)) (x3 : (⟨S256, .f32⟩ : BufTy).Contents (Elt F)) (x4 : (⟨S256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F))
    (hv33 : V (Proc.devRef .tc main_v33) = Read.val_main_v33 (F := F) x0 x2 x3 x4 x5)
    (ha6 : V (Proc.devRef .tc main_arg6) = x6)
    (ha7 : V (Proc.devRef .tc main_arg7) = x7) :
    after ops_3 V (Proc.devRef .tc main_v42) = Read.val_main_v42 (F := F) x0 x2 x3 x4 x5 x6 x7 := by
  after_results_simp
  rw [hv33, ha6, ha7]
  rfl

end Cert.ReferenceIdeal.HandRun

end
-- ==== Proof.RefRunHandS04.lean ====
/-
  Stage 4 of the reference's run: what the stage's operations leave in the buffers, read as the reference's named values.
-/
import proofs.«427821_j19241453486367_3_alg».proof.Proof.RefRunHandOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Every operation of the list touches device buffers only. -/
theorem ops_4a_sub : (ops_4a : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub ..⟩

/-- Every operation of the list determines its results. -/
theorem ops_4a_fresh : ∀ op ∈ (ops_4a : List (HloOp τ sig (Elt F))), op.fresh = ∅ := by intro _ h; (repeat (cases h with | head => rfl | tail _ h => ?_)); exact nomatch h

/-- Every operation of the list touches device buffers only. -/
theorem ops_4b_sub : (ops_4b : List (HloOp τ sig (Elt F))).Forall fun op => op.bufs ⊆ tcRefs τ sig :=
  ⟨binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- Every operation of the list determines its results. -/
theorem ops_4b_fresh : ∀ op ∈ (ops_4b : List (HloOp τ sig (Elt F))), op.fresh = ∅ := by intro _ h; (repeat (cases h with | head => rfl | tail _ h => ?_)); exact nomatch h

set_option maxHeartbeats 2000000 in
/-- The stage writes none of these buffers: the argument arrays and the earlier values that later stages still read. -/
theorem keep_4 (V : Valuation τ sig (Elt F)) {r : Ref sig .tc} (hr : r ∈ argRefs ++ [main_v0, main_v2]) :
    after ops_4b (after ops_4a V) (Proc.devRef .tc r) = V (Proc.devRef .tc r) := by
  simp only [argRefs, List.mem_append, List.mem_cons, List.not_mem_nil, or_false, or_assoc] at hr
  rcases hr with rfl | rfl | rfl | rfl | rfl | rfl | rfl | rfl | rfl | rfl | rfl | rfl | rfl | rfl | rfl | rfl | rfl | rfl | rfl | rfl <;> after_results_simp

/-- After the stage, from any contents that hold the stage's inputs, the buffer of %66 holds the reference's value of that name. -/
theorem stage4_v66 (V : Valuation τ sig (Elt F)) (x0 : (⟨S4096x323, .f32⟩ : BufTy).Contents (Elt F)) (x2 : (⟨S256x8, .f32⟩ : BufTy).Contents (Elt F)) (x3 : (⟨S256, .f32⟩ : BufTy).Contents (Elt F)) (x4 : (⟨S256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256, .f32⟩ : BufTy).Contents (Elt F)) (x9 : (⟨S256, .f32⟩ : BufTy).Contents (Elt F))
    (hv42 : V (Proc.devRef .tc main_v42) = Read.val_main_v42 (F := F) x0 x2 x3 x4 x5 x6 x7)
    (ha8 : V (Proc.devRef .tc main_arg8) = x8)
    (ha9 : V (Proc.devRef .tc main_arg9) = x9) :
    after ops_4b (after ops_4a V) (Proc.devRef .tc main_v66) = Read.val_main_v66 (F := F) x0 x2 x3 x4 x5 x6 x7 x8 x9 := by
  after_results_simp
  rw [hv42, ha8, ha9]
  rfl

end Cert.ReferenceIdeal.HandRun

end
-- ==== Proof.RefRunHandS05.lean ====
/-
  Stage 5 of the reference's run: what the stage's operations leave in the buffers, read as the reference's named values.
-/
import proofs.«427821_j19241453486367_3_alg».proof.Proof.RefRunHandOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Every operation of the list touches device buffers only. -/
theorem ops_5_sub : (ops_5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., binary_bufs_sub .., unary_bufs_sub .., unary_bufs_sub .., binary_bufs_sub ..⟩

/-- Every operation of the list determines its results. -/
theorem ops_5_fresh : ∀ op ∈ (ops_5 : List (HloOp τ sig (Elt F))), op.fresh = ∅ := by intro _ h; (repeat (cases h with | head => rfl | tail _ h => ?_)); exact nomatch h

/-- The stage writes none of these buffers: the argument arrays and the earlier values that later stages still read. -/
theorem keep_5 (V : Valuation τ sig (Elt F)) {r : Ref sig .tc} (hr : r ∈ argRefs ++ [main_v0, main_v2]) :
    after ops_5 V (Proc.devRef .tc r) = V (Proc.devRef .tc r) := by
  simp only [argRefs, List.mem_append, List.mem_cons, List.not_mem_nil, or_false] at hr
  rcases hr with (rfl | rfl | rfl | rfl | rfl | rfl | rfl | rfl | rfl | rfl | rfl | rfl | rfl | rfl | rfl | rfl | rfl | rfl) | rfl | rfl <;> after_results_simp

/-- After the stage, from any contents that hold the stage's inputs, the buffer of %75 holds the reference's value of that name. -/
theorem stage5_v75 (V : Valuation τ sig (Elt F)) (x0 : (⟨S4096x323, .f32⟩ : BufTy).Contents (Elt F)) (x2 : (⟨S256x8, .f32⟩ : BufTy).Contents (Elt F)) (x3 : (⟨S256, .f32⟩ : BufTy).Contents (Elt F)) (x4 : (⟨S256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256, .f32⟩ : BufTy).Contents (Elt F)) (x9 : (⟨S256, .f32⟩ : BufTy).Contents (Elt F)) (x10 : (⟨S128x256, .f32⟩ : BufTy).Contents (Elt F)) (x11 : (⟨S128, .f32⟩ : BufTy).Contents (Elt F))
    (hv66 : V (Proc.devRef .tc main_v66) = Read.val_main_v66 (F := F) x0 x2 x3 x4 x5 x6 x7 x8 x9)
    (ha10 : V (Proc.devRef .tc main_arg10) = x10)
    (ha11 : V (Proc.devRef .tc main_arg11) = x11) :
    after ops_5 V (Proc.devRef .tc main_v75) = Read.val_main_v75 (F := F) x0 x2 x3 x4 x5 x6 x7 x8 x9 x10 x11 := by
  after_results_simp
  rw [hv66, ha10, ha11]
  rfl

end Cert.ReferenceIdeal.HandRun

end
-- ==== Proof.RefRunHandS06.lean ====
/-
  Stage 6 of the reference's run: what the stage's operations leave in the buffers, read as the reference's named values.
-/
import proofs.«427821_j19241453486367_3_alg».proof.Proof.RefRunHandOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Every operation of the list touches device buffers only. -/
theorem ops_6_sub : (ops_6 : List (HloOp τ sig (Elt F))).Forall fun op => op.bufs ⊆ tcRefs τ sig :=
  ⟨nullary_bufs_sub .., unary_bufs_sub .., binary_bufs_sub .., nullary_bufs_sub .., binary_bufs_sub .., unary_bufs_sub .., unary_bufs_sub .., unary_bufs_sub .., binary_bufs_sub .., unary_bufs_sub .., nullary_bufs_sub .., binary_bufs_sub .., unary_bufs_sub .., unary_bufs_sub .., nullary_bufs_sub .., binary_bufs_sub .., nullary_bufs_sub .., unary_bufs_sub .., unary_bufs_sub .., binary_bufs_sub .., unary_bufs_sub .., binary_bufs_sub ..⟩

/-- Every operation of the list determines its results. -/
theorem ops_6_fresh : ∀ op ∈ (ops_6 : List (HloOp τ sig (Elt F))), op.fresh = ∅ := by intro _ h; (repeat (cases h with | head => rfl | tail _ h => ?_)); exact nomatch h

set_option maxHeartbeats 2000000 in
/-- The stage writes none of these buffers: the argument arrays and the earlier values that later stages still read. -/
theorem keep_6 (V : Valuation τ sig (Elt F)) {r : Ref sig .tc} (hr : r ∈ argRefs ++ [main_v0, main_v2, main_v75]) :
    after ops_6 V (Proc.devRef .tc r) = V (Proc.devRef .tc r) := by
  simp only [argRefs, List.mem_append, List.mem_cons, List.not_mem_nil, or_false] at hr
  rcases hr with (rfl | rfl | rfl | rfl | rfl | rfl | rfl | rfl | rfl | rfl | rfl | rfl | rfl | rfl | rfl | rfl | rfl | rfl) | (rfl | rfl | rfl) <;>
    after_results_simp

/-- After the stage, from any contents that hold the stage's inputs, the buffer of %90 holds the reference's value of that name. -/
theorem stage6_v90 (V : Valuation τ sig (Elt F)) (x0 : (⟨S4096x323, .f32⟩ : BufTy).Contents (Elt F)) (x2 : (⟨S256x8, .f32⟩ : BufTy).Contents (Elt F)) (x3 : (⟨S256, .f32⟩ : BufTy).Contents (Elt F)) (x4 : (⟨S256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256, .f32⟩ : BufTy).Contents (Elt F)) (x9 : (⟨S256, .f32⟩ : BufTy).Contents (Elt F)) (x10 : (⟨S128x256, .f32⟩ : BufTy).Contents (Elt F)) (x11 : (⟨S128, .f32⟩ : BufTy).Contents (Elt F))
    (hv2 : V (Proc.devRef .tc main_v2) = Read.val_main_v2 (F := F) x0)
    (hv75 : V (Proc.devRef .tc main_v75) = Read.val_main_v75 (F := F) x0 x2 x3 x4 x5 x6 x7 x8 x9 x10 x11) :
    after ops_6 V (Proc.devRef .tc main_v90) = Read.val_main_v90 (F := F) x0 x2 x3 x4 x5 x6 x7 x8 x9 x10 x11 := by
  after_results_simp
  rw [hv2, hv75]
  simp only [TRef.ofBuf, TRef.toBuf, cast_eq]
  rfl

end Cert.ReferenceIdeal.HandRun

end
-- ==== Proof.RefRunHandS07.lean ====
/-
  Stage 7 of the reference's run: what the stage's operations leave in the buffers, read as the reference's named values.
-/
import proofs.«427821_j19241453486367_3_alg».proof.Proof.RefRunHandOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Every operation of the list touches device buffers only. -/
theorem ops_7_sub : (ops_7 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub ..⟩

/-- Every operation of the list determines its results. -/
theorem ops_7_fresh : ∀ op ∈ (ops_7 : List (HloOp τ sig (Elt F))), op.fresh = ∅ := by intro _ h; (repeat (cases h with | head => rfl | tail _ h => ?_)); exact nomatch h

/-- The stage writes none of these buffers: the argument arrays and the earlier values that later stages still read. -/
theorem keep_7 (V : Valuation τ sig (Elt F)) {r : Ref sig .tc} (hr : r ∈ argRefs ++ [main_v0, main_v2, main_v90]) :
    after ops_7 V (Proc.devRef .tc r) = V (Proc.devRef .tc r) := by
  simp only [argRefs, List.mem_append, List.mem_cons, List.not_mem_nil, or_false] at hr
  rcases hr with (rfl | rfl | rfl | rfl | rfl | rfl | rfl | rfl | rfl | rfl | rfl | rfl | rfl | rfl | rfl | rfl | rfl | rfl) | rfl | rfl | rfl <;>
    after_results_simp

/-- After the stage, from any contents that hold the stage's inputs, the buffer of %91 holds the reference's value of that name. -/
theorem stage7_v91 (V : Valuation τ sig (Elt F)) (x0 : (⟨S4096x323, .f32⟩ : BufTy).Contents (Elt F)) (x1 : (⟨S4096, .i32⟩ : BufTy).Contents (Elt F)) (x2 : (⟨S256x8, .f32⟩ : BufTy).Contents (Elt F)) (x3 : (⟨S256, .f32⟩ : BufTy).Contents (Elt F)) (x4 : (⟨S256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256, .f32⟩ : BufTy).Contents (Elt F)) (x9 : (⟨S256, .f32⟩ : BufTy).Contents (Elt F)) (x10 : (⟨S128x256, .f32⟩ : BufTy).Contents (Elt F)) (x11 : (⟨S128, .f32⟩ : BufTy).Contents (Elt F))
    (hv75 : V (Proc.devRef .tc main_v75) = Read.val_main_v75 (F := F) x0 x2 x3 x4 x5 x6 x7 x8 x9 x10 x11)
    (ha1 : V (Proc.devRef .tc main_arg1) = x1) :
    after ops_7 V (Proc.devRef .tc main_v91) = Read.val_main_v91 (F := F) x1 := by
  after_results_simp
  rw [ha1]
  rfl

/-- After the stage, from any contents that hold the stage's inputs, the buffer of %94 holds the reference's value of that name. -/
theorem stage7_v94 (V : Valuation τ sig (Elt F)) (x0 : (⟨S4096x323, .f32⟩ : BufTy).Contents (Elt F)) (x1 : (⟨S4096, .i32⟩ : BufTy).Contents (Elt F)) (x2 : (⟨S256x8, .f32⟩ : BufTy).Contents (Elt F)) (x3 : (⟨S256, .f32⟩ : BufTy).Contents (Elt F)) (x4 : (⟨S256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256, .f32⟩ : BufTy).Contents (Elt F)) (x9 : (⟨S256, .f32⟩ : BufTy).Contents (Elt F)) (x10 : (⟨S128x256, .f32⟩ : BufTy).Contents (Elt F)) (x11 : (⟨S128, .f32⟩ : BufTy).Contents (Elt F))
    (hv75 : V (Proc.devRef .tc main_v75) = Read.val_main_v75 (F := F) x0 x2 x3 x4 x5 x6 x7 x8 x9 x10 x11)
    (ha1 : V (Proc.devRef .tc main_arg1) = x1) :
    after ops_7 V (Proc.devRef .tc main_v94) = Read.val_main_v94 (F := F) x0 x1 x2 x3 x4 x5 x6 x7 x8 x9 x10 x11 := by
  after_results_simp
  rw [hv75, ha1]
  simp only [TRef.ofBuf, TRef.toBuf, cast_eq]
  rfl

end Cert.ReferenceIdeal.HandRun

end
-- ==== Proof.RefRunHandS08.lean ====
/-
  Stage 8 of the reference's run: what the stage's operations leave in the buffers, read as the reference's named values.
-/
import proofs.«427821_j19241453486367_3_alg».proof.Proof.RefRunHandOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Every operation of the list touches device buffers only. -/
theorem ops_8_sub : (ops_8 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub ..⟩

/-- Every operation of the list determines its results. -/
theorem ops_8_fresh : ∀ op ∈ (ops_8 : List (HloOp τ sig (Elt F))), op.fresh = ∅ := by intro _ h; (repeat (cases h with | head => rfl | tail _ h => ?_)); exact nomatch h

/-- The stage writes none of these buffers: the argument arrays and the earlier values that later stages still read. -/
theorem keep_8 (V : Valuation τ sig (Elt F)) {r : Ref sig .tc} (hr : r ∈ argRefs ++ [main_v0, main_v90, main_v94]) :
    after ops_8 V (Proc.devRef .tc r) = V (Proc.devRef .tc r) := by
  simp only [argRefs, List.mem_append, List.mem_cons, List.not_mem_nil, or_false] at hr
  rcases hr with (rfl | rfl | rfl | rfl | rfl | rfl | rfl | rfl | rfl | rfl | rfl | rfl | rfl | rfl | rfl | rfl | rfl | rfl) | rfl | rfl | rfl <;>
    after_results_simp

/-- After the stage, from any contents that hold the stage's inputs, the buffer of %97 holds the reference's value of that name. -/
theorem stage8_v97 (V : Valuation τ sig (Elt F)) (x0 : (⟨S4096x323, .f32⟩ : BufTy).Contents (Elt F)) (x1 : (⟨S4096, .i32⟩ : BufTy).Contents (Elt F))
    (hv91 : V (Proc.devRef .tc main_v91) = Read.val_main_v91 (F := F) x1)
    (hv2 : V (Proc.devRef .tc main_v2) = Read.val_main_v2 (F := F) x0) :
    after ops_8 V (Proc.devRef .tc main_v97) = Read.val_main_v97 (F := F) x0 x1 := by
  after_results_simp
  rw [hv91, hv2]
  simp only [TRef.ofBuf, TRef.toBuf, cast_eq]
  rfl

end Cert.ReferenceIdeal.HandRun

end
-- ==== Proof.RefRunHandS09.lean ====
/-
  Stage 9 of the reference's run: what the stage's operations leave in the buffers, read as the reference's named values.
-/
import proofs.«427821_j19241453486367_3_alg».proof.Proof.RefRunHandOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Every operation of the list touches device buffers only. -/
theorem ops_9_sub : (ops_9 : List (HloOp τ sig (Elt F))).Forall fun op => op.bufs ⊆ tcRefs τ sig :=
  ⟨nary_bufs_sub .., unary_bufs_sub .., binary_bufs_sub ..⟩

/-- Every operation of the list determines its results. -/
theorem ops_9_fresh : ∀ op ∈ (ops_9 : List (HloOp τ sig (Elt F))), op.fresh = ∅ := by intro _ h; (repeat (cases h with | head => rfl | tail _ h => ?_)); exact nomatch h

/-- The stage writes none of these buffers: the argument arrays. -/
theorem keep_9 (V : Valuation τ sig (Elt F)) {r : Ref sig .tc} (hr : r ∈ argRefs) :
    after ops_9 V (Proc.devRef .tc r) = V (Proc.devRef .tc r) := by
  simp only [argRefs, List.mem_cons, List.not_mem_nil, or_false] at hr
  rcases hr with rfl | rfl | rfl | rfl | rfl | rfl | rfl | rfl | rfl | rfl | rfl | rfl | rfl | rfl | rfl | rfl | rfl | rfl <;> after_results_simp

/-- After the stage, from any contents that hold the stage's inputs, the buffer of %100 holds the reference's value of that name. -/
theorem stage9_v100 (V : Valuation τ sig (Elt F)) (x0 : (⟨S4096x323, .f32⟩ : BufTy).Contents (Elt F)) (x1 : (⟨S4096, .i32⟩ : BufTy).Contents (Elt F)) (x2 : (⟨S256x8, .f32⟩ : BufTy).Contents (Elt F)) (x3 : (⟨S256, .f32⟩ : BufTy).Contents (Elt F)) (x4 : (⟨S256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256, .f32⟩ : BufTy).Contents (Elt F)) (x9 : (⟨S256, .f32⟩ : BufTy).Contents (Elt F)) (x10 : (⟨S128x256, .f32⟩ : BufTy).Contents (Elt F)) (x11 : (⟨S128, .f32⟩ : BufTy).Contents (Elt F)) (x12 : (⟨S512x264, .f32⟩ : BufTy).Contents (Elt F))
    (hv0 : V (Proc.devRef .tc main_v0) = Read.val_main_v0 (F := F) x0)
    (hv94 : V (Proc.devRef .tc main_v94) = Read.val_main_v94 (F := F) x0 x1 x2 x3 x4 x5 x6 x7 x8 x9 x10 x11)
    (hv90 : V (Proc.devRef .tc main_v90) = Read.val_main_v90 (F := F) x0 x2 x3 x4 x5 x6 x7 x8 x9 x10 x11)
    (hv97 : V (Proc.devRef .tc main_v97) = Read.val_main_v97 (F := F) x0 x1)
    (ha12 : V (Proc.devRef .tc main_arg12) = x12) :
    after ops_9 V (Proc.devRef .tc main_v100) = Read.val_main_v100 (F := F) x0 x1 x2 x3 x4 x5 x6 x7 x8 x9 x10 x11 x12 := by
  after_results_simp
  show Host.dotGeneral (F := F) dot_S4096x264_S264x512_S4096x512_1_0_0_1_n_n none
      (concatenate S4096x264 1 [⟨S4096x3, V (Proc.devRef .tc main_v0)⟩, ⟨S4096x128, V (Proc.devRef .tc main_v94)⟩, ⟨S4096x128, V (Proc.devRef .tc main_v90)⟩, ⟨S4096x5, V (Proc.devRef .tc main_v97)⟩]
        concatenates_S4096x3_S4096x128_S4096x128_S4096x5_S4096x264_d1)
      (transpose S264x512 [1, 0] (V (Proc.devRef .tc main_arg12)) transposes_S512x264_S264x512_1_0) = _
  rw [hv0, hv94, hv90, hv97, ha12]
  rfl

end Cert.ReferenceIdeal.HandRun

end
-- ==== Proof.RefRunHandS10.lean ====
/-
  Stage 10 of the reference's run: what the stage's operations leave in the buffers, read as the reference's named values.
-/
import proofs.«427821_j19241453486367_3_alg».proof.Proof.RefRunHandOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Every operation of the list touches device buffers only. -/
theorem ops_10_sub : (ops_10 : List (HloOp τ sig (Elt F))).Forall fun op => op.bufs ⊆ tcRefs τ sig :=
  ⟨unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- Every operation of the list determines its results. -/
theorem ops_10_fresh : ∀ op ∈ (ops_10 : List (HloOp τ sig (Elt F))), op.fresh = ∅ := by intro _ h; (repeat (cases h with | head => rfl | tail _ h => ?_)); exact nomatch h

set_option maxHeartbeats 8000000 in
/-- The stage writes none of these buffers: the argument arrays. -/
theorem keep_10 (V : Valuation τ sig (Elt F)) {r : Ref sig .tc} (hr : r ∈ argRefs) :
    after ops_10 V (Proc.devRef .tc r) = V (Proc.devRef .tc r) := by
  simp only [argRefs, List.mem_append, List.mem_cons, List.not_mem_nil, or_false] at hr
  rcases hr with rfl | rfl | rfl | rfl | rfl | rfl | rfl | rfl | rfl | rfl | rfl | rfl | rfl | rfl | rfl | rfl | rfl | rfl <;>
    after_results_simp

/-- After the stage, from any contents that hold the stage's inputs, the buffer of %127 holds the reference's value of that name. -/
theorem stage10_v127 (V : Valuation τ sig (Elt F)) (x0 : (⟨S4096x323, .f32⟩ : BufTy).Contents (Elt F)) (x1 : (⟨S4096, .i32⟩ : BufTy).Contents (Elt F)) (x2 : (⟨S256x8, .f32⟩ : BufTy).Contents (Elt F)) (x3 : (⟨S256, .f32⟩ : BufTy).Contents (Elt F)) (x4 : (⟨S256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256, .f32⟩ : BufTy).Contents (Elt F)) (x9 : (⟨S256, .f32⟩ : BufTy).Contents (Elt F)) (x10 : (⟨S128x256, .f32⟩ : BufTy).Contents (Elt F)) (x11 : (⟨S128, .f32⟩ : BufTy).Contents (Elt F)) (x12 : (⟨S512x264, .f32⟩ : BufTy).Contents (Elt F)) (x13 : (⟨S512, .f32⟩ : BufTy).Contents (Elt F)) (x14 : (⟨S512, .f32⟩ : BufTy).Contents (Elt F)) (x15 : (⟨S512, .f32⟩ : BufTy).Contents (Elt F))
    (hv100 : V (Proc.devRef .tc main_v100) = Read.val_main_v100 (F := F) x0 x1 x2 x3 x4 x5 x6 x7 x8 x9 x10 x11 x12)
    (ha13 : V (Proc.devRef .tc main_arg13) = x13)
    (ha14 : V (Proc.devRef .tc main_arg14) = x14)
    (ha15 : V (Proc.devRef .tc main_arg15) = x15) :
    after ops_10 V (Proc.devRef .tc main_v127) = Read.val_main_v127 (F := F) x0 x1 x2 x3 x4 x5 x6 x7 x8 x9 x10 x11 x12 x13 x14 x15 := by
  after_results_simp
  rw [hv100, ha13, ha14, ha15]
  rfl

end Cert.ReferenceIdeal.HandRun

end
-- ==== Proof.RefRunHandS11.lean ====
/-
  Stage 11 of the reference's run: what the stage's operations leave in the buffers, read as the reference's named values.
-/
import proofs.«427821_j19241453486367_3_alg».proof.Proof.RefRunHandOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Every operation of the list touches device buffers only. -/
theorem ops_11_sub : (ops_11 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub ..⟩

/-- Every operation of the list determines its results. -/
theorem ops_11_fresh : ∀ op ∈ (ops_11 : List (HloOp τ sig (Elt F))), op.fresh = ∅ := by intro _ h; (repeat (cases h with | head => rfl | tail _ h => ?_)); exact nomatch h

/-- The stage writes none of these buffers: the argument arrays. -/
theorem keep_11 (V : Valuation τ sig (Elt F)) {r : Ref sig .tc} (hr : r ∈ argRefs) :
    after ops_11 V (Proc.devRef .tc r) = V (Proc.devRef .tc r) := by
  simp only [argRefs, List.mem_cons, List.not_mem_nil, or_false] at hr
  rcases hr with rfl | rfl | rfl | rfl | rfl | rfl | rfl | rfl | rfl | rfl | rfl | rfl | rfl | rfl | rfl | rfl | rfl | rfl <;> after_results_simp

/-- After the stage, from any contents that hold the stage's inputs, the buffer of %137 holds the reference's value of that name. -/
theorem stage11_v137 (V : Valuation τ sig (Elt F)) (x0 : (⟨S4096x323, .f32⟩ : BufTy).Contents (Elt F)) (x1 : (⟨S4096, .i32⟩ : BufTy).Contents (Elt F)) (x2 : (⟨S256x8, .f32⟩ : BufTy).Contents (Elt F)) (x3 : (⟨S256, .f32⟩ : BufTy).Contents (Elt F)) (x4 : (⟨S256, .f32⟩ : BufTy).Contents (Elt F)) (x5 : (⟨S256, .f32⟩ : BufTy).Contents (Elt F)) (x6 : (⟨S256x256, .f32⟩ : BufTy).Contents (Elt F)) (x7 : (⟨S256, .f32⟩ : BufTy).Contents (Elt F)) (x8 : (⟨S256, .f32⟩ : BufTy).Contents (Elt F)) (x9 : (⟨S256, .f32⟩ : BufTy).Contents (Elt F)) (x10 : (⟨S128x256, .f32⟩ : BufTy).Contents (Elt F)) (x11 : (⟨S128, .f32⟩ : BufTy).Contents (Elt F)) (x12 : (⟨S512x264, .f32⟩ : BufTy).Contents (Elt F)) (x13 : (⟨S512, .f32⟩ : BufTy).Contents (Elt F)) (x14 : (⟨S512, .f32⟩ : BufTy).Contents (Elt F)) (x15 : (⟨S512, .f32⟩ : BufTy).Contents (Elt F)) (x16 : (⟨S1x512, .f32⟩ : BufTy).Contents (Elt F)) (x17 : (⟨S1, .f32⟩ : BufTy).Contents (Elt F))
    (hv127 : V (Proc.devRef .tc main_v127) = Read.val_main_v127 (F := F) x0 x1 x2 x3 x4 x5 x6 x7 x8 x9 x10 x11 x12 x13 x14 x15)
    (ha16 : V (Proc.devRef .tc main_arg16) = x16)
    (ha17 : V (Proc.devRef .tc main_arg17) = x17) :
    after ops_11 V (Proc.devRef .tc main_v137) = Read.val_main_v137 (F := F) x0 x1 x2 x3 x4 x5 x6 x7 x8 x9 x10 x11 x12 x13 x14 x15 x16 x17 := by
  after_results_simp
  rw [hv127, ha16, ha17]
  rfl

end Cert.ReferenceIdeal.HandRun

end
-- ==== Proof.RefRunHandM0.lean ====
/-
  Window 1 of the reference's entry function as a line of operations.
-/
import proofs.«427821_j19241453486367_3_alg».proof.Proof.RefRunHandOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window 1 of the entry function is the line of its operations. -/
theorem main_part0_eq (c : Dev nD) : main_part0 (F := F) c = seq (ops_1 ++ (ops_2 ++ (ops_3 ++ (ops_4a)))) := rfl

end Cert.ReferenceIdeal.HandRun

end
-- ==== Proof.RefRunHandM1.lean ====
/-
  Window 2 of the reference's entry function as a line of operations.
-/
import proofs.«427821_j19241453486367_3_alg».proof.Proof.RefRunHandOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window 2 of the entry function is the line of its operations. -/
theorem main_part1_eq (c : Dev nD) : main_part1 (F := F) c = seq (ops_4b ++ (ops_5 ++ (ops_6 ++ (ops_7 ++ (ops_8 ++ (ops_9)))))) := rfl

end Cert.ReferenceIdeal.HandRun

end
-- ==== Proof.RefRunHandM2.lean ====
/-
  Window 3 of the reference's entry function as a line of operations.
-/
import proofs.«427821_j19241453486367_3_alg».proof.Proof.RefRunHandOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window 3 of the entry function is the line of its operations. -/
theorem main_part2_eq (c : Dev nD) : main_part2 (F := F) c = seq (ops_10 ++ (ops_11)) := rfl

end Cert.ReferenceIdeal.HandRun

end
-- ==== Proof.RefRunHand.lean ====
/-
  The reference's run: the entry function is the line of its 208 operations; run from the launch's buffers it leaves
  the result buffer at the reference's value `val_main_v137` of the argument arrays (read stage by stage, each stage
  from the named values the stages before it left) and the argument arrays as they were.
-/
import proofs.«427821_j19241453486367_3_alg».proof.Proof.RefRunHandS01
import proofs.«427821_j19241453486367_3_alg».proof.Proof.RefRunHandS02
import proofs.«427821_j19241453486367_3_alg».proof.Proof.RefRunHandS03
import proofs.«427821_j19241453486367_3_alg».proof.Proof.RefRunHandS04
import proofs.«427821_j19241453486367_3_alg».proof.Proof.RefRunHandS05
import proofs.«427821_j19241453486367_3_alg».proof.Proof.RefRunHandS06
import proofs.«427821_j19241453486367_3_alg».proof.Proof.RefRunHandS07
import proofs.«427821_j19241453486367_3_alg».proof.Proof.RefRunHandS08
import proofs.«427821_j19241453486367_3_alg».proof.Proof.RefRunHandS09
import proofs.«427821_j19241453486367_3_alg».proof.Proof.RefRunHandS10
import proofs.«427821_j19241453486367_3_alg».proof.Proof.RefRunHandS11
import proofs.«427821_j19241453486367_3_alg».proof.Proof.RefRunHandM0
import proofs.«427821_j19241453486367_3_alg».proof.Proof.RefRunHandM1
import proofs.«427821_j19241453486367_3_alg».proof.Proof.RefRunHandM2
import Mathlib.Data.List.Basic

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The entry function's 208 operations, in order. -/
abbrev ops : List (HloOp τ sig (Elt F)) :=
  ops_1 ++ (ops_2 ++ (ops_3 ++ (ops_4a ++ (ops_4b ++ (ops_5 ++ (ops_6 ++ (ops_7 ++ (ops_8 ++ (ops_9 ++ (ops_10 ++ (ops_11)))))))))))

theorem main_eq (c : Dev nD) : main (F := F) c = seq ops := by
  unfold main
  rw [main_part0_eq, main_part1_eq, main_part2_eq]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨ops_1_sub, List.forall_append.mpr ⟨ops_2_sub, List.forall_append.mpr ⟨ops_3_sub, List.forall_append.mpr ⟨ops_4a_sub, List.forall_append.mpr ⟨ops_4b_sub, List.forall_append.mpr ⟨ops_5_sub, List.forall_append.mpr ⟨ops_6_sub, List.forall_append.mpr ⟨ops_7_sub, List.forall_append.mpr ⟨ops_8_sub, List.forall_append.mpr ⟨ops_9_sub, List.forall_append.mpr ⟨ops_10_sub, ops_11_sub⟩⟩⟩⟩⟩⟩⟩⟩⟩⟩⟩

theorem ops_fresh : ∀ op ∈ (ops : List (HloOp τ sig (Elt F))), op.fresh = ∅ := by
  intro op h
  simp only [ops, List.mem_append] at h
  rcases h with h | h | h | h | h | h | h | h | h | h | h | h
  exacts [ops_1_fresh op h, ops_2_fresh op h, ops_3_fresh op h, ops_4a_fresh op h, ops_4b_fresh op h, ops_5_fresh op h, ops_6_fresh op h, ops_7_fresh op h, ops_8_fresh op h, ops_9_fresh op h, ops_10_fresh op h, ops_11_fresh op h]

/-! ## The buffers after each stage -/

section Chain

variable (V0 : Valuation τ sig (Elt F))

/-- The buffers after stage 1. -/
def W1 : Valuation τ sig (Elt F) := after ops_1 V0
/-- The buffers after stage 2. -/
def W2 : Valuation τ sig (Elt F) := after ops_2 (W1 V0)
/-- The buffers after stage 3. -/
def W3 : Valuation τ sig (Elt F) := after ops_3 (W2 V0)
/-- The buffers after stage 4. -/
def W4 : Valuation τ sig (Elt F) := after ops_4b (after ops_4a (W3 V0))
/-- The buffers after stage 5. -/
def W5 : Valuation τ sig (Elt F) := after ops_5 (W4 V0)
/-- The buffers after stage 6. -/
def W6 : Valuation τ sig (Elt F) := after ops_6 (W5 V0)
/-- The buffers after stage 7. -/
def W7 : Valuation τ sig (Elt F) := after ops_7 (W6 V0)
/-- The buffers after stage 8. -/
def W8 : Valuation τ sig (Elt F) := after ops_8 (W7 V0)
/-- The buffers after stage 9. -/
def W9 : Valuation τ sig (Elt F) := after ops_9 (W8 V0)
/-- The buffers after stage 10. -/
def W10 : Valuation τ sig (Elt F) := after ops_10 (W9 V0)
/-- The buffers after stage 11. -/
def W11 : Valuation τ sig (Elt F) := after ops_11 (W10 V0)

/-- The whole line run from `V0` leaves the buffers of the last stage. -/
theorem after_ops : after (ops (F := F)) V0 = W11 V0 := by
  simp only [ops, StableHlo.after_append]
  rfl

/-! ### The argument arrays stay -/

theorem W1_arg {r : Ref sig .tc} (hr : r ∈ argRefs) : W1 V0 (Proc.devRef .tc r) = V0 (Proc.devRef .tc r) := keep_1 V0 hr
theorem W2_arg {r : Ref sig .tc} (hr : r ∈ argRefs) : W2 V0 (Proc.devRef .tc r) = V0 (Proc.devRef .tc r) :=
  (keep_2 (W1 V0) (List.mem_append_left _ hr)).trans (W1_arg V0 hr)
theorem W3_arg {r : Ref sig .tc} (hr : r ∈ argRefs) : W3 V0 (Proc.devRef .tc r) = V0 (Proc.devRef .tc r) :=
  (keep_3 (W2 V0) (List.mem_append_left _ hr)).trans (W2_arg V0 hr)
theorem W4_arg {r : Ref sig .tc} (hr : r ∈ argRefs) : W4 V0 (Proc.devRef .tc r) = V0 (Proc.devRef .tc r) :=
  (keep_4 (W3 V0) (List.mem_append_left _ hr)).trans (W3_arg V0 hr)
theorem W5_arg {r : Ref sig .tc} (hr : r ∈ argRefs) : W5 V0 (Proc.devRef .tc r) = V0 (Proc.devRef .tc r) :=
  (keep_5 (W4 V0) (List.mem_append_left _ hr)).trans (W4_arg V0 hr)
theorem W6_arg {r : Ref sig .tc} (hr : r ∈ argRefs) : W6 V0 (Proc.devRef .tc r) = V0 (Proc.devRef .tc r) :=
  (keep_6 (W5 V0) (List.mem_append_left _ hr)).trans (W5_arg V0 hr)
theorem W7_arg {r : Ref sig .tc} (hr : r ∈ argRefs) : W7 V0 (Proc.devRef .tc r) = V0 (Proc.devRef .tc r) :=
  (keep_7 (W6 V0) (List.mem_append_left _ hr)).trans (W6_arg V0 hr)
theorem W8_arg {r : Ref sig .tc} (hr : r ∈ argRefs) : W8 V0 (Proc.devRef .tc r) = V0 (Proc.devRef .tc r) :=
  (keep_8 (W7 V0) (List.mem_append_left _ hr)).trans (W7_arg V0 hr)
theorem W9_arg {r : Ref sig .tc} (hr : r ∈ argRefs) : W9 V0 (Proc.devRef .tc r) = V0 (Proc.devRef .tc r) :=
  (keep_9 (W8 V0) hr).trans (W8_arg V0 hr)
theorem W10_arg {r : Ref sig .tc} (hr : r ∈ argRefs) : W10 V0 (Proc.devRef .tc r) = V0 (Proc.devRef .tc r) :=
  (keep_10 (W9 V0) hr).trans (W9_arg V0 hr)
theorem W11_arg {r : Ref sig .tc} (hr : r ∈ argRefs) : W11 V0 (Proc.devRef .tc r) = V0 (Proc.devRef .tc r) :=
  (keep_11 (W10 V0) hr).trans (W10_arg V0 hr)

/-! ### The values, stage by stage -/

theorem W1_v0 : W1 V0 (Proc.devRef .tc main_v0) = Read.val_main_v0 (F := F) (a0 V0) :=
  stage1_v0 V0 (a0 V0) (a2 V0) (a3 V0) rfl rfl rfl
theorem W1_v2 : W1 V0 (Proc.devRef .tc main_v2) = Read.val_main_v2 (F := F) (a0 V0) :=
  stage1_v2 V0 (a0 V0) (a2 V0) (a3 V0) rfl rfl rfl
theorem W1_v9 : W1 V0 (Proc.devRef .tc main_v9) = Read.val_main_v9 (F := F) (a0 V0) (a2 V0) (a3 V0) :=
  stage1_v9 V0 (a0 V0) (a2 V0) (a3 V0) rfl rfl rfl
theorem W2_v33 : W2 V0 (Proc.devRef .tc main_v33) = Read.val_main_v33 (F := F) (a0 V0) (a2 V0) (a3 V0) (a4 V0) (a5 V0) :=
  stage2_v33 (W1 V0) (a0 V0) (a2 V0) (a3 V0) (a4 V0) (a5 V0) (W1_v9 V0) (W1_arg V0 (r := main_arg4) (by decide)) (W1_arg V0 (r := main_arg5) (by decide))
theorem W2_v0 : W2 V0 (Proc.devRef .tc main_v0) = Read.val_main_v0 (F := F) (a0 V0) :=
  (keep_2 (W1 V0) (r := main_v0) (by decide)).trans (W1_v0 V0)
theorem W2_v2 : W2 V0 (Proc.devRef .tc main_v2) = Read.val_main_v2 (F := F) (a0 V0) :=
  (keep_2 (W1 V0) (r := main_v2) (by decide)).trans (W1_v2 V0)
theorem W3_v42 : W3 V0 (Proc.devRef .tc main_v42) = Read.val_main_v42 (F := F) (a0 V0) (a2 V0) (a3 V0) (a4 V0) (a5 V0) (a6 V0) (a7 V0) :=
  stage3_v42 (W2 V0) (a0 V0) (a2 V0) (a3 V0) (a4 V0) (a5 V0) (a6 V0) (a7 V0) (W2_v33 V0) (W2_arg V0 (r := main_arg6) (by decide)) (W2_arg V0 (r := main_arg7) (by decide))
theorem W3_v0 : W3 V0 (Proc.devRef .tc main_v0) = Read.val_main_v0 (F := F) (a0 V0) :=
  (keep_3 (W2 V0) (r := main_v0) (by decide)).trans (W2_v0 V0)
theorem W3_v2 : W3 V0 (Proc.devRef .tc main_v2) = Read.val_main_v2 (F := F) (a0 V0) :=
  (keep_3 (W2 V0) (r := main_v2) (by decide)).trans (W2_v2 V0)
theorem W4_v66 : W4 V0 (Proc.devRef .tc main_v66) = Read.val_main_v66 (F := F) (a0 V0) (a2 V0) (a3 V0) (a4 V0) (a5 V0) (a6 V0) (a7 V0) (a8 V0) (a9 V0) :=
  stage4_v66 (W3 V0) (a0 V0) (a2 V0) (a3 V0) (a4 V0) (a5 V0) (a6 V0) (a7 V0) (a8 V0) (a9 V0) (W3_v42 V0) (W3_arg V0 (r := main_arg8) (by decide)) (W3_arg V0 (r := main_arg9) (by decide))
theorem W4_v0 : W4 V0 (Proc.devRef .tc main_v0) = Read.val_main_v0 (F := F) (a0 V0) :=
  (keep_4 (W3 V0) (r := main_v0) (by decide)).trans (W3_v0 V0)
theorem W4_v2 : W4 V0 (Proc.devRef .tc main_v2) = Read.val_main_v2 (F := F) (a0 V0) :=
  (keep_4 (W3 V0) (r := main_v2) (by decide)).trans (W3_v2 V0)
theorem W5_v75 : W5 V0 (Proc.devRef .tc main_v75) = Read.val_main_v75 (F := F) (a0 V0) (a2 V0) (a3 V0) (a4 V0) (a5 V0) (a6 V0) (a7 V0) (a8 V0) (a9 V0) (a10 V0) (a11 V0) :=
  stage5_v75 (W4 V0) (a0 V0) (a2 V0) (a3 V0) (a4 V0) (a5 V0) (a6 V0) (a7 V0) (a8 V0) (a9 V0) (a10 V0) (a11 V0) (W4_v66 V0) (W4_arg V0 (r := main_arg10) (by decide)) (W4_arg V0 (r := main_arg11) (by decide))
theorem W5_v0 : W5 V0 (Proc.devRef .tc main_v0) = Read.val_main_v0 (F := F) (a0 V0) :=
  (keep_5 (W4 V0) (r := main_v0) (by decide)).trans (W4_v0 V0)
theorem W5_v2 : W5 V0 (Proc.devRef .tc main_v2) = Read.val_main_v2 (F := F) (a0 V0) :=
  (keep_5 (W4 V0) (r := main_v2) (by decide)).trans (W4_v2 V0)
theorem W6_v90 : W6 V0 (Proc.devRef .tc main_v90) = Read.val_main_v90 (F := F) (a0 V0) (a2 V0) (a3 V0) (a4 V0) (a5 V0) (a6 V0) (a7 V0) (a8 V0) (a9 V0) (a10 V0) (a11 V0) :=
  stage6_v90 (W5 V0) (a0 V0) (a2 V0) (a3 V0) (a4 V0) (a5 V0) (a6 V0) (a7 V0) (a8 V0) (a9 V0) (a10 V0) (a11 V0) (W5_v2 V0) (W5_v75 V0)
theorem W6_v0 : W6 V0 (Proc.devRef .tc main_v0) = Read.val_main_v0 (F := F) (a0 V0) :=
  (keep_6 (W5 V0) (r := main_v0) (by decide)).trans (W5_v0 V0)
theorem W6_v2 : W6 V0 (Proc.devRef .tc main_v2) = Read.val_main_v2 (F := F) (a0 V0) :=
  (keep_6 (W5 V0) (r := main_v2) (by decide)).trans (W5_v2 V0)
theorem W6_v75 : W6 V0 (Proc.devRef .tc main_v75) = Read.val_main_v75 (F := F) (a0 V0) (a2 V0) (a3 V0) (a4 V0) (a5 V0) (a6 V0) (a7 V0) (a8 V0) (a9 V0) (a10 V0) (a11 V0) :=
  (keep_6 (W5 V0) (r := main_v75) (by decide)).trans (W5_v75 V0)
theorem W7_v91 : W7 V0 (Proc.devRef .tc main_v91) = Read.val_main_v91 (F := F) (a1 V0) :=
  stage7_v91 (W6 V0) (a0 V0) (a1 V0) (a2 V0) (a3 V0) (a4 V0) (a5 V0) (a6 V0) (a7 V0) (a8 V0) (a9 V0) (a10 V0) (a11 V0) (W6_v75 V0) (W6_arg V0 (r := main_arg1) (by decide))
theorem W7_v94 : W7 V0 (Proc.devRef .tc main_v94) = Read.val_main_v94 (F := F) (a0 V0) (a1 V0) (a2 V0) (a3 V0) (a4 V0) (a5 V0) (a6 V0) (a7 V0) (a8 V0) (a9 V0) (a10 V0) (a11 V0) :=
  stage7_v94 (W6 V0) (a0 V0) (a1 V0) (a2 V0) (a3 V0) (a4 V0) (a5 V0) (a6 V0) (a7 V0) (a8 V0) (a9 V0) (a10 V0) (a11 V0) (W6_v75 V0) (W6_arg V0 (r := main_arg1) (by decide))
theorem W7_v0 : W7 V0 (Proc.devRef .tc main_v0) = Read.val_main_v0 (F := F) (a0 V0) :=
  (keep_7 (W6 V0) (r := main_v0) (by decide)).trans (W6_v0 V0)
theorem W7_v2 : W7 V0 (Proc.devRef .tc main_v2) = Read.val_main_v2 (F := F) (a0 V0) :=
  (keep_7 (W6 V0) (r := main_v2) (by decide)).trans (W6_v2 V0)
theorem W7_v90 : W7 V0 (Proc.devRef .tc main_v90) = Read.val_main_v90 (F := F) (a0 V0) (a2 V0) (a3 V0) (a4 V0) (a5 V0) (a6 V0) (a7 V0) (a8 V0) (a9 V0) (a10 V0) (a11 V0) :=
  (keep_7 (W6 V0) (r := main_v90) (by decide)).trans (W6_v90 V0)
theorem W8_v97 : W8 V0 (Proc.devRef .tc main_v97) = Read.val_main_v97 (F := F) (a0 V0) (a1 V0) :=
  stage8_v97 (W7 V0) (a0 V0) (a1 V0) (W7_v91 V0) (W7_v2 V0)
theorem W8_v0 : W8 V0 (Proc.devRef .tc main_v0) = Read.val_main_v0 (F := F) (a0 V0) :=
  (keep_8 (W7 V0) (r := main_v0) (by decide)).trans (W7_v0 V0)
theorem W8_v90 : W8 V0 (Proc.devRef .tc main_v90) = Read.val_main_v90 (F := F) (a0 V0) (a2 V0) (a3 V0) (a4 V0) (a5 V0) (a6 V0) (a7 V0) (a8 V0) (a9 V0) (a10 V0) (a11 V0) :=
  (keep_8 (W7 V0) (r := main_v90) (by decide)).trans (W7_v90 V0)
theorem W8_v94 : W8 V0 (Proc.devRef .tc main_v94) = Read.val_main_v94 (F := F) (a0 V0) (a1 V0) (a2 V0) (a3 V0) (a4 V0) (a5 V0) (a6 V0) (a7 V0) (a8 V0) (a9 V0) (a10 V0) (a11 V0) :=
  (keep_8 (W7 V0) (r := main_v94) (by decide)).trans (W7_v94 V0)
theorem W9_v100 : W9 V0 (Proc.devRef .tc main_v100) = Read.val_main_v100 (F := F) (a0 V0) (a1 V0) (a2 V0) (a3 V0) (a4 V0) (a5 V0) (a6 V0) (a7 V0) (a8 V0) (a9 V0) (a10 V0) (a11 V0) (a12 V0) :=
  stage9_v100 (W8 V0) (a0 V0) (a1 V0) (a2 V0) (a3 V0) (a4 V0) (a5 V0) (a6 V0) (a7 V0) (a8 V0) (a9 V0) (a10 V0) (a11 V0) (a12 V0) (W8_v0 V0) (W8_v94 V0) (W8_v90 V0) (W8_v97 V0) (W8_arg V0 (r := main_arg12) (by decide))
theorem W10_v127 : W10 V0 (Proc.devRef .tc main_v127) = Read.val_main_v127 (F := F) (a0 V0) (a1 V0) (a2 V0) (a3 V0) (a4 V0) (a5 V0) (a6 V0) (a7 V0) (a8 V0) (a9 V0) (a10 V0) (a11 V0) (a12 V0) (a13 V0) (a14 V0) (a15 V0) :=
  stage10_v127 (W9 V0) (a0 V0) (a1 V0) (a2 V0) (a3 V0) (a4 V0) (a5 V0) (a6 V0) (a7 V0) (a8 V0) (a9 V0) (a10 V0) (a11 V0) (a12 V0) (a13 V0) (a14 V0) (a15 V0) (W9_v100 V0) (W9_arg V0 (r := main_arg13) (by decide)) (W9_arg V0 (r := main_arg14) (by decide)) (W9_arg V0 (r := main_arg15) (by decide))
theorem W11_v137 : W11 V0 (Proc.devRef .tc main_v137) = Read.val_main_v137 (F := F) (a0 V0) (a1 V0) (a2 V0) (a3 V0) (a4 V0) (a5 V0) (a6 V0) (a7 V0) (a8 V0) (a9 V0) (a10 V0) (a11 V0) (a12 V0) (a13 V0) (a14 V0) (a15 V0) (a16 V0) (a17 V0) :=
  stage11_v137 (W10 V0) (a0 V0) (a1 V0) (a2 V0) (a3 V0) (a4 V0) (a5 V0) (a6 V0) (a7 V0) (a8 V0) (a9 V0) (a10 V0) (a11 V0) (a12 V0) (a13 V0) (a14 V0) (a15 V0) (a16 V0) (a17 V0) (W10_v127 V0) (W10_arg V0 (r := main_arg16) (by decide)) (W10_arg V0 (r := main_arg17) (by decide))

end Chain

/-- The whole line run from `V0` leaves the reference's result in the result buffer. -/
theorem result (V0 : Valuation τ sig (Elt F)) :
    after (ops (F := F)) V0 (Proc.devRef .tc main_v137) = Read.val_main_v137 (F := F) (a0 V0) (a1 V0) (a2 V0) (a3 V0) (a4 V0) (a5 V0) (a6 V0) (a7 V0) (a8 V0) (a9 V0) (a10 V0) (a11 V0) (a12 V0) (a13 V0) (a14 V0) (a15 V0) (a16 V0) (a17 V0) := by
  rw [after_ops]; exact W11_v137 V0

/-- … and the argument arrays as they were. -/
theorem args_stay (V0 : Valuation τ sig (Elt F)) {r : Ref sig .tc} (hr : r ∈ argRefs) :
    after (ops (F := F)) V0 (Proc.devRef .tc r) = V0 (Proc.devRef .tc r) := by
  rw [after_ops]; exact W11_arg V0 hr

/-- On every device, for any float values, from any memory with zero counters: every weakly fair execution of the
    entry function terminates with the result buffer at the reference's value of the argument arrays, and the
    argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v137) = Read.val_main_v137 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v137).trans (result (launchContents m c)),
      (h c main_arg0).trans (args_stay (launchContents m c) (r := main_arg0) (by decide)),
      (h c main_arg1).trans (args_stay (launchContents m c) (r := main_arg1) (by decide)),
      (h c main_arg2).trans (args_stay (launchContents m c) (r := main_arg2) (by decide)),
      (h c main_arg3).trans (args_stay (launchContents m c) (r := main_arg3) (by decide)),
      (h c main_arg4).trans (args_stay (launchContents m c) (r := main_arg4) (by decide)),
      (h c main_arg5).trans (args_stay (launchContents m c) (r := main_arg5) (by decide)),
      (h c main_arg6).trans (args_stay (launchContents m c) (r := main_arg6) (by decide)),
      (h c main_arg7).trans (args_stay (launchContents m c) (r := main_arg7) (by decide)),
      (h c main_arg8).trans (args_stay (launchContents m c) (r := main_arg8) (by decide)),
      (h c main_arg9).trans (args_stay (launchContents m c) (r := main_arg9) (by decide)),
      (h c main_arg10).trans (args_stay (launchContents m c) (r := main_arg10) (by decide)),
      (h c main_arg11).trans (args_stay (launchContents m c) (r := main_arg11) (by decide)),
      (h c main_arg12).trans (args_stay (launchContents m c) (r := main_arg12) (by decide)),
      (h c main_arg13).trans (args_stay (launchContents m c) (r := main_arg13) (by decide)),
      (h c main_arg14).trans (args_stay (launchContents m c) (r := main_arg14) (by decide)),
      (h c main_arg15).trans (args_stay (launchContents m c) (r := main_arg15) (by decide)),
      (h c main_arg16).trans (args_stay (launchContents m c) (r := main_arg16) (by decide)),
      (h c main_arg17).trans (args_stay (launchContents m c) (r := main_arg17) (by decide))⟩)
    (run_seq scopedRefs_eq scopedSems_eq defs main (fun _ => ops) main_eq (fun _ => ops_sub) m ρ (fun _ => ops_fresh))

end Cert.ReferenceIdeal.HandRun

end
-- ==== Proof.MathLN.lean ====
/-
  The two normalisations agree, and with them the two embeddings.

  The mean is the same number in both forms (the reference starts its sum at the pattern of zero, which denotes 0).
  The variance is a quotient of a finite sum of squares by a positive real, hence never negative (a square of an
  extended real is never negative, the infinite ones included); with the positive real `eps` added it is positive,
  possibly infinite. On such an `s` the product with the reciprocal root and the quotient by the root are the same
  extended real: for a positive real `s` the root is a nonzero real whose inverse is the reciprocal root, and at
  `s = ⊤` both sides are `x · 0`.
-/
import proofs.«427821_j19241453486367_3_alg».proof.Proof.Spec

noncomputable section

namespace Cert.QSpec

open Idealize.ShloMosaic

/-! ## The constants -/

theorem zero_eq : zero = 0 := Ideal.ofBits_zero_f32

theorem eps_eq : eps = (((10995116 : ℝ) * 2 ^ (-40 : ℤ) : ℝ) : EReal) := by
  simp [Ideal.ofBits, Ideal.ieee, -EReal.coe_mul]

theorem c256_eq : c256 = ((256 : ℝ) : EReal) := by
  simp [Ideal.ofBits, Ideal.ieee, -EReal.coe_mul]; norm_num

theorem c512_eq : c512 = ((512 : ℝ) : EReal) := by
  simp [Ideal.ofBits, Ideal.ieee, -EReal.coe_mul]; norm_num

theorem eps_pos : 0 < eps := by
  rw [eps_eq]; exact_mod_cast (by positivity : (0:ℝ) < (10995116 : ℝ) * 2 ^ (-40 : ℤ))

/-- A square is never negative on the extended reals. -/
theorem ereal_mul_self_nonneg (x : EReal) : 0 ≤ x * x := by
  induction x using EReal.rec with
  | bot => simp [EReal.bot_mul_bot]
  | coe r => rw [← EReal.coe_mul]; exact_mod_cast mul_self_nonneg r
  | top => simp [EReal.top_mul_top]

/-- Dividing a nonnegative number by a positive one leaves it nonnegative. -/
theorem ideal_div_nonneg {x c : EReal} (hx : 0 ≤ x) (hc : 0 < c) : 0 ≤ Ideal.div x c := by
  rw [Ideal.div, if_neg hc.ne']
  exact mul_nonneg hx (EReal.inv_nonneg_of_nonneg hc.le)

/-- Where `0 < s`, multiplying by the reciprocal root is dividing by the root. -/
theorem mul_rsqrt_eq_div_sqrt (x : EReal) {s : EReal} (hs : 0 < s) : x * Ideal.rsqrt s = Ideal.div x (Ideal.sqrt s) := by
  induction s using EReal.rec with
  | bot => exact absurd hs (by simp)
  | coe r =>
    have hr : 0 < r := by exact_mod_cast hs
    have hsq : Real.sqrt r ≠ 0 := (Real.sqrt_pos.2 hr).ne'
    rw [Ideal.rsqrt_coe, Ideal.sqrt_coe, if_neg (not_lt.2 hr.le), if_neg hr.ne', if_neg (not_lt.2 hr.le),
      Ideal.div, if_neg (by exact_mod_cast hsq), EReal.coe_inv]
  | top => rw [Ideal.rsqrt_top, Ideal.sqrt_top, Ideal.div, if_neg (by simp), EReal.inv_top]

theorem meanK_eq_meanR {D : ℕ} (c : EReal) (h : Fin D → EReal) : meanK c h = meanR c h := by
  rw [meanK, meanR, zero_eq, zero_add]

/-- A layer normalisation by a reciprocal square root is the one by a quotient, over any positive finite width
    constant `c`: the variance plus `eps` is positive, and there `x · rsqrt s = x / sqrt s` on the extended reals. -/
theorem lnK_eq_lnR {D : ℕ} (c : EReal) (hc : 0 < c) (hc' : c ≠ ⊤) (g b h : Fin D → EReal) (d : Fin D) :
    lnK c g b h d = lnR c g b h d := by
  have hv : 0 ≤ meanR c (fun k => (h k - meanR c h) * (h k - meanR c h)) := by
    rw [meanR, zero_eq, zero_add]
    exact ideal_div_nonneg (Finset.sum_nonneg fun k _ => ereal_mul_self_nonneg _) hc
  have hs : 0 < meanR c (fun k => (h k - meanR c h) * (h k - meanR c h)) + eps :=
    lt_of_lt_of_le eps_pos (le_add_of_nonneg_left hv)
  unfold lnK lnR
  simp only [meanK_eq_meanR]
  rw [mul_rsqrt_eq_div_sqrt _ hs]

theorem c256_pos : 0 < c256 ∧ c256 ≠ ⊤ := by
  rw [c256_eq]; exact ⟨by exact_mod_cast (by norm_num : (0:ℝ) < 256), EReal.coe_ne_top _⟩
theorem c512_pos : 0 < c512 ∧ c512 ≠ ⊤ := by
  rw [c512_eq]; exact ⟨by exact_mod_cast (by norm_num : (0:ℝ) < 512), EReal.coe_ne_top _⟩

/-- The first layer on the eight inputs is the position part plus the neighbour part. -/
theorem first_layer_split (P : RowP) (xr : ℕ → EReal) (n : ℕ) (d : Fin 256) :
    baseK P xr d + ∑ j : Fin 5, nbr xr n j * P.W1 d ⟨3 + j.val, by omega⟩ = (∑ f : Fin 8, dsR xr n f * P.W1 d f) + P.c1 d := by
  simp only [baseK, nbr, dsR, Fin.sum_univ_three, Fin.sum_univ_five, Fin.sum_univ_eight]
  simp
  abel

theorem h1K_eq_h1R (P : RowP) (xr : ℕ → EReal) (n : ℕ) (d : Fin 256) : h1K P xr n d = h1R P xr n d := by
  have hf : (fun d' => baseK P xr d' + ∑ j : Fin 5, nbr xr n j * P.W1 d' ⟨3 + j.val, by omega⟩)
      = (fun d' => (∑ f : Fin 8, dsR xr n f * P.W1 d' f) + P.c1 d') := funext fun d' => first_layer_split P xr n d'
  rw [h1K, h1R, hf, lnK_eq_lnR _ c256_pos.1 c256_pos.2]

theorem h2K_eq_h2R (P : RowP) (xr : ℕ → EReal) (n : ℕ) (d : Fin 256) : h2K P xr n d = h2R P xr n d := by
  have hf : (fun d' => (∑ k : Fin 256, h1K P xr n k * P.W2 d' k) + P.c2 d')
      = (fun d' => (∑ k : Fin 256, h1R P xr n k * P.W2 d' k) + P.c2 d') := by
    funext d'; simp only [h1K_eq_h1R]
  rw [h2K, h2R, hf, lnK_eq_lnR _ c256_pos.1 c256_pos.2]

theorem embK_eq_embR (P : RowP) (xr : ℕ → EReal) (n : ℕ) (e : Fin 128) : embK P xr n e = embR P xr n e := by
  simp only [embK, embR, h2K_eq_h2R]

end Cert.QSpec

end
-- ==== Proof.MathSel.lean ====
/-
  The pooled mean, the count and the chosen neighbour agree, and with them the two row functions.
-/
import proofs.«427821_j19241453486367_3_alg».proof.Proof.MathLN
import Idealize.ShloMosaic.Lib.StableHlo.Predicate

noncomputable section

namespace Cert.QSpec

open Idealize.ShloMosaic

/-! ## Small facts about truth bits, their folds and their sums -/

/-- A truth bit read either way is the number 1 when set and 0 when not. -/
private theorem bitS_eq (b : BitVec 1) : bitS b = if b = 1#1 then 1 else 0 := by
  rcases BitVec.eq_zero_or_eq_one b with rfl | rfl
  · have : ((0#1 : BitVec 1).setWidth 32).toInt = 0 := by decide
    simp [bitS, this]
  · have : ((1#1 : BitVec 1).setWidth 32).toInt = 1 := by decide
    simp [bitS, this]

private theorem bitU_eq (b : BitVec 1) : bitU b = if b = 1#1 then 1 else 0 := by
  rcases BitVec.eq_zero_or_eq_one b with rfl | rfl <;> simp [bitU]

private theorem bit_ne_one {b : BitVec 1} (h : b ≠ 1#1) : b = 0#1 := by
  rcases BitVec.eq_zero_or_eq_one b with rfl | rfl
  · rfl
  · exact absurd rfl h

/-- A fold of the bitwise "or" from the clear bit is set exactly when some folded bit is. -/
private theorem fold_ori_eq_one {ι : Type} (S : Finset ι) (f : ι → BitVec 1) :
    S.fold IntOp.ori 0#1 f = 1#1 ↔ ∃ j ∈ S, f j = 1#1 := by
  induction S using Finset.cons_induction with
  | empty => simp
  | cons a S ha ih =>
    rw [Finset.fold_cons]
    have key : ∀ x y : BitVec 1, IntOp.ori x y = 1#1 ↔ (x = 1#1 ∨ y = 1#1) := by decide
    rw [key, ih]
    simp [Finset.mem_cons]

/-- The inclusion of the reals in the extended reals goes through finite sums. -/
private theorem coe_finset_sum {ι : Type} (S : Finset ι) (f : ι → ℝ) :
    ((∑ i ∈ S, f i : ℝ) : EReal) = ∑ i ∈ S, (f i : EReal) := by
  induction S using Finset.cons_induction with
  | empty => simp
  | cons a S ha ih => rw [Finset.sum_cons, Finset.sum_cons, EReal.coe_add, ih]

private theorem cmp_one_zero (x : EReal) : Ideal.cmp .one x zero = 1#1 ↔ x ≠ 0 := by
  rw [zero_eq]; simp [Ideal.cmp, StableHlo.Predicate.ofBool_eq_one_iff]

private theorem cmp_une_zero (x : EReal) : Ideal.cmp .une x zero = 1#1 ↔ x ≠ 0 := by
  rw [zero_eq]; simp [Ideal.cmp, StableHlo.Predicate.ofBool_eq_one_iff]

private theorem cmp_ogt_zero (x : EReal) : Ideal.cmp .ogt x zero = 1#1 ↔ 0 < x := by
  rw [zero_eq]; simp [Ideal.cmp, StableHlo.Predicate.ofBool_eq_one_iff]

/-- The kernel's float mask of a neighbour is the reference's truth bit read as a number. -/
theorem maskK_eq (xr : ℕ → EReal) (n : ℕ) : maskK xr n = bitU (anyR xr n) := by
  unfold maskK anyR
  have hterm : ∀ j : Fin 5, bitS (Ideal.cmp .one (nbr xr n j) zero) = if nbr xr n j ≠ 0 then 1 else 0 := by
    intro j
    rw [bitS_eq]
    by_cases h : nbr xr n j ≠ 0
    · rw [if_pos ((cmp_one_zero _).mpr h), if_pos h]
    · rw [if_neg (fun hc => h ((cmp_one_zero _).mp hc)), if_neg h]
  have hnonneg : ∀ j ∈ (Finset.univ : Finset (Fin 5)), (0 : EReal) ≤ bitS (Ideal.cmp .one (nbr xr n j) zero) := by
    intro j _
    rw [hterm]; split <;> simp
  rw [bitS_eq, bitU_eq]
  by_cases h : ∃ j : Fin 5, nbr xr n j ≠ 0
  · obtain ⟨j, hj⟩ := h
    have hpos : 0 < ∑ j : Fin 5, bitS (Ideal.cmp .one (nbr xr n j) zero) := by
      have h1 : bitS (Ideal.cmp .one (nbr xr n j) zero) = 1 := by rw [hterm, if_pos hj]
      calc (0 : EReal) < 1 := by norm_num
        _ = bitS (Ideal.cmp .one (nbr xr n j) zero) := h1.symm
        _ ≤ _ := Finset.single_le_sum hnonneg (Finset.mem_univ j)
    rw [if_pos ((cmp_ogt_zero _).mpr hpos),
      if_pos ((fold_ori_eq_one _ _).mpr ⟨j, Finset.mem_univ j, (cmp_une_zero _).mpr hj⟩)]
  · have hall : ∀ j : Fin 5, nbr xr n j = 0 := fun j => by
      by_contra hc; exact h ⟨j, hc⟩
    have hsum : ∑ j : Fin 5, bitS (Ideal.cmp .one (nbr xr n j) zero) = 0 :=
      Finset.sum_eq_zero fun j _ => by rw [hterm, if_neg (not_not.mpr (hall j))]
    rw [if_neg (fun hc => by rw [cmp_ogt_zero, hsum] at hc; exact lt_irrefl _ hc),
      if_neg (fun hc => by
        obtain ⟨j, _, hj⟩ := (fold_ori_eq_one _ _).mp hc
        exact (cmp_une_zero _).mp hj (hall j))]

/-! ## The running sums are finite sums -/

private theorem cntK_sum (xr : ℕ → EReal) (k : ℕ) : cntK xr k = ∑ n ∈ Finset.range k, maskK xr n := by
  induction k with
  | zero => simp [cntK, zero_eq]
  | succ k ih => rw [cntK, ih, Finset.sum_range_succ]

private theorem poolK_sum (P : RowP) (xr : ℕ → EReal) (e : Fin 128) (k : ℕ) :
    poolK P xr e k = zero + ∑ n ∈ Finset.range k, embK P xr n e * maskK xr n := by
  induction k with
  | zero => simp [poolK]
  | succ k ih => rw [poolK, ih, Finset.sum_range_succ, add_assoc]

private theorem cembK_sum (P : RowP) (xr : ℕ → EReal) (a : BitVec 32) (e : Fin 128) (k : ℕ) :
    cembK P xr a e k = ∑ n ∈ Finset.range k, embK P xr n e * pickK a n := by
  induction k with
  | zero => simp [cembK, zero_eq]
  | succ k ih => rw [cembK, ih, Finset.sum_range_succ]

private theorem cstateK_sum (xr : ℕ → EReal) (a : BitVec 32) (j : Fin 5) (k : ℕ) :
    cstateK xr a j k = ∑ n ∈ Finset.range k, nbr xr n j * pickK a n := by
  induction k with
  | zero => simp [cstateK, zero_eq]
  | succ k ih => rw [cstateK, ih, Finset.sum_range_succ]

/-- The float count is the integer count. -/
theorem cntK_eq (xr : ℕ → EReal) : cntK xr 64 = ((countR xr : ℝ) : EReal) := by
  rw [cntK_sum, Finset.sum_range (fun n => maskK xr n), countR, Nat.cast_sum, coe_finset_sum]
  refine Finset.sum_congr rfl fun n _ => ?_
  rw [maskK_eq, bitU_eq]
  split <;> simp

theorem poolK_eq (P : RowP) (xr : ℕ → EReal) (e : Fin 128) :
    poolK P xr e 64 = zero + ∑ n : Fin 64, embR P xr n.val e * bitU (anyR xr n.val) := by
  rw [poolK_sum, Finset.sum_range (fun n => embK P xr n e * maskK xr n)]
  congr 1
  refine Finset.sum_congr rfl fun n _ => ?_
  rw [embK_eq_embR, maskK_eq]

/-! ## The indicator of the action -/

private theorem toNat_of_toInt {a : BitVec 32} (h0 : 0 ≤ a.toInt) (h1 : a.toInt < 64) : a.toNat < 64 := by
  rw [BitVec.toInt_eq_toNat_cond] at h0 h1
  have := a.isLt
  split at h0 <;> omega

/-- For a neighbour index below 2³², the indicator of the action word is 1 at the action and 0 elsewhere. -/
private theorem pickK_eq (a : BitVec 32) (n : ℕ) (hn : n < 2 ^ 32) : pickK a n = if n = a.toNat then 1 else 0 := by
  unfold pickK
  rw [bitS_eq]
  have : IntOp.cmpi .eq a (BitVec.ofNat 32 n) = 1#1 ↔ n = a.toNat := by
    rw [StableHlo.Predicate.cmpi_eq_iff]
    constructor
    · intro h; rw [h, BitVec.toNat_ofNat]; exact (Nat.mod_eq_of_lt hn).symm
    · intro h; apply BitVec.eq_of_toNat_eq; rw [BitVec.toNat_ofNat, Nat.mod_eq_of_lt hn]; exact h.symm
  by_cases h : n = a.toNat
  · rw [if_pos (this.mpr h), if_pos h]
  · rw [if_neg (fun hc => h (this.mp hc)), if_neg h]

/-- Summing against the indicator of an action below 64 picks the action's term. -/
private theorem sum_pick (f : ℕ → EReal) (a : BitVec 32) (ha : a.toNat < 64) :
    ∑ n ∈ Finset.range 64, f n * pickK a n = f a.toNat := by
  rw [Finset.sum_eq_single a.toNat]
  · rw [pickK_eq a _ (by omega), if_pos rfl, mul_one]
  · intro n hn hne
    rw [pickK_eq a n (by have := Finset.mem_range.mp hn; omega), if_neg hne, mul_zero]
  · intro h; exact absurd (Finset.mem_range.mpr ha) h

/-- Summing against the indicator of the action picks the action's neighbour. -/
theorem cembK_eq (P : RowP) (xr : ℕ → EReal) (a : BitVec 32) (h0 : 0 ≤ a.toInt) (h1 : a.toInt < 64) (e : Fin 128) :
    cembK P xr a e 64 = embR P xr a.toNat e := by
  rw [cembK_sum, sum_pick (fun n => embK P xr n e) a (toNat_of_toInt h0 h1), embK_eq_embR]

theorem cstateK_eq (xr : ℕ → EReal) (a : BitVec 32) (h0 : 0 ≤ a.toInt) (h1 : a.toInt < 64) (j : Fin 5) :
    cstateK xr a j 64 = nbr xr a.toNat j := by
  rw [cstateK_sum, sum_pick (fun n => nbr xr n j) a (toNat_of_toInt h0 h1)]

theorem catK_eq_catR (P : RowP) (xr : ℕ → EReal) (a : BitVec 32) (h0 : 0 ≤ a.toInt) (h1 : a.toInt < 64) (k : Fin 264) :
    catK P xr a k = catR P xr a.toNat k := by
  unfold catK catR
  split
  · rfl
  · split
    · exact cembK_eq P xr a h0 h1 _
    · split
      · rw [poolK_eq, cntK_eq]
      · exact cstateK_eq xr a h0 h1 _

/-- For an action in range the kernel's number for a row is the reference's. -/
theorem rowK_eq_rowR (P : RowP) (xr : ℕ → EReal) (a : BitVec 32) (h0 : 0 ≤ a.toInt) (h1 : a.toInt < 64) :
    rowK P xr a = rowR P xr a.toNat := by
  have hcat : catK P xr a = catR P xr a.toNat := funext fun k => catK_eq_catR P xr a h0 h1 k
  unfold rowK rowR
  rw [hcat]
  refine congrArg (· + P.co) (Finset.sum_congr rfl fun k _ => ?_)
  rw [lnK_eq_lnR c512 c512_pos.1 c512_pos.2]

end Cert.QSpec

end
-- ==== Proof.PreDecode.lean ====
/-
  What the precondition says of the actions: every action is a neighbour index, 0 ≤ a < 64 as a signed word.
-/
import proofs.«427821_j19241453486367_3_alg».proof.Proof.Gen.Pre_finite_inputs
import Idealize.ShloMosaic.Lib.ValueIdx
import Idealize.ShloMosaic.Lib.ReduceAll
import Idealize.ShloMosaic.Lib.StableHlo.Predicate

noncomputable section

namespace Cert.Pre_finite_inputs.Decode

open Idealize.ShloMosaic Idealize.ShloMosaic.ValueIdx Cert.Pre_finite_inputs

/-- A one-bit word made from a Boolean is 1 exactly when the Boolean is true. -/
theorem ofBool_eq_one (c : Bool) : BitVec.ofBool c = 1#1 ↔ c = true := by cases c <;> decide

/-- A 32-bit word that compares signed-greater-or-equal to 0 and signed-less than 64 lies in [0, 64) as an integer. -/
theorem word_range (w : BitVec 32) (h0 : IntOp.cmpi .sge w (0#32) = 1#1) (h1 : IntOp.cmpi .slt w (64#32) = 1#1) :
    0 ≤ w.toInt ∧ w.toInt < 64 := by
  have z : (0#32 : BitVec 32).toInt = 0 := by decide
  have s : (64#32 : BitVec 32).toInt = 64 := by decide
  simp only [IntOp.cmpi, ofBool_eq_one, BitVec.sle_iff_toInt_le, BitVec.slt_iff_toInt_lt, z, s] at h0 h1
  exact ⟨h0, h1⟩

/-- The last part of the chain: whatever the conjunction of the float conjuncts is, if the whole is true then the
    all-reduction of (a ≥ lo) ∧ (a < 64) over the 4096 actions is true, so both compares hold at every action;
    with lo the zero vector this is the range. -/
theorem part5_range (a1 : IVec S4096 32) (v83 : IVec S_ 1) (v84 : IVec S4096 32) (hv : ∀ i, v84 i = 0#32)
    (e : fn_part5 (F := Ideal) a1 v83 v84 ix0 = 1#1) (b : Fin 4096) :
    0 ≤ (a1 (ix1 b)).toInt ∧ (a1 (ix1 b)).toInt < 64 := by
  dsimp only [fn_part5] at e
  change IntOp.andi _ _ = 1#1 at e
  have e2 := (IntOp.andi_eq_one.1 e).2
  haveI : Subsingleton S_.Idx := ⟨fun x y => funext fun d => d.elim0⟩
  have e3 := Host.reduce_andi_all _ _ _ _ _ e2 (ix1 b)
  change IntOp.andi _ _ = 1#1 at e3
  obtain ⟨h0, h1⟩ := IntOp.andi_eq_one.1 e3
  have h0' : IntOp.cmpi .sge (a1 (ix1 b)) (0#32) = 1#1 := by rw [← hv (ix1 b)]; exact h0
  have h1' : IntOp.cmpi .slt (a1 (ix1 b)) (64#32) = 1#1 := h1
  exact word_range _ h0' h1'

/-- If the printed precondition evaluates to true on the arguments, every action word is in [0, 64). -/
theorem act_range (a0 : FVec Ideal S4096x323 .f32) (a1 : IVec S4096 32) (a2 : FVec Ideal S256x8 .f32) (a3 a4 a5 : FVec Ideal S256 .f32) (a6 : FVec Ideal S256x256 .f32) (a7 a8 a9 : FVec Ideal S256 .f32) (a10 : FVec Ideal S128x256 .f32) (a11 : FVec Ideal S128 .f32) (a12 : FVec Ideal S512x264 .f32) (a13 a14 a15 : FVec Ideal S512 .f32) (a16 : FVec Ideal S1x512 .f32) (a17 : FVec Ideal S1 .f32)
    (h : Cert.Pre_finite_inputs.fn (F := Ideal) a0 a1 a2 a3 a4 a5 a6 a7 a8 a9 a10 a11 a12 a13 a14 a15 a16 a17 = (fun _ => 1#1))
    (b : Fin 4096) : 0 ≤ (a1 (ix1 b)).toInt ∧ (a1 (ix1 b)).toInt < 64 := by
  -- the chain's value at the one index of the rank-0 shape, the parts opened down to the last
  have e := congrFun h ix0
  dsimp only [fn, fn_part1, fn_part2, fn_part3, fn_part4] at e
  exact part5_range a1 _ _ (fun _ => rfl) e b

end Cert.Pre_finite_inputs.Decode

end
-- ==== Proof.lean ====
/-
  The kernel scores, for each of 4096 rows, one action among 64 neighbours of a position: every neighbour's five
  features go with the position through a three-layer perceptron (linear, layer normalisation, leaky rectifier,
  twice, then linear), the embeddings are mean-pooled over the neighbours that are not all zero, and the position,
  the chosen neighbour's embedding, the pooled embedding and the chosen neighbour's features go through a last
  normalised layer to one number. The kernel and the reference compute that number row by row:
  `Cert.QSpec.rowK` and `Cert.QSpec.rowR` (Proof/Spec.lean) are the two forms, equal for an action in [0, 64)
  (Proof/MathLN.lean, Proof/MathSel.lean: the reciprocal square root against the quotient by the square root where
  the variance plus epsilon is positive; the first layer split into a position part and a neighbour part; a sum
  against the action's indicator against an indexed read; a float count against an integer count). The kernel's
  result array is `rowK` of each row (Proof/Blocks.lean over Proof/KFinish.lean: the 64 unrolled passes as a
  recurrence, Proof/Body.lean), the reference's is `rowR` (Proof/RefOut.lean over the reference's run,
  Proof/RefRunHand.lean), and the precondition puts every action in range (Proof/PreDecode.lean).
-/
import proofs.«427821_j19241453486367_3_alg».proof.Defs
import proofs.«427821_j19241453486367_3_alg».proof.Proof.Gen.Kernel
import proofs.«427821_j19241453486367_3_alg».proof.Proof.Gen.Kernel.Skeleton
import proofs.«427821_j19241453486367_3_alg».proof.Proof.Gen.Kernel.Launch
import proofs.«427821_j19241453486367_3_alg».proof.Proof.Gen.Kernel.Points
import proofs.«427821_j19241453486367_3_alg».proof.Proof.Gen.Kernel.Frame
import proofs.«427821_j19241453486367_3_alg».proof.Proof.Gen.KernelIdeal
import proofs.«427821_j19241453486367_3_alg».proof.Proof.Gen.KernelIdeal.Skeleton
import proofs.«427821_j19241453486367_3_alg».proof.Proof.Gen.KernelIdeal.Launch
import proofs.«427821_j19241453486367_3_alg».proof.Proof.Gen.KernelIdeal.Points
import proofs.«427821_j19241453486367_3_alg».proof.Proof.Gen.KernelIdeal.Frame
import proofs.«427821_j19241453486367_3_alg».proof.Proof.Gen.ReferenceIdeal
import proofs.«427821_j19241453486367_3_alg».proof.Proof.Gen.Pre_finite_inputs
import proofs.«427821_j19241453486367_3_alg».proof.Proof.Gen.KernelIdeal.Value
import proofs.«427821_j19241453486367_3_alg».proof.Proof.Blocks
import proofs.«427821_j19241453486367_3_alg».proof.Proof.RefOut
import proofs.«427821_j19241453486367_3_alg».proof.Proof.RefRunHand
import proofs.«427821_j19241453486367_3_alg».proof.Proof.MathSel
import proofs.«427821_j19241453486367_3_alg».proof.Proof.PreDecode
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.HandRun.run m ρ)

/-- Both result arrays are, row by row, the row function of the row's features, its action and the parameters; under
    the precondition every action is a neighbour index, and there the two row functions agree. -/
theorem algebraic : Cert.algebraic_KernelIdeal_ReferenceIdeal := by
  intro m ρ m' ρ' hpre hagree
  refine ⟨fun c => Cert.KernelIdeal.QNet.GK m c, Cert.KernelIdeal.QNet.kernel_run m ρ, ?_⟩
  refine (θ_run Cert.ReferenceIdeal.defs _ _).mono (fun _ h c => ⟨(h c).1.trans ?_, (h c).2⟩)
    (Cert.ReferenceIdeal.HandRun.run m' ρ')
  obtain ⟨e0, e1, e2, e3, e4, e5, e6, e7, e8, e9, e10, e11, e12, e13, e14, e15, e16, e17⟩ := hagree c
  rw [e0, e1, e2, e3, e4, e5, e6, e7, e8, e9, e10, e11, e12, e13, e14, e15, e16, e17]
  funext i
  obtain ⟨b, rfl⟩ : ∃ b : Fin 4096, i = ix2 b 0 :=
    ⟨i 0, (eq_ix2 i).trans (congrArg (ix2 (i 0)) (Fin.ext (Nat.lt_one_iff.mp (i 1).isLt)))⟩
  have hr := Cert.Pre_finite_inputs.Decode.act_range (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (hpre c) b
  exact (Cert.ReferenceIdeal.RefValue.ref_apply _ _ _ _ _ _ _ _ _ _ _ _ _ _ _ _ _ _ b hr.1 hr.2).trans
    (Cert.QSpec.rowK_eq_rowR _ _ _ hr.1 hr.2).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
